-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v77)) (v1 : (c : Dev Cert.KernelIdeal.nD) → Buf (Elt Ideal) ((c.tc : Thread Cert.KernelIdeal.nD Cert.KernelIdeal.τ).loc Cert.KernelIdeal.main_v94)) (v2 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_v94) = v1 c
          ∧ r.2.mem ((c.tc : Thread Cert.KernelIdeal.nD Cert.KernelIdeal.τ).loc Cert.KernelIdeal.main_v52) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v104) = v1 c
          ∧ r.2.mem ((c.tc : Thread Cert.ReferenceIdeal.nD Cert.ReferenceIdeal.τ).loc Cert.ReferenceIdeal.main_v109) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x4 : Shape := ⟨2, ![4000000, 4]⟩
abbrev S_ : Shape := ⟨0, ![]⟩

class Facts : Prop where
  bcast_S_S4000000x4 : S_.BroadcastsInDim S4000000x4 (![] : Fin 0 → Fin S4000000x4.rank)
  reducesTo_S4000000x4_S_d0_1 : S4000000x4.ReducesTo [0, 1] S_
  h_S_ : 0 < S_.numel

variable [Facts]

def fn {F : FTy → Type} [FloatOps F] (main_arg0 : FVec F S4000000x4 .f32) : IVec S_ 1 :=
  let main_v0 : FVec F S4000000x4 .f32 := Host.absf main_arg0
  let main_cst : FVec F S_ .f32 := constant S_ .f32 0x7F800000#32
  let main_v1 : FVec F S4000000x4 .f32 := broadcastInDim S4000000x4 ![] bcast_S_S4000000x4 main_cst
  let main_v2 : IVec S4000000x4 1 := cmpf .olt main_v0 main_v1
  let main_c : IVec S_ 1 := constantI S_ 1 1#1
  let main_v3 : IVec S_ 1 := (fun x v => Host.reduce IntOp.andi x v reducesTo_S4000000x4_S_d0_1 h_S_) main_v2 main_c
  main_v3
-- ==== Kernel.lean ====
abbrev S4000000x4 : Shape := ⟨2, ![4000000, 4]⟩
abbrev S1 : Shape := ⟨1, ![1]⟩
abbrev S4000000x1 : Shape := ⟨2, ![4000000, 1]⟩
abbrev S4000000 : Shape := ⟨1, ![4000000]⟩
abbrev S10x3125x128 : Shape := ⟨3, ![10, 3125, 128]⟩
abbrev S1x3125x128 : Shape := ⟨3, ![1, 3125, 128]⟩
abbrev S3125x128 : Shape := ⟨2, ![3125, 128]⟩
abbrev S_ : Shape := ⟨0, ![]⟩
abbrev S3999999 : Shape := ⟨1, ![3999999]⟩
abbrev S16001 : Shape := ⟨1, ![16001]⟩
abbrev S16000 : Shape := ⟨1, ![16000]⟩
abbrev S16000x32 : Shape := ⟨2, ![16000, 32]⟩
abbrev S16000x1 : Shape := ⟨2, ![16000, 1]⟩
abbrev S16000x32x1 : Shape := ⟨3, ![16000, 32, 1]⟩
abbrev S16000x32x4 : Shape := ⟨3, ![16000, 32, 4]⟩
abbrev S4000000x3 : Shape := ⟨2, ![4000000, 3]⟩
abbrev S16001x3 : Shape := ⟨2, ![16001, 3]⟩
abbrev S16000x3 : Shape := ⟨2, ![16000, 3]⟩

abbrev nBuf : Space → Nat
  | .hbm => 208
  | .vmem => 8
  | .smem => 0
  | _ => 0

abbrev hbmTy0_0 (i : Nat) : BufTy := match i % 128 with
  | 0 => ⟨S4000000x4, .f32⟩
  | 1 => ⟨S1, .i1⟩
  | 2 => ⟨S4000000x1, .f32⟩
  | 3 => ⟨S4000000, .f32⟩
  | 4 => ⟨S4000000x1, .f32⟩
  | 5 => ⟨S4000000, .f32⟩
  | 6 => ⟨S4000000x1, .f32⟩
  | 7 => ⟨S4000000, .f32⟩
  | 8 => ⟨S10x3125x128, .f32⟩
  | 9 => ⟨S10x3125x128, .f32⟩
  | 10 => ⟨S10x3125x128, .f32⟩
  | 11 => ⟨S10x3125x128, .i32⟩
  | 12 => ⟨S4000000, .i32⟩
  | 13 => ⟨S4000000, .i32⟩
  | 14 => ⟨S4000000, .i32⟩
  | 15 => ⟨S4000000, .i32⟩
  | 16 => ⟨S_, .i32⟩
  | 17 => ⟨S4000000, .i32⟩
  | 18 => ⟨S4000000, .i1⟩
  | 19 => ⟨S3999999, .i32⟩
  | 20 => ⟨S3999999, .i32⟩
  | 21 => ⟨S3999999, .i1⟩
  | 22 => ⟨S4000000, .i1⟩
  | 23 => ⟨S4000000, .i1⟩
  | 24 => ⟨S4000000, .i32⟩
  | 25 => ⟨S_, .i32⟩
  | 26 => ⟨S_, .i32⟩
  | 27 => ⟨S4000000, .i32⟩
  | 28 => ⟨S_, .i32⟩
  | 29 => ⟨S4000000, .i32⟩
  | 30 => ⟨S4000000, .i32⟩
  | 31 => ⟨S4000000, .i32⟩
  | 32 => ⟨S_, .i32⟩
  | 33 => ⟨S_, .i32⟩
  | 34 => ⟨S4000000, .i32⟩
  | 35 => ⟨S4000000, .i32⟩
  | 36 => ⟨S_, .i32⟩
  | 37 => ⟨S_, .i32⟩
  | 38 => ⟨S4000000, .i32⟩
  | 39 => ⟨S4000000, .i32⟩
  | 40 => ⟨S_, .i32⟩
  | 41 => ⟨S4000000, .i32⟩
  | 42 => ⟨S4000000, .i1⟩
  | 43 => ⟨S4000000, .i1⟩
  | 44 => ⟨S_, .i32⟩
  | 45 => ⟨S4000000, .i32⟩
  | 46 => ⟨S4000000, .i1⟩
  | 47 => ⟨S4000000, .i1⟩
  | 48 => ⟨S_, .i32⟩
  | 49 => ⟨S_, .i32⟩
  | 50 => ⟨S4000000, .i32⟩
  | 51 => ⟨S4000000, .i32⟩
  | 52 => ⟨S_, .i32⟩
  | 53 => ⟨S4000000, .i32⟩
  | 54 => ⟨S4000000, .i1⟩
  | 55 => ⟨S4000000, .i1⟩
  | 56 => ⟨S_, .i32⟩
  | 57 => ⟨S_, .i32⟩
  | 58 => ⟨S4000000, .i32⟩
  | 59 => ⟨S4000000, .i32⟩
  | 60 => ⟨S_, .i32⟩
  | 61 => ⟨S16001, .i32⟩
  | 62 => ⟨S_, .i32⟩
  | 63 => ⟨S4000000, .i32⟩
  | 64 => ⟨S4000000, .i1⟩
  | 65 => ⟨S_, .i32⟩
  | 66 => ⟨S4000000, .i32⟩
  | 67 => ⟨S4000000, .i32⟩
  | 68 => ⟨S4000000, .i32⟩
  | 69 => ⟨S4000000x1, .i32⟩
  | 70 => ⟨S16001, .i32⟩
  | 71 => ⟨S16000, .i32⟩
  | 72 => ⟨S4000000, .i32⟩
  | 73 => ⟨S_, .i32⟩
  | 74 => ⟨S16001, .i32⟩
  | 75 => ⟨S4000000x1, .i32⟩
  | 76 => ⟨S16001, .i32⟩
  | 77 => ⟨S16000, .i32⟩
  | 78 => ⟨S16000x32, .i32⟩
  | 79 => ⟨S16000x1, .i32⟩
  | 80 => ⟨S16000x32, .i32⟩
  | 81 => ⟨S16000x32, .i32⟩
  | 82 => ⟨S_, .i32⟩
  | 83 => ⟨S16000x32, .i32⟩
  | 84 => ⟨S16000x32, .i32⟩
  | 85 => ⟨S16000x1, .i32⟩
  | 86 => ⟨S16000x32, .i32⟩
  | 87 => ⟨S16000x32, .i1⟩
  | 88 => ⟨S_, .i32⟩
  | 89 => ⟨S16000x32, .i32⟩
  | 90 => ⟨S16000x32, .i1⟩
  | 91 => ⟨S_, .i32⟩
  | 92 => ⟨S16000x32, .i32⟩
  | 93 => ⟨S16000x32, .i32⟩
  | 94 => ⟨S16000x32, .i32⟩
  | 95 => ⟨S16000x32x1, .i32⟩
  | 96 => ⟨S16000x32, .i32⟩
  | 97 => ⟨S16000x32x1, .i1⟩
  | 98 => ⟨S_, .i32⟩
  | 99 => ⟨S16000x32, .i32⟩
  | 100 => ⟨S16000x32, .i1⟩
  | 101 => ⟨S_, .i32⟩
  | 102 => ⟨S16000x32, .i32⟩
  | 103 => ⟨S16000x32, .i32⟩
  | 104 => ⟨S16000x32, .i32⟩
  | 105 => ⟨S16000x32x1, .i32⟩
  | 106 => ⟨S16000x32x4, .f32⟩
  | 107 => ⟨S_, .f32⟩
  | 108 => ⟨S_, .f32⟩
  | 109 => ⟨S16000x32x4, .i1⟩
  | 110 => ⟨S16000x32x4, .f32⟩
  | 111 => ⟨S16000x32x4, .f32⟩
  | 112 => ⟨S_, .i32⟩
  | 113 => ⟨S_, .i32⟩
  | 114 => ⟨S_, .i32⟩
  | 115 => ⟨S_, .i1⟩
  | 116 => ⟨S_, .i32⟩
  | 117 => ⟨S_, .i32⟩
  | 118 => ⟨S4000000, .i32⟩
  | 119 => ⟨S4000000, .i32⟩
  | 120 => ⟨S_, .i32⟩
  | 121 => ⟨S4000000, .i32⟩
  | 122 => ⟨S4000000, .i1⟩
  | 123 => ⟨S_, .i32⟩
  | 124 => ⟨S4000000, .i32⟩
  | 125 => ⟨S4000000, .i1⟩
  | 126 => ⟨S_, .i32⟩
  | 127 => ⟨S_, .i1⟩
  | _ => ⟨S4000000x4, .f32⟩

abbrev hbmTy0_1 (i : Nat) : BufTy := match i % 128 with
  | 0 => ⟨S4000000, .i1⟩
  | 1 => ⟨S4000000, .i1⟩
  | 2 => ⟨S4000000, .i1⟩
  | 3 => ⟨S4000000, .i32⟩
  | 4 => ⟨S4000000, .i32⟩
  | 5 => ⟨S4000000, .i32⟩
  | 6 => ⟨S_, .i32⟩
  | 7 => ⟨S_, .i32⟩
  | 8 => ⟨S4000000, .i32⟩
  | 9 => ⟨S4000000, .i32⟩
  | 10 => ⟨S4000000, .i32⟩
  | 11 => ⟨S_, .i32⟩
  | 12 => ⟨S4000000, .i32⟩
  | 13 => ⟨S4000000, .i1⟩
  | 14 => ⟨S4000000, .i32⟩
  | 15 => ⟨S4000000, .i32⟩
  | 16 => ⟨S_, .i32⟩
  | 17 => ⟨S4000000, .i32⟩
  | 18 => ⟨S4000000, .i1⟩
  | 19 => ⟨S4000000, .i1⟩
  | 20 => ⟨S_, .i32⟩
  | 21 => ⟨S4000000, .i32⟩
  | 22 => ⟨S4000000, .i32⟩
  | 23 => ⟨S4000000, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S4000000, .i32⟩
  | 31 => ⟨S4000000, .i32⟩
  | 32 => ⟨S_, .i32⟩
  | 33 => ⟨S4000000, .i32⟩
  | 34 => ⟨S4000000, .i1⟩
  | 35 => ⟨S_, .i32⟩
  | 36 => ⟨S4000000, .i32⟩
  | 37 => ⟨S4000000, .i1⟩
  | 38 => ⟨S_, .i32⟩
  | 39 => ⟨S_, .i1⟩
  | 40 => ⟨S4000000, .i1⟩
  | 41 => ⟨S4000000, .i1⟩
  | 42 => ⟨S4000000, .i1⟩
  | 43 => ⟨S4000000, .i32⟩
  | 44 => ⟨S4000000, .i32⟩
  | 45 => ⟨S4000000, .i32⟩
  | 46 => ⟨S_, .i32⟩
  | 47 => ⟨S_, .i32⟩
  | 48 => ⟨S4000000, .i32⟩
  | 49 => ⟨S4000000, .i32⟩
  | 50 => ⟨S4000000, .i32⟩
  | 51 => ⟨S_, .i32⟩
  | 52 => ⟨S4000000, .i32⟩
  | 53 => ⟨S4000000, .i1⟩
  | 54 => ⟨S4000000, .i32⟩
  | 55 => ⟨S4000000, .i32⟩
  | 56 => ⟨S_, .i32⟩
  | 57 => ⟨S4000000, .i32⟩
  | 58 => ⟨S4000000, .i1⟩
  | 59 => ⟨S4000000, .i1⟩
  | 60 => ⟨S_, .i32⟩
  | 61 => ⟨S4000000, .i32⟩
  | 62 => ⟨S4000000, .i32⟩
  | 63 => ⟨S4000000, .i32⟩
  | 64 => ⟨S4000000x1, .i32⟩
  | 65 => ⟨S4000000x1, .i32⟩
  | 66 => ⟨S4000000x1, .i32⟩
  | 67 => ⟨S4000000x3, .i32⟩
  | 68 => ⟨S_, .i32⟩
  | 69 => ⟨S16001x3, .i32⟩
  | 70 => ⟨S_, .i32⟩
  | 71 => ⟨S4000000, .i32⟩
  | 72 => ⟨S4000000, .i1⟩
  | 73 => ⟨S_, .i32⟩
  | 74 => ⟨S4000000, .i32⟩
  | 75 => ⟨S4000000, .i32⟩
  | 76 => ⟨S4000000, .i32⟩
  | 77 => ⟨S4000000x1, .i32⟩
  | 78 => ⟨S16001x3, .i32⟩
  | 79 => ⟨S16000x3, .i32⟩
  | _ => ⟨S4000000x4, .f32⟩

abbrev hbmTy (i : Nat) : BufTy := match i / 128 with
  | 0 => hbmTy0_0 i
  | 1 => hbmTy0_1 i
  | _ => ⟨S4000000x4, .f32⟩

abbrev bufTy : (tb : Table) → Fin (tcTables nBuf tb) → BufTy
  | .hbm, ⟨i, _⟩ => hbmTy i
  | .local _ .vmem, ⟨0, _⟩ => ⟨S1x3125x128, .f32⟩
  | .local _ .vmem, ⟨1, _⟩ => ⟨S1x3125x128, .f32⟩
  | .local _ .vmem, ⟨2, _⟩ => ⟨S1x3125x128, .f32⟩
  | .local _ .vmem, ⟨3, _⟩ => ⟨S1x3125x128, .f32⟩
  | .local _ .vmem, ⟨4, _⟩ => ⟨S1x3125x128, .f32⟩
  | .local _ .vmem, ⟨5, _⟩ => ⟨S1x3125x128, .f32⟩
  | .local _ .vmem, ⟨6, _⟩ => ⟨S1x3125x128, .i32⟩
  | .local _ .vmem, ⟨7, _⟩ => ⟨S1x3125x128, .i32⟩
  | _, _ => ⟨S4000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12_0 : Ref sig .tc := ⟨.hbm, 14, rfl⟩
abbrev main_v12_1 : Ref sig .tc := ⟨.hbm, 15, rfl⟩
abbrev main_c_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_call0_call0_c : Ref sig .tc := ⟨.hbm, 25, rfl⟩
abbrev main_call0_call0_v0 : Ref sig .tc := ⟨.hbm, 26, rfl⟩
abbrev main_v21 : Ref sig .tc := ⟨.hbm, 27, rfl⟩
abbrev main_c_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_2 : Ref sig .tc := ⟨.hbm, 32, rfl⟩
abbrev main_call1_v0 : Ref sig .tc := ⟨.hbm, 33, rfl⟩
abbrev main_call1_v1 : Ref sig .tc := ⟨.hbm, 34, rfl⟩
abbrev main_v25 : Ref sig .tc := ⟨.hbm, 35, rfl⟩
abbrev main_call2_c : Ref sig .tc := ⟨.hbm, 36, rfl⟩
abbrev main_call2_v0 : Ref sig .tc := ⟨.hbm, 37, rfl⟩
abbrev main_v26 : Ref sig .tc := ⟨.hbm, 38, rfl⟩
abbrev main_v27 : Ref sig .tc := ⟨.hbm, 39, rfl⟩
abbrev main_c_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_5 : Ref sig .tc := ⟨.hbm, 48, rfl⟩
abbrev main_call3_v0 : Ref sig .tc := ⟨.hbm, 49, rfl⟩
abbrev main_call3_v1 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_7 : Ref sig .tc := ⟨.hbm, 56, rfl⟩
abbrev main_call4_v0 : Ref sig .tc := ⟨.hbm, 57, rfl⟩
abbrev main_call4_v1 : Ref sig .tc := ⟨.hbm, 58, rfl⟩
abbrev main_v38 : Ref sig .tc := ⟨.hbm, 59, rfl⟩
abbrev main_c_8 : Ref sig .tc := ⟨.hbm, 60, rfl⟩
abbrev main_v39 : Ref sig .tc := ⟨.hbm, 61, rfl⟩
abbrev main_c_9 : Ref sig .tc := ⟨.hbm, 62, rfl⟩
abbrev main_v40 : Ref sig .tc := ⟨.hbm, 63, rfl⟩
abbrev main_v41 : Ref sig .tc := ⟨.hbm, 64, rfl⟩
abbrev main_c_10 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_11 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_13 : Ref sig .tc := ⟨.hbm, 88, rfl⟩
abbrev main_v62 : Ref sig .tc := ⟨.hbm, 89, rfl⟩
abbrev main_v63 : Ref sig .tc := ⟨.hbm, 90, rfl⟩
abbrev main_c_14 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_c_15 : Ref sig .tc := ⟨.hbm, 98, rfl⟩
abbrev main_v70 : Ref sig .tc := ⟨.hbm, 99, rfl⟩
abbrev main_v71 : Ref sig .tc := ⟨.hbm, 100, rfl⟩
abbrev main_c_16 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst : Ref sig .tc := ⟨.hbm, 107, rfl⟩
abbrev main_call5_v0 : Ref sig .tc := ⟨.hbm, 108, rfl⟩
abbrev main_call5_v1 : Ref sig .tc := ⟨.hbm, 109, rfl⟩
abbrev main_call5_v2 : Ref sig .tc := ⟨.hbm, 110, rfl⟩
abbrev main_v77 : Ref sig .tc := ⟨.hbm, 111, rfl⟩
abbrev main_c_17 : Ref sig .tc := ⟨.hbm, 112, rfl⟩
abbrev main_call6_v0 : Ref sig .tc := ⟨.hbm, 113, rfl⟩
abbrev main_call6_c : Ref sig .tc := ⟨.hbm, 114, rfl⟩
abbrev main_call6_v1 : Ref sig .tc := ⟨.hbm, 115, rfl⟩
abbrev main_call6_c_0 : Ref sig .tc := ⟨.hbm, 116, rfl⟩
abbrev main_call6_v2 : Ref sig .tc := ⟨.hbm, 117, rfl⟩
abbrev main_call6_v3 : Ref sig .tc := ⟨.hbm, 118, rfl⟩
abbrev main_call6_v4 : Ref sig .tc := ⟨.hbm, 119, rfl⟩
abbrev main_call6_c_1 : Ref sig .tc := ⟨.hbm, 120, rfl⟩
abbrev main_call6_v5 : Ref sig .tc := ⟨.hbm, 121, rfl⟩
abbrev main_call6_v6 : Ref sig .tc := ⟨.hbm, 122, rfl⟩
abbrev main_call6_c_2 : Ref sig .tc := ⟨.hbm, 123, rfl⟩
abbrev main_call6_v7 : Ref sig .tc := ⟨.hbm, 124, rfl⟩
abbrev main_call6_v8 : Ref sig .tc := ⟨.hbm, 125, rfl⟩
abbrev main_call6_c_3 : Ref sig .tc := ⟨.hbm, 126, rfl⟩
abbrev main_call6_v9 : Ref sig .tc := ⟨.hbm, 127, rfl⟩
abbrev main_call6_v10 : Ref sig .tc := ⟨.hbm, 128, rfl⟩
abbrev main_call6_v11 : Ref sig .tc := ⟨.hbm, 129, rfl⟩
abbrev main_call6_v12 : Ref sig .tc := ⟨.hbm, 130, rfl⟩
abbrev main_call6_v13 : Ref sig .tc := ⟨.hbm, 131, rfl⟩
abbrev main_call6_v14 : Ref sig .tc := ⟨.hbm, 132, rfl⟩
abbrev main_v78 : Ref sig .tc := ⟨.hbm, 133, rfl⟩
abbrev main_c_18 : Ref sig .tc := ⟨.hbm, 134, rfl⟩
abbrev main_call7_v0 : Ref sig .tc := ⟨.hbm, 135, rfl⟩
abbrev main_call7_v1 : Ref sig .tc := ⟨.hbm, 136, rfl⟩
abbrev main_call7_v2 : Ref sig .tc := ⟨.hbm, 137, rfl⟩
abbrev main_call7_v3 : Ref sig .tc := ⟨.hbm, 138, rfl⟩
abbrev main_call7_v4 : Ref sig .tc := ⟨.hbm, 139, rfl⟩
abbrev main_call7_v5 : Ref sig .tc := ⟨.hbm, 140, rfl⟩
abbrev main_call7_v6 : Ref sig .tc := ⟨.hbm, 141, rfl⟩
abbrev main_call7_v7 : Ref sig .tc := ⟨.hbm, 142, rfl⟩
abbrev main_call7_v8 : Ref sig .tc := ⟨.hbm, 143, rfl⟩
abbrev main_call7_c : Ref sig .tc := ⟨.hbm, 144, rfl⟩
abbrev main_call7_v9 : Ref sig .tc := ⟨.hbm, 145, rfl⟩
abbrev main_call7_v10 : Ref sig .tc := ⟨.hbm, 146, rfl⟩
abbrev main_call7_v11 : Ref sig .tc := ⟨.hbm, 147, rfl⟩
abbrev main_call7_c_0 : Ref sig .tc := ⟨.hbm, 148, rfl⟩
abbrev main_call7_v12 : Ref sig .tc := ⟨.hbm, 149, rfl⟩
abbrev main_call7_v13 : Ref sig .tc := ⟨.hbm, 150, rfl⟩
abbrev main_v79 : Ref sig .tc := ⟨.hbm, 151, rfl⟩
abbrev main_c_19 : Ref sig .tc := ⟨.hbm, 152, rfl⟩
abbrev main_call8_v0 : Ref sig .tc := ⟨.hbm, 153, rfl⟩
abbrev main_call8_c : Ref sig .tc := ⟨.hbm, 154, rfl⟩
abbrev main_call8_v1 : Ref sig .tc := ⟨.hbm, 155, rfl⟩
abbrev main_call8_c_0 : Ref sig .tc := ⟨.hbm, 156, rfl⟩
abbrev main_call8_v2 : Ref sig .tc := ⟨.hbm, 157, rfl⟩
abbrev main_call8_v3 : Ref sig .tc := ⟨.hbm, 158, rfl⟩
abbrev main_call8_v4 : Ref sig .tc := ⟨.hbm, 159, rfl⟩
abbrev main_call8_c_1 : Ref sig .tc := ⟨.hbm, 160, rfl⟩
abbrev main_call8_v5 : Ref sig .tc := ⟨.hbm, 161, rfl⟩
abbrev main_call8_v6 : Ref sig .tc := ⟨.hbm, 162, rfl⟩
abbrev main_call8_c_2 : Ref sig .tc := ⟨.hbm, 163, rfl⟩
abbrev main_call8_v7 : Ref sig .tc := ⟨.hbm, 164, rfl⟩
abbrev main_call8_v8 : Ref sig .tc := ⟨.hbm, 165, rfl⟩
abbrev main_call8_c_3 : Ref sig .tc := ⟨.hbm, 166, rfl⟩
abbrev main_call8_v9 : Ref sig .tc := ⟨.hbm, 167, rfl⟩
abbrev main_call8_v10 : Ref sig .tc := ⟨.hbm, 168, rfl⟩
abbrev main_call8_v11 : Ref sig .tc := ⟨.hbm, 169, rfl⟩
abbrev main_call8_v12 : Ref sig .tc := ⟨.hbm, 170, rfl⟩
abbrev main_call8_v13 : Ref sig .tc := ⟨.hbm, 171, rfl⟩
abbrev main_call8_v14 : Ref sig .tc := ⟨.hbm, 172, rfl⟩
abbrev main_v80 : Ref sig .tc := ⟨.hbm, 173, rfl⟩
abbrev main_c_20 : Ref sig .tc := ⟨.hbm, 174, rfl⟩
abbrev main_call9_v0 : Ref sig .tc := ⟨.hbm, 175, rfl⟩
abbrev main_call9_v1 : Ref sig .tc := ⟨.hbm, 176, rfl⟩
abbrev main_call9_v2 : Ref sig .tc := ⟨.hbm, 177, rfl⟩
abbrev main_call9_v3 : Ref sig .tc := ⟨.hbm, 178, rfl⟩
abbrev main_call9_v4 : Ref sig .tc := ⟨.hbm, 179, rfl⟩
abbrev main_call9_v5 : Ref sig .tc := ⟨.hbm, 180, rfl⟩
abbrev main_call9_v6 : Ref sig .tc := ⟨.hbm, 181, rfl⟩
abbrev main_call9_v7 : Ref sig .tc := ⟨.hbm, 182, rfl⟩
abbrev main_call9_v8 : Ref sig .tc := ⟨.hbm, 183, rfl⟩
abbrev main_call9_c : Ref sig .tc := ⟨.hbm, 184, rfl⟩
abbrev main_call9_v9 : Ref sig .tc := ⟨.hbm, 185, rfl⟩
abbrev main_call9_v10 : Ref sig .tc := ⟨.hbm, 186, rfl⟩
abbrev main_call9_v11 : Ref sig .tc := ⟨.hbm, 187, rfl⟩
abbrev main_call9_c_0 : Ref sig .tc := ⟨.hbm, 188, rfl⟩
abbrev main_call9_v12 : Ref sig .tc := ⟨.hbm, 189, rfl⟩
abbrev main_call9_v13 : Ref sig .tc := ⟨.hbm, 190, rfl⟩
abbrev main_v81 : Ref sig .tc := ⟨.hbm, 191, rfl⟩
abbrev main_v82 : Ref sig .tc := ⟨.hbm, 192, rfl⟩
abbrev main_v83 : Ref sig .tc := ⟨.hbm, 193, rfl⟩
abbrev main_v84 : Ref sig .tc := ⟨.hbm, 194, rfl⟩
abbrev main_v85 : Ref sig .tc := ⟨.hbm, 195, rfl⟩
abbrev main_c_21 : Ref sig .tc := ⟨.hbm, 196, rfl⟩
abbrev main_v86 : Ref sig .tc := ⟨.hbm, 197, rfl⟩
abbrev main_c_22 : Ref sig .tc := ⟨.hbm, 198, rfl⟩
abbrev main_v87 : Ref sig .tc := ⟨.hbm, 199, rfl⟩
abbrev main_v88 : Ref sig .tc := ⟨.hbm, 200, rfl⟩
abbrev main_c_23 : Ref sig .tc := ⟨.hbm, 201, rfl⟩
abbrev main_v89 : Ref sig .tc := ⟨.hbm, 202, rfl⟩
abbrev main_v90 : Ref sig .tc := ⟨.hbm, 203, rfl⟩
abbrev main_v91 : Ref sig .tc := ⟨.hbm, 204, rfl⟩
abbrev main_v92 : Ref sig .tc := ⟨.hbm, 205, rfl⟩
abbrev main_v93 : Ref sig .tc := ⟨.hbm, 206, rfl⟩
abbrev main_v94 : Ref sig .tc := ⟨.hbm, 207, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3125x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3125x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3125x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3125x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S4000000x4_S4000000x1_0_0 : S4000000x4.Slices ![0, 0] S4000000x1
  shapeCasts_S4000000x1_S4000000 : S4000000x1.ShapeCasts S4000000
  slices_S4000000x4_S4000000x1_0_1 : S4000000x4.Slices ![0, 1] S4000000x1
  slices_S4000000x4_S4000000x1_0_2 : S4000000x4.Slices ![0, 2] S4000000x1
  shapeCasts_S4000000_S10x3125x128 : S4000000.ShapeCasts S10x3125x128
  inb_S1x3125x128_S1x3125x128_0_0_0 : ∀ a, (![0, 0, 0] : Fin 3 → Nat) a + S1x3125x128.size a ≤ S1x3125x128.size a
  h_S1x3125x128 : 0 < S1x3125x128.numel
  shapeCasts_S1x3125x128_S3125x128 : S1x3125x128.ShapeCasts S3125x128
  shapeCasts_S3125x128_S1x3125x128 : S3125x128.ShapeCasts S1x3125x128
  shapeCasts_S10x3125x128_S4000000 : S10x3125x128.ShapeCasts S4000000
  bcast_S_S4000000 : S_.BroadcastsInDim S4000000 (![] : Fin 0 → Fin S4000000.rank)
  slices_S4000000_S3999999_1 : S4000000.Slices ![1] S3999999
  slices_S4000000_S3999999_0 : S4000000.Slices ![0] S3999999
  concatenates_S1_S3999999_S4000000_d0 : Shape.Concatenates [S1, S3999999] S4000000 0
  natLt_1_32 : 1 < 32
  bcast_S_S_ : S_.BroadcastsInDim S_ (![] : Fin 0 → Fin S_.rank)
  reduceWindows_S4000000_S4000000_w4000000s1p3999999_0 : S4000000.ReduceWindows (![4000000] : Fin 1 → Nat) ![1] ![3999999] ![0] S4000000
  h_S_ : 0 < S_.numel
  bcast_S_S16001 : S_.BroadcastsInDim S16001 (![] : Fin 0 → Fin S16001.rank)
  bcast_S4000000_S4000000x1_0 : S4000000.BroadcastsInDim S4000000x1 (![0] : Fin 1 → Fin S4000000x1.rank)
  slices_S16001_S16000_0 : S16001.Slices ![0] S16000
  bcast_S16000_S16000x1_0 : S16000.BroadcastsInDim S16000x1 (![0] : Fin 1 → Fin S16000x1.rank)
  bcast_S16000x1_S16000x32_0_1 : S16000x1.BroadcastsInDim S16000x32 (![0, 1] : Fin 2 → Fin S16000x32.rank)
  bcast_S_S16000x32 : S_.BroadcastsInDim S16000x32 (![] : Fin 0 → Fin S16000x32.rank)
  bcast_S16000x32_S16000x32x1_0_1 : S16000x32.BroadcastsInDim S16000x32x1 (![0, 1] : Fin 2 → Fin S16000x32x1.rank)
  bcast_S16000x32x1_S16000x32x4_0_1_2 : S16000x32x1.BroadcastsInDim S16000x32x4 (![0, 1, 2] : Fin 3 → Fin S16000x32x4.rank)
  bcast_S_S16000x32x4 : S_.BroadcastsInDim S16000x32x4 (![] : Fin 0 → Fin S16000x32x4.rank)
  concatenates_S4000000x1_S4000000x1_S4000000x1_S4000000x3_d1 : Shape.Concatenates [S4000000x1, S4000000x1, S4000000x1] S4000000x3 1
  bcast_S_S16001x3 : S_.BroadcastsInDim S16001x3 (![] : Fin 0 → Fin S16001x3.rank)
  slices_S16001x3_S16000x3_0_0 : S16001x3.Slices ![0, 0] S16000x3
  scatter_S16001_S4000000x1_S4000000_n_0_0_1_wf : ScatterDims.WF S16001 S4000000x1 S4000000 [] [0] [0] 1
  gather_S4000000_S16000x32x1_S16000x32_n_0_n_n_0_2_1_wf : GatherDims.WF S4000000 S16000x32x1 S16000x32 [] [0] [] [0] [] 2 ![1]
  gather_S4000000x4_S16000x32x1_S16000x32x4_2_0_n_n_0_2_14_wf : GatherDims.WF S4000000x4 S16000x32x1 S16000x32x4 [2] [0] [] [0] [] 2 ![1, 4]
  scatter_S16001x3_S4000000x1_S4000000x3_1_0_0_1_wf : ScatterDims.WF S16001x3 S4000000x1 S4000000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3125x128.size a ≤ S10x3125x128.size a
  hwx0_0 : ∀ i : grid0.Coords, EltTy.bits .f32 = 32 ∨ (Rect.block (s := S10x3125x128) S1x3125x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3125x128.size a ≤ S10x3125x128.size a
  hwx0_1 : ∀ i : grid0.Coords, EltTy.bits .f32 = 32 ∨ (Rect.block (s := S10x3125x128) S1x3125x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3125x128.size a ≤ S10x3125x128.size a
  hwx0_2 : ∀ i : grid0.Coords, EltTy.bits .f32 = 32 ∨ (Rect.block (s := S10x3125x128) S1x3125x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3125x128.size a ≤ S10x3125x128.size a
  hwx0_3 : ∀ i : grid0.Coords, EltTy.bits .i32 = 32 ∨ (Rect.block (s := S10x3125x128) S1x3125x128.size (cc0_transform_3 i) (hinb0_3 i)).WholeWords (EltTy.packing .i32)

variable [Facts₀]

def comparator_i32_i32_d0 : BitVec 32 × BitVec 32 → BitVec 32 × BitVec 32 → BitVec 1 :=
  fun l r =>
    let v95 := IntOp.cmpi .slt l.1 r.1
    v95
def scatter_S16001_S4000000x1_S4000000_n_0_0_1 : ScatterDims S16001 S4000000x1 S4000000 where
  updateWindowDims := []
  insertedWindowDims := [0]
  scatterDimsToOperandDims := [0]
  indexVectorDim := 1
  wf := scatter_S16001_S4000000x1_S4000000_n_0_0_1_wf
def gather_S4000000_S16000x32x1_S16000x32_n_0_n_n_0_2_1 : GatherDims S4000000 S16000x32x1 S16000x32 where
  offsetDims := []
  collapsedSliceDims := [0]
  operandBatchingDims := []
  startIndicesBatchingDims := []
  startIndexMap := [0]
  indexVectorDim := 2
  sliceSizes := ![1]
  wf := gather_S4000000_S16000x32x1_S16000x32_n_0_n_n_0_2_1_wf
def gather_S4000000x4_S16000x32x1_S16000x32x4_2_0_n_n_0_2_14 : GatherDims S4000000x4 S16000x32x1 S16000x32x4 where
  offsetDims := [2]
  collapsedSliceDims := [0]
  operandBatchingDims := []
  startIndicesBatchingDims := []
  startIndexMap := [0]
  indexVectorDim := 2
  sliceSizes := ![1, 4]
  wf := gather_S4000000x4_S16000x32x1_S16000x32x4_2_0_n_n_0_2_14_wf
def scatter_S16001x3_S4000000x1_S4000000x3_1_0_0_1 : ScatterDims S16001x3 S4000000x1 S4000000x3 where
  updateWindowDims := [1]
  insertedWindowDims := [0]
  scatterDimsToOperandDims := [0]
  indexVectorDim := 1
  wf := scatter_S16001x3_S4000000x1_S4000000x3_1_0_0_1_wf

abbrev win0_0 : Pipeline.Window sig grid0 :=
  Pipeline.Window.ofSpec (Memref.whole main_v6) S1x3125x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x3125x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x3125x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x3125x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4000000x4 : Shape := ⟨2, ![4000000, 4]⟩
abbrev S3 : Shape := ⟨1, ![3]⟩
abbrev S1 : Shape := ⟨1, ![1]⟩
abbrev S4000000x3 : Shape := ⟨2, ![4000000, 3]⟩
abbrev S1x3 : Shape := ⟨2, ![1, 3]⟩
abbrev S_ : Shape := ⟨0, ![]⟩
abbrev S4000000 : Shape := ⟨1, ![4000000]⟩
abbrev S4000000x1 : Shape := ⟨2, ![4000000, 1]⟩
abbrev S3999999 : Shape := ⟨1, ![3999999]⟩
abbrev S16001x32x4 : Shape := ⟨3, ![16001, 32, 4]⟩
abbrev S4000000x2 : Shape := ⟨2, ![4000000, 2]⟩
abbrev S16000x32x4 : Shape := ⟨3, ![16000, 32, 4]⟩
abbrev S16001x3 : Shape := ⟨2, ![16001, 3]⟩
abbrev S16000x3 : Shape := ⟨2, ![16000, 3]⟩
abbrev S16001 : Shape := ⟨1, ![16001]⟩
abbrev S16000 : Shape := ⟨1, ![16000]⟩

abbrev nBuf : Space → Nat
  | .hbm => 166
  | .vmem => 0
  | .smem => 0
  | _ => 0

abbrev hbmTy0_0 (i : Nat) : BufTy := match i % 128 with
  | 0 => ⟨S4000000x4, .f32⟩
  | 1 => ⟨S3, .f32⟩
  | 2 => ⟨S3, .f32⟩
  | 3 => ⟨S3, .f32⟩
  | 4 => ⟨S3, .i32⟩
  | 5 => ⟨S1, .i1⟩
  | 6 => ⟨S4000000x3, .f32⟩
  | 7 => ⟨S1x3, .f32⟩
  | 8 => ⟨S4000000x3, .f32⟩
  | 9 => ⟨S4000000x3, .i1⟩
  | 10 => ⟨S1x3, .f32⟩
  | 11 => ⟨S4000000x3, .f32⟩
  | 12 => ⟨S4000000x3, .i1⟩
  | 13 => ⟨S4000000x3, .i1⟩
  | 14 => ⟨S_, .i1⟩
  | 15 => ⟨S4000000, .i1⟩
  | 16 => ⟨S1x3, .f32⟩
  | 17 => ⟨S4000000x3, .f32⟩
  | 18 => ⟨S4000000x3, .f32⟩
  | 19 => ⟨S1x3, .f32⟩
  | 20 => ⟨S4000000x3, .f32⟩
  | 21 => ⟨S4000000x3, .f32⟩
  | 22 => ⟨S4000000x3, .f32⟩
  | 23 => ⟨S4000000x3, .i32⟩
  | 24 => ⟨S_, .i32⟩
  | 25 => ⟨S_, .i32⟩
  | 26 => ⟨S4000000x3, .i32⟩
  | 27 => ⟨S4000000x3, .i32⟩
  | 28 => ⟨S1x3, .i32⟩
  | 29 => ⟨S4000000x3, .i32⟩
  | 30 => ⟨S4000000x3, .i32⟩
  | 31 => ⟨S4000000x1, .i32⟩
  | 32 => ⟨S4000000, .i32⟩
  | 33 => ⟨S_, .i32⟩
  | 34 => ⟨S4000000, .i32⟩
  | 35 => ⟨S4000000, .i32⟩
  | 36 => ⟨S4000000x1, .i32⟩
  | 37 => ⟨S4000000, .i32⟩
  | 38 => ⟨S_, .i32⟩
  | 39 => ⟨S4000000, .i32⟩
  | 40 => ⟨S4000000, .i32⟩
  | 41 => ⟨S4000000, .i32⟩
  | 42 => ⟨S4000000x1, .i32⟩
  | 43 => ⟨S4000000, .i32⟩
  | 44 => ⟨S4000000, .i32⟩
  | 45 => ⟨S_, .i32⟩
  | 46 => ⟨S_, .i32⟩
  | 47 => ⟨S4000000, .i32⟩
  | 48 => ⟨S4000000, .i32⟩
  | 49 => ⟨S4000000, .i32⟩
  | 50 => ⟨S4000000, .i32⟩
  | 51 => ⟨S4000000, .i32⟩
  | 52 => ⟨S_, .i32⟩
  | 53 => ⟨S4000000, .i32⟩
  | 54 => ⟨S4000000, .i1⟩
  | 55 => ⟨S_, .i32⟩
  | 56 => ⟨S4000000, .i32⟩
  | 57 => ⟨S4000000, .i32⟩
  | 58 => ⟨S4000000, .i32⟩
  | 59 => ⟨S4000000x1, .i32⟩
  | 60 => ⟨S4000000, .i32⟩
  | 61 => ⟨S_, .i32⟩
  | 62 => ⟨S4000000, .i32⟩
  | 63 => ⟨S4000000, .i1⟩
  | 64 => ⟨S_, .i32⟩
  | 65 => ⟨S4000000, .i32⟩
  | 66 => ⟨S4000000, .i32⟩
  | 67 => ⟨S4000000, .i32⟩
  | 68 => ⟨S4000000x1, .i32⟩
  | 69 => ⟨S4000000x3, .i32⟩
  | 70 => ⟨S_, .i32⟩
  | 71 => ⟨S4000000, .i32⟩
  | 72 => ⟨S4000000, .i1⟩
  | 73 => ⟨S_, .i32⟩
  | 74 => ⟨S4000000, .i32⟩
  | 75 => ⟨S4000000, .i32⟩
  | 76 => ⟨S4000000, .i32⟩
  | 77 => ⟨S4000000x1, .i32⟩
  | 78 => ⟨S4000000x4, .f32⟩
  | 79 => ⟨S_, .i32⟩
  | 80 => ⟨S4000000, .i32⟩
  | 81 => ⟨S4000000, .i1⟩
  | 82 => ⟨S3999999, .i32⟩
  | 83 => ⟨S3999999, .i32⟩
  | 84 => ⟨S3999999, .i1⟩
  | 85 => ⟨S4000000, .i1⟩
  | 86 => ⟨S4000000, .i1⟩
  | 87 => ⟨S4000000, .i32⟩
  | 88 => ⟨S_, .i32⟩
  | 89 => ⟨S_, .i32⟩
  | 90 => ⟨S4000000, .i32⟩
  | 91 => ⟨S_, .i32⟩
  | 92 => ⟨S4000000, .i32⟩
  | 93 => ⟨S4000000, .i32⟩
  | 94 => ⟨S4000000, .i32⟩
  | 95 => ⟨S_, .i32⟩
  | 96 => ⟨S_, .i32⟩
  | 97 => ⟨S4000000, .i32⟩
  | 98 => ⟨S4000000, .i32⟩
  | 99 => ⟨S_, .i32⟩
  | 100 => ⟨S_, .i32⟩
  | 101 => ⟨S4000000, .i32⟩
  | 102 => ⟨S4000000, .i32⟩
  | 103 => ⟨S_, .i32⟩
  | 104 => ⟨S4000000, .i32⟩
  | 105 => ⟨S4000000, .i1⟩
  | 106 => ⟨S4000000, .i1⟩
  | 107 => ⟨S_, .i32⟩
  | 108 => ⟨S4000000, .i32⟩
  | 109 => ⟨S4000000, .i1⟩
  | 110 => ⟨S4000000, .i1⟩
  | 111 => ⟨S_, .i32⟩
  | 112 => ⟨S_, .i32⟩
  | 113 => ⟨S4000000, .i32⟩
  | 114 => ⟨S4000000, .i32⟩
  | 115 => ⟨S_, .i32⟩
  | 116 => ⟨S_, .i32⟩
  | 117 => ⟨S4000000, .i32⟩
  | 118 => ⟨S4000000, .i32⟩
  | 119 => ⟨S_, .f32⟩
  | 120 => ⟨S16001x32x4, .f32⟩
  | 121 => ⟨S_, .i32⟩
  | 122 => ⟨S4000000, .i32⟩
  | 123 => ⟨S4000000, .i1⟩
  | 124 => ⟨S_, .i32⟩
  | 125 => ⟨S4000000, .i32⟩
  | 126 => ⟨S4000000, .i32⟩
  | 127 => ⟨S4000000, .i32⟩
  | _ => ⟨S4000000x4, .f32⟩

abbrev hbmTy0_1 (i : Nat) : BufTy := match i % 128 with
  | 0 => ⟨S_, .i32⟩
  | 1 => ⟨S4000000, .i32⟩
  | 2 => ⟨S4000000, .i1⟩
  | 3 => ⟨S_, .i32⟩
  | 4 => ⟨S4000000, .i32⟩
  | 5 => ⟨S4000000, .i32⟩
  | 6 => ⟨S4000000, .i32⟩
  | 7 => ⟨S4000000x1, .i32⟩
  | 8 => ⟨S4000000x1, .i32⟩
  | 9 => ⟨S4000000x2, .i32⟩
  | 10 => ⟨S16001x32x4, .f32⟩
  | 11 => ⟨S16000x32x4, .f32⟩
  | 12 => ⟨S_, .i32⟩
  | 13 => ⟨S4000000, .i32⟩
  | 14 => ⟨S4000000, .i1⟩
  | 15 => ⟨S4000000, .i1⟩
  | 16 => ⟨S_, .i32⟩
  | 17 => ⟨S_, .i32⟩
  | 18 => ⟨S4000000, .i32⟩
  | 19 => ⟨S4000000, .i32⟩
  | 20 => ⟨S_, .i32⟩
  | 21 => ⟨S16001x3, .i32⟩
  | 22 => ⟨S_, .i32⟩
  | 23 => ⟨S4000000, .i32⟩
  | 24 => ⟨S4000000, .i1⟩
  | 25 => ⟨S_, .i32⟩
  | 26 => ⟨S4000000, .i32⟩
  | 27 => ⟨S4000000, .i32⟩
  | 28 => ⟨S4000000, .i32⟩
  | 29 => ⟨S4000000x1, .i32⟩
  | 30 => ⟨S16001x3, .i32⟩
  | 31 => ⟨S16000x3, .i32⟩
  | 32 => ⟨S4000000, .i32⟩
  | 33 => ⟨S_, .i32⟩
  | 34 => ⟨S16001, .i32⟩
  | 35 => ⟨S4000000x1, .i32⟩
  | 36 => ⟨S16001, .i32⟩
  | 37 => ⟨S16000, .i32⟩
  | _ => ⟨S4000000x4, .f32⟩

abbrev hbmTy (i : Nat) : BufTy := match i / 128 with
  | 0 => hbmTy0_0 i
  | 1 => hbmTy0_1 i
  | _ => ⟨S4000000x4, .f32⟩

abbrev bufTy : (tb : Table) → Fin (tcTables nBuf tb) → BufTy
  | .hbm, ⟨i, _⟩ => hbmTy i
  | _, _ => ⟨S4000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_cst_1 : Ref sig .tc := ⟨.hbm, 3, rfl⟩
abbrev main_c : Ref sig .tc := ⟨.hbm, 4, rfl⟩
abbrev main_c_2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_3 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_4 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_call1_v0 : Ref sig .tc := ⟨.hbm, 46, rfl⟩
abbrev main_call1_v1 : Ref sig .tc := ⟨.hbm, 47, rfl⟩
abbrev main_v30 : Ref sig .tc := ⟨.hbm, 48, rfl⟩
abbrev main_call2_v0 : Ref sig .tc := ⟨.hbm, 49, rfl⟩
abbrev main_call2_v1_0 : Ref sig .tc := ⟨.hbm, 50, rfl⟩
abbrev main_v31 : Ref sig .tc := ⟨.hbm, 51, rfl⟩
abbrev main_c_8 : Ref sig .tc := ⟨.hbm, 52, rfl⟩
abbrev main_v32 : Ref sig .tc := ⟨.hbm, 53, rfl⟩
abbrev main_v33 : Ref sig .tc := ⟨.hbm, 54, rfl⟩
abbrev main_c_9 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_10 : Ref sig .tc := ⟨.hbm, 61, rfl⟩
abbrev main_v39 : Ref sig .tc := ⟨.hbm, 62, rfl⟩
abbrev main_v40 : Ref sig .tc := ⟨.hbm, 63, rfl⟩
abbrev main_c_11 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_12 : Ref sig .tc := ⟨.hbm, 70, rfl⟩
abbrev main_v46 : Ref sig .tc := ⟨.hbm, 71, rfl⟩
abbrev main_v47 : Ref sig .tc := ⟨.hbm, 72, rfl⟩
abbrev main_c_13 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_14 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_call3_call0_c : Ref sig .tc := ⟨.hbm, 88, rfl⟩
abbrev main_call3_call0_v0 : Ref sig .tc := ⟨.hbm, 89, rfl⟩
abbrev main_v61 : Ref sig .tc := ⟨.hbm, 90, rfl⟩
abbrev main_c_15 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_call4_v0 : Ref sig .tc := ⟨.hbm, 96, rfl⟩
abbrev main_call4_v1 : Ref sig .tc := ⟨.hbm, 97, rfl⟩
abbrev main_v65 : Ref sig .tc := ⟨.hbm, 98, rfl⟩
abbrev main_call5_c : Ref sig .tc := ⟨.hbm, 99, rfl⟩
abbrev main_call5_v0 : Ref sig .tc := ⟨.hbm, 100, rfl⟩
abbrev main_v66 : Ref sig .tc := ⟨.hbm, 101, rfl⟩
abbrev main_v67 : Ref sig .tc := ⟨.hbm, 102, rfl⟩
abbrev main_c_17 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_c_18 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_c_19 : Ref sig .tc := ⟨.hbm, 111, rfl⟩
abbrev main_call6_v0 : Ref sig .tc := ⟨.hbm, 112, rfl⟩
abbrev main_call6_v1 : Ref sig .tc := ⟨.hbm, 113, rfl⟩
abbrev main_v74 : Ref sig .tc := ⟨.hbm, 114, rfl⟩
abbrev main_c_20 : Ref sig .tc := ⟨.hbm, 115, rfl⟩
abbrev main_call7_v0 : Ref sig .tc := ⟨.hbm, 116, rfl⟩
abbrev main_call7_v1 : Ref sig .tc := ⟨.hbm, 117, rfl⟩
abbrev main_v75 : Ref sig .tc := ⟨.hbm, 118, rfl⟩
abbrev main_cst_21 : Ref sig .tc := ⟨.hbm, 119, rfl⟩
abbrev main_v76 : Ref sig .tc := ⟨.hbm, 120, rfl⟩
abbrev main_c_22 : Ref sig .tc := ⟨.hbm, 121, rfl⟩
abbrev main_v77 : Ref sig .tc := ⟨.hbm, 122, rfl⟩
abbrev main_v78 : Ref sig .tc := ⟨.hbm, 123, rfl⟩
abbrev main_c_23 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_c_24 : Ref sig .tc := ⟨.hbm, 128, rfl⟩
abbrev main_v82 : Ref sig .tc := ⟨.hbm, 129, rfl⟩
abbrev main_v83 : Ref sig .tc := ⟨.hbm, 130, rfl⟩
abbrev main_c_25 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_c_26 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_c_27 : Ref sig .tc := ⟨.hbm, 144, rfl⟩
abbrev main_call8_v0 : Ref sig .tc := ⟨.hbm, 145, rfl⟩
abbrev main_call8_v1 : Ref sig .tc := ⟨.hbm, 146, rfl⟩
abbrev main_v95 : Ref sig .tc := ⟨.hbm, 147, rfl⟩
abbrev main_c_28 : Ref sig .tc := ⟨.hbm, 148, rfl⟩
abbrev main_v96 : Ref sig .tc := ⟨.hbm, 149, rfl⟩
abbrev main_c_29 : Ref sig .tc := ⟨.hbm, 150, rfl⟩
abbrev main_v97 : Ref sig .tc := ⟨.hbm, 151, rfl⟩
abbrev main_v98 : Ref sig .tc := ⟨.hbm, 152, rfl⟩
abbrev main_c_30 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_c_31 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩

abbrev nD : Nat := 1
abbrev τ : Topo := Topo.v7x

variable {F : FTy → Type} [FloatOps F]

class Facts₀ : Prop where
  slices_S4000000x4_S4000000x3_0_0 : S4000000x4.Slices ![0, 0] S4000000x3
  bcast_S3_S1x3_1 : S3.BroadcastsInDim S1x3 (![1] : Fin 1 → Fin S1x3.rank)
  bcast_S1x3_S4000000x3_0_1 : S1x3.BroadcastsInDim S4000000x3 (![0, 1] : Fin 2 → Fin S4000000x3.rank)
  reducesTo_S4000000x3_S4000000_d1 : S4000000x3.ReducesTo [1] S4000000
  h_S_ : 0 < S_.numel
  bcast_S_S4000000x3 : S_.BroadcastsInDim S4000000x3 (![] : Fin 0 → Fin S4000000x3.rank)
  slices_S4000000x3_S4000000x1_0_0 : S4000000x3.Slices ![0, 0] S4000000x1
  shapeCasts_S4000000x1_S4000000 : S4000000x1.ShapeCasts S4000000
  bcast_S_S4000000 : S_.BroadcastsInDim S4000000 (![] : Fin 0 → Fin S4000000.rank)
  slices_S4000000x3_S4000000x1_0_1 : S4000000x3.Slices ![0, 1] S4000000x1
  slices_S4000000x3_S4000000x1_0_2 : S4000000x3.Slices ![0, 2] S4000000x1
  bcast_S4000000_S4000000x1_0 : S4000000.BroadcastsInDim S4000000x1 (![0] : Fin 1 → Fin S4000000x1.rank)
  slices_S4000000_S3999999_1 : S4000000.Slices ![1] S3999999
  slices_S4000000_S3999999_0 : S4000000.Slices ![0] S3999999
  concatenates_S1_S3999999_S4000000_d0 : Shape.Concatenates [S1, S3999999] S4000000 0
  natLt_1_32 : 1 < 32
  bcast_S_S_ : S_.BroadcastsInDim S_ (![] : Fin 0 → Fin S_.rank)
  reduceWindows_S4000000_S4000000_w4000000s1p3999999_0 : S4000000.ReduceWindows (![4000000] : Fin 1 → Nat) ![1] ![3999999] ![0] S4000000
  bcast_S_S16001x32x4 : S_.BroadcastsInDim S16001x32x4 (![] : Fin 0 → Fin S16001x32x4.rank)
  concatenates_S4000000x1_S4000000x1_S4000000x2_d1 : Shape.Concatenates [S4000000x1, S4000000x1] S4000000x2 1
  slices_S16001x32x4_S16000x32x4_0_0_0 : S16001x32x4.Slices ![0, 0, 0] S16000x32x4
  bcast_S_S16001x3 : S_.BroadcastsInDim S16001x3 (![] : Fin 0 → Fin S16001x3.rank)
  slices_S16001x3_S16000x3_0_0 : S16001x3.Slices ![0, 0] S16000x3
  bcast_S_S16001 : S_.BroadcastsInDim S16001 (![] : Fin 0 → Fin S16001.rank)
  slices_S16001_S16000_0 : S16001.Slices ![0] S16000
  gather_S4000000_S4000000x1_S4000000_n_0_n_n_0_1_1_wf : GatherDims.WF S4000000 S4000000x1 S4000000 [] [0] [] [0] [] 1 ![1]
  gather_S4000000x3_S4000000x1_S4000000x3_1_0_n_n_0_1_13_wf : GatherDims.WF S4000000x3 S4000000x1 S4000000x3 [1] [0] [] [0] [] 1 ![1, 3]
  gather_S4000000x4_S4000000x1_S4000000x4_1_0_n_n_0_1_14_wf : GatherDims.WF S4000000x4 S4000000x1 S4000000x4 [1] [0] [] [0] [] 1 ![1, 4]
  scatter_S16001x32x4_S4000000x2_S4000000x4_1_01_01_1_wf : ScatterDims.WF S16001x32x4 S4000000x2 S4000000x4 [1] [0, 1] [0, 1] 1
  scatter_S16001x3_S4000000x1_S4000000x3_1_0_0_1_wf : ScatterDims.WF S16001x3 S4000000x1 S4000000x3 [1] [0] [0] 1
  scatter_S16001_S4000000x1_S4000000_n_0_0_1_wf : ScatterDims.WF S16001 S4000000x1 S4000000 [] [0] [0] 1

variable [Facts₀]

def comparator_i32_i32_d0 : BitVec 32 × BitVec 32 → BitVec 32 × BitVec 32 → BitVec 1 :=
  fun l r =>
    let v2 := IntOp.cmpi .slt l.1 r.1
    v2
def gather_S4000000_S4000000x1_S4000000_n_0_n_n_0_1_1 : GatherDims S4000000 S4000000x1 S4000000 where
  offsetDims := []
  collapsedSliceDims := [0]
  operandBatchingDims := []
  startIndicesBatchingDims := []
  startIndexMap := [0]
  indexVectorDim := 1
  sliceSizes := ![1]
  wf := gather_S4000000_S4000000x1_S4000000_n_0_n_n_0_1_1_wf
def gather_S4000000x3_S4000000x1_S4000000x3_1_0_n_n_0_1_13 : GatherDims S4000000x3 S4000000x1 S4000000x3 where
  offsetDims := [1]
  collapsedSliceDims := [0]
  operandBatchingDims := []
  startIndicesBatchingDims := []
  startIndexMap := [0]
  indexVectorDim := 1
  sliceSizes := ![1, 3]
  wf := gather_S4000000x3_S4000000x1_S4000000x3_1_0_n_n_0_1_13_wf
def gather_S4000000x4_S4000000x1_S4000000x4_1_0_n_n_0_1_14 : GatherDims S4000000x4 S4000000x1 S4000000x4 where
  offsetDims := [1]
  collapsedSliceDims := [0]
  operandBatchingDims := []
  startIndicesBatchingDims := []
  startIndexMap := [0]
  indexVectorDim := 1
  sliceSizes := ![1, 4]
  wf := gather_S4000000x4_S4000000x1_S4000000x4_1_0_n_n_0_1_14_wf
def scatter_S16001x32x4_S4000000x2_S4000000x4_1_01_01_1 : ScatterDims S16001x32x4 S4000000x2 S4000000x4 where
  updateWindowDims := [1]
  insertedWindowDims := [0, 1]
  scatterDimsToOperandDims := [0, 1]
  indexVectorDim := 1
  wf := scatter_S16001x32x4_S4000000x2_S4000000x4_1_01_01_1_wf
def scatter_S16001x3_S4000000x1_S4000000x3_1_0_0_1 : ScatterDims S16001x3 S4000000x1 S4000000x3 where
  updateWindowDims := [1]
  insertedWindowDims := [0]
  scatterDimsToOperandDims := [0]
  indexVectorDim := 1
  wf := scatter_S16001x3_S4000000x1_S4000000x3_1_0_0_1_wf
def scatter_S16001_S4000000x1_S4000000_n_0_0_1 : ScatterDims S16001 S4000000x1 S4000000 where
  updateWindowDims := []
  insertedWindowDims := [0]
  scatterDimsToOperandDims := [0]
  indexVectorDim := 1
  wf := scatter_S16001_S4000000x1_S4000000_n_0_0_1_wf

class Facts : Prop extends Facts₀ where

variable [Facts]
-- ==== Proof.KFrameBits.lean ====
import proofs.«420773_j40235253629492_3_alg».proof.Proof.Gen.Kernel.Launch
import proofs.«420773_j40235253629492_3_alg».proof.Proof.Gen.Kernel.Skeleton
import proofs.«420773_j40235253629492_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
The frame run of the program: the host lines before its one region, the region on its grid of ten
points (three staged inputs, one written output), and the host lines after it. The run ends with the
argument array as it was launched.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The host lines around the region -/

/-- The stretches of host lines after the region, in program order. -/
abbrev tailOpss : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19]

/-- A property of every line of every stretch holds of every line of the stretches laid end to end. -/
theorem forall_flatten {α : Type} {P : α → Prop} {L : List (List α)} (h : L.Forall fun l => l.Forall P) :
    ∀ a ∈ L.flatten, P a := by
  intro a ha
  obtain ⟨l, hl, hal⟩ := List.mem_flatten.mp ha
  exact List.forall_iff_forall_mem.mp (List.forall_iff_forall_mem.mp h l hl) a hal

/-- The same, stretch by stretch. -/
theorem forall_stretch {α : Type} {P : α → Prop} {L : List (List α)} (h : L.Forall fun l => l.Forall P) :
    ∀ l ∈ L, ∀ a ∈ l, P a :=
  fun l hl a hal => List.forall_iff_forall_mem.mp (List.forall_iff_forall_mem.mp h l hl) a hal

variable (m : (ℓ : Loc nD τ sig) → Buf (Elt F) ℓ) (ρ : Dev nD → PrngReg)

/-- The core's buffer contents when the region is entered: the launch contents carried through the
    host lines before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-! ### No line allocates -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor
theorem hostOps1_17_fresh : (hostOps1_17 : List (HloOp τ sig (Elt F))).Forall fun op => op.fresh = ∅ := by
  simp only [List.Forall]; repeat' constructor
theorem hostOps1_18_fresh : (hostOps1_18 : List (HloOp τ sig (Elt F))).Forall fun op => op.fresh = ∅ := by
  simp only [List.Forall]; repeat' constructor
theorem hostOps1_19_fresh : (hostOps1_19 : List (HloOp τ sig (Elt F))).Forall fun op => op.fresh = ∅ := by
  simp only [List.Forall]; repeat' constructor

theorem tail_fresh : (tailOpss : List (List (HloOp τ sig (Elt F)))).Forall fun ops => ops.Forall fun op => op.fresh = ∅ :=
  ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh, hostOps1_12_fresh, hostOps1_13_fresh, hostOps1_14_fresh, hostOps1_15_fresh, hostOps1_16_fresh, hostOps1_17_fresh, hostOps1_18_fresh, hostOps1_19_fresh⟩

/-! ### Every line touches unscoped references of the core only -/

theorem tail_sub : (tailOpss : List (List (HloOp τ sig (Elt F)))).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub, hostOps1_19_sub⟩

/-! ### No line writes the argument array or an array of the region -/

/-- The references no host line writes: the argument and the region's four arrays. -/
def kept : List (Ref sig .tc) := [main_arg0, main_v6, main_v7, main_v8, main_v9]

/-- Each line writes its own result buffer only, and that is none of the kept references. -/
local macro "no_write" : tactic => `(tactic| (
  simp only [List.Forall, StableHlo.nullary_writes, StableHlo.unary_writes, StableHlo.binary_writes, StableHlo.ternary_writes, StableHlo.reshape_writes, StableHlo.nary_writes, Finset.mem_singleton]
  repeat' apply And.intro
  all_goals exact StableHlo.devRef_ne_of_ne (by decide)))

theorem hostOps1_nw : ∀ r ∈ kept, (hostOps1 : List (HloOp τ sig (Elt F))).Forall fun op => Proc.devRef (τ := τ) .tc r ∉ op.writes := by
  intro r hr; simp only [kept, List.mem_cons, List.mem_nil_iff, or_false] at hr
  rcases hr with rfl | rfl | rfl | rfl | rfl <;> no_write
theorem hostOps1_1_nw : ∀ r ∈ kept, (hostOps1_1 : List (HloOp τ sig (Elt F))).Forall fun op => Proc.devRef (τ := τ) .tc r ∉ op.writes := by
  intro r hr; simp only [kept, List.mem_cons, List.mem_nil_iff, or_false] at hr
  rcases hr with rfl | rfl | rfl | rfl | rfl <;> no_write
theorem hostOps1_2_nw : ∀ r ∈ kept, (hostOps1_2 : List (HloOp τ sig (Elt F))).Forall fun op => Proc.devRef (τ := τ) .tc r ∉ op.writes := by
  intro r hr; simp only [kept, List.mem_cons, List.mem_nil_iff, or_false] at hr
  rcases hr with rfl | rfl | rfl | rfl | rfl <;> no_write
theorem hostOps1_3_nw : ∀ r ∈ kept, (hostOps1_3 : List (HloOp τ sig (Elt F))).Forall fun op => Proc.devRef (τ := τ) .tc r ∉ op.writes := by
  intro r hr; simp only [kept, List.mem_cons, List.mem_nil_iff, or_false] at hr
  rcases hr with rfl | rfl | rfl | rfl | rfl <;> no_write
theorem hostOps1_4_nw : ∀ r ∈ kept, (hostOps1_4 : List (HloOp τ sig (Elt F))).Forall fun op => Proc.devRef (τ := τ) .tc r ∉ op.writes := by
  intro r hr; simp only [kept, List.mem_cons, List.mem_nil_iff, or_false] at hr
  rcases hr with rfl | rfl | rfl | rfl | rfl <;> no_write
theorem hostOps1_5_nw : ∀ r ∈ kept, (hostOps1_5 : List (HloOp τ sig (Elt F))).Forall fun op => Proc.devRef (τ := τ) .tc r ∉ op.writes := by
  intro r hr; simp only [kept, List.mem_cons, List.mem_nil_iff, or_false] at hr
  rcases hr with rfl | rfl | rfl | rfl | rfl <;> no_write
theorem hostOps1_6_nw : ∀ r ∈ kept, (hostOps1_6 : List (HloOp τ sig (Elt F))).Forall fun op => Proc.devRef (τ := τ) .tc r ∉ op.writes := by
  intro r hr; simp only [kept, List.mem_cons, List.mem_nil_iff, or_false] at hr
  rcases hr with rfl | rfl | rfl | rfl | rfl <;> no_write
theorem hostOps1_7_nw : ∀ r ∈ kept, (hostOps1_7 : List (HloOp τ sig (Elt F))).Forall fun op => Proc.devRef (τ := τ) .tc r ∉ op.writes := by
  intro r hr; simp only [kept, List.mem_cons, List.mem_nil_iff, or_false] at hr
  rcases hr with rfl | rfl | rfl | rfl | rfl <;> no_write
theorem hostOps1_8_nw : ∀ r ∈ kept, (hostOps1_8 : List (HloOp τ sig (Elt F))).Forall fun op => Proc.devRef (τ := τ) .tc r ∉ op.writes := by
  intro r hr; simp only [kept, List.mem_cons, List.mem_nil_iff, or_false] at hr
  rcases hr with rfl | rfl | rfl | rfl | rfl <;> no_write
theorem hostOps1_9_nw : ∀ r ∈ kept, (hostOps1_9 : List (HloOp τ sig (Elt F))).Forall fun op => Proc.devRef (τ := τ) .tc r ∉ op.writes := by
  intro r hr; simp only [kept, List.mem_cons, List.mem_nil_iff, or_false] at hr
  rcases hr with rfl | rfl | rfl | rfl | rfl <;> no_write
theorem hostOps1_10_nw : ∀ r ∈ kept, (hostOps1_10 : List (HloOp τ sig (Elt F))).Forall fun op => Proc.devRef (τ := τ) .tc r ∉ op.writes := by
  intro r hr; simp only [kept, List.mem_cons, List.mem_nil_iff, or_false] at hr
  rcases hr with rfl | rfl | rfl | rfl | rfl <;> no_write
theorem hostOps1_11_nw : ∀ r ∈ kept, (hostOps1_11 : List (HloOp τ sig (Elt F))).Forall fun op => Proc.devRef (τ := τ) .tc r ∉ op.writes := by
  intro r hr; simp only [kept, List.mem_cons, List.mem_nil_iff, or_false] at hr
  rcases hr with rfl | rfl | rfl | rfl | rfl <;> no_write
theorem hostOps1_12_nw : ∀ r ∈ kept, (hostOps1_12 : List (HloOp τ sig (Elt F))).Forall fun op => Proc.devRef (τ := τ) .tc r ∉ op.writes := by
  intro r hr; simp only [kept, List.mem_cons, List.mem_nil_iff, or_false] at hr
  rcases hr with rfl | rfl | rfl | rfl | rfl <;> no_write
theorem hostOps1_13_nw : ∀ r ∈ kept, (hostOps1_13 : List (HloOp τ sig (Elt F))).Forall fun op => Proc.devRef (τ := τ) .tc r ∉ op.writes := by
  intro r hr; simp only [kept, List.mem_cons, List.mem_nil_iff, or_false] at hr
  rcases hr with rfl | rfl | rfl | rfl | rfl <;> no_write
theorem hostOps1_14_nw : ∀ r ∈ kept, (hostOps1_14 : List (HloOp τ sig (Elt F))).Forall fun op => Proc.devRef (τ := τ) .tc r ∉ op.writes := by
  intro r hr; simp only [kept, List.mem_cons, List.mem_nil_iff, or_false] at hr
  rcases hr with rfl | rfl | rfl | rfl | rfl <;> no_write
theorem hostOps1_15_nw : ∀ r ∈ kept, (hostOps1_15 : List (HloOp τ sig (Elt F))).Forall fun op => Proc.devRef (τ := τ) .tc r ∉ op.writes := by
  intro r hr; simp only [kept, List.mem_cons, List.mem_nil_iff, or_false] at hr
  rcases hr with rfl | rfl | rfl | rfl | rfl <;> no_write
theorem hostOps1_16_nw : ∀ r ∈ kept, (hostOps1_16 : List (HloOp τ sig (Elt F))).Forall fun op => Proc.devRef (τ := τ) .tc r ∉ op.writes := by
  intro r hr; simp only [kept, List.mem_cons, List.mem_nil_iff, or_false] at hr
  rcases hr with rfl | rfl | rfl | rfl | rfl <;> no_write
theorem hostOps1_17_nw : ∀ r ∈ kept, (hostOps1_17 : List (HloOp τ sig (Elt F))).Forall fun op => Proc.devRef (τ := τ) .tc r ∉ op.writes := by
  intro r hr; simp only [kept, List.mem_cons, List.mem_nil_iff, or_false] at hr
  rcases hr with rfl | rfl | rfl | rfl | rfl <;> no_write
theorem hostOps1_18_nw : ∀ r ∈ kept, (hostOps1_18 : List (HloOp τ sig (Elt F))).Forall fun op => Proc.devRef (τ := τ) .tc r ∉ op.writes := by
  intro r hr; simp only [kept, List.mem_cons, List.mem_nil_iff, or_false] at hr
  rcases hr with rfl | rfl | rfl | rfl | rfl <;> no_write
theorem hostOps1_19_nw : ∀ r ∈ kept, (hostOps1_19 : List (HloOp τ sig (Elt F))).Forall fun op => Proc.devRef (τ := τ) .tc r ∉ op.writes := by
  intro r hr; simp only [kept, List.mem_cons, List.mem_nil_iff, or_false] at hr
  rcases hr with rfl | rfl | rfl | rfl | rfl <;> no_write

theorem tail_nw (r : Ref sig .tc) (hr : r ∈ kept) :
    (tailOpss : List (List (HloOp τ sig (Elt F)))).Forall fun ops => ops.Forall fun op => Proc.devRef (τ := τ) .tc r ∉ op.writes :=
  ⟨hostOps1_nw r hr, hostOps1_1_nw r hr, hostOps1_2_nw r hr, hostOps1_3_nw r hr, hostOps1_4_nw r hr, hostOps1_5_nw r hr, hostOps1_6_nw r hr, hostOps1_7_nw r hr, hostOps1_8_nw r hr, hostOps1_9_nw r hr, hostOps1_10_nw r hr, hostOps1_11_nw r hr, hostOps1_12_nw r hr, hostOps1_13_nw r hr, hostOps1_14_nw r hr, hostOps1_15_nw r hr, hostOps1_16_nw r hr, hostOps1_17_nw r hr, hostOps1_18_nw r hr, hostOps1_19_nw r hr⟩

/-! ## @main around the region -/

/-- @main is the host lines before the region, the region, and the stretches after it: it reduces to the
    region continued by those stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOpss.map StableHlo.seq)) :=
  Pipeline.hmain_around cfgs 0 defs₀ 𝒱₀ m main [hostOps0] tailOpss (by simp only [List.Forall]; exact hostOps0_sub)
    (by simp only [List.Forall]; exact hostOps0_fresh) main_chain

/-- The lines after the region touch the region's arrays and the buffers that bypass it only: with nothing
    prefetched these are all the unscoped references of the core. -/
theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (forall_stretch tail_sub ops hops op hop)

/-- They allocate nothing. -/
theorem sfx_fresh : ∀ ops ∈ (tailOpss : List (List (HloOp τ sig (Elt F)))), ∀ op ∈ ops, op.fresh = ∅ :=
  forall_stretch tail_fresh

/-- The region's four arrays are among the kept references. -/
theorem arrRef_kept (w : Fin 4) : Pipeline.arrRef spec0 w ∈ kept := by
  fin_cases w <;> decide

/-- And they write no array of the region. -/
theorem sfx_keeps : ∀ ops ∈ (tailOpss : List (List (HloOp τ sig (Elt F)))), ∀ op ∈ ops,
    ∀ w, Proc.devRef .tc (Pipeline.arrRef spec0 w) ∉ op.writes :=
  fun ops hops op hop w => forall_stretch (tail_nw _ (arrRef_kept w)) ops hops op hop

/-- No host line before the region writes the argument array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No host line after the region writes it either, and it is no array of the region: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOpss c main_arg0 = m ((c : Thread nD τ).loc main_arg0) := by
  unfold Pipeline.afterTail₀
  rw [StableHlo.after_of_forall_not_mem (b := Proc.devRef .tc main_arg0) _ _
      (forall_flatten (tail_nw main_arg0 (by decide))),
    Pipeline.withArrays_of_ne _ c (V0 m c) _ main_arg0 (by exact (by decide : ∀ w, Pipeline.arrRef spec0 w ≠ main_arg0))]
  exact V_main_arg0 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the region-entry contents and whose body leaves the block in place: the window is uncut
    and never idle, and unfetched its block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data, a run to the region's frame post read at the argument array (which no window stages, so
    it is as the lines after the region leave it: as launched) is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOpss))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (W_main_arg0 m dats c))) h

/-! ## The body's accesses -/

/-- The one rectangle the body reads and writes through: a whole staging buffer. -/
abbrev r0 : Rect S1x3125x128 := Rect.unit (s := S1x3125x128) ![0, 0, 0] S1x3125x128.size inb_S1x3125x128_S1x3125x128_0_0_0

/-! ## What the body leaves in the output window's buffer -/

/-- The output window's staging buffer after the body, from the three input blocks: its one store, which fills the
    buffer. What the buffer held before (which the body also reads, and does not use) does not enter. -/
def out0_3 (x0 x1 x2 : Vec F S1x3125x128 .f32) : Vec F S1x3125x128 .i32 :=
  View.canon [⟨r0, k0_pay1 (k0_pay4 (View.ld x2 r0)) (k0_pay5 (View.ld x0 r0) (View.ld x1 r0) (View.ld x2 r0))
    (k0_pay6 (View.ld x0 r0)) (k0_pay7 (View.ld x1 r0))⟩]

/-- The store fills the buffer. -/
theorem cover0_3 (p0 : Vec F S1x3125x128 .i32) (y : S1x3125x128.Idx) :
    ∃ pc ∈ ([⟨r0, p0⟩] : List (View.Piece (Elt F) S1x3125x128 .i32)), y ∈ pc.1.set :=
  View.cover_of_tiled [⟨r0, p0⟩] S1x3125x128.size (by rfl) y

/-! ## The body's triple -/

set_option maxHeartbeats 1000000 in
/-- The body on whole staging memrefs, the inputs' at contents reading `x0 x1 x2` and the output's at anything,
    runs to the continuation holding the inputs' as they were and the output's at `out0_3` of the inputs: it loads
    the three inputs, loads the output buffer (a value it does not use), and stores over the whole output buffer. -/
theorem sound_kernel (c : Dev nD) (E : Set ℕ) (i : grid0.Coords)
    (arg1 : Memref sig .tc .vmem S1x3125x128 .f32) (harg1 : arg1.IsWhole) (arg2 : Memref sig .tc .vmem S1x3125x128 .f32) (harg2 : arg2.IsWhole)
    (arg3 : Memref sig .tc .vmem S1x3125x128 .f32) (harg3 : arg3.IsWhole) (arg4 : Memref sig .tc .vmem S1x3125x128 .i32) (harg4 : arg4.IsWhole)
    (x0 x1 x2 : Vec F S1x3125x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__hash_kernel i arg1 harg1 arg2 harg2 arg3 harg3 arg4 harg4) K := by
  simp only [cc0__hash_kernel_eq_skeleton]; unfold cc0__hash_kernel_skel
  simp only [k0_part1_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- The proof data of the region on core `c`: the arrays as the region finds them; after the body at point `t`
    each input's buffer at its block and the output's at `out0_3` of the three input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, the output's holds something, so the body's
    triple applies; the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, for any values: every weakly fair execution of @main on the core terminates,
    and every final state has every array of the region at what the proof data determine and every
    other unscoped buffer as the lines after the region leave it. -/
theorem run_main : θ_run defs (onTc (τ := τ) (main (F := F))) (s₀ m ρ) (Pipeline.FramePost cfgs (dats m) 0 (Pipeline.afterTail₀ cfgs (dats m) 0 (V0 m) tailOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hΦ := fun _ _ => rfl)

/-- The frame: @main runs, and the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (run_main m ρ)

/-- info: 'Cert.Kernel.Hand.run_main' depends on axioms: [propext, Classical.choice, Quot.sound] -/
#guard_msgs in #print axioms run_main

end Cert.Kernel.Hand

end
-- ==== Proof.KFrameIdeal.lean ====
import proofs.«420773_j40235253629492_3_alg».proof.Proof.Gen.KernelIdeal.Launch
import proofs.«420773_j40235253629492_3_alg».proof.Proof.Gen.KernelIdeal.Skeleton
import proofs.«420773_j40235253629492_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
The frame run of the program: the host lines before its one region, the region on its grid of ten
points (three staged inputs, one written output), and the host lines after it. The run ends with the
argument array as it was launched.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The host lines around the region -/

/-- The stretches of host lines after the region, in program order. -/
abbrev tailOpss : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19]

/-- A property of every line of every stretch holds of every line of the stretches laid end to end. -/
theorem forall_flatten {α : Type} {P : α → Prop} {L : List (List α)} (h : L.Forall fun l => l.Forall P) :
    ∀ a ∈ L.flatten, P a := by
  intro a ha
  obtain ⟨l, hl, hal⟩ := List.mem_flatten.mp ha
  exact List.forall_iff_forall_mem.mp (List.forall_iff_forall_mem.mp h l hl) a hal

/-- The same, stretch by stretch. -/
theorem forall_stretch {α : Type} {P : α → Prop} {L : List (List α)} (h : L.Forall fun l => l.Forall P) :
    ∀ l ∈ L, ∀ a ∈ l, P a :=
  fun l hl a hal => List.forall_iff_forall_mem.mp (List.forall_iff_forall_mem.mp h l hl) a hal

variable (m : (ℓ : Loc nD τ sig) → Buf (Elt F) ℓ) (ρ : Dev nD → PrngReg)

/-- The core's buffer contents when the region is entered: the launch contents carried through the
    host lines before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-! ### No line allocates -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor
theorem hostOps1_17_fresh : (hostOps1_17 : List (HloOp τ sig (Elt F))).Forall fun op => op.fresh = ∅ := by
  simp only [List.Forall]; repeat' constructor
theorem hostOps1_18_fresh : (hostOps1_18 : List (HloOp τ sig (Elt F))).Forall fun op => op.fresh = ∅ := by
  simp only [List.Forall]; repeat' constructor
theorem hostOps1_19_fresh : (hostOps1_19 : List (HloOp τ sig (Elt F))).Forall fun op => op.fresh = ∅ := by
  simp only [List.Forall]; repeat' constructor

theorem tail_fresh : (tailOpss : List (List (HloOp τ sig (Elt F)))).Forall fun ops => ops.Forall fun op => op.fresh = ∅ :=
  ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh, hostOps1_12_fresh, hostOps1_13_fresh, hostOps1_14_fresh, hostOps1_15_fresh, hostOps1_16_fresh, hostOps1_17_fresh, hostOps1_18_fresh, hostOps1_19_fresh⟩

/-! ### Every line touches unscoped references of the core only -/

theorem tail_sub : (tailOpss : List (List (HloOp τ sig (Elt F)))).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub, hostOps1_19_sub⟩

/-! ### No line writes the argument array or an array of the region -/

/-- The references no host line writes: the argument and the region's four arrays. -/
def kept : List (Ref sig .tc) := [main_arg0, main_v6, main_v7, main_v8, main_v9]

/-- Each line writes its own result buffer only, and that is none of the kept references. -/
local macro "no_write" : tactic => `(tactic| (
  simp only [List.Forall, StableHlo.nullary_writes, StableHlo.unary_writes, StableHlo.binary_writes, StableHlo.ternary_writes, StableHlo.reshape_writes, StableHlo.nary_writes, Finset.mem_singleton]
  repeat' apply And.intro
  all_goals exact StableHlo.devRef_ne_of_ne (by decide)))

theorem hostOps1_nw : ∀ r ∈ kept, (hostOps1 : List (HloOp τ sig (Elt F))).Forall fun op => Proc.devRef (τ := τ) .tc r ∉ op.writes := by
  intro r hr; simp only [kept, List.mem_cons, List.mem_nil_iff, or_false] at hr
  rcases hr with rfl | rfl | rfl | rfl | rfl <;> no_write
theorem hostOps1_1_nw : ∀ r ∈ kept, (hostOps1_1 : List (HloOp τ sig (Elt F))).Forall fun op => Proc.devRef (τ := τ) .tc r ∉ op.writes := by
  intro r hr; simp only [kept, List.mem_cons, List.mem_nil_iff, or_false] at hr
  rcases hr with rfl | rfl | rfl | rfl | rfl <;> no_write
theorem hostOps1_2_nw : ∀ r ∈ kept, (hostOps1_2 : List (HloOp τ sig (Elt F))).Forall fun op => Proc.devRef (τ := τ) .tc r ∉ op.writes := by
  intro r hr; simp only [kept, List.mem_cons, List.mem_nil_iff, or_false] at hr
  rcases hr with rfl | rfl | rfl | rfl | rfl <;> no_write
theorem hostOps1_3_nw : ∀ r ∈ kept, (hostOps1_3 : List (HloOp τ sig (Elt F))).Forall fun op => Proc.devRef (τ := τ) .tc r ∉ op.writes := by
  intro r hr; simp only [kept, List.mem_cons, List.mem_nil_iff, or_false] at hr
  rcases hr with rfl | rfl | rfl | rfl | rfl <;> no_write
theorem hostOps1_4_nw : ∀ r ∈ kept, (hostOps1_4 : List (HloOp τ sig (Elt F))).Forall fun op => Proc.devRef (τ := τ) .tc r ∉ op.writes := by
  intro r hr; simp only [kept, List.mem_cons, List.mem_nil_iff, or_false] at hr
  rcases hr with rfl | rfl | rfl | rfl | rfl <;> no_write
theorem hostOps1_5_nw : ∀ r ∈ kept, (hostOps1_5 : List (HloOp τ sig (Elt F))).Forall fun op => Proc.devRef (τ := τ) .tc r ∉ op.writes := by
  intro r hr; simp only [kept, List.mem_cons, List.mem_nil_iff, or_false] at hr
  rcases hr with rfl | rfl | rfl | rfl | rfl <;> no_write
theorem hostOps1_6_nw : ∀ r ∈ kept, (hostOps1_6 : List (HloOp τ sig (Elt F))).Forall fun op => Proc.devRef (τ := τ) .tc r ∉ op.writes := by
  intro r hr; simp only [kept, List.mem_cons, List.mem_nil_iff, or_false] at hr
  rcases hr with rfl | rfl | rfl | rfl | rfl <;> no_write
theorem hostOps1_7_nw : ∀ r ∈ kept, (hostOps1_7 : List (HloOp τ sig (Elt F))).Forall fun op => Proc.devRef (τ := τ) .tc r ∉ op.writes := by
  intro r hr; simp only [kept, List.mem_cons, List.mem_nil_iff, or_false] at hr
  rcases hr with rfl | rfl | rfl | rfl | rfl <;> no_write
theorem hostOps1_8_nw : ∀ r ∈ kept, (hostOps1_8 : List (HloOp τ sig (Elt F))).Forall fun op => Proc.devRef (τ := τ) .tc r ∉ op.writes := by
  intro r hr; simp only [kept, List.mem_cons, List.mem_nil_iff, or_false] at hr
  rcases hr with rfl | rfl | rfl | rfl | rfl <;> no_write
theorem hostOps1_9_nw : ∀ r ∈ kept, (hostOps1_9 : List (HloOp τ sig (Elt F))).Forall fun op => Proc.devRef (τ := τ) .tc r ∉ op.writes := by
  intro r hr; simp only [kept, List.mem_cons, List.mem_nil_iff, or_false] at hr
  rcases hr with rfl | rfl | rfl | rfl | rfl <;> no_write
theorem hostOps1_10_nw : ∀ r ∈ kept, (hostOps1_10 : List (HloOp τ sig (Elt F))).Forall fun op => Proc.devRef (τ := τ) .tc r ∉ op.writes := by
  intro r hr; simp only [kept, List.mem_cons, List.mem_nil_iff, or_false] at hr
  rcases hr with rfl | rfl | rfl | rfl | rfl <;> no_write
theorem hostOps1_11_nw : ∀ r ∈ kept, (hostOps1_11 : List (HloOp τ sig (Elt F))).Forall fun op => Proc.devRef (τ := τ) .tc r ∉ op.writes := by
  intro r hr; simp only [kept, List.mem_cons, List.mem_nil_iff, or_false] at hr
  rcases hr with rfl | rfl | rfl | rfl | rfl <;> no_write
theorem hostOps1_12_nw : ∀ r ∈ kept, (hostOps1_12 : List (HloOp τ sig (Elt F))).Forall fun op => Proc.devRef (τ := τ) .tc r ∉ op.writes := by
  intro r hr; simp only [kept, List.mem_cons, List.mem_nil_iff, or_false] at hr
  rcases hr with rfl | rfl | rfl | rfl | rfl <;> no_write
theorem hostOps1_13_nw : ∀ r ∈ kept, (hostOps1_13 : List (HloOp τ sig (Elt F))).Forall fun op => Proc.devRef (τ := τ) .tc r ∉ op.writes := by
  intro r hr; simp only [kept, List.mem_cons, List.mem_nil_iff, or_false] at hr
  rcases hr with rfl | rfl | rfl | rfl | rfl <;> no_write
theorem hostOps1_14_nw : ∀ r ∈ kept, (hostOps1_14 : List (HloOp τ sig (Elt F))).Forall fun op => Proc.devRef (τ := τ) .tc r ∉ op.writes := by
  intro r hr; simp only [kept, List.mem_cons, List.mem_nil_iff, or_false] at hr
  rcases hr with rfl | rfl | rfl | rfl | rfl <;> no_write
theorem hostOps1_15_nw : ∀ r ∈ kept, (hostOps1_15 : List (HloOp τ sig (Elt F))).Forall fun op => Proc.devRef (τ := τ) .tc r ∉ op.writes := by
  intro r hr; simp only [kept, List.mem_cons, List.mem_nil_iff, or_false] at hr
  rcases hr with rfl | rfl | rfl | rfl | rfl <;> no_write
theorem hostOps1_16_nw : ∀ r ∈ kept, (hostOps1_16 : List (HloOp τ sig (Elt F))).Forall fun op => Proc.devRef (τ := τ) .tc r ∉ op.writes := by
  intro r hr; simp only [kept, List.mem_cons, List.mem_nil_iff, or_false] at hr
  rcases hr with rfl | rfl | rfl | rfl | rfl <;> no_write
theorem hostOps1_17_nw : ∀ r ∈ kept, (hostOps1_17 : List (HloOp τ sig (Elt F))).Forall fun op => Proc.devRef (τ := τ) .tc r ∉ op.writes := by
  intro r hr; simp only [kept, List.mem_cons, List.mem_nil_iff, or_false] at hr
  rcases hr with rfl | rfl | rfl | rfl | rfl <;> no_write
theorem hostOps1_18_nw : ∀ r ∈ kept, (hostOps1_18 : List (HloOp τ sig (Elt F))).Forall fun op => Proc.devRef (τ := τ) .tc r ∉ op.writes := by
  intro r hr; simp only [kept, List.mem_cons, List.mem_nil_iff, or_false] at hr
  rcases hr with rfl | rfl | rfl | rfl | rfl <;> no_write
theorem hostOps1_19_nw : ∀ r ∈ kept, (hostOps1_19 : List (HloOp τ sig (Elt F))).Forall fun op => Proc.devRef (τ := τ) .tc r ∉ op.writes := by
  intro r hr; simp only [kept, List.mem_cons, List.mem_nil_iff, or_false] at hr
  rcases hr with rfl | rfl | rfl | rfl | rfl <;> no_write

theorem tail_nw (r : Ref sig .tc) (hr : r ∈ kept) :
    (tailOpss : List (List (HloOp τ sig (Elt F)))).Forall fun ops => ops.Forall fun op => Proc.devRef (τ := τ) .tc r ∉ op.writes :=
  ⟨hostOps1_nw r hr, hostOps1_1_nw r hr, hostOps1_2_nw r hr, hostOps1_3_nw r hr, hostOps1_4_nw r hr, hostOps1_5_nw r hr, hostOps1_6_nw r hr, hostOps1_7_nw r hr, hostOps1_8_nw r hr, hostOps1_9_nw r hr, hostOps1_10_nw r hr, hostOps1_11_nw r hr, hostOps1_12_nw r hr, hostOps1_13_nw r hr, hostOps1_14_nw r hr, hostOps1_15_nw r hr, hostOps1_16_nw r hr, hostOps1_17_nw r hr, hostOps1_18_nw r hr, hostOps1_19_nw r hr⟩

/-! ## @main around the region -/

/-- @main is the host lines before the region, the region, and the stretches after it: it reduces to the
    region continued by those stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOpss.map StableHlo.seq)) :=
  Pipeline.hmain_around cfgs 0 defs₀ 𝒱₀ m main [hostOps0] tailOpss (by simp only [List.Forall]; exact hostOps0_sub)
    (by simp only [List.Forall]; exact hostOps0_fresh) main_chain

/-- The lines after the region touch the region's arrays and the buffers that bypass it only: with nothing
    prefetched these are all the unscoped references of the core. -/
theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (forall_stretch tail_sub ops hops op hop)

/-- They allocate nothing. -/
theorem sfx_fresh : ∀ ops ∈ (tailOpss : List (List (HloOp τ sig (Elt F)))), ∀ op ∈ ops, op.fresh = ∅ :=
  forall_stretch tail_fresh

/-- The region's four arrays are among the kept references. -/
theorem arrRef_kept (w : Fin 4) : Pipeline.arrRef spec0 w ∈ kept := by
  fin_cases w <;> decide

/-- And they write no array of the region. -/
theorem sfx_keeps : ∀ ops ∈ (tailOpss : List (List (HloOp τ sig (Elt F)))), ∀ op ∈ ops,
    ∀ w, Proc.devRef .tc (Pipeline.arrRef spec0 w) ∉ op.writes :=
  fun ops hops op hop w => forall_stretch (tail_nw _ (arrRef_kept w)) ops hops op hop

/-- No host line before the region writes the argument array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No host line after the region writes it either, and it is no array of the region: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOpss c main_arg0 = m ((c : Thread nD τ).loc main_arg0) := by
  unfold Pipeline.afterTail₀
  rw [StableHlo.after_of_forall_not_mem (b := Proc.devRef .tc main_arg0) _ _
      (forall_flatten (tail_nw main_arg0 (by decide))),
    Pipeline.withArrays_of_ne _ c (V0 m c) _ main_arg0 (by exact (by decide : ∀ w, Pipeline.arrRef spec0 w ≠ main_arg0))]
  exact V_main_arg0 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the region-entry contents and whose body leaves the block in place: the window is uncut
    and never idle, and unfetched its block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data, a run to the region's frame post read at the argument array (which no window stages, so
    it is as the lines after the region leave it: as launched) is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOpss))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (W_main_arg0 m dats c))) h

/-! ## The body's accesses -/

/-- The one rectangle the body reads and writes through: a whole staging buffer. -/
abbrev r0 : Rect S1x3125x128 := Rect.unit (s := S1x3125x128) ![0, 0, 0] S1x3125x128.size inb_S1x3125x128_S1x3125x128_0_0_0

/-! ## What the body leaves in the output window's buffer -/

/-- The output window's staging buffer after the body, from the three input blocks: its one store, which fills the
    buffer. What the buffer held before (which the body also reads, and does not use) does not enter. -/
def out0_3 (x0 x1 x2 : Vec F S1x3125x128 .f32) : Vec F S1x3125x128 .i32 :=
  View.canon [⟨r0, k0_pay1 (k0_pay4 (View.ld x2 r0)) (k0_pay5 (View.ld x0 r0) (View.ld x1 r0) (View.ld x2 r0))
    (k0_pay6 (View.ld x0 r0)) (k0_pay7 (View.ld x1 r0))⟩]

/-- The store fills the buffer. -/
theorem cover0_3 (p0 : Vec F S1x3125x128 .i32) (y : S1x3125x128.Idx) :
    ∃ pc ∈ ([⟨r0, p0⟩] : List (View.Piece (Elt F) S1x3125x128 .i32)), y ∈ pc.1.set :=
  View.cover_of_tiled [⟨r0, p0⟩] S1x3125x128.size (by rfl) y

/-! ## The body's triple -/

set_option maxHeartbeats 1000000 in
/-- The body on whole staging memrefs, the inputs' at contents reading `x0 x1 x2` and the output's at anything,
    runs to the continuation holding the inputs' as they were and the output's at `out0_3` of the inputs: it loads
    the three inputs, loads the output buffer (a value it does not use), and stores over the whole output buffer. -/
theorem sound_kernel (c : Dev nD) (E : Set ℕ) (i : grid0.Coords)
    (arg1 : Memref sig .tc .vmem S1x3125x128 .f32) (harg1 : arg1.IsWhole) (arg2 : Memref sig .tc .vmem S1x3125x128 .f32) (harg2 : arg2.IsWhole)
    (arg3 : Memref sig .tc .vmem S1x3125x128 .f32) (harg3 : arg3.IsWhole) (arg4 : Memref sig .tc .vmem S1x3125x128 .i32) (harg4 : arg4.IsWhole)
    (x0 x1 x2 : Vec F S1x3125x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__hash_kernel i arg1 harg1 arg2 harg2 arg3 harg3 arg4 harg4) K := by
  simp only [cc0__hash_kernel_eq_skeleton]; unfold cc0__hash_kernel_skel
  simp only [k0_part1_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- The proof data of the region on core `c`: the arrays as the region finds them; after the body at point `t`
    each input's buffer at its block and the output's at `out0_3` of the three input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, the output's holds something, so the body's
    triple applies; the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, for any values: every weakly fair execution of @main on the core terminates,
    and every final state has every array of the region at what the proof data determine and every
    other unscoped buffer as the lines after the region leave it. -/
theorem run_main : θ_run defs (onTc (τ := τ) (main (F := F))) (s₀ m ρ) (Pipeline.FramePost cfgs (dats m) 0 (Pipeline.afterTail₀ cfgs (dats m) 0 (V0 m) tailOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hΦ := fun _ _ => rfl)

/-- The frame: @main runs, and the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (run_main m ρ)

/-- info: 'Cert.KernelIdeal.Hand.run_main' depends on axioms: [propext, Classical.choice, Quot.sound] -/
#guard_msgs in #print axioms run_main

end Cert.KernelIdeal.Hand

end
-- ==== Proof.Spec.lean ====
/-
  The stages of hard voxelization as pure functions, shared by the kernel's program and the reference.

  Points carry a voxel hash (an in-range point's clipped cell coordinates, packed; the sentinel 65536 for a
  point outside the range). The points are sorted by hash; in sorted order a RUN starts where the hash
  changes and is below the sentinel; a point's voxel is the number of runs started so far, its rank the
  distance to its run's start. A point is kept when it is in range, its rank is below 32 and its voxel
  below 16000. From these the two programs build the same three tables — the per-voxel point count, the
  per-voxel cell coordinates, the per-voxel rows of up to 32 points — one by scattering every sorted point
  to its (voxel, rank) slot, the other by gathering, for each slot, the point at (run start + rank).
-/
import Idealize.ShloMosaic.PureOps

noncomputable section

namespace Cert.Spec

open Idealize.ShloMosaic

/-! ## Shapes and their relations -/

abbrev S_ : Shape := ⟨0, ![]⟩
abbrev S1 : Shape := ⟨1, ![1]⟩
abbrev S3 : Shape := ⟨1, ![3]⟩
abbrev S1x3 : Shape := ⟨2, ![1, 3]⟩
abbrev SN : Shape := ⟨1, ![4000000]⟩
abbrev SN' : Shape := ⟨1, ![3999999]⟩
abbrev SNx1 : Shape := ⟨2, ![4000000, 1]⟩
abbrev SNx2 : Shape := ⟨2, ![4000000, 2]⟩
abbrev SNx3 : Shape := ⟨2, ![4000000, 3]⟩
abbrev SNx4 : Shape := ⟨2, ![4000000, 4]⟩
abbrev SG : Shape := ⟨3, ![10, 3125, 128]⟩
abbrev SV1 : Shape := ⟨1, ![16001]⟩
abbrev SV : Shape := ⟨1, ![16000]⟩
abbrev SVx1 : Shape := ⟨2, ![16000, 1]⟩
abbrev SVxM : Shape := ⟨2, ![16000, 32]⟩
abbrev SVxMx1 : Shape := ⟨3, ![16000, 32, 1]⟩
abbrev SVxMx4 : Shape := ⟨3, ![16000, 32, 4]⟩
abbrev SV1xMx4 : Shape := ⟨3, ![16001, 32, 4]⟩
abbrev SV1x3 : Shape := ⟨2, ![16001, 3]⟩
abbrev SVx3 : Shape := ⟨2, ![16000, 3]⟩

theorem b_SN : S_.BroadcastsInDim SN (![] : Fin 0 → Fin SN.rank) := by decide
theorem b_S_ : S_.BroadcastsInDim S_ (![] : Fin 0 → Fin S_.rank) := by decide
theorem b_SV1 : S_.BroadcastsInDim SV1 (![] : Fin 0 → Fin SV1.rank) := by decide
theorem b_SVxM : S_.BroadcastsInDim SVxM (![] : Fin 0 → Fin SVxM.rank) := by decide
theorem b_SVxMx4 : S_.BroadcastsInDim SVxMx4 (![] : Fin 0 → Fin SVxMx4.rank) := by decide
theorem b_SV1xMx4 : S_.BroadcastsInDim SV1xMx4 (![] : Fin 0 → Fin SV1xMx4.rank) := by decide
theorem b_SV1x3 : S_.BroadcastsInDim SV1x3 (![] : Fin 0 → Fin SV1x3.rank) := by decide
theorem b_SNx3 : S_.BroadcastsInDim SNx3 (![] : Fin 0 → Fin SNx3.rank) := by decide
theorem b_col : SN.BroadcastsInDim SNx1 (![0] : Fin 1 → Fin SNx1.rank) := by decide
theorem b_vcol : SV.BroadcastsInDim SVx1 (![0] : Fin 1 → Fin SVx1.rank) := by decide
theorem b_vrow : SVx1.BroadcastsInDim SVxM (![0, 1] : Fin 2 → Fin SVxM.rank) := by decide
theorem b_slot : SVxM.BroadcastsInDim SVxMx1 (![0, 1] : Fin 2 → Fin SVxMx1.rank) := by decide
theorem b_slot4 : SVxMx1.BroadcastsInDim SVxMx4 (![0, 1, 2] : Fin 3 → Fin SVxMx4.rank) := by decide
theorem b_3row : S3.BroadcastsInDim S1x3 (![1] : Fin 1 → Fin S1x3.rank) := by decide
theorem b_3all : S1x3.BroadcastsInDim SNx3 (![0, 1] : Fin 2 → Fin SNx3.rank) := by decide
theorem sl_tail : SN.Slices ![1] SN' := by decide
theorem sl_init : SN.Slices ![0] SN' := by decide
theorem sl_V : SV1.Slices ![0] SV := by decide
theorem sl_Vx3 : SV1x3.Slices ![0, 0] SVx3 := by decide
theorem sl_VxMx4 : SV1xMx4.Slices ![0, 0, 0] SVxMx4 := by decide
theorem sl_xyz : SNx4.Slices ![0, 0] SNx3 := by decide
theorem sl_c0 : SNx4.Slices ![0, 0] SNx1 := by decide
theorem sl_c1 : SNx4.Slices ![0, 1] SNx1 := by decide
theorem sl_c2 : SNx4.Slices ![0, 2] SNx1 := by decide
theorem sl3_c0 : SNx3.Slices ![0, 0] SNx1 := by decide
theorem sl3_c1 : SNx3.Slices ![0, 1] SNx1 := by decide
theorem sl3_c2 : SNx3.Slices ![0, 2] SNx1 := by decide
theorem sc_col : SNx1.ShapeCasts SN := by decide
theorem sc_grid : SN.ShapeCasts SG := by decide
theorem sc_flat : SG.ShapeCasts SN := by decide
theorem cat_first : Shape.Concatenates [S1, SN'] SN 0 := by decide
theorem cat3 : Shape.Concatenates [SNx1, SNx1, SNx1] SNx3 1 := by decide
theorem cat2 : Shape.Concatenates [SNx1, SNx1] SNx2 1 := by decide
theorem lt_1_32 : 1 < 32 := by decide
theorem rw_scan : SN.ReduceWindows (![4000000] : Fin 1 → Nat) ![1] ![3999999] ![0] SN := by decide
theorem pos_S_ : 0 < S_.numel := by decide
theorem red_row : SNx3.ReducesTo [1] SN := by decide

/-! ## Dimension-number records -/

def scatVec : ScatterDims SV1 SNx1 SN where
  updateWindowDims := []
  insertedWindowDims := [0]
  scatterDimsToOperandDims := [0]
  indexVectorDim := 1
  wf := by decide
def scatRows3 : ScatterDims SV1x3 SNx1 SNx3 where
  updateWindowDims := [1]
  insertedWindowDims := [0]
  scatterDimsToOperandDims := [0]
  indexVectorDim := 1
  wf := by decide
def scatSlots : ScatterDims SV1xMx4 SNx2 SNx4 where
  updateWindowDims := [1]
  insertedWindowDims := [0, 1]
  scatterDimsToOperandDims := [0, 1]
  indexVectorDim := 1
  wf := by decide
def gathVec : GatherDims SN SNx1 SN where
  offsetDims := []
  collapsedSliceDims := [0]
  operandBatchingDims := []
  startIndicesBatchingDims := []
  startIndexMap := [0]
  indexVectorDim := 1
  sliceSizes := ![1]
  wf := by decide
def gathRows3 : GatherDims SNx3 SNx1 SNx3 where
  offsetDims := [1]
  collapsedSliceDims := [0]
  operandBatchingDims := []
  startIndicesBatchingDims := []
  startIndexMap := [0]
  indexVectorDim := 1
  sliceSizes := ![1, 3]
  wf := by decide
def gathRows4 : GatherDims SNx4 SNx1 SNx4 where
  offsetDims := [1]
  collapsedSliceDims := [0]
  operandBatchingDims := []
  startIndicesBatchingDims := []
  startIndexMap := [0]
  indexVectorDim := 1
  sliceSizes := ![1, 4]
  wf := by decide
def gathSlotVec : GatherDims SN SVxMx1 SVxM where
  offsetDims := []
  collapsedSliceDims := [0]
  operandBatchingDims := []
  startIndicesBatchingDims := []
  startIndexMap := [0]
  indexVectorDim := 2
  sliceSizes := ![1]
  wf := by decide
def gathSlotRows : GatherDims SNx4 SVxMx1 SVxMx4 where
  offsetDims := [2]
  collapsedSliceDims := [0]
  operandBatchingDims := []
  startIndicesBatchingDims := []
  startIndexMap := [0]
  indexVectorDim := 2
  sliceSizes := ![1, 4]
  wf := by decide

/-- The sort's comparator: by the key, signed. -/
def byKey : BitVec 32 × BitVec 32 → BitVec 32 × BitVec 32 → BitVec 1 := fun l r => IntOp.cmpi .slt l.1 r.1

/-! ## Small builders -/

/-- A word at every position of the sorted order. -/
def allN (w : BitVec 32) : IVec SN 32 := broadcastInDim SN ![] b_SN (constantI S_ 32 w)
/-- A word at every slot. -/
def allVxM (w : BitVec 32) : IVec SVxM 32 := broadcastInDim SVxM ![] b_SVxM (constantI S_ 32 w)
/-- The position in sorted order. -/
def pos : IVec SN 32 := iotaInDim SN 32 0
/-- jnp.where against a scalar. -/
def whereN (c : IVec SN 1) (a : IVec SN 32) (w : BitVec 32) : IVec SN 32 :=
  select c a (broadcastInDim SN ![] b_SN (id (constantI S_ 32 w)))
/-- A negative index counted from the end (jax's index normalisation). -/
def normN (x : IVec SN 32) (k : BitVec 32) : IVec SN 32 := select (cmpi .slt x (allN 0#32)) (addi x (allN k)) x
def normVxM (x : IVec SVxM 32) (k : BitVec 32) : IVec SVxM 32 := select (cmpi .slt x (allVxM 0#32)) (addi x (allVxM k)) x
/-- A vector of indices as a column of one-component start indices. -/
def col (x : IVec SN 32) : IVec SNx1 32 := broadcastInDim SNx1 ![0] b_col x
/-- The running sum / running signed maximum along the sorted order. -/
def csum (x : IVec SN 32) : IVec SN 32 :=
  Host.reduceWindow IntOp.addi ![4000000] ![1] ![3999999] ![0] x (broadcastInDim S_ ![] b_S_ (constantI S_ 32 0#32)) rw_scan pos_S_
def cmax (x : IVec SN 32) : IVec SN 32 :=
  Host.reduceWindow IntOp.maxsi ![4000000] ![1] ![3999999] ![0] x (broadcastInDim S_ ![] b_S_ (constantI S_ 32 2147483648#32)) rw_scan pos_S_

/-! ## The stages over the sorted hashes sh -/

def svalid (sh : IVec SN 32) : IVec SN 1 := cmpi .slt sh (allN 65536#32)
def newv (sh : IVec SN 32) : IVec SN 1 :=
  andi (concatenate SN 0 [⟨S1, constantI S1 1 1#1⟩, ⟨SN', cmpi .ne (extractStridedSlice SN' ![1] sh sl_tail) (extractStridedSlice SN' ![0] sh sl_init)⟩] cat_first)
    (svalid sh)
def vid (sh : IVec SN 32) : IVec SN 32 := subi (csum (extui 32 (newv sh) lt_1_32)) (allN 1#32)
def start (sh : IVec SN 32) : IVec SN 32 := cmax (whereN (newv sh) pos 0#32)
def rank (sh : IVec SN 32) : IVec SN 32 := subi pos (start sh)
def keep (sh : IVec SN 32) : IVec SN 1 :=
  andi (andi (svalid sh) (cmpi .slt (rank sh) (allN 32#32))) (cmpi .slt (vid sh) (allN 16000#32))
def vidS (sh : IVec SN 32) : IVec SN 32 := whereN (keep sh) (vid sh) 16000#32
def rankS (sh : IVec SN 32) : IVec SN 32 := whereN (keep sh) (rank sh) 0#32
def cvid (sh : IVec SN 32) : IVec SN 32 := whereN (andi (newv sh) (cmpi .slt (vid sh) (allN 16000#32))) (vid sh) 16000#32

/-- The per-voxel point count. -/
def numPoints (sh : IVec SN 32) : IVec SV 32 :=
  extractStridedSlice SV ![0]
    (Host.scatter scatVec IntOp.addi (broadcastInDim SV1 ![] b_SV1 (constantI S_ 32 0#32)) (col (vidS sh)) (extui 32 (keep sh) lt_1_32)) sl_V

/-! ## Coordinates -/

/-- jnp.remainder by a scalar, as jax writes it. -/
def remN (x : IVec SN 32) (k : BitVec 32) : IVec SN 32 :=
  let d : IVec S_ 32 := select (cmpi .eq (id (constantI S_ 32 k)) (constantI S_ 32 0#32)) (constantI S_ 32 1#32) (id (constantI S_ 32 k))
  let r : IVec SN 32 := Host.remsi x (broadcastInDim SN ![] b_SN d)
  select (andi (cmpi .ne (cmpi .slt r (allN 0#32)) (broadcastInDim SN ![] b_SN (cmpi .slt d (constantI S_ 32 0#32)))) (cmpi .ne r (allN 0#32)))
    (addi r (broadcastInDim SN ![] b_SN d)) r
/-- jnp.floor_divide by a scalar, as jax writes it. -/
def fdivN (x : IVec SN 32) (k : BitVec 32) : IVec SN 32 :=
  let d : IVec S_ 32 := id (constantI S_ 32 k)
  let q : IVec SN 32 := Host.divsi x (broadcastInDim SN ![] b_SN d)
  select (andi (cmpi .ne (signi x) (broadcastInDim SN ![] b_SN (signi d))) (cmpi .ne (Host.remsi x (broadcastInDim SN ![] b_SN d)) (allN 0#32)))
    (subi q (allN 1#32)) q
/-- The cell coordinates decoded from the hash: (h div 256, (h div 1) mod 256, h mod 1). -/
def decode (sh : IVec SN 32) : IVec SNx3 32 :=
  concatenate SNx3 1 [⟨SNx1, col (fdivN sh 256#32)⟩, ⟨SNx1, col (remN (fdivN sh 1#32) 256#32)⟩, ⟨SNx1, col (remN sh 1#32)⟩] cat3
/-- The per-voxel coordinates from a table sc of per-point coordinates in sorted order. -/
def coordsOf (sh : IVec SN 32) (sc : IVec SNx3 32) : IVec SVx3 32 :=
  extractStridedSlice SVx3 ![0, 0]
    (Host.scatter scatRows3 (fun _ b => b) (broadcastInDim SV1x3 ![] b_SV1x3 (constantI S_ 32 0#32)) (col (normN (cvid sh) 16001#32)) sc) sl_Vx3

/-! ## Reading the sorted order back -/

/-- x at the sorting permutation order. -/
def takeVec (x : IVec SN 32) (order : IVec SN 32) : IVec SN 32 := Host.gather gathVec x (col (normN order 4000000#32))
def takeRows3 (x : IVec SNx3 32) (order : IVec SN 32) : IVec SNx3 32 := Host.gather gathRows3 x (col (normN order 4000000#32))

variable {F : FTy → Type} [FloatOps F]

def takeRows4 (x : FVec F SNx4 .f32) (order : IVec SN 32) : FVec F SNx4 .f32 := Host.gather gathRows4 x (col (normN order 4000000#32))

/-! ## The voxel rows, by scattering and by gathering -/

/-- Every sorted point written to its (voxel, rank) slot; dropped points land in row 16000, cut off. -/
def voxelsScatter (pts : FVec F SNx4 .f32) (order sh : IVec SN 32) : FVec F SVxMx4 .f32 :=
  extractStridedSlice SVxMx4 ![0, 0, 0]
    (Host.scatter scatSlots (fun _ b => b) (broadcastInDim SV1xMx4 ![] b_SV1xMx4 (constant S_ .f32 0x00000000#32))
      (concatenate SNx2 1 [⟨SNx1, col (normN (vidS sh) 16001#32)⟩, ⟨SNx1, col (normN (rankS sh) 32#32)⟩] cat2)
      (takeRows4 pts order)) sl_VxMx4

/-- The sorted position each voxel starts at. -/
def voxStart (sh : IVec SN 32) : IVec SV 32 :=
  extractStridedSlice SV ![0]
    (Host.scatter scatVec (fun _ b => b) (broadcastInDim SV1 ![] b_SV1 (constantI S_ 32 0#32)) (col (normN (cvid sh) 16001#32)) pos) sl_V
/-- The rank of a slot. -/
def slotRank : IVec SVxM 32 := iotaInDim SVxM 32 1
def perVoxel (x : IVec SV 32) : IVec SVxM 32 := broadcastInDim SVxM ![0, 1] b_vrow (broadcastInDim SVx1 ![0] b_vcol x)
/-- The sorted position a slot reads: its voxel's start plus its rank, kept inside the table. -/
def gatherPos (sh : IVec SN 32) : IVec SVxM 32 := minsi (addi (perVoxel (voxStart sh)) slotRank) (allVxM 3999999#32)
/-- A slot is filled when its rank is below its voxel's count. -/
def filled (sh : IVec SN 32) : IVec SVxM 1 := cmpi .slt slotRank (perVoxel (numPoints sh))
/-- The original index of the point a slot reads. -/
def slotPoint (sh sidx : IVec SN 32) : IVec SVxM 32 :=
  Host.gather gathSlotVec sidx (broadcastInDim SVxMx1 ![0, 1] b_slot (normVxM (gatherPos sh) 4000000#32))
/-- Each filled slot reads its point; the others are zero. -/
def voxelsGather (pts : FVec F SNx4 .f32) (sidx sh : IVec SN 32) : FVec F SVxMx4 .f32 :=
  select (broadcastInDim SVxMx4 ![0, 1, 2] b_slot4 (broadcastInDim SVxMx1 ![0, 1] b_slot (filled sh)))
    (Host.gather gathSlotRows pts (broadcastInDim SVxMx1 ![0, 1] b_slot (normVxM (slotPoint sh sidx) 4000000#32)))
    (broadcastInDim SVxMx4 ![] b_SVxMx4 (id (constant S_ .f32 0x00000000#32)))

/-! ## The hash of a point, as the reference computes it -/

def lo3 : FVec F S3 .f32 := fun i => FloatOps.ofBits .f32 ((fun | 0 => 0x00000000#32 | 1 => 0xC1CCCCCD#32 | 2 => 0xC0400000#32 | _ => 0#32 : Fin 3 → BitVec 32) (S3.rowMajor i))
def hi3 : FVec F S3 .f32 := fun i => FloatOps.ofBits .f32 ((fun | 0 => 0x424CCCCD#32 | 1 => 0x41CCCCCD#32 | 2 => 0x40A00000#32 | _ => 0#32 : Fin 3 → BitVec 32) (S3.rowMajor i))
def vsz3 : FVec F S3 .f32 := fun i => FloatOps.ofBits .f32 ((fun | 0 => 0x3E4CCCCD#32 | 1 => 0x3E4CCCCD#32 | 2 => 0x41000000#32 | _ => 0#32 : Fin 3 → BitVec 32) (S3.rowMajor i))
def top3 : IVec S3 32 := fun i => (fun | 0 => 255#32 | 1 => 255#32 | 2 => 0#32 | _ => 0#32 : Fin 3 → BitVec 32) (S3.rowMajor i)
def rows3 (v : FVec F S3 .f32) : FVec F SNx3 .f32 := broadcastInDim SNx3 ![0, 1] b_3all (broadcastInDim S1x3 ![1] b_3row v)
def xyz (pts : FVec F SNx4 .f32) : FVec F SNx3 .f32 := extractStridedSlice SNx3 ![0, 0] pts sl_xyz
/-- In range on all three axes. -/
def inRange (pts : FVec F SNx4 .f32) : IVec SN 1 :=
  Host.reduce IntOp.andi (andi (cmpf .oge (xyz pts) (rows3 lo3)) (cmpf .olt (xyz pts) (rows3 hi3))) (constantI S_ 1 1#1) red_row pos_S_
/-- The clipped cell coordinates. -/
def cells (pts : FVec F SNx4 .f32) : IVec SNx3 32 :=
  minsi (broadcastInDim SNx3 ![0, 1] b_3all (broadcastInDim S1x3 ![1] b_3row top3))
    (maxsi (broadcastInDim SNx3 ![] b_SNx3 (id (constantI S_ 32 0#32)))
      (fptosi 32 (Host.floor (Host.divf (subf (xyz pts) (rows3 lo3)) (rows3 vsz3)))))
def cellCol (c : IVec SNx3 32) (k : Fin 3) : IVec SN 32 :=
  match k with
  | 0 => shapeCast SN (extractStridedSlice SNx1 ![0, 0] c sl3_c0) sc_col
  | 1 => shapeCast SN (extractStridedSlice SNx1 ![0, 1] c sl3_c1) sc_col
  | 2 => shapeCast SN (extractStridedSlice SNx1 ![0, 2] c sl3_c2) sc_col
/-- The packed hash of the cells. -/
def pack (c : IVec SNx3 32) : IVec SN 32 :=
  addi (addi (muli (cellCol c 0) (allN 256#32)) (muli (cellCol c 1) (allN 1#32))) (cellCol c 2)
/-- The hash: the packed cells in range, the sentinel outside. -/
def hashRef (pts : FVec F SNx4 .f32) : IVec SN 32 := whereN (inRange pts) (pack (cells pts)) 65536#32

/-! ## The hash as the kernel computes it, on any shape of lanes -/

def hashLanes (S : Shape) (x y z : FVec F S .f32) : IVec S 32 :=
  let valid : IVec S 1 :=
    andi (andi (andi (andi (andi (cmpf .oge x (broadcast S (Scalar.ofBits .f32 0x00000000#32))) (cmpf .olt x (broadcast S (Scalar.ofBits .f32 0x424CCCCD#32))))
      (cmpf .oge y (broadcast S (Scalar.ofBits .f32 0xC1CCCCCD#32)))) (cmpf .olt y (broadcast S (Scalar.ofBits .f32 0x41CCCCCD#32))))
      (cmpf .oge z (broadcast S (Scalar.ofBits .f32 0xC0400000#32)))) (cmpf .olt z (broadcast S (Scalar.ofBits .f32 0x40A00000#32)))
  let cx : IVec S 32 := minsi (broadcast S 255#32) (maxsi (broadcast S 0#32) (fptosi 32 (floor (divf (subf x (broadcast S (Scalar.ofBits .f32 0x00000000#32))) (broadcast S (Scalar.ofBits .f32 0x3E4CCCCD#32))))))
  let cy : IVec S 32 := minsi (broadcast S 255#32) (maxsi (broadcast S 0#32) (fptosi 32 (floor (divf (subf y (broadcast S (Scalar.ofBits .f32 0xC1CCCCCD#32))) (broadcast S (Scalar.ofBits .f32 0x3E4CCCCD#32))))))
  let cz : IVec S 32 := minsi (broadcast S 0#32) (maxsi (broadcast S 0#32) (fptosi 32 (floor (divf (subf z (broadcast S (Scalar.ofBits .f32 0xC0400000#32))) (broadcast S (Scalar.ofBits .f32 0x41000000#32))))))
  select valid (addi (addi (muli cx (broadcast S 256#32)) (muli cy (broadcast S 1#32))) cz) (broadcast S 65536#32)

/-- One coordinate column of the points, laid out on the kernel's grid of lanes. -/
def lanes (pts : FVec F SNx4 .f32) (k : Fin 3) : FVec F SG .f32 :=
  match k with
  | 0 => shapeCast SG (shapeCast SN (extractStridedSlice SNx1 ![0, 0] pts sl_c0) sc_col) sc_grid
  | 1 => shapeCast SG (shapeCast SN (extractStridedSlice SNx1 ![0, 1] pts sl_c1) sc_col) sc_grid
  | 2 => shapeCast SG (shapeCast SN (extractStridedSlice SNx1 ![0, 2] pts sl_c2) sc_col) sc_grid
/-- The kernel's hash of every point, flattened back to the point order. -/
def hashKer (pts : FVec F SNx4 .f32) : IVec SN 32 :=
  shapeCast SN (hashLanes SG (lanes pts 0) (lanes pts 1) (lanes pts 2)) sc_flat

/-! ## The three tables, per program -/

/-- The sort of the hashes carrying the original index. -/
def sorted (vh : IVec SN 32) : IVec SN 32 × IVec SN 32 := Host.sort2 SN 0 byKey vh pos

end Cert.Spec

end
-- ==== Proof.KTailOps.lean ====
import proofs.«420773_j40235253629492_3_alg».proof.Proof.Gen.KernelIdeal.Launch
import Idealize.ShloMosaic.Lib.StableHlo.Run
import Idealize.ShloMosaic.Lib.Pipeline.Frame

noncomputable section

namespace Cert.KernelIdeal.Tail

open Cert.KernelIdeal Cert.KernelIdeal.Gen Idealize.ShloMosaic Idealize.ShloMosaic.TcCoe

variable {F : FTy → Type} [FloatOps F]

/-! ## Lines that write each reference once

A line of operations each writing ONE reference, listed in order in `L`. A reference that no operation from
position `i` on writes holds at the end what it held after the first `i` operations; so the reference written
at position `i` holds that operation's function of what its operands hold AT THE END, when no later operation
writes the operands or it. -/

section Once
variable {nD : Nat} {τ : Topo} {sig : RefSig} {Val : EltTy → Type}
open StableHlo

/-- `L` lists, in order, the one reference each operation of the line writes. -/
def WritesIn (ops : List (HloOp τ sig Val)) (L : List (Ref sig .tc)) : Prop :=
  List.Forall₂ (fun op y => op.writes = {Proc.devRef .tc y}) ops L

theorem WritesIn.not_written {ops : List (HloOp τ sig Val)} {L : List (Ref sig .tc)} (h : WritesIn ops L)
    {r : Ref sig .tc} (hr : r ∉ L) : ∀ op ∈ ops, Proc.devRef (τ := τ) .tc r ∉ op.writes := by
  induction h with
  | nil => intro op hop; cases hop
  | cons hw _ ih =>
    intro op hop
    rcases List.mem_cons.1 hop with rfl | hop
    · rw [hw, Finset.mem_singleton]
      exact StableHlo.devRef_ne_of_ne fun e => hr (e ▸ List.mem_cons_self)
    · exact ih (fun hm => hr (List.mem_cons_of_mem _ hm)) op hop

theorem after_frame {ops : List (HloOp τ sig Val)} {L : List (Ref sig .tc)} (h : WritesIn ops L) (i : ℕ)
    {r : Ref sig .tc} (hr : r ∉ L.drop i) (V : Valuation τ sig Val) :
    after ops V (Proc.devRef .tc r) = after (ops.take i) V (Proc.devRef .tc r) := by
  conv_lhs => rw [← List.take_append_drop i ops, StableHlo.after_append]
  exact after_of_forall_not_mem _ _ (WritesIn.not_written (List.forall₂_drop i h) hr)

/-- The operation at position `i` (the head of what is left after dropping `i`) decides what its reference holds. -/
theorem after_at {ops : List (HloOp τ sig Val)} {L : List (Ref sig .tc)} (h : WritesIn ops L) (i : ℕ)
    {op : HloOp τ sig Val} {rest : List (HloOp τ sig Val)} (hop : ops.drop i = op :: rest)
    {y : Ref sig .tc} (hy : y ∉ L.drop (i + 1)) (V : Valuation τ sig Val) :
    after ops V (Proc.devRef .tc y) = op.result (after (ops.take i) V) (Proc.devRef .tc y) := by
  have hrest : ops.drop (i + 1) = rest := by rw [← List.tail_drop, hop]; rfl
  conv_lhs => rw [← List.take_append_drop i ops, StableHlo.after_append, hop, after_cons]
  refine after_of_forall_not_mem _ _ ?_
  rw [← hrest]
  exact WritesIn.not_written (List.forall₂_drop (i + 1) h) hy

variable {ops : List (HloOp τ sig Val)} {L : List (Ref sig .tc)} (h : WritesIn ops L) (i : ℕ)
  {rest : List (HloOp τ sig Val)}
include h

theorem step_nullary {y : Ref sig .tc} {v : y.ty.Contents Val} (hy : y.space ≠ .host ∧ (Proc.devRef (τ := τ) .tc y).isScoped = false := by exact ⟨by decide, rfl⟩)
    (hop : ops.drop i = nullary y v hy :: rest)
    (hY : y ∉ L.drop (i + 1)) (V : Valuation τ sig Val) : after ops V (Proc.devRef .tc y) = v := by
  rw [after_at h i hop hY, nullary_result]

theorem step_unary {x y : Ref sig .tc} {f : x.ty.Contents Val → y.ty.Contents Val} (hx : x.space ≠ .host ∧ (Proc.devRef (τ := τ) .tc x).isScoped = false := by exact ⟨by decide, rfl⟩) (hy : y.space ≠ .host ∧ (Proc.devRef (τ := τ) .tc y).isScoped = false := by exact ⟨by decide, rfl⟩)
    (hop : ops.drop i = unary x y f hx hy :: rest) (hX : x ∉ L.drop i) (hY : y ∉ L.drop (i + 1))
    (V : Valuation τ sig Val) :
    after ops V (Proc.devRef .tc y) = f (after ops V (Proc.devRef .tc x)) := by
  rw [after_at h i hop hY, unary_result, after_frame h i hX]

theorem step_reshape {x y : Ref sig .tc} (he : x.ty.elt = y.ty.elt := by rfl) {hn : x.ty.shape.ShapeCasts y.ty.shape}
    (hx : x.space ≠ .host ∧ (Proc.devRef (τ := τ) .tc x).isScoped = false := by exact ⟨by decide, rfl⟩) (hy : y.space ≠ .host ∧ (Proc.devRef (τ := τ) .tc y).isScoped = false := by exact ⟨by decide, rfl⟩)
    (hop : ops.drop i = reshape x y he hn hx hy :: rest) (hX : x ∉ L.drop i) (hY : y ∉ L.drop (i + 1))
    (V : Valuation τ sig Val) :
    after ops V (Proc.devRef .tc y) = fun j => he ▸ shapeCast y.ty.shape (after ops V (Proc.devRef .tc x)) hn j := by
  rw [after_at h i hop hY, reshape_result, after_frame h i hX]

theorem step_binary {a b y : Ref sig .tc} {f : a.ty.Contents Val → b.ty.Contents Val → y.ty.Contents Val}
    (ha : a.space ≠ .host ∧ (Proc.devRef (τ := τ) .tc a).isScoped = false := by exact ⟨by decide, rfl⟩) (hb : b.space ≠ .host ∧ (Proc.devRef (τ := τ) .tc b).isScoped = false := by exact ⟨by decide, rfl⟩) (hy : y.space ≠ .host ∧ (Proc.devRef (τ := τ) .tc y).isScoped = false := by exact ⟨by decide, rfl⟩)
    (hop : ops.drop i = binary a b y f ha hb hy :: rest) (hA : a ∉ L.drop i) (hB : b ∉ L.drop i)
    (hY : y ∉ L.drop (i + 1)) (V : Valuation τ sig Val) :
    after ops V (Proc.devRef .tc y) = f (after ops V (Proc.devRef .tc a)) (after ops V (Proc.devRef .tc b)) := by
  rw [after_at h i hop hY, binary_result, after_frame h i hA, after_frame h i hB]

theorem step_ternary {c a b y : Ref sig .tc}
    {f : c.ty.Contents Val → a.ty.Contents Val → b.ty.Contents Val → y.ty.Contents Val}
    (hc : c.space ≠ .host ∧ (Proc.devRef (τ := τ) .tc c).isScoped = false := by exact ⟨by decide, rfl⟩) (ha : a.space ≠ .host ∧ (Proc.devRef (τ := τ) .tc a).isScoped = false := by exact ⟨by decide, rfl⟩) (hb : b.space ≠ .host ∧ (Proc.devRef (τ := τ) .tc b).isScoped = false := by exact ⟨by decide, rfl⟩) (hy : y.space ≠ .host ∧ (Proc.devRef (τ := τ) .tc y).isScoped = false := by exact ⟨by decide, rfl⟩)
    (hop : ops.drop i = ternary c a b y f hc ha hb hy :: rest) (hC : c ∉ L.drop i) (hA : a ∉ L.drop i)
    (hB : b ∉ L.drop i) (hY : y ∉ L.drop (i + 1)) (V : Valuation τ sig Val) :
    after ops V (Proc.devRef .tc y)
      = f (after ops V (Proc.devRef .tc c)) (after ops V (Proc.devRef .tc a)) (after ops V (Proc.devRef .tc b)) := by
  rw [after_at h i hop hY, ternary_result, after_frame h i hC, after_frame h i hA, after_frame h i hB]

theorem step_nary {n : ℕ} {xs : Fin n → Ref sig .tc} {y : Ref sig .tc}
    {f : ((k : Fin n) → (xs k).ty.Contents Val) → y.ty.Contents Val}
    (hxs : ∀ k, (xs k).space ≠ .host ∧ (Proc.devRef (τ := τ) .tc (xs k)).isScoped = false := by decide)
    (hy : y.space ≠ .host ∧ (Proc.devRef (τ := τ) .tc y).isScoped = false := by exact ⟨by decide, rfl⟩)
    (hop : ops.drop i = nary xs y f hxs hy :: rest) (hX : ∀ k, xs k ∉ L.drop i) (hY : y ∉ L.drop (i + 1))
    (V : Valuation τ sig Val) :
    after ops V (Proc.devRef .tc y) = f (fun k => after ops V (Proc.devRef .tc (xs k))) := by
  rw [after_at h i hop hY, nary_result]
  congr 1
  funext k
  exact (after_frame h i (hX k) V).symm

end Once
/-! ## The host lines after the region -/

/-- The host lines after the region, in order. -/
abbrev tailOps : List (HloOp τ sig (Elt F)) :=
  List.flatten [hostOps1, hostOps1_1, hostOps1_2, hostOps1_3, hostOps1_4, hostOps1_5, hostOps1_6, hostOps1_7, hostOps1_8,
    hostOps1_9, hostOps1_10, hostOps1_11, hostOps1_12, hostOps1_13, hostOps1_14, hostOps1_15, hostOps1_16, hostOps1_17,
    hostOps1_18, hostOps1_19]

/-- The reference each of them writes, in order. -/
def tailW : List (Ref sig .tc) :=
  [main_v10, main_v11, main_v12_0, main_v12_1, main_c_0, main_v13, main_v14, main_v15,
    main_v16, main_v17, main_v18, main_v19, main_v20, main_call0_call0_c, main_call0_call0_v0, main_v21,
    main_c_1, main_v22, main_v23, main_v24, main_c_2, main_call1_v0, main_call1_v1, main_v25,
    main_call2_c, main_call2_v0, main_v26, main_v27, main_c_3, main_v28, main_v29, main_v30,
    main_c_4, main_v31, main_v32, main_v33, main_c_5, main_call3_v0, main_call3_v1, main_v34,
    main_c_6, main_v35, main_v36, main_v37, main_c_7, main_call4_v0, main_call4_v1, main_v38,
    main_c_8, main_v39, main_c_9, main_v40, main_v41, main_c_10, main_v42, main_v43,
    main_v44, main_v45, main_v46, main_v47, main_v48, main_c_11, main_v49, main_v50,
    main_v51, main_v52, main_v53, main_v54, main_v55, main_v56, main_c_12, main_v57,
    main_v58, main_v59, main_v60, main_v61, main_c_13, main_v62, main_v63, main_c_14,
    main_v64, main_v65, main_v66, main_v67, main_v68, main_v69, main_c_15, main_v70,
    main_v71, main_c_16, main_v72, main_v73, main_v74, main_v75, main_v76, main_cst,
    main_call5_v0, main_call5_v1, main_call5_v2, main_v77, main_c_17, main_call6_v0, main_call6_c, main_call6_v1,
    main_call6_c_0, main_call6_v2, main_call6_v3, main_call6_v4, main_call6_c_1, main_call6_v5, main_call6_v6, main_call6_c_2,
    main_call6_v7, main_call6_v8, main_call6_c_3, main_call6_v9, main_call6_v10, main_call6_v11, main_call6_v12, main_call6_v13,
    main_call6_v14, main_v78, main_c_18, main_call7_v0, main_call7_v1, main_call7_v2, main_call7_v3, main_call7_v4,
    main_call7_v5, main_call7_v6, main_call7_v7, main_call7_v8, main_call7_c, main_call7_v9, main_call7_v10, main_call7_v11,
    main_call7_c_0, main_call7_v12, main_call7_v13, main_v79, main_c_19, main_call8_v0, main_call8_c, main_call8_v1,
    main_call8_c_0, main_call8_v2, main_call8_v3, main_call8_v4, main_call8_c_1, main_call8_v5, main_call8_v6, main_call8_c_2,
    main_call8_v7, main_call8_v8, main_call8_c_3, main_call8_v9, main_call8_v10, main_call8_v11, main_call8_v12, main_call8_v13,
    main_call8_v14, main_v80, main_c_20, main_call9_v0, main_call9_v1, main_call9_v2, main_call9_v3, main_call9_v4,
    main_call9_v5, main_call9_v6, main_call9_v7, main_call9_v8, main_call9_c, main_call9_v9, main_call9_v10, main_call9_v11,
    main_call9_c_0, main_call9_v12, main_call9_v13, main_v81, main_v82, main_v83, main_v84, main_v85,
    main_c_21, main_v86, main_c_22, main_v87, main_v88, main_c_23, main_v89, main_v90,
    main_v91, main_v92, main_v93, main_v94]

theorem tail_writes : WritesIn (tailOps : List (HloOp τ sig (Elt F))) tailW := by
  unfold tailW
  repeat (first | exact List.Forall₂.nil | refine List.Forall₂.cons rfl ?_)

theorem tail_length : (tailOps : List (HloOp τ sig (Elt F))).length = 196 := rfl

/-- A reference the lines after the region do not write holds what it held. -/
theorem after_input {r : Ref sig .tc} (hr : r ∉ tailW) (V : Valuation τ sig (Elt F)) :
    StableHlo.after tailOps V (Proc.devRef .tc r) = V (Proc.devRef .tc r) :=
  after_frame tail_writes 0 hr V

end Cert.KernelIdeal.Tail
-- ==== Proof.KTailCoords.lean ====
import proofs.«420773_j40235253629492_3_alg».proof.Proof.Spec
import proofs.«420773_j40235253629492_3_alg».proof.Proof.KTailOps

/-!
The coordinates branch of the host lines after the region: from the sorted hashes, the remainder and floor
quotient by one and by 256 that decode a hash into its three cell coordinates, the three coordinate columns side
by side, and the scatter of each voxel's first point's coordinates into the per-voxel table.
-/

noncomputable section

namespace Cert.KernelIdeal.Tail

open Cert.KernelIdeal Cert.KernelIdeal.Gen Idealize.ShloMosaic Idealize.ShloMosaic.TcCoe

variable {F : FTy → Type} [FloatOps F] (W : Valuation τ sig (Elt F))

/-- The remainder of the sorted hash by one, as the program computes a remainder: the truncated remainder, moved by the
    divisor when it is nonzero and its sign differs from the divisor's. -/
theorem st_v78 : StableHlo.after tailOps W (Proc.devRef .tc main_v78) = Cert.Spec.remN (StableHlo.after tailOps W (Proc.devRef .tc main_v12_0)) 1#32 := by
  have e100 := step_nullary tail_writes 100 (hop := rfl) (hY := by decide) (V := W)
  have e101 := step_unary tail_writes 101 (hop := rfl) (hX := by decide) (hY := by decide) (V := W)
  have e102 := step_nullary tail_writes 102 (hop := rfl) (hY := by decide) (V := W)
  have e103 := step_binary tail_writes 103 (hop := rfl) (hA := by decide) (hB := by decide) (hY := by decide) (V := W)
  have e104 := step_nullary tail_writes 104 (hop := rfl) (hY := by decide) (V := W)
  have e105 := step_ternary tail_writes 105 (hop := rfl) (hC := by decide) (hA := by decide) (hB := by decide) (hY := by decide) (V := W)
  have e106 := step_unary tail_writes 106 (hop := rfl) (hX := by decide) (hY := by decide) (V := W)
  have e107 := step_binary tail_writes 107 (hop := rfl) (hA := by decide) (hB := by decide) (hY := by decide) (V := W)
  have e108 := step_nullary tail_writes 108 (hop := rfl) (hY := by decide) (V := W)
  have e109 := step_unary tail_writes 109 (hop := rfl) (hX := by decide) (hY := by decide) (V := W)
  have e110 := step_binary tail_writes 110 (hop := rfl) (hA := by decide) (hB := by decide) (hY := by decide) (V := W)
  have e111 := step_nullary tail_writes 111 (hop := rfl) (hY := by decide) (V := W)
  have e112 := step_unary tail_writes 112 (hop := rfl) (hX := by decide) (hY := by decide) (V := W)
  have e113 := step_binary tail_writes 113 (hop := rfl) (hA := by decide) (hB := by decide) (hY := by decide) (V := W)
  have e114 := step_nullary tail_writes 114 (hop := rfl) (hY := by decide) (V := W)
  have e115 := step_binary tail_writes 115 (hop := rfl) (hA := by decide) (hB := by decide) (hY := by decide) (V := W)
  have e116 := step_unary tail_writes 116 (hop := rfl) (hX := by decide) (hY := by decide) (V := W)
  have e117 := step_binary tail_writes 117 (hop := rfl) (hA := by decide) (hB := by decide) (hY := by decide) (V := W)
  have e118 := step_binary tail_writes 118 (hop := rfl) (hA := by decide) (hB := by decide) (hY := by decide) (V := W)
  have e119 := step_unary tail_writes 119 (hop := rfl) (hX := by decide) (hY := by decide) (V := W)
  have e120 := step_binary tail_writes 120 (hop := rfl) (hA := by decide) (hB := by decide) (hY := by decide) (V := W)
  have e121 := step_ternary tail_writes 121 (hop := rfl) (hC := by decide) (hA := by decide) (hB := by decide) (hY := by decide) (V := W)
  rw [e121, e120, e119, e118, e117, e116, e115, e114, e113, e112, e111, e110, e109, e108, e107, e106, e105, e104, e103, e102, e101, e100]
  generalize StableHlo.after tailOps W (Proc.devRef .tc main_v12_0) = x
  rfl

/-- The floor quotient of the sorted hash by one: the truncated quotient, less one when the signs differ and the
    remainder is nonzero. -/
theorem st_v79 : StableHlo.after tailOps W (Proc.devRef .tc main_v79) = Cert.Spec.fdivN (StableHlo.after tailOps W (Proc.devRef .tc main_v12_0)) 1#32 := by
  have e122 := step_nullary tail_writes 122 (hop := rfl) (hY := by decide) (V := W)
  have e123 := step_unary tail_writes 123 (hop := rfl) (hX := by decide) (hY := by decide) (V := W)
  have e124 := step_unary tail_writes 124 (hop := rfl) (hX := by decide) (hY := by decide) (V := W)
  have e125 := step_binary tail_writes 125 (hop := rfl) (hA := by decide) (hB := by decide) (hY := by decide) (V := W)
  have e126 := step_unary tail_writes 126 (hop := rfl) (hX := by decide) (hY := by decide) (V := W)
  have e127 := step_unary tail_writes 127 (hop := rfl) (hX := by decide) (hY := by decide) (V := W)
  have e128 := step_unary tail_writes 128 (hop := rfl) (hX := by decide) (hY := by decide) (V := W)
  have e129 := step_binary tail_writes 129 (hop := rfl) (hA := by decide) (hB := by decide) (hY := by decide) (V := W)
  have e130 := step_unary tail_writes 130 (hop := rfl) (hX := by decide) (hY := by decide) (V := W)
  have e131 := step_binary tail_writes 131 (hop := rfl) (hA := by decide) (hB := by decide) (hY := by decide) (V := W)
  have e132 := step_nullary tail_writes 132 (hop := rfl) (hY := by decide) (V := W)
  have e133 := step_unary tail_writes 133 (hop := rfl) (hX := by decide) (hY := by decide) (V := W)
  have e134 := step_binary tail_writes 134 (hop := rfl) (hA := by decide) (hB := by decide) (hY := by decide) (V := W)
  have e135 := step_binary tail_writes 135 (hop := rfl) (hA := by decide) (hB := by decide) (hY := by decide) (V := W)
  have e136 := step_nullary tail_writes 136 (hop := rfl) (hY := by decide) (V := W)
  have e137 := step_unary tail_writes 137 (hop := rfl) (hX := by decide) (hY := by decide) (V := W)
  have e138 := step_binary tail_writes 138 (hop := rfl) (hA := by decide) (hB := by decide) (hY := by decide) (V := W)
  have e139 := step_ternary tail_writes 139 (hop := rfl) (hC := by decide) (hA := by decide) (hB := by decide) (hY := by decide) (V := W)
  rw [e139, e138, e137, e136, e135, e134, e133, e132, e131, e130, e129, e128, e127, e126, e125, e124, e123, e122]
  generalize StableHlo.after tailOps W (Proc.devRef .tc main_v12_0) = x0
  rfl

/-- The remainder of that quotient by 256. -/
theorem st_v80 : StableHlo.after tailOps W (Proc.devRef .tc main_v80) = Cert.Spec.remN (StableHlo.after tailOps W (Proc.devRef .tc main_v79)) 256#32 := by
  have e140 := step_nullary tail_writes 140 (hop := rfl) (hY := by decide) (V := W)
  have e141 := step_unary tail_writes 141 (hop := rfl) (hX := by decide) (hY := by decide) (V := W)
  have e142 := step_nullary tail_writes 142 (hop := rfl) (hY := by decide) (V := W)
  have e143 := step_binary tail_writes 143 (hop := rfl) (hA := by decide) (hB := by decide) (hY := by decide) (V := W)
  have e144 := step_nullary tail_writes 144 (hop := rfl) (hY := by decide) (V := W)
  have e145 := step_ternary tail_writes 145 (hop := rfl) (hC := by decide) (hA := by decide) (hB := by decide) (hY := by decide) (V := W)
  have e146 := step_unary tail_writes 146 (hop := rfl) (hX := by decide) (hY := by decide) (V := W)
  have e147 := step_binary tail_writes 147 (hop := rfl) (hA := by decide) (hB := by decide) (hY := by decide) (V := W)
  have e148 := step_nullary tail_writes 148 (hop := rfl) (hY := by decide) (V := W)
  have e149 := step_unary tail_writes 149 (hop := rfl) (hX := by decide) (hY := by decide) (V := W)
  have e150 := step_binary tail_writes 150 (hop := rfl) (hA := by decide) (hB := by decide) (hY := by decide) (V := W)
  have e151 := step_nullary tail_writes 151 (hop := rfl) (hY := by decide) (V := W)
  have e152 := step_unary tail_writes 152 (hop := rfl) (hX := by decide) (hY := by decide) (V := W)
  have e153 := step_binary tail_writes 153 (hop := rfl) (hA := by decide) (hB := by decide) (hY := by decide) (V := W)
  have e154 := step_nullary tail_writes 154 (hop := rfl) (hY := by decide) (V := W)
  have e155 := step_binary tail_writes 155 (hop := rfl) (hA := by decide) (hB := by decide) (hY := by decide) (V := W)
  have e156 := step_unary tail_writes 156 (hop := rfl) (hX := by decide) (hY := by decide) (V := W)
  have e157 := step_binary tail_writes 157 (hop := rfl) (hA := by decide) (hB := by decide) (hY := by decide) (V := W)
  have e158 := step_binary tail_writes 158 (hop := rfl) (hA := by decide) (hB := by decide) (hY := by decide) (V := W)
  have e159 := step_unary tail_writes 159 (hop := rfl) (hX := by decide) (hY := by decide) (V := W)
  have e160 := step_binary tail_writes 160 (hop := rfl) (hA := by decide) (hB := by decide) (hY := by decide) (V := W)
  have e161 := step_ternary tail_writes 161 (hop := rfl) (hC := by decide) (hA := by decide) (hB := by decide) (hY := by decide) (V := W)
  rw [e161, e160, e159, e158, e157, e156, e155, e154, e153, e152, e151, e150, e149, e148, e147, e146, e145, e144, e143, e142, e141, e140]
  generalize StableHlo.after tailOps W (Proc.devRef .tc main_v79) = x0
  rfl

/-- The floor quotient of the sorted hash by 256. -/
theorem st_v81 : StableHlo.after tailOps W (Proc.devRef .tc main_v81) = Cert.Spec.fdivN (StableHlo.after tailOps W (Proc.devRef .tc main_v12_0)) 256#32 := by
  have e162 := step_nullary tail_writes 162 (hop := rfl) (hY := by decide) (V := W)
  have e163 := step_unary tail_writes 163 (hop := rfl) (hX := by decide) (hY := by decide) (V := W)
  have e164 := step_unary tail_writes 164 (hop := rfl) (hX := by decide) (hY := by decide) (V := W)
  have e165 := step_binary tail_writes 165 (hop := rfl) (hA := by decide) (hB := by decide) (hY := by decide) (V := W)
  have e166 := step_unary tail_writes 166 (hop := rfl) (hX := by decide) (hY := by decide) (V := W)
  have e167 := step_unary tail_writes 167 (hop := rfl) (hX := by decide) (hY := by decide) (V := W)
  have e168 := step_unary tail_writes 168 (hop := rfl) (hX := by decide) (hY := by decide) (V := W)
  have e169 := step_binary tail_writes 169 (hop := rfl) (hA := by decide) (hB := by decide) (hY := by decide) (V := W)
  have e170 := step_unary tail_writes 170 (hop := rfl) (hX := by decide) (hY := by decide) (V := W)
  have e171 := step_binary tail_writes 171 (hop := rfl) (hA := by decide) (hB := by decide) (hY := by decide) (V := W)
  have e172 := step_nullary tail_writes 172 (hop := rfl) (hY := by decide) (V := W)
  have e173 := step_unary tail_writes 173 (hop := rfl) (hX := by decide) (hY := by decide) (V := W)
  have e174 := step_binary tail_writes 174 (hop := rfl) (hA := by decide) (hB := by decide) (hY := by decide) (V := W)
  have e175 := step_binary tail_writes 175 (hop := rfl) (hA := by decide) (hB := by decide) (hY := by decide) (V := W)
  have e176 := step_nullary tail_writes 176 (hop := rfl) (hY := by decide) (V := W)
  have e177 := step_unary tail_writes 177 (hop := rfl) (hX := by decide) (hY := by decide) (V := W)
  have e178 := step_binary tail_writes 178 (hop := rfl) (hA := by decide) (hB := by decide) (hY := by decide) (V := W)
  have e179 := step_ternary tail_writes 179 (hop := rfl) (hC := by decide) (hA := by decide) (hB := by decide) (hY := by decide) (V := W)
  rw [e179, e178, e177, e176, e175, e174, e173, e172, e171, e170, e169, e168, e167, e166, e165, e164, e163, e162]
  generalize StableHlo.after tailOps W (Proc.devRef .tc main_v12_0) = x0
  rfl

/-- The three decoded cell coordinates of every sorted point, side by side. -/
theorem st_v85 : StableHlo.after tailOps W (Proc.devRef .tc main_v85) = Cert.Spec.decode (StableHlo.after tailOps W (Proc.devRef .tc main_v12_0)) := by
  have e180 := step_unary tail_writes 180 (hop := rfl) (hX := by decide) (hY := by decide) (V := W)
  have e181 := step_unary tail_writes 181 (hop := rfl) (hX := by decide) (hY := by decide) (V := W)
  have e182 := step_unary tail_writes 182 (hop := rfl) (hX := by decide) (hY := by decide) (V := W)
  have e183 := step_nary tail_writes 183 (hop := rfl) (hX := by decide) (hY := by decide) (V := W)
  have e183' : StableHlo.after tailOps W (Proc.devRef .tc main_v85)
      = concatenate S4000000x3 1 [⟨S4000000x1, StableHlo.after tailOps W (Proc.devRef .tc main_v82)⟩, ⟨S4000000x1, StableHlo.after tailOps W (Proc.devRef .tc main_v83)⟩,
          ⟨S4000000x1, StableHlo.after tailOps W (Proc.devRef .tc main_v84)⟩] concatenates_S4000000x1_S4000000x1_S4000000x1_S4000000x3_d1 := e183
  rw [e183', e182, e181, e180, st_v81 W, st_v80 W, st_v79 W, st_v78 W]
  generalize StableHlo.after tailOps W (Proc.devRef .tc main_v12_0) = x0
  rfl

/-- The per-voxel coordinates: each sorted point's decoded coordinates written to the row of the voxel it starts
    (the others to the spare last row), the spare row cut off. -/
theorem st_v94 (h38 : StableHlo.after tailOps W (Proc.devRef .tc main_v38) = Cert.Spec.cvid (StableHlo.after tailOps W (Proc.devRef .tc main_v12_0))) : StableHlo.after tailOps W (Proc.devRef .tc main_v94) = Cert.Spec.coordsOf (StableHlo.after tailOps W (Proc.devRef .tc main_v12_0)) (Cert.Spec.decode (StableHlo.after tailOps W (Proc.devRef .tc main_v12_0))) := by
  have e184 := step_nullary tail_writes 184 (hop := rfl) (hY := by decide) (V := W)
  have e185 := step_unary tail_writes 185 (hop := rfl) (hX := by decide) (hY := by decide) (V := W)
  have e186 := step_nullary tail_writes 186 (hop := rfl) (hY := by decide) (V := W)
  have e187 := step_unary tail_writes 187 (hop := rfl) (hX := by decide) (hY := by decide) (V := W)
  have e188 := step_binary tail_writes 188 (hop := rfl) (hA := by decide) (hB := by decide) (hY := by decide) (V := W)
  have e189 := step_nullary tail_writes 189 (hop := rfl) (hY := by decide) (V := W)
  have e190 := step_unary tail_writes 190 (hop := rfl) (hX := by decide) (hY := by decide) (V := W)
  have e191 := step_binary tail_writes 191 (hop := rfl) (hA := by decide) (hB := by decide) (hY := by decide) (V := W)
  have e192 := step_ternary tail_writes 192 (hop := rfl) (hC := by decide) (hA := by decide) (hB := by decide) (hY := by decide) (V := W)
  have e193 := step_unary tail_writes 193 (hop := rfl) (hX := by decide) (hY := by decide) (V := W)
  have e194 := step_ternary tail_writes 194 (hop := rfl) (hC := by decide) (hA := by decide) (hB := by decide) (hY := by decide) (V := W)
  have e195 := step_unary tail_writes 195 (hop := rfl) (hX := by decide) (hY := by decide) (V := W)
  rw [e195, e194, e193, e192, e191, e190, e189, e188, e187, e186, e185, e184, st_v85 W, h38]
  generalize StableHlo.after tailOps W (Proc.devRef .tc main_v12_0) = x0
  rfl

end Cert.KernelIdeal.Tail

end
-- ==== Proof.KTail.lean ====
import proofs.«420773_j40235253629492_3_alg».proof.Proof.Spec
import proofs.«420773_j40235253629492_3_alg».proof.Proof.KTailOps
import proofs.«420773_j40235253629492_3_alg».proof.Proof.KTailCoords

noncomputable section

namespace Cert.KernelIdeal.Tail

open Cert.KernelIdeal Cert.KernelIdeal.Gen Cert.Spec Idealize.ShloMosaic Idealize.ShloMosaic.TcCoe

variable {F : FTy → Type} [FloatOps F]

/-! ## The host lines before the region -/

theorem pre_v6 (W0 : Valuation τ sig (Elt F)) :
    StableHlo.after (List.flatten [hostOps0]) W0 (Proc.devRef .tc main_v6) = lanes (W0 (Proc.devRef .tc main_arg0)) 0 := by
  simp only [List.flatten_cons, List.flatten_nil, List.append_nil]
  after_results
  rfl

theorem pre_v7 (W0 : Valuation τ sig (Elt F)) :
    StableHlo.after (List.flatten [hostOps0]) W0 (Proc.devRef .tc main_v7) = lanes (W0 (Proc.devRef .tc main_arg0)) 1 := by
  simp only [List.flatten_cons, List.flatten_nil, List.append_nil]
  after_results
  rfl

theorem pre_v8 (W0 : Valuation τ sig (Elt F)) :
    StableHlo.after (List.flatten [hostOps0]) W0 (Proc.devRef .tc main_v8) = lanes (W0 (Proc.devRef .tc main_arg0)) 2 := by
  simp only [List.flatten_cons, List.flatten_nil, List.append_nil]
  after_results
  rfl

theorem pre_arg0 (W0 : Valuation τ sig (Elt F)) :
    StableHlo.after (List.flatten [hostOps0]) W0 (Proc.devRef .tc main_arg0) = W0 (Proc.devRef .tc main_arg0) := by
  simp only [List.flatten_cons, List.flatten_nil, List.append_nil]
  after_results

theorem pre_c (W0 : Valuation τ sig (Elt F)) :
    StableHlo.after (List.flatten [hostOps0]) W0 (Proc.devRef .tc main_c) = constantI S1 1 1#1 := by
  simp only [List.flatten_cons, List.flatten_nil, List.append_nil]
  after_results

/-! ## The host lines after the region, stage by stage

Each stage reads its lines by their position in the list, rewrites the result buffer down to the stage's inputs, and is
then the shared function by unfolding. -/

variable (W : Valuation τ sig (Elt F))

set_option quotPrecheck false in
local notation "A⟦" b "⟧" => StableHlo.after tailOps W (Proc.devRef Proc.tc b)

/-- The region's result, flattened to the point order. -/
theorem st_v10 :
    A⟦main_v10⟧ = shapeCast SN (W (Proc.devRef .tc main_v9)) sc_flat := by
  have e0 := step_reshape (tail_writes (F := F)) 0 (hop := rfl) (hX := by decide) (hY := by decide) (V := W)
  rw [e0]
  rfl

/-- The sorted hashes. -/
theorem st_v12_0 :
    A⟦main_v12_0⟧ = (sorted A⟦main_v10⟧).1 := by
  have e1 := step_nullary (tail_writes (F := F)) 1 (hop := rfl) (hY := by decide) (V := W)
  have e2 := step_binary (tail_writes (F := F)) 2 (hop := rfl) (hA := by decide) (hB := by decide) (hY := by decide) (V := W)
  rw [e2, e1]
  rfl

/-- The original index of each sorted point. -/
theorem st_v12_1 :
    A⟦main_v12_1⟧ = (sorted A⟦main_v10⟧).2 := by
  have e1 := step_nullary (tail_writes (F := F)) 1 (hop := rfl) (hY := by decide) (V := W)
  have e3 := step_binary (tail_writes (F := F)) 3 (hop := rfl) (hA := by decide) (hB := by decide) (hY := by decide) (V := W)
  rw [e3, e1]
  rfl

/-- Below the sentinel. -/
theorem st_v14 :
    A⟦main_v14⟧ = svalid A⟦main_v12_0⟧ := by
  have e4 := step_nullary (tail_writes (F := F)) 4 (hop := rfl) (hY := by decide) (V := W)
  have e5 := step_unary (tail_writes (F := F)) 5 (hop := rfl) (hX := by decide) (hY := by decide) (V := W)
  have e6 := step_binary (tail_writes (F := F)) 6 (hop := rfl) (hA := by decide) (hB := by decide) (hY := by decide) (V := W)
  rw [e6, e5, e4]
  rfl

/-- A run starts. -/
theorem st_v19 (hc : W (Proc.devRef .tc main_c) = constantI S1 1 1#1) :
    A⟦main_v19⟧ = newv A⟦main_v12_0⟧ := by
  have e7 := step_unary (tail_writes (F := F)) 7 (hop := rfl) (hX := by decide) (hY := by decide) (V := W)
  have e8 := step_unary (tail_writes (F := F)) 8 (hop := rfl) (hX := by decide) (hY := by decide) (V := W)
  have e9 := step_binary (tail_writes (F := F)) 9 (hop := rfl) (hA := by decide) (hB := by decide) (hY := by decide) (V := W)
  have e10 := step_binary (tail_writes (F := F)) 10 (hop := rfl) (hA := by decide) (hB := by decide) (hY := by decide) (V := W)
  have e11 := step_binary (tail_writes (F := F)) 11 (hop := rfl) (hA := by decide) (hB := by decide) (hY := by decide) (V := W)
  rw [e11, e10, e9, e8, e7]
  rw [st_v14 W]
  rw [after_input (r := main_c) (by decide) W, hc]
  rfl

/-- The voxel of each sorted point. -/
theorem st_v23 (hc : W (Proc.devRef .tc main_c) = constantI S1 1 1#1) :
    A⟦main_v23⟧ = vid A⟦main_v12_0⟧ := by
  have e12 := step_unary (tail_writes (F := F)) 12 (hop := rfl) (hX := by decide) (hY := by decide) (V := W)
  have e13 := step_nullary (tail_writes (F := F)) 13 (hop := rfl) (hY := by decide) (V := W)
  have e14 := step_unary (tail_writes (F := F)) 14 (hop := rfl) (hX := by decide) (hY := by decide) (V := W)
  have e15 := step_binary (tail_writes (F := F)) 15 (hop := rfl) (hA := by decide) (hB := by decide) (hY := by decide) (V := W)
  have e16 := step_nullary (tail_writes (F := F)) 16 (hop := rfl) (hY := by decide) (V := W)
  have e17 := step_unary (tail_writes (F := F)) 17 (hop := rfl) (hX := by decide) (hY := by decide) (V := W)
  have e18 := step_binary (tail_writes (F := F)) 18 (hop := rfl) (hA := by decide) (hB := by decide) (hY := by decide) (V := W)
  rw [e18, e17, e16, e15, e14, e13, e12]
  rw [st_v19 W hc]
  simp only [StableHlo.TRef.toBuf, StableHlo.TRef.ofBuf]
  repeat erw [cast_eq]
  rfl

/-- The sorted position its run starts at. -/
theorem st_v26 (hc : W (Proc.devRef .tc main_c) = constantI S1 1 1#1) :
    A⟦main_v26⟧ = start A⟦main_v12_0⟧ := by
  have e19 := step_nullary (tail_writes (F := F)) 19 (hop := rfl) (hY := by decide) (V := W)
  have e20 := step_nullary (tail_writes (F := F)) 20 (hop := rfl) (hY := by decide) (V := W)
  have e21 := step_unary (tail_writes (F := F)) 21 (hop := rfl) (hX := by decide) (hY := by decide) (V := W)
  have e22 := step_unary (tail_writes (F := F)) 22 (hop := rfl) (hX := by decide) (hY := by decide) (V := W)
  have e23 := step_ternary (tail_writes (F := F)) 23 (hop := rfl) (hC := by decide) (hA := by decide) (hB := by decide) (hY := by decide) (V := W)
  have e24 := step_nullary (tail_writes (F := F)) 24 (hop := rfl) (hY := by decide) (V := W)
  have e25 := step_unary (tail_writes (F := F)) 25 (hop := rfl) (hX := by decide) (hY := by decide) (V := W)
  have e26 := step_binary (tail_writes (F := F)) 26 (hop := rfl) (hA := by decide) (hB := by decide) (hY := by decide) (V := W)
  rw [e26, e25, e24, e23, e22, e21, e20, e19]
  rw [st_v19 W hc]
  simp only [StableHlo.TRef.toBuf, StableHlo.TRef.ofBuf]
  repeat erw [cast_eq]
  rfl

/-- Its rank in its run. -/
theorem st_v27 (hc : W (Proc.devRef .tc main_c) = constantI S1 1 1#1) :
    A⟦main_v27⟧ = rank A⟦main_v12_0⟧ := by
  have e19 := step_nullary (tail_writes (F := F)) 19 (hop := rfl) (hY := by decide) (V := W)
  have e27 := step_binary (tail_writes (F := F)) 27 (hop := rfl) (hA := by decide) (hB := by decide) (hY := by decide) (V := W)
  rw [e27, e19]
  rw [st_v26 W hc]
  rfl

/-- Kept. -/
theorem st_v33 (hc : W (Proc.devRef .tc main_c) = constantI S1 1 1#1) :
    A⟦main_v33⟧ = keep A⟦main_v12_0⟧ := by
  have e28 := step_nullary (tail_writes (F := F)) 28 (hop := rfl) (hY := by decide) (V := W)
  have e29 := step_unary (tail_writes (F := F)) 29 (hop := rfl) (hX := by decide) (hY := by decide) (V := W)
  have e30 := step_binary (tail_writes (F := F)) 30 (hop := rfl) (hA := by decide) (hB := by decide) (hY := by decide) (V := W)
  have e31 := step_binary (tail_writes (F := F)) 31 (hop := rfl) (hA := by decide) (hB := by decide) (hY := by decide) (V := W)
  have e32 := step_nullary (tail_writes (F := F)) 32 (hop := rfl) (hY := by decide) (V := W)
  have e33 := step_unary (tail_writes (F := F)) 33 (hop := rfl) (hX := by decide) (hY := by decide) (V := W)
  have e34 := step_binary (tail_writes (F := F)) 34 (hop := rfl) (hA := by decide) (hB := by decide) (hY := by decide) (V := W)
  have e35 := step_binary (tail_writes (F := F)) 35 (hop := rfl) (hA := by decide) (hB := by decide) (hY := by decide) (V := W)
  rw [e35, e34, e33, e32, e31, e30, e29, e28]
  rw [st_v14 W, st_v27 W hc, st_v23 W hc]
  rfl

/-- The voxel a kept point counts in; the cut-off row otherwise. -/
theorem st_v34 (hc : W (Proc.devRef .tc main_c) = constantI S1 1 1#1) :
    A⟦main_v34⟧ = vidS A⟦main_v12_0⟧ := by
  have e36 := step_nullary (tail_writes (F := F)) 36 (hop := rfl) (hY := by decide) (V := W)
  have e37 := step_unary (tail_writes (F := F)) 37 (hop := rfl) (hX := by decide) (hY := by decide) (V := W)
  have e38 := step_unary (tail_writes (F := F)) 38 (hop := rfl) (hX := by decide) (hY := by decide) (V := W)
  have e39 := step_ternary (tail_writes (F := F)) 39 (hop := rfl) (hC := by decide) (hA := by decide) (hB := by decide) (hY := by decide) (V := W)
  rw [e39, e38, e37, e36]
  rw [st_v33 W hc, st_v23 W hc]
  rfl

/-- The voxel a run's first point names; the cut-off row otherwise. -/
theorem st_v38 (hc : W (Proc.devRef .tc main_c) = constantI S1 1 1#1) :
    A⟦main_v38⟧ = cvid A⟦main_v12_0⟧ := by
  have e40 := step_nullary (tail_writes (F := F)) 40 (hop := rfl) (hY := by decide) (V := W)
  have e41 := step_unary (tail_writes (F := F)) 41 (hop := rfl) (hX := by decide) (hY := by decide) (V := W)
  have e42 := step_binary (tail_writes (F := F)) 42 (hop := rfl) (hA := by decide) (hB := by decide) (hY := by decide) (V := W)
  have e43 := step_binary (tail_writes (F := F)) 43 (hop := rfl) (hA := by decide) (hB := by decide) (hY := by decide) (V := W)
  have e44 := step_nullary (tail_writes (F := F)) 44 (hop := rfl) (hY := by decide) (V := W)
  have e45 := step_unary (tail_writes (F := F)) 45 (hop := rfl) (hX := by decide) (hY := by decide) (V := W)
  have e46 := step_unary (tail_writes (F := F)) 46 (hop := rfl) (hX := by decide) (hY := by decide) (V := W)
  have e47 := step_ternary (tail_writes (F := F)) 47 (hop := rfl) (hC := by decide) (hA := by decide) (hB := by decide) (hY := by decide) (V := W)
  rw [e47, e46, e45, e44, e43, e42, e41, e40]
  rw [st_v19 W hc, st_v23 W hc]
  rfl

/-- The sorted position each voxel starts at. -/
theorem st_v47 (hc : W (Proc.devRef .tc main_c) = constantI S1 1 1#1) :
    A⟦main_v47⟧ = voxStart A⟦main_v12_0⟧ := by
  have e19 := step_nullary (tail_writes (F := F)) 19 (hop := rfl) (hY := by decide) (V := W)
  have e48 := step_nullary (tail_writes (F := F)) 48 (hop := rfl) (hY := by decide) (V := W)
  have e49 := step_unary (tail_writes (F := F)) 49 (hop := rfl) (hX := by decide) (hY := by decide) (V := W)
  have e50 := step_nullary (tail_writes (F := F)) 50 (hop := rfl) (hY := by decide) (V := W)
  have e51 := step_unary (tail_writes (F := F)) 51 (hop := rfl) (hX := by decide) (hY := by decide) (V := W)
  have e52 := step_binary (tail_writes (F := F)) 52 (hop := rfl) (hA := by decide) (hB := by decide) (hY := by decide) (V := W)
  have e53 := step_nullary (tail_writes (F := F)) 53 (hop := rfl) (hY := by decide) (V := W)
  have e54 := step_unary (tail_writes (F := F)) 54 (hop := rfl) (hX := by decide) (hY := by decide) (V := W)
  have e55 := step_binary (tail_writes (F := F)) 55 (hop := rfl) (hA := by decide) (hB := by decide) (hY := by decide) (V := W)
  have e56 := step_ternary (tail_writes (F := F)) 56 (hop := rfl) (hC := by decide) (hA := by decide) (hB := by decide) (hY := by decide) (V := W)
  have e57 := step_unary (tail_writes (F := F)) 57 (hop := rfl) (hX := by decide) (hY := by decide) (V := W)
  have e58 := step_ternary (tail_writes (F := F)) 58 (hop := rfl) (hC := by decide) (hA := by decide) (hB := by decide) (hY := by decide) (V := W)
  have e59 := step_unary (tail_writes (F := F)) 59 (hop := rfl) (hX := by decide) (hY := by decide) (V := W)
  rw [e59, e58, e57, e56, e55, e54, e53, e52, e51, e50, e49, e48]
  rw [e19]
  rw [st_v38 W hc]
  rfl

/-- The per-voxel point count. -/
theorem st_v52 (hc : W (Proc.devRef .tc main_c) = constantI S1 1 1#1) :
    A⟦main_v52⟧ = numPoints A⟦main_v12_0⟧ := by
  have e60 := step_unary (tail_writes (F := F)) 60 (hop := rfl) (hX := by decide) (hY := by decide) (V := W)
  have e61 := step_nullary (tail_writes (F := F)) 61 (hop := rfl) (hY := by decide) (V := W)
  have e62 := step_unary (tail_writes (F := F)) 62 (hop := rfl) (hX := by decide) (hY := by decide) (V := W)
  have e63 := step_unary (tail_writes (F := F)) 63 (hop := rfl) (hX := by decide) (hY := by decide) (V := W)
  have e64 := step_ternary (tail_writes (F := F)) 64 (hop := rfl) (hC := by decide) (hA := by decide) (hB := by decide) (hY := by decide) (V := W)
  have e65 := step_unary (tail_writes (F := F)) 65 (hop := rfl) (hX := by decide) (hY := by decide) (V := W)
  rw [e65, e64, e63, e62, e61, e60]
  rw [st_v34 W hc, st_v33 W hc]
  rfl

/-- The sorted position each slot reads. -/
theorem st_v58 (hc : W (Proc.devRef .tc main_c) = constantI S1 1 1#1) :
    A⟦main_v58⟧ = gatherPos A⟦main_v12_0⟧ := by
  have e66 := step_nullary (tail_writes (F := F)) 66 (hop := rfl) (hY := by decide) (V := W)
  have e67 := step_unary (tail_writes (F := F)) 67 (hop := rfl) (hX := by decide) (hY := by decide) (V := W)
  have e68 := step_unary (tail_writes (F := F)) 68 (hop := rfl) (hX := by decide) (hY := by decide) (V := W)
  have e69 := step_binary (tail_writes (F := F)) 69 (hop := rfl) (hA := by decide) (hB := by decide) (hY := by decide) (V := W)
  have e70 := step_nullary (tail_writes (F := F)) 70 (hop := rfl) (hY := by decide) (V := W)
  have e71 := step_unary (tail_writes (F := F)) 71 (hop := rfl) (hX := by decide) (hY := by decide) (V := W)
  have e72 := step_binary (tail_writes (F := F)) 72 (hop := rfl) (hA := by decide) (hB := by decide) (hY := by decide) (V := W)
  rw [e72, e71, e70, e69, e68, e67, e66]
  rw [st_v47 W hc]
  rfl

/-- The filled slots. -/
theorem st_v61 (hc : W (Proc.devRef .tc main_c) = constantI S1 1 1#1) :
    A⟦main_v61⟧ = filled A⟦main_v12_0⟧ := by
  have e66 := step_nullary (tail_writes (F := F)) 66 (hop := rfl) (hY := by decide) (V := W)
  have e73 := step_unary (tail_writes (F := F)) 73 (hop := rfl) (hX := by decide) (hY := by decide) (V := W)
  have e74 := step_unary (tail_writes (F := F)) 74 (hop := rfl) (hX := by decide) (hY := by decide) (V := W)
  have e75 := step_binary (tail_writes (F := F)) 75 (hop := rfl) (hA := by decide) (hB := by decide) (hY := by decide) (V := W)
  rw [e75, e74, e73, e66]
  rw [st_v52 W hc]
  rfl

/-- The original index of the point each slot reads. -/
theorem st_v68 (hc : W (Proc.devRef .tc main_c) = constantI S1 1 1#1) :
    A⟦main_v68⟧ = slotPoint A⟦main_v12_0⟧ A⟦main_v12_1⟧ := by
  have e76 := step_nullary (tail_writes (F := F)) 76 (hop := rfl) (hY := by decide) (V := W)
  have e77 := step_unary (tail_writes (F := F)) 77 (hop := rfl) (hX := by decide) (hY := by decide) (V := W)
  have e78 := step_binary (tail_writes (F := F)) 78 (hop := rfl) (hA := by decide) (hB := by decide) (hY := by decide) (V := W)
  have e79 := step_nullary (tail_writes (F := F)) 79 (hop := rfl) (hY := by decide) (V := W)
  have e80 := step_unary (tail_writes (F := F)) 80 (hop := rfl) (hX := by decide) (hY := by decide) (V := W)
  have e81 := step_binary (tail_writes (F := F)) 81 (hop := rfl) (hA := by decide) (hB := by decide) (hY := by decide) (V := W)
  have e82 := step_ternary (tail_writes (F := F)) 82 (hop := rfl) (hC := by decide) (hA := by decide) (hB := by decide) (hY := by decide) (V := W)
  have e83 := step_unary (tail_writes (F := F)) 83 (hop := rfl) (hX := by decide) (hY := by decide) (V := W)
  have e84 := step_binary (tail_writes (F := F)) 84 (hop := rfl) (hA := by decide) (hB := by decide) (hY := by decide) (V := W)
  rw [e84, e83, e82, e81, e80, e79, e78, e77, e76]
  rw [st_v58 W hc]
  rfl

/-- The voxel rows. -/
theorem st_v77 (hc : W (Proc.devRef .tc main_c) = constantI S1 1 1#1) :
    A⟦main_v77⟧ = voxelsGather (W (Proc.devRef .tc main_arg0)) A⟦main_v12_1⟧ A⟦main_v12_0⟧ := by
  have e85 := step_unary (tail_writes (F := F)) 85 (hop := rfl) (hX := by decide) (hY := by decide) (V := W)
  have e86 := step_nullary (tail_writes (F := F)) 86 (hop := rfl) (hY := by decide) (V := W)
  have e87 := step_unary (tail_writes (F := F)) 87 (hop := rfl) (hX := by decide) (hY := by decide) (V := W)
  have e88 := step_binary (tail_writes (F := F)) 88 (hop := rfl) (hA := by decide) (hB := by decide) (hY := by decide) (V := W)
  have e89 := step_nullary (tail_writes (F := F)) 89 (hop := rfl) (hY := by decide) (V := W)
  have e90 := step_unary (tail_writes (F := F)) 90 (hop := rfl) (hX := by decide) (hY := by decide) (V := W)
  have e91 := step_binary (tail_writes (F := F)) 91 (hop := rfl) (hA := by decide) (hB := by decide) (hY := by decide) (V := W)
  have e92 := step_ternary (tail_writes (F := F)) 92 (hop := rfl) (hC := by decide) (hA := by decide) (hB := by decide) (hY := by decide) (V := W)
  have e93 := step_unary (tail_writes (F := F)) 93 (hop := rfl) (hX := by decide) (hY := by decide) (V := W)
  have e94 := step_binary (tail_writes (F := F)) 94 (hop := rfl) (hA := by decide) (hB := by decide) (hY := by decide) (V := W)
  have e95 := step_nullary (tail_writes (F := F)) 95 (hop := rfl) (hY := by decide) (V := W)
  have e96 := step_unary (tail_writes (F := F)) 96 (hop := rfl) (hX := by decide) (hY := by decide) (V := W)
  have e97 := step_unary (tail_writes (F := F)) 97 (hop := rfl) (hX := by decide) (hY := by decide) (V := W)
  have e98 := step_unary (tail_writes (F := F)) 98 (hop := rfl) (hX := by decide) (hY := by decide) (V := W)
  have e99 := step_ternary (tail_writes (F := F)) 99 (hop := rfl) (hC := by decide) (hA := by decide) (hB := by decide) (hY := by decide) (V := W)
  rw [e99, e98, e97, e96, e95, e94, e93, e92, e91, e90, e89, e88]
  rw [e87, e86, e85]
  rw [st_v61 W hc, st_v68 W hc]
  rw [after_input (r := main_arg0) (by decide) W]
  have t96 : ∀ X : (⟨S_, .f32⟩ : BufTy).Contents (Elt F), (.of main_call5_v0 : StableHlo.TRef sig ⟨S_, .f32⟩).toBuf X = X := fun X => cast_eq _ X
  have o96_0 : ∀ X : main_cst.ty.Contents (Elt F), (.of main_cst : StableHlo.TRef sig ⟨S_, .f32⟩).ofBuf X = X := fun X => cast_eq _ X
  have t97 : ∀ X : (⟨S16000x32x4, .i1⟩ : BufTy).Contents (Elt F), (.of main_call5_v1 : StableHlo.TRef sig ⟨S16000x32x4, .i1⟩).toBuf X = X := fun X => cast_eq _ X
  have o97_0 : ∀ X : main_v69.ty.Contents (Elt F), (.of main_v69 : StableHlo.TRef sig ⟨S16000x32x1, .i1⟩).ofBuf X = X := fun X => cast_eq _ X
  have t98 : ∀ X : (⟨S16000x32x4, .f32⟩ : BufTy).Contents (Elt F), (.of main_call5_v2 : StableHlo.TRef sig ⟨S16000x32x4, .f32⟩).toBuf X = X := fun X => cast_eq _ X
  have o98_0 : ∀ X : main_call5_v0.ty.Contents (Elt F), (.of main_call5_v0 : StableHlo.TRef sig ⟨S_, .f32⟩).ofBuf X = X := fun X => cast_eq _ X
  have t99 : ∀ X : (⟨S16000x32x4, .f32⟩ : BufTy).Contents (Elt F), (.of main_v77 : StableHlo.TRef sig ⟨S16000x32x4, .f32⟩).toBuf X = X := fun X => cast_eq _ X
  have o99_0 : ∀ X : main_call5_v1.ty.Contents (Elt F), (.of main_call5_v1 : StableHlo.TRef sig ⟨S16000x32x4, .i1⟩).ofBuf X = X := fun X => cast_eq _ X
  have o99_1 : ∀ X : main_v76.ty.Contents (Elt F), (.of main_v76 : StableHlo.TRef sig ⟨S16000x32x4, .f32⟩).ofBuf X = X := fun X => cast_eq _ X
  have o99_2 : ∀ X : main_call5_v2.ty.Contents (Elt F), (.of main_call5_v2 : StableHlo.TRef sig ⟨S16000x32x4, .f32⟩).ofBuf X = X := fun X => cast_eq _ X
  simp only [t96, o96_0, t97, o97_0, t98, o98_0, t99, o99_0, o99_1, o99_2]
  rfl

/-- What the host lines after the region leave in the three result buffers, from contents `W` in which the region's
    result `main_v9` holds the hashes: the three tables of the sorted hashes. -/
theorem tail_results (W : Valuation τ sig (Elt F)) (hc : W (Proc.devRef .tc main_c) = constantI S1 1 1#1) :
    let s := sorted (shapeCast SN (W (Proc.devRef .tc main_v9)) sc_flat)
    StableHlo.after tailOps W (Proc.devRef .tc main_v77) = voxelsGather (W (Proc.devRef .tc main_arg0)) s.2 s.1
    ∧ StableHlo.after tailOps W (Proc.devRef .tc main_v94) = coordsOf s.1 (decode s.1)
    ∧ StableHlo.after tailOps W (Proc.devRef .tc main_v52) = numPoints s.1
    ∧ StableHlo.after tailOps W (Proc.devRef .tc main_arg0) = W (Proc.devRef .tc main_arg0) := by
  intro s
  have h10 := st_v10 W
  have h0 : StableHlo.after tailOps W (Proc.devRef .tc main_v12_0) = s.1 := by rw [st_v12_0 W, h10]
  have h1 : StableHlo.after tailOps W (Proc.devRef .tc main_v12_1) = s.2 := by rw [st_v12_1 W, h10]
  refine ⟨?_, ?_, ?_, after_input (by decide) W⟩
  · rw [st_v77 W hc, h0, h1]
  · rw [st_v94 W (st_v38 W hc), h0]
  · rw [st_v52 W hc, h0]

end Cert.KernelIdeal.Tail
-- ==== Proof.KRegion.lean ====
import proofs.«420773_j40235253629492_3_alg».proof.Proof.KFrameIdeal
import proofs.«420773_j40235253629492_3_alg».proof.Proof.Spec
import Idealize.ShloMosaic.Lib.Pipeline.Value
import Idealize.ShloMosaic.Lib.ValueIdx
import Idealize.ShloMosaic.Lib.ValueLayout

/-!
The array the region writes, as one function of its three input arrays.

The grid has ten points. At point t each of the four windows holds the slab [t, 0..3124, 0..127] of its
[10 × 3125 × 128] array. The body reads the three input slabs whole, drops the unit axis, applies a chain of
pointwise operations — the hash of a lane from its three coordinates —, restores the unit axis and writes the
slab whole. A pointwise chain read at an index of the slab is the same chain of the arrays read at the array
index of that slab element, so the slab written at t is slab t of the hash of the three whole arrays; the ten
slabs cover the array.
-/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

/-- The hash of one lane from its three coordinates: what every operation of the chain does at one index. -/
def hashPt (x y z : F .f32) : BitVec 32 :=
  Cert.Spec.hashLanes Cert.Spec.S_ (fun _ => x) (fun _ => y) (fun _ => z) ix0

/-- The chain is pointwise: at an index it is the lane hash of its operands there. -/
theorem hashLanes_apply (S : Shape) (x y z : FVec F S .f32) (i : S.Idx) :
    Cert.Spec.hashLanes S x y z i = hashPt (x i) (y i) (z i) := rfl

/-- The three zero offsets of a whole slab, as the constant function. -/
theorem hz3 : (![0, 0, 0] : Fin 3 → Nat) = fun _ => 0 := funext fun a => by fin_cases a <;> rfl

/-- The body's payload is the chain at the lane shape, between the two casts of the unit axis. -/
theorem pay_eq (x0 x1 x2 : Vec F S1x3125x128 .f32) :
    k0_pay1 (k0_pay4 x2) (k0_pay5 x0 x1 x2) (k0_pay6 x0) (k0_pay7 x1)
      = shapeCast S1x3125x128 (Cert.Spec.hashLanes S3125x128
          (shapeCast S3125x128 x0 shapeCasts_S1x3125x128_S3125x128)
          (shapeCast S3125x128 x1 shapeCasts_S1x3125x128_S3125x128)
          (shapeCast S3125x128 x2 shapeCasts_S1x3125x128_S3125x128)) shapeCasts_S3125x128_S1x3125x128 := rfl

/-- The payload at an element of the slab is the lane hash of the three input slabs at that element. -/
theorem pay_apply (x0 x1 x2 : Vec F S1x3125x128 .f32) (u : Fin 1) (r : Fin 3125) (l : Fin 128) :
    k0_pay1 (k0_pay4 x2) (k0_pay5 x0 x1 x2) (k0_pay6 x0) (k0_pay7 x1) (ix3 u r l)
      = hashPt (x0 (ix3 (0 : Fin 1) r l)) (x1 (ix3 (0 : Fin 1) r l)) (x2 (ix3 (0 : Fin 1) r l)) := by
  rw [pay_eq, shapeCast_ab_1ab_apply, hashLanes_apply, shapeCast_1ab_ab_apply, shapeCast_1ab_ab_apply,
    shapeCast_1ab_ab_apply]

/-- The payload at an element of the slab from the three arrays: when each input slab at (0, r, l) is its array
    at the array index i, the payload there is the chain of the three arrays at i. -/
theorem slab_hash (x0 x1 x2 : Vec F S1x3125x128 .f32) (a0 a1 a2 : FVec F Cert.Spec.SG .f32)
    (y : S1x3125x128.Idx) (i : Cert.Spec.SG.Idx)
    (h0 : x0 (ix3 (0 : Fin 1) (y 1) (y 2)) = a0 i) (h1 : x1 (ix3 (0 : Fin 1) (y 1) (y 2)) = a1 i)
    (h2 : x2 (ix3 (0 : Fin 1) (y 1) (y 2)) = a2 i) :
    k0_pay1 (k0_pay4 x2) (k0_pay5 x0 x1 x2) (k0_pay6 x0) (k0_pay7 x1) y
      = Cert.Spec.hashLanes Cert.Spec.SG a0 a1 a2 i := by
  rw [hashLanes_apply, ← h0, ← h1, ← h2, ← pay_apply x0 x1 x2 (y 0) (y 1) (y 2)]
  exact congrArg _ (eq_ix3 y)

variable (m : (ℓ : Loc nD τ sig) → Buf (Elt F) ℓ)

/-- The four windows' index maps over the grid: at point t every window's block index is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- Element (0, r, l) of the first input's slab at point t is the array at (t, r, l). -/
theorem iblk0_apply (c : Dev nD) (t : Fin cfg0.N) (r : Fin 3125) (l : Fin 128) (i : S10x3125x128.Idx)
    (hi0 : (i 0).val = t.val) (hi1 : (i 1).val = r.val) (hi2 : (i 2).val = l.val) :
    (iblk m c 0 t : Vec F S1x3125x128 .f32) (ix3 (0 : Fin 1) r l) = (V m c main_v6 : S10x3125x128.Idx → F .f32) i := by
  obtain ⟨e0, e1, e2, -⟩ := idx_facts t
  unfold iblk
  rw [View.read_apply]
  show V m c main_v6 _ = V m c main_v6 _
  congr 1
  funext a
  apply Fin.ext
  match a with
  | ⟨0, _⟩ => show win0_0.index t (0 : Fin 3) * 1 + 1 * 0 = (i 0).val; omega
  | ⟨1, _⟩ => show win0_0.index t (1 : Fin 3) * 3125 + 1 * r.val = (i 1).val; omega
  | ⟨2, _⟩ => show win0_0.index t (2 : Fin 3) * 128 + 1 * l.val = (i 2).val; omega

/-- Element (0, r, l) of the second input's slab at point t is the array at (t, r, l). -/
theorem iblk1_apply (c : Dev nD) (t : Fin cfg0.N) (r : Fin 3125) (l : Fin 128) (i : S10x3125x128.Idx)
    (hi0 : (i 0).val = t.val) (hi1 : (i 1).val = r.val) (hi2 : (i 2).val = l.val) :
    (iblk m c 1 t : Vec F S1x3125x128 .f32) (ix3 (0 : Fin 1) r l) = (V m c main_v7 : S10x3125x128.Idx → F .f32) i := by
  obtain ⟨-, -, -, e0, e1, e2, -⟩ := idx_facts t
  unfold iblk
  rw [View.read_apply]
  show V m c main_v7 _ = V m c main_v7 _
  congr 1
  funext a
  apply Fin.ext
  match a with
  | ⟨0, _⟩ => show win0_1.index t (0 : Fin 3) * 1 + 1 * 0 = (i 0).val; omega
  | ⟨1, _⟩ => show win0_1.index t (1 : Fin 3) * 3125 + 1 * r.val = (i 1).val; omega
  | ⟨2, _⟩ => show win0_1.index t (2 : Fin 3) * 128 + 1 * l.val = (i 2).val; omega

/-- Element (0, r, l) of the third input's slab at point t is the array at (t, r, l). -/
theorem iblk2_apply (c : Dev nD) (t : Fin cfg0.N) (r : Fin 3125) (l : Fin 128) (i : S10x3125x128.Idx)
    (hi0 : (i 0).val = t.val) (hi1 : (i 1).val = r.val) (hi2 : (i 2).val = l.val) :
    (iblk m c 2 t : Vec F S1x3125x128 .f32) (ix3 (0 : Fin 1) r l) = (V m c main_v8 : S10x3125x128.Idx → F .f32) i := by
  obtain ⟨-, -, -, -, -, -, e0, e1, e2, -⟩ := idx_facts t
  unfold iblk
  rw [View.read_apply]
  show V m c main_v8 _ = V m c main_v8 _
  congr 1
  funext a
  apply Fin.ext
  match a with
  | ⟨0, _⟩ => show win0_2.index t (0 : Fin 3) * 1 + 1 * 0 = (i 0).val; omega
  | ⟨1, _⟩ => show win0_2.index t (1 : Fin 3) * 3125 + 1 * r.val = (i 1).val; omega
  | ⟨2, _⟩ => show win0_2.index t (2 : Fin 3) * 128 + 1 * l.val = (i 2).val; omega

/-- Element y of the output's slab at point t sits in the array at (t, y 1, y 2). -/
theorem out_emb (t : Fin cfg0.N) (y : S1x3125x128.Idx) :
    ((((cfg0.win 3).blk t).view.emb y : S10x3125x128.Idx) 0).val = t.val
    ∧ ((((cfg0.win 3).blk t).view.emb y : S10x3125x128.Idx) 1).val = (y 1).val
    ∧ ((((cfg0.win 3).blk t).view.emb y : S10x3125x128.Idx) 2).val = (y 2).val := by
  obtain ⟨-, -, -, -, -, -, -, -, -, e0, e1, e2⟩ := idx_facts t
  have hy : (y 0).val < 1 := (y 0).isLt
  refine ⟨?_, ?_, ?_⟩
  · show win0_3.index t (0 : Fin 3) * 1 + 1 * (y 0).val = t.val; omega
  · show win0_3.index t (1 : Fin 3) * 3125 + 1 * (y 1).val = (y 1).val; omega
  · show win0_3.index t (2 : Fin 3) * 128 + 1 * (y 2).val = (y 2).val; omega

/-- What point t writes back is slab t of the chain of the three whole input arrays. -/
theorem flushed_eq (c : Dev nD) (t : Fin cfg0.N) :
    (dats m 0 c).flushed 3 t = ((cfg0.win 3).blk t).view.read (Elt F)
      (Cert.Spec.hashLanes Cert.Spec.SG (V m c main_v6) (V m c main_v7) (V m c main_v8)) := by
  show (cfg0.win 3).cut (grid0.coords t) ((dats m 0 c).after 3 t) = _
  rw [after0_3]
  unfold out0_3
  rw [View.canon_unit_zero hz3]
  simp only [View.ld_unit_zero (S := S1x3125x128) hz3]
  funext y
  obtain ⟨o0, o1, o2⟩ := out_emb t y
  exact slab_hash (iblk m c 0 t) (iblk m c 1 t) (iblk m c 2 t) (V m c main_v6) (V m c main_v7) (V m c main_v8) y
    (((cfg0.win 3).blk t).view.emb y)
    (iblk0_apply m c t (y 1) (y 2) _ o0 o1 o2) (iblk1_apply m c t (y 1) (y 2) _ o0 o1 o2)
    (iblk2_apply m c t (y 1) (y 2) _ o0 o1 o2)

/-- An index of the array is in point t's slab iff each coordinate is in the slab's range on its axis. -/
theorem mem_blk (t : Fin cfg0.N) (i : S10x3125x128.Idx) :
    i ∈ ((cfg0.win 3).blk t).view.set ↔ ∀ a : Fin 3, win0_3.index t a * S1x3125x128.size a ≤ (i a).val
      ∧ (i a).val < win0_3.index t a * S1x3125x128.size a + S1x3125x128.size a := by
  show i ∈ ((View.whole main_v9).slice (win0_3.rect t)).set ↔ _
  rw [View.set_slice_whole, Rect.mem_set_unit]
  exact Iff.rfl

/-- The ten slabs cover the array: the index (p, r, l) is in the slab of point p. -/
theorem cover (i : S10x3125x128.Idx) :
    ∃ t : Fin cfg0.N, (cfg0.win 3).flush t = true ∧ i ∈ ((cfg0.win 3).blk t).view.set := by
  have h0 : (i 0).val < 10 := (i 0).isLt
  have h1 : (i 1).val < 3125 := (i 1).isLt
  have h2 : (i 2).val < 128 := (i 2).isLt
  obtain ⟨t, ht⟩ : ∃ t : Fin cfg0.N, t.val = (i 0).val :=
    ⟨⟨(i 0).val, by rw [show cfg0.N = 10 from N_0]; exact h0⟩, rfl⟩
  refine ⟨t, flush0_3 t, ?_⟩
  rw [mem_blk]
  obtain ⟨-, -, -, -, -, -, -, -, -, e0, e1, e2⟩ := idx_facts t
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 3125 ≤ (i 1).val ∧ (i 1).val < win0_3.index t (1 : Fin 3) * 3125 + 3125; omega
  | ⟨2, _⟩ => show win0_3.index t (2 : Fin 3) * 128 ≤ (i 2).val ∧ (i 2).val < win0_3.index t (2 : Fin 3) * 128 + 128; omega

/-- The output array after the region: the chain of the three whole input arrays as the region finds them. -/
theorem region_value (c : Dev nD) :
    (dats m 0 c).arrAt 3 cfg0.N
      = Cert.Spec.hashLanes Cert.Spec.SG (V m c main_v6) (V m c main_v7) (V m c main_v8) :=
  (dats m 0 c).arrAt_eq_of_cover 3
    (Cert.Spec.hashLanes Cert.Spec.SG (V m c main_v6) (V m c main_v7) (V m c main_v8))
    (fun t _ => flushed_eq m c t) cover

end Cert.KernelIdeal.Hand

end
-- ==== Proof.KValue.lean ====
import proofs.«420773_j40235253629492_3_alg».proof.Proof.KFrameIdeal
import proofs.«420773_j40235253629492_3_alg».proof.Proof.Spec
import proofs.«420773_j40235253629492_3_alg».proof.Proof.KTail
import proofs.«420773_j40235253629492_3_alg».proof.Proof.KRegion

/-!
The kernel program's run with its three results as functions of the launch contents of the argument
array: the per-voxel rows of points, the per-voxel cell coordinates and the per-voxel point counts, each
computed from the points sorted by the hash the region writes.
-/

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

/-- The results of the lines after the region, from a valuation at their entry that holds the hash of the points
    `pts` on the grid of lanes in the region's output array, `pts` itself in the argument array, and the constant
    true in the one-element buffer the first run-start test reads. -/
theorem results_of (W : Valuation τ sig (Elt F)) (pts : FVec F Cert.Spec.SNx4 .f32)
    (h9 : W (Proc.devRef .tc main_v9) = Cert.Spec.hashLanes Cert.Spec.SG (Cert.Spec.lanes pts 0) (Cert.Spec.lanes pts 1) (Cert.Spec.lanes pts 2))
    (h0 : W (Proc.devRef .tc main_arg0) = pts) (hc : W (Proc.devRef .tc main_c) = constantI S1 1 1#1) :
    StableHlo.after Tail.tailOps W (Proc.devRef .tc main_v77)
        = Cert.Spec.voxelsGather pts (Cert.Spec.sorted (Cert.Spec.hashKer pts)).2 (Cert.Spec.sorted (Cert.Spec.hashKer pts)).1
    ∧ StableHlo.after Tail.tailOps W (Proc.devRef .tc main_v94)
        = Cert.Spec.coordsOf (Cert.Spec.sorted (Cert.Spec.hashKer pts)).1 (Cert.Spec.decode (Cert.Spec.sorted (Cert.Spec.hashKer pts)).1)
    ∧ StableHlo.after Tail.tailOps W (Proc.devRef .tc main_v52) = Cert.Spec.numPoints (Cert.Spec.sorted (Cert.Spec.hashKer pts)).1
    ∧ StableHlo.after Tail.tailOps W (Proc.devRef .tc main_arg0) = pts := by
  have h := Tail.tail_results W hc
  rw [h9, h0] at h
  exact h

variable (m : (ℓ : Loc nD τ sig) → Buf (Elt F) ℓ) (ρ : Dev nD → PrngReg)

/-- The core's buffer contents when the lines after the region start: the region's arrays as the region leaves them,
    every other buffer as the region found it. -/
abbrev Wexit (c : Dev nD) : Valuation τ sig (Elt F) :=
  Pipeline.withArrays spec0 c (V0 m c) fun w => (dats m 0 c).arrAt w cfg0.N

/-- There the argument array holds the launch contents: it is no array of the region, and no line before the
    region writes it. -/
theorem Wexit_arg0 (c : Dev nD) : Wexit m c (Proc.devRef .tc main_arg0) = m ((c.tc : Thread nD τ).loc main_arg0) :=
  (Pipeline.withArrays_of_ne spec0 c (V0 m c) _ main_arg0 (by decide)).trans (V_main_arg0 m c)

/-- And the region's output array holds the hash of the launched points, on the grid of lanes: the region computes
    the hash of what it finds in its three input arrays, and the lines before it fill those with the three
    coordinate columns of the points. -/
theorem Wexit_v9 (c : Dev nD) : Wexit m c (Proc.devRef .tc main_v9)
    = Cert.Spec.hashLanes Cert.Spec.SG (Cert.Spec.lanes (m ((c.tc : Thread nD τ).loc main_arg0)) 0)
        (Cert.Spec.lanes (m ((c.tc : Thread nD τ).loc main_arg0)) 1) (Cert.Spec.lanes (m ((c.tc : Thread nD τ).loc main_arg0)) 2) := by
  have e : Wexit m c (Proc.devRef .tc main_v9) = (dats m 0 c).arrAt 3 cfg0.N :=
    Pipeline.withArrays_arr spec0 launch0.win.arr_inj c (V0 m c) _ 3
  rw [e, region_value,
    show V m c main_v6 = _ from Tail.pre_v6 (fun b => m (c, b)),
    show V m c main_v7 = _ from Tail.pre_v7 (fun b => m (c, b)),
    show V m c main_v8 = _ from Tail.pre_v8 (fun b => m (c, b))]

/-- The one-element constant the lines before the region write is still there: it is no array of the region. -/
theorem Wexit_c (c : Dev nD) : Wexit m c (Proc.devRef .tc main_c) = constantI S1 1 1#1 :=
  (Pipeline.withArrays_of_ne spec0 c (V0 m c) _ main_c (by decide)).trans (Tail.pre_c (fun b => m (c, b)))

/-- What the lines after the region leave in the three result buffers and in the argument array. -/
theorem tail_value (c : Dev nD) (b : Ref sig .tc) :
    Pipeline.afterTail₀ cfgs (dats m) 0 (V0 m) tailOpss c b = StableHlo.after Tail.tailOps (Wexit m c) (Proc.devRef .tc b) := rfl

/-- From any memory with zero counters, for any values: @main runs, and it ends with the per-voxel rows, the
    per-voxel coordinates and the per-voxel counts of the launched points in its three result buffers, and the
    argument array as launched. -/
theorem value_run : θ_run defs (onTc (τ := τ) (main (F := F))) ⟨m, fun _ => 0, ρ⟩ (fun r => ∀ c : Dev nD,
      r.2.mem ((c.tc : Thread nD τ).loc main_v77)
          = Cert.Spec.voxelsGather (m ((c.tc : Thread nD τ).loc main_arg0))
              (Cert.Spec.sorted (Cert.Spec.hashKer (m ((c.tc : Thread nD τ).loc main_arg0)))).2
              (Cert.Spec.sorted (Cert.Spec.hashKer (m ((c.tc : Thread nD τ).loc main_arg0)))).1
      ∧ r.2.mem ((c.tc : Thread nD τ).loc main_v94)
          = Cert.Spec.coordsOf (Cert.Spec.sorted (Cert.Spec.hashKer (m ((c.tc : Thread nD τ).loc main_arg0)))).1
              (Cert.Spec.decode (Cert.Spec.sorted (Cert.Spec.hashKer (m ((c.tc : Thread nD τ).loc main_arg0)))).1)
      ∧ r.2.mem ((c.tc : Thread nD τ).loc main_v52)
          = Cert.Spec.numPoints (Cert.Spec.sorted (Cert.Spec.hashKer (m ((c.tc : Thread nD τ).loc main_arg0)))).1
      ∧ r.2.mem ((c.tc : Thread nD τ).loc main_arg0) = m ((c.tc : Thread nD τ).loc main_arg0)) :=
  (θ_run defs _ _).mono (fun r h c => by
    have hr : ∀ b : Ref sig .tc, b.isScoped = false → (∀ w, (spec0 w).arr.view.ref ≠ b) →
        r.2.mem ((c.tc : Thread nD τ).loc b) = StableHlo.after Tail.tailOps (Wexit m c) (Proc.devRef .tc b) :=
      fun b hs ha => ((h c).2 b (Pipeline.mem_restRefs_of b hs ha)).trans (tail_value m c b)
    obtain ⟨h77, h94, h52, h0⟩ := results_of (Wexit m c) (m ((c.tc : Thread nD τ).loc main_arg0)) (Wexit_v9 m c) (Wexit_arg0 m c) (Wexit_c m c)
    exact ⟨(hr main_v77 (by decide) (by decide)).trans h77, (hr main_v94 (by decide) (by decide)).trans h94,
      (hr main_v52 (by decide) (by decide)).trans h52, (hr main_arg0 (by decide) (by decide)).trans h0⟩) (run_main m ρ)

end Cert.KernelIdeal.Hand

end
-- ==== Proof.RefOps.lean ====
import proofs.«420773_j40235253629492_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1–35 of @main (window 0), in order. -/
abbrev ops0 : List (HloOp τ sig (Elt F)) :=
  [ nullary main_cst (fun i => FloatOps.ofBits .f32 (lit0 (S3.rowMajor i))),
    nullary main_cst_0 (fun i => FloatOps.ofBits .f32 (lit1 (S3.rowMajor i))),
    nullary main_cst_1 (fun i => FloatOps.ofBits .f32 (lit2 (S3.rowMajor i))),
    nullary main_c (fun i => lit3 (S3.rowMajor i)),
    nullary main_c_2 (constantI S1 1 1#1),
    unary main_arg0 main_v0 ((extractStridedSlice S4000000x3 ![0, 0] · slices_S4000000x4_S4000000x3_0_0) : (⟨S4000000x4, .f32⟩ : BufTy).Contents (Elt F) → (⟨S4000000x3, .f32⟩ : BufTy).Contents (Elt F)),
    unary main_cst main_v1 (broadcastInDim S1x3 ![1] bcast_S3_S1x3_1 : (⟨S3, .f32⟩ : BufTy).Contents (Elt F) → (⟨S1x3, .f32⟩ : BufTy).Contents (Elt F)),
    unary main_v1 main_v2 (broadcastInDim S4000000x3 ![0, 1] bcast_S1x3_S4000000x3_0_1 : (⟨S1x3, .f32⟩ : BufTy).Contents (Elt F) → (⟨S4000000x3, .f32⟩ : BufTy).Contents (Elt F)),
    binary main_v0 main_v2 main_v3 (cmpf .oge : (⟨S4000000x3, .f32⟩ : BufTy).Contents (Elt F) → (⟨S4000000x3, .f32⟩ : BufTy).Contents (Elt F) → (⟨S4000000x3, .i1⟩ : BufTy).Contents (Elt F)),
    unary main_cst_0 main_v4 (broadcastInDim S1x3 ![1] bcast_S3_S1x3_1 : (⟨S3, .f32⟩ : BufTy).Contents (Elt F) → (⟨S1x3, .f32⟩ : BufTy).Contents (Elt F)),
    unary main_v4 main_v5 (broadcastInDim S4000000x3 ![0, 1] bcast_S1x3_S4000000x3_0_1 : (⟨S1x3, .f32⟩ : BufTy).Contents (Elt F) → (⟨S4000000x3, .f32⟩ : BufTy).Contents (Elt F)),
    binary main_v0 main_v5 main_v6 (cmpf .olt : (⟨S4000000x3, .f32⟩ : BufTy).Contents (Elt F) → (⟨S4000000x3, .f32⟩ : BufTy).Contents (Elt F) → (⟨S4000000x3, .i1⟩ : BufTy).Contents (Elt F)),
    binary main_v3 main_v6 main_v7 (andi : (⟨S4000000x3, .i1⟩ : BufTy).Contents (Elt F) → (⟨S4000000x3, .i1⟩ : BufTy).Contents (Elt F) → (⟨S4000000x3, .i1⟩ : BufTy).Contents (Elt F)),
    nullary main_c_3 (constantI S_ 1 1#1),
    binary main_v7 main_c_3 main_v8 ((fun x v => Host.reduce IntOp.andi x v reducesTo_S4000000x3_S4000000_d1 h_S_) : (⟨S4000000x3, .i1⟩ : BufTy).Contents (Elt F) → (⟨S_, .i1⟩ : BufTy).Contents (Elt F) → (⟨S4000000, .i1⟩ : BufTy).Contents (Elt F)),
    unary main_cst main_v9 (broadcastInDim S1x3 ![1] bcast_S3_S1x3_1 : (⟨S3, .f32⟩ : BufTy).Contents (Elt F) → (⟨S1x3, .f32⟩ : BufTy).Contents (Elt F)),
    unary main_v9 main_v10 (broadcastInDim S4000000x3 ![0, 1] bcast_S1x3_S4000000x3_0_1 : (⟨S1x3, .f32⟩ : BufTy).Contents (Elt F) → (⟨S4000000x3, .f32⟩ : BufTy).Contents (Elt F)),
    binary main_v0 main_v10 main_v11 (subf : (⟨S4000000x3, .f32⟩ : BufTy).Contents (Elt F) → (⟨S4000000x3, .f32⟩ : BufTy).Contents (Elt F) → (⟨S4000000x3, .f32⟩ : BufTy).Contents (Elt F)),
    unary main_cst_1 main_v12 (broadcastInDim S1x3 ![1] bcast_S3_S1x3_1 : (⟨S3, .f32⟩ : BufTy).Contents (Elt F) → (⟨S1x3, .f32⟩ : BufTy).Contents (Elt F)),
    unary main_v12 main_v13 (broadcastInDim S4000000x3 ![0, 1] bcast_S1x3_S4000000x3_0_1 : (⟨S1x3, .f32⟩ : BufTy).Contents (Elt F) → (⟨S4000000x3, .f32⟩ : BufTy).Contents (Elt F)),
    binary main_v11 main_v13 main_v14 (Host.divf : (⟨S4000000x3, .f32⟩ : BufTy).Contents (Elt F) → (⟨S4000000x3, .f32⟩ : BufTy).Contents (Elt F) → (⟨S4000000x3, .f32⟩ : BufTy).Contents (Elt F)),
    unary main_v14 main_v15 (Host.floor : (⟨S4000000x3, .f32⟩ : BufTy).Contents (Elt F) → (⟨S4000000x3, .f32⟩ : BufTy).Contents (Elt F)),
    unary main_v15 main_v16 (fptosi 32 : (⟨S4000000x3, .f32⟩ : BufTy).Contents (Elt F) → (⟨S4000000x3, .i32⟩ : BufTy).Contents (Elt F)),
    nullary main_c_4 (constantI S_ 32 0#32),
    TRef.unary (.of main_c_4 : TRef sig ⟨S_, .i32⟩) main_call0.v0 id,
    TRef.unary main_call0.v0 main_call0.v1 (broadcastInDim S4000000x3 ![] bcast_S_S4000000x3),
    TRef.binary main_call0.v1 (.of main_v16 : TRef sig ⟨S4000000x3, .i32⟩) main_call0.v2 maxsi,
    TRef.unary (.of main_c : TRef sig ⟨S3, .i32⟩) main_call0.v3 (broadcastInDim S1x3 ![1] bcast_S3_S1x3_1),
    TRef.unary main_call0.v3 main_call0.v4 (broadcastInDim S4000000x3 ![0, 1] bcast_S1x3_S4000000x3_0_1),
    TRef.binary main_call0.v4 main_call0.v2 main_call0.v5 minsi,
    unary main_v17 main_v18 ((extractStridedSlice S4000000x1 ![0, 0] · slices_S4000000x3_S4000000x1_0_0) : (⟨S4000000x3, .i32⟩ : BufTy).Contents (Elt F) → (⟨S4000000x1, .i32⟩ : BufTy).Contents (Elt F)),
    reshape main_v18 main_v19 rfl shapeCasts_S4000000x1_S4000000,
    nullary main_c_5 (constantI S_ 32 256#32),
    unary main_c_5 main_v20 (broadcastInDim S4000000 ![] bcast_S_S4000000 : (⟨S_, .i32⟩ : BufTy).Contents (Elt F) → (⟨S4000000, .i32⟩ : BufTy).Contents (Elt F)),
    binary main_v19 main_v20 main_v21 (muli : (⟨S4000000, .i32⟩ : BufTy).Contents (Elt F) → (⟨S4000000, .i32⟩ : BufTy).Contents (Elt F) → (⟨S4000000, .i32⟩ : BufTy).Contents (Elt F)) ]

/-- The buffer each operation of ops0 writes, in order. -/
abbrev W0 : List (Ref sig .tc) :=
  [ main_cst, main_cst_0, main_cst_1, main_c, main_c_2, main_v0, main_v1, main_v2,
    main_v3, main_v4, main_v5, main_v6, main_v7, main_c_3, main_v8, main_v9,
    main_v10, main_v11, main_v12, main_v13, main_v14, main_v15, main_v16, main_c_4,
    main_call0_v0, main_call0_v1, main_call0_v2, main_call0_v3, main_call0_v4, main_v17, main_v18, main_v19,
    main_c_5, main_v20, main_v21 ]

/-- Operations 36–69 of @main (window 0), in order. -/
abbrev ops1 : List (HloOp τ sig (Elt F)) :=
  [ unary main_v17 main_v22 ((extractStridedSlice S4000000x1 ![0, 1] · slices_S4000000x3_S4000000x1_0_1) : (⟨S4000000x3, .i32⟩ : BufTy).Contents (Elt F) → (⟨S4000000x1, .i32⟩ : BufTy).Contents (Elt F)),
    reshape main_v22 main_v23 rfl shapeCasts_S4000000x1_S4000000,
    nullary main_c_6 (constantI S_ 32 1#32),
    unary main_c_6 main_v24 (broadcastInDim S4000000 ![] bcast_S_S4000000 : (⟨S_, .i32⟩ : BufTy).Contents (Elt F) → (⟨S4000000, .i32⟩ : BufTy).Contents (Elt F)),
    binary main_v23 main_v24 main_v25 (muli : (⟨S4000000, .i32⟩ : BufTy).Contents (Elt F) → (⟨S4000000, .i32⟩ : BufTy).Contents (Elt F) → (⟨S4000000, .i32⟩ : BufTy).Contents (Elt F)),
    binary main_v21 main_v25 main_v26 (addi : (⟨S4000000, .i32⟩ : BufTy).Contents (Elt F) → (⟨S4000000, .i32⟩ : BufTy).Contents (Elt F) → (⟨S4000000, .i32⟩ : BufTy).Contents (Elt F)),
    unary main_v17 main_v27 ((extractStridedSlice S4000000x1 ![0, 2] · slices_S4000000x3_S4000000x1_0_2) : (⟨S4000000x3, .i32⟩ : BufTy).Contents (Elt F) → (⟨S4000000x1, .i32⟩ : BufTy).Contents (Elt F)),
    reshape main_v27 main_v28 rfl shapeCasts_S4000000x1_S4000000,
    binary main_v26 main_v28 main_v29 (addi : (⟨S4000000, .i32⟩ : BufTy).Contents (Elt F) → (⟨S4000000, .i32⟩ : BufTy).Contents (Elt F) → (⟨S4000000, .i32⟩ : BufTy).Contents (Elt F)),
    nullary main_c_7 (constantI S_ 32 65536#32),
    TRef.unary (.of main_c_7 : TRef sig ⟨S_, .i32⟩) main_call1.v0 id,
    TRef.unary main_call1.v0 main_call1.v1 (broadcastInDim S4000000 ![] bcast_S_S4000000),
    TRef.ternary (.of main_v8 : TRef sig ⟨S4000000, .i1⟩) (.of main_v29 : TRef sig ⟨S4000000, .i32⟩) main_call1.v1 main_call1.v2 select,
    TRef.nullary main_call2.v0 (iotaInDim S4000000 32 0),
    TRef.binary (.of main_v30 : TRef sig ⟨S4000000, .i32⟩) main_call2.v0 main_call2.v1_0 (fun x y => (Host.sort2 S4000000 0 comparator_i32_i32_d0 x y).1),
    TRef.binary (.of main_v30 : TRef sig ⟨S4000000, .i32⟩) main_call2.v0 main_call2.v1_1 (fun x y => (Host.sort2 S4000000 0 comparator_i32_i32_d0 x y).2),
    nullary main_c_8 (constantI S_ 32 0#32),
    unary main_c_8 main_v32 (broadcastInDim S4000000 ![] bcast_S_S4000000 : (⟨S_, .i32⟩ : BufTy).Contents (Elt F) → (⟨S4000000, .i32⟩ : BufTy).Contents (Elt F)),
    binary main_v31 main_v32 main_v33 (cmpi .slt : (⟨S4000000, .i32⟩ : BufTy).Contents (Elt F) → (⟨S4000000, .i32⟩ : BufTy).Contents (Elt F) → (⟨S4000000, .i1⟩ : BufTy).Contents (Elt F)),
    nullary main_c_9 (constantI S_ 32 4000000#32),
    unary main_c_9 main_v34 (broadcastInDim S4000000 ![] bcast_S_S4000000 : (⟨S_, .i32⟩ : BufTy).Contents (Elt F) → (⟨S4000000, .i32⟩ : BufTy).Contents (Elt F)),
    binary main_v31 main_v34 main_v35 (addi : (⟨S4000000, .i32⟩ : BufTy).Contents (Elt F) → (⟨S4000000, .i32⟩ : BufTy).Contents (Elt F) → (⟨S4000000, .i32⟩ : BufTy).Contents (Elt F)),
    ternary main_v33 main_v35 main_v31 main_v36 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    unary main_v36 main_v37 (broadcastInDim S4000000x1 ![0] bcast_S4000000_S4000000x1_0 : (⟨S4000000, .i32⟩ : BufTy).Contents (Elt F) → (⟨S4000000x1, .i32⟩ : BufTy).Contents (Elt F)),
    binary main_v30 main_v37 main_v38 ((fun x i => Host.gather gather_S4000000_S4000000x1_S4000000_n_0_n_n_0_1_1 x i) : (⟨S4000000, .i32⟩ : BufTy).Contents (Elt F) → (⟨S4000000x1, .i32⟩ : BufTy).Contents (Elt F) → (⟨S4000000, .i32⟩ : BufTy).Contents (Elt F)),
    nullary main_c_10 (constantI S_ 32 0#32),
    unary main_c_10 main_v39 (broadcastInDim S4000000 ![] bcast_S_S4000000 : (⟨S_, .i32⟩ : BufTy).Contents (Elt F) → (⟨S4000000, .i32⟩ : BufTy).Contents (Elt F)),
    binary main_v31 main_v39 main_v40 (cmpi .slt : (⟨S4000000, .i32⟩ : BufTy).Contents (Elt F) → (⟨S4000000, .i32⟩ : BufTy).Contents (Elt F) → (⟨S4000000, .i1⟩ : BufTy).Contents (Elt F)),
    nullary main_c_11 (constantI S_ 32 4000000#32),
    unary main_c_11 main_v41 (broadcastInDim S4000000 ![] bcast_S_S4000000 : (⟨S_, .i32⟩ : BufTy).Contents (Elt F) → (⟨S4000000, .i32⟩ : BufTy).Contents (Elt F)),
    binary main_v31 main_v41 main_v42 (addi : (⟨S4000000, .i32⟩ : BufTy).Contents (Elt F) → (⟨S4000000, .i32⟩ : BufTy).Contents (Elt F) → (⟨S4000000, .i32⟩ : BufTy).Contents (Elt F)),
    ternary main_v40 main_v42 main_v31 main_v43 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    unary main_v43 main_v44 (broadcastInDim S4000000x1 ![0] bcast_S4000000_S4000000x1_0 : (⟨S4000000, .i32⟩ : BufTy).Contents (Elt F) → (⟨S4000000x1, .i32⟩ : BufTy).Contents (Elt F)),
    binary main_v17 main_v44 main_v45 ((fun x i => Host.gather gather_S4000000x3_S4000000x1_S4000000x3_1_0_n_n_0_1_13 x i) : (⟨S4000000x3, .i32⟩ : BufTy).Contents (Elt F) → (⟨S4000000x1, .i32⟩ : BufTy).Contents (Elt F) → (⟨S4000000x3, .i32⟩ : BufTy).Contents (Elt F)) ]

/-- The buffer each operation of ops1 writes, in order. -/
abbrev W1 : List (Ref sig .tc) :=
  [ main_v22, main_v23, main_c_6, main_v24, main_v25, main_v26, main_v27, main_v28,
    main_v29, main_c_7, main_call1_v0, main_call1_v1, main_v30, main_call2_v0, main_call2_v1_0, main_v31,
    main_c_8, main_v32, main_v33, main_c_9, main_v34, main_v35, main_v36, main_v37,
    main_v38, main_c_10, main_v39, main_v40, main_c_11, main_v41, main_v42, main_v43,
    main_v44, main_v45 ]

/-- Operations 70–104 of @main (window 1), in order. -/
abbrev ops2 : List (HloOp τ sig (Elt F)) :=
  [ nullary main_c_12 (constantI S_ 32 0#32),
    unary main_c_12 main_v46 (broadcastInDim S4000000 ![] bcast_S_S4000000 : (⟨S_, .i32⟩ : BufTy).Contents (Elt F) → (⟨S4000000, .i32⟩ : BufTy).Contents (Elt F)),
    binary main_v31 main_v46 main_v47 (cmpi .slt : (⟨S4000000, .i32⟩ : BufTy).Contents (Elt F) → (⟨S4000000, .i32⟩ : BufTy).Contents (Elt F) → (⟨S4000000, .i1⟩ : BufTy).Contents (Elt F)),
    nullary main_c_13 (constantI S_ 32 4000000#32),
    unary main_c_13 main_v48 (broadcastInDim S4000000 ![] bcast_S_S4000000 : (⟨S_, .i32⟩ : BufTy).Contents (Elt F) → (⟨S4000000, .i32⟩ : BufTy).Contents (Elt F)),
    binary main_v31 main_v48 main_v49 (addi : (⟨S4000000, .i32⟩ : BufTy).Contents (Elt F) → (⟨S4000000, .i32⟩ : BufTy).Contents (Elt F) → (⟨S4000000, .i32⟩ : BufTy).Contents (Elt F)),
    ternary main_v47 main_v49 main_v31 main_v50 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    unary main_v50 main_v51 (broadcastInDim S4000000x1 ![0] bcast_S4000000_S4000000x1_0 : (⟨S4000000, .i32⟩ : BufTy).Contents (Elt F) → (⟨S4000000x1, .i32⟩ : BufTy).Contents (Elt F)),
    binary main_arg0 main_v51 main_v52 ((fun x i => Host.gather gather_S4000000x4_S4000000x1_S4000000x4_1_0_n_n_0_1_14 x i) : (⟨S4000000x4, .f32⟩ : BufTy).Contents (Elt F) → (⟨S4000000x1, .i32⟩ : BufTy).Contents (Elt F) → (⟨S4000000x4, .f32⟩ : BufTy).Contents (Elt F)),
    nullary main_c_14 (constantI S_ 32 65536#32),
    unary main_c_14 main_v53 (broadcastInDim S4000000 ![] bcast_S_S4000000 : (⟨S_, .i32⟩ : BufTy).Contents (Elt F) → (⟨S4000000, .i32⟩ : BufTy).Contents (Elt F)),
    binary main_v38 main_v53 main_v54 (cmpi .slt : (⟨S4000000, .i32⟩ : BufTy).Contents (Elt F) → (⟨S4000000, .i32⟩ : BufTy).Contents (Elt F) → (⟨S4000000, .i1⟩ : BufTy).Contents (Elt F)),
    unary main_v38 main_v55 ((extractStridedSlice S3999999 ![1] · slices_S4000000_S3999999_1) : (⟨S4000000, .i32⟩ : BufTy).Contents (Elt F) → (⟨S3999999, .i32⟩ : BufTy).Contents (Elt F)),
    unary main_v38 main_v56 ((extractStridedSlice S3999999 ![0] · slices_S4000000_S3999999_0) : (⟨S4000000, .i32⟩ : BufTy).Contents (Elt F) → (⟨S3999999, .i32⟩ : BufTy).Contents (Elt F)),
    binary main_v55 main_v56 main_v57 (cmpi .ne : (⟨S3999999, .i32⟩ : BufTy).Contents (Elt F) → (⟨S3999999, .i32⟩ : BufTy).Contents (Elt F) → (⟨S3999999, .i1⟩ : BufTy).Contents (Elt F)),
    binary main_c_2 main_v57 main_v58 ((fun a b => concatenate S4000000 0 [⟨S1, a⟩, ⟨S3999999, b⟩] concatenates_S1_S3999999_S4000000_d0) : (⟨S1, .i1⟩ : BufTy).Contents (Elt F) → (⟨S3999999, .i1⟩ : BufTy).Contents (Elt F) → (⟨S4000000, .i1⟩ : BufTy).Contents (Elt F)),
    binary main_v58 main_v54 main_v59 (andi : (⟨S4000000, .i1⟩ : BufTy).Contents (Elt F) → (⟨S4000000, .i1⟩ : BufTy).Contents (Elt F) → (⟨S4000000, .i1⟩ : BufTy).Contents (Elt F)),
    unary main_v59 main_v60 ((extui 32 · natLt_1_32) : (⟨S4000000, .i1⟩ : BufTy).Contents (Elt F) → (⟨S4000000, .i32⟩ : BufTy).Contents (Elt F)),
    TRef.nullary main_call3.call0.c (constantI S_ 32 0#32),
    TRef.unary main_call3.call0.c main_call3.call0.v0 (broadcastInDim S_ ![] bcast_S_S_),
    TRef.binary (.of main_v60 : TRef sig ⟨S4000000, .i32⟩) main_call3.call0.v0 main_call3.call0.v1 (fun x v => Host.reduceWindow IntOp.addi ![4000000] ![1] ![3999999] ![0] x v reduceWindows_S4000000_S4000000_w4000000s1p3999999_0 h_S_),
    nullary main_c_15 (constantI S_ 32 1#32),
    unary main_c_15 main_v62 (broadcastInDim S4000000 ![] bcast_S_S4000000 : (⟨S_, .i32⟩ : BufTy).Contents (Elt F) → (⟨S4000000, .i32⟩ : BufTy).Contents (Elt F)),
    binary main_v61 main_v62 main_v63 (subi : (⟨S4000000, .i32⟩ : BufTy).Contents (Elt F) → (⟨S4000000, .i32⟩ : BufTy).Contents (Elt F) → (⟨S4000000, .i32⟩ : BufTy).Contents (Elt F)),
    nullary main_v64 (iotaInDim S4000000 32 0),
    nullary main_c_16 (constantI S_ 32 0#32),
    TRef.unary (.of main_c_16 : TRef sig ⟨S_, .i32⟩) main_call4.v0 id,
    TRef.unary main_call4.v0 main_call4.v1 (broadcastInDim S4000000 ![] bcast_S_S4000000),
    TRef.ternary (.of main_v59 : TRef sig ⟨S4000000, .i1⟩) (.of main_v64 : TRef sig ⟨S4000000, .i32⟩) main_call4.v1 main_call4.v2 select,
    TRef.nullary main_call5.c (constantI S_ 32 2147483648#32),
    TRef.unary main_call5.c main_call5.v0 (broadcastInDim S_ ![] bcast_S_S_),
    TRef.binary (.of main_v65 : TRef sig ⟨S4000000, .i32⟩) main_call5.v0 main_call5.v1 (fun x v => Host.reduceWindow IntOp.maxsi ![4000000] ![1] ![3999999] ![0] x v reduceWindows_S4000000_S4000000_w4000000s1p3999999_0 h_S_),
    binary main_v64 main_v66 main_v67 (subi : (⟨S4000000, .i32⟩ : BufTy).Contents (Elt F) → (⟨S4000000, .i32⟩ : BufTy).Contents (Elt F) → (⟨S4000000, .i32⟩ : BufTy).Contents (Elt F)),
    nullary main_c_17 (constantI S_ 32 32#32),
    unary main_c_17 main_v68 (broadcastInDim S4000000 ![] bcast_S_S4000000 : (⟨S_, .i32⟩ : BufTy).Contents (Elt F) → (⟨S4000000, .i32⟩ : BufTy).Contents (Elt F)) ]

/-- The buffer each operation of ops2 writes, in order. -/
abbrev W2 : List (Ref sig .tc) :=
  [ main_c_12, main_v46, main_v47, main_c_13, main_v48, main_v49, main_v50, main_v51,
    main_v52, main_c_14, main_v53, main_v54, main_v55, main_v56, main_v57, main_v58,
    main_v59, main_v60, main_call3_call0_c, main_call3_call0_v0, main_v61, main_c_15, main_v62, main_v63,
    main_v64, main_c_16, main_call4_v0, main_call4_v1, main_v65, main_call5_c, main_call5_v0, main_v66,
    main_v67, main_c_17, main_v68 ]

/-- Operations 105–139 of @main (window 1), in order. -/
abbrev ops3 : List (HloOp τ sig (Elt F)) :=
  [ binary main_v67 main_v68 main_v69 (cmpi .slt : (⟨S4000000, .i32⟩ : BufTy).Contents (Elt F) → (⟨S4000000, .i32⟩ : BufTy).Contents (Elt F) → (⟨S4000000, .i1⟩ : BufTy).Contents (Elt F)),
    binary main_v54 main_v69 main_v70 (andi : (⟨S4000000, .i1⟩ : BufTy).Contents (Elt F) → (⟨S4000000, .i1⟩ : BufTy).Contents (Elt F) → (⟨S4000000, .i1⟩ : BufTy).Contents (Elt F)),
    nullary main_c_18 (constantI S_ 32 16000#32),
    unary main_c_18 main_v71 (broadcastInDim S4000000 ![] bcast_S_S4000000 : (⟨S_, .i32⟩ : BufTy).Contents (Elt F) → (⟨S4000000, .i32⟩ : BufTy).Contents (Elt F)),
    binary main_v63 main_v71 main_v72 (cmpi .slt : (⟨S4000000, .i32⟩ : BufTy).Contents (Elt F) → (⟨S4000000, .i32⟩ : BufTy).Contents (Elt F) → (⟨S4000000, .i1⟩ : BufTy).Contents (Elt F)),
    binary main_v70 main_v72 main_v73 (andi : (⟨S4000000, .i1⟩ : BufTy).Contents (Elt F) → (⟨S4000000, .i1⟩ : BufTy).Contents (Elt F) → (⟨S4000000, .i1⟩ : BufTy).Contents (Elt F)),
    nullary main_c_19 (constantI S_ 32 16000#32),
    TRef.unary (.of main_c_19 : TRef sig ⟨S_, .i32⟩) main_call6.v0 id,
    TRef.unary main_call6.v0 main_call6.v1 (broadcastInDim S4000000 ![] bcast_S_S4000000),
    TRef.ternary (.of main_v73 : TRef sig ⟨S4000000, .i1⟩) (.of main_v63 : TRef sig ⟨S4000000, .i32⟩) main_call6.v1 main_call6.v2 select,
    nullary main_c_20 (constantI S_ 32 0#32),
    TRef.unary (.of main_c_20 : TRef sig ⟨S_, .i32⟩) main_call7.v0 id,
    TRef.unary main_call7.v0 main_call7.v1 (broadcastInDim S4000000 ![] bcast_S_S4000000),
    TRef.ternary (.of main_v73 : TRef sig ⟨S4000000, .i1⟩) (.of main_v67 : TRef sig ⟨S4000000, .i32⟩) main_call7.v1 main_call7.v2 select,
    nullary main_cst_21 (constant S_ .f32 0x00000000#32),
    unary main_cst_21 main_v76 (broadcastInDim S16001x32x4 ![] bcast_S_S16001x32x4 : (⟨S_, .f32⟩ : BufTy).Contents (Elt F) → (⟨S16001x32x4, .f32⟩ : BufTy).Contents (Elt F)),
    nullary main_c_22 (constantI S_ 32 0#32),
    unary main_c_22 main_v77 (broadcastInDim S4000000 ![] bcast_S_S4000000 : (⟨S_, .i32⟩ : BufTy).Contents (Elt F) → (⟨S4000000, .i32⟩ : BufTy).Contents (Elt F)),
    binary main_v74 main_v77 main_v78 (cmpi .slt : (⟨S4000000, .i32⟩ : BufTy).Contents (Elt F) → (⟨S4000000, .i32⟩ : BufTy).Contents (Elt F) → (⟨S4000000, .i1⟩ : BufTy).Contents (Elt F)),
    nullary main_c_23 (constantI S_ 32 16001#32),
    unary main_c_23 main_v79 (broadcastInDim S4000000 ![] bcast_S_S4000000 : (⟨S_, .i32⟩ : BufTy).Contents (Elt F) → (⟨S4000000, .i32⟩ : BufTy).Contents (Elt F)),
    binary main_v74 main_v79 main_v80 (addi : (⟨S4000000, .i32⟩ : BufTy).Contents (Elt F) → (⟨S4000000, .i32⟩ : BufTy).Contents (Elt F) → (⟨S4000000, .i32⟩ : BufTy).Contents (Elt F)),
    ternary main_v78 main_v80 main_v74 main_v81 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    nullary main_c_24 (constantI S_ 32 0#32),
    unary main_c_24 main_v82 (broadcastInDim S4000000 ![] bcast_S_S4000000 : (⟨S_, .i32⟩ : BufTy).Contents (Elt F) → (⟨S4000000, .i32⟩ : BufTy).Contents (Elt F)),
    binary main_v75 main_v82 main_v83 (cmpi .slt : (⟨S4000000, .i32⟩ : BufTy).Contents (Elt F) → (⟨S4000000, .i32⟩ : BufTy).Contents (Elt F) → (⟨S4000000, .i1⟩ : BufTy).Contents (Elt F)),
    nullary main_c_25 (constantI S_ 32 32#32),
    unary main_c_25 main_v84 (broadcastInDim S4000000 ![] bcast_S_S4000000 : (⟨S_, .i32⟩ : BufTy).Contents (Elt F) → (⟨S4000000, .i32⟩ : BufTy).Contents (Elt F)),
    binary main_v75 main_v84 main_v85 (addi : (⟨S4000000, .i32⟩ : BufTy).Contents (Elt F) → (⟨S4000000, .i32⟩ : BufTy).Contents (Elt F) → (⟨S4000000, .i32⟩ : BufTy).Contents (Elt F)),
    ternary main_v83 main_v85 main_v75 main_v86 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    unary main_v81 main_v87 (broadcastInDim S4000000x1 ![0] bcast_S4000000_S4000000x1_0 : (⟨S4000000, .i32⟩ : BufTy).Contents (Elt F) → (⟨S4000000x1, .i32⟩ : BufTy).Contents (Elt F)),
    unary main_v86 main_v88 (broadcastInDim S4000000x1 ![0] bcast_S4000000_S4000000x1_0 : (⟨S4000000, .i32⟩ : BufTy).Contents (Elt F) → (⟨S4000000x1, .i32⟩ : BufTy).Contents (Elt F)),
    binary main_v87 main_v88 main_v89 ((fun a b => concatenate S4000000x2 1 [⟨S4000000x1, a⟩, ⟨S4000000x1, b⟩] concatenates_S4000000x1_S4000000x1_S4000000x2_d1) : (⟨S4000000x1, .i32⟩ : BufTy).Contents (Elt F) → (⟨S4000000x1, .i32⟩ : BufTy).Contents (Elt F) → (⟨S4000000x2, .i32⟩ : BufTy).Contents (Elt F)),
    ternary main_v76 main_v89 main_v52 main_v90 ((fun x i u => Host.scatter scatter_S16001x32x4_S4000000x2_S4000000x4_1_01_01_1 (fun _ b => b) x i u) : (⟨S16001x32x4, .f32⟩ : BufTy).Contents (Elt F) → (⟨S4000000x2, .i32⟩ : BufTy).Contents (Elt F) → (⟨S4000000x4, .f32⟩ : BufTy).Contents (Elt F) → (⟨S16001x32x4, .f32⟩ : BufTy).Contents (Elt F)),
    unary main_v90 main_v91 ((extractStridedSlice S16000x32x4 ![0, 0, 0] · slices_S16001x32x4_S16000x32x4_0_0_0) : (⟨S16001x32x4, .f32⟩ : BufTy).Contents (Elt F) → (⟨S16000x32x4, .f32⟩ : BufTy).Contents (Elt F)) ]

/-- The buffer each operation of ops3 writes, in order. -/
abbrev W3 : List (Ref sig .tc) :=
  [ main_v69, main_v70, main_c_18, main_v71, main_v72, main_v73, main_c_19, main_call6_v0,
    main_call6_v1, main_v74, main_c_20, main_call7_v0, main_call7_v1, main_v75, main_cst_21, main_v76,
    main_c_22, main_v77, main_v78, main_c_23, main_v79, main_v80, main_v81, main_c_24,
    main_v82, main_v83, main_c_25, main_v84, main_v85, main_v86, main_v87, main_v88,
    main_v89, main_v90, main_v91 ]

/-- Operations 140–165 of @main (window 2), in order. -/
abbrev ops4 : List (HloOp τ sig (Elt F)) :=
  [ nullary main_c_26 (constantI S_ 32 16000#32),
    unary main_c_26 main_v92 (broadcastInDim S4000000 ![] bcast_S_S4000000 : (⟨S_, .i32⟩ : BufTy).Contents (Elt F) → (⟨S4000000, .i32⟩ : BufTy).Contents (Elt F)),
    binary main_v63 main_v92 main_v93 (cmpi .slt : (⟨S4000000, .i32⟩ : BufTy).Contents (Elt F) → (⟨S4000000, .i32⟩ : BufTy).Contents (Elt F) → (⟨S4000000, .i1⟩ : BufTy).Contents (Elt F)),
    binary main_v59 main_v93 main_v94 (andi : (⟨S4000000, .i1⟩ : BufTy).Contents (Elt F) → (⟨S4000000, .i1⟩ : BufTy).Contents (Elt F) → (⟨S4000000, .i1⟩ : BufTy).Contents (Elt F)),
    nullary main_c_27 (constantI S_ 32 16000#32),
    TRef.unary (.of main_c_27 : TRef sig ⟨S_, .i32⟩) main_call8.v0 id,
    TRef.unary main_call8.v0 main_call8.v1 (broadcastInDim S4000000 ![] bcast_S_S4000000),
    TRef.ternary (.of main_v94 : TRef sig ⟨S4000000, .i1⟩) (.of main_v63 : TRef sig ⟨S4000000, .i32⟩) main_call8.v1 main_call8.v2 select,
    nullary main_c_28 (constantI S_ 32 0#32),
    unary main_c_28 main_v96 (broadcastInDim S16001x3 ![] bcast_S_S16001x3 : (⟨S_, .i32⟩ : BufTy).Contents (Elt F) → (⟨S16001x3, .i32⟩ : BufTy).Contents (Elt F)),
    nullary main_c_29 (constantI S_ 32 0#32),
    unary main_c_29 main_v97 (broadcastInDim S4000000 ![] bcast_S_S4000000 : (⟨S_, .i32⟩ : BufTy).Contents (Elt F) → (⟨S4000000, .i32⟩ : BufTy).Contents (Elt F)),
    binary main_v95 main_v97 main_v98 (cmpi .slt : (⟨S4000000, .i32⟩ : BufTy).Contents (Elt F) → (⟨S4000000, .i32⟩ : BufTy).Contents (Elt F) → (⟨S4000000, .i1⟩ : BufTy).Contents (Elt F)),
    nullary main_c_30 (constantI S_ 32 16001#32),
    unary main_c_30 main_v99 (broadcastInDim S4000000 ![] bcast_S_S4000000 : (⟨S_, .i32⟩ : BufTy).Contents (Elt F) → (⟨S4000000, .i32⟩ : BufTy).Contents (Elt F)),
    binary main_v95 main_v99 main_v100 (addi : (⟨S4000000, .i32⟩ : BufTy).Contents (Elt F) → (⟨S4000000, .i32⟩ : BufTy).Contents (Elt F) → (⟨S4000000, .i32⟩ : BufTy).Contents (Elt F)),
    ternary main_v98 main_v100 main_v95 main_v101 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    unary main_v101 main_v102 (broadcastInDim S4000000x1 ![0] bcast_S4000000_S4000000x1_0 : (⟨S4000000, .i32⟩ : BufTy).Contents (Elt F) → (⟨S4000000x1, .i32⟩ : BufTy).Contents (Elt F)),
    ternary main_v96 main_v102 main_v45 main_v103 ((fun x i u => Host.scatter scatter_S16001x3_S4000000x1_S4000000x3_1_0_0_1 (fun _ b => b) x i u) : (⟨S16001x3, .i32⟩ : BufTy).Contents (Elt F) → (⟨S4000000x1, .i32⟩ : BufTy).Contents (Elt F) → (⟨S4000000x3, .i32⟩ : BufTy).Contents (Elt F) → (⟨S16001x3, .i32⟩ : BufTy).Contents (Elt F)),
    unary main_v103 main_v104 ((extractStridedSlice S16000x3 ![0, 0] · slices_S16001x3_S16000x3_0_0) : (⟨S16001x3, .i32⟩ : BufTy).Contents (Elt F) → (⟨S16000x3, .i32⟩ : BufTy).Contents (Elt F)),
    unary main_v73 main_v105 ((extui 32 · natLt_1_32) : (⟨S4000000, .i1⟩ : BufTy).Contents (Elt F) → (⟨S4000000, .i32⟩ : BufTy).Contents (Elt F)),
    nullary main_c_31 (constantI S_ 32 0#32),
    unary main_c_31 main_v106 (broadcastInDim S16001 ![] bcast_S_S16001 : (⟨S_, .i32⟩ : BufTy).Contents (Elt F) → (⟨S16001, .i32⟩ : BufTy).Contents (Elt F)),
    unary main_v74 main_v107 (broadcastInDim S4000000x1 ![0] bcast_S4000000_S4000000x1_0 : (⟨S4000000, .i32⟩ : BufTy).Contents (Elt F) → (⟨S4000000x1, .i32⟩ : BufTy).Contents (Elt F)),
    ternary main_v106 main_v107 main_v105 main_v108 ((fun x i u => Host.scatter scatter_S16001_S4000000x1_S4000000_n_0_0_1 IntOp.addi x i u) : (⟨S16001, .i32⟩ : BufTy).Contents (Elt F) → (⟨S4000000x1, .i32⟩ : BufTy).Contents (Elt F) → (⟨S4000000, .i32⟩ : BufTy).Contents (Elt F) → (⟨S16001, .i32⟩ : BufTy).Contents (Elt F)),
    unary main_v108 main_v109 ((extractStridedSlice S16000 ![0] · slices_S16001_S16000_0) : (⟨S16001, .i32⟩ : BufTy).Contents (Elt F) → (⟨S16000, .i32⟩ : BufTy).Contents (Elt F)) ]

/-- The buffer each operation of ops4 writes, in order. -/
abbrev W4 : List (Ref sig .tc) :=
  [ main_c_26, main_v92, main_v93, main_v94, main_c_27, main_call8_v0, main_call8_v1, main_v95,
    main_c_28, main_v96, main_c_29, main_v97, main_v98, main_c_30, main_v99, main_v100,
    main_v101, main_v102, main_v103, main_v104, main_v105, main_c_31, main_v106, main_v107,
    main_v108, main_v109 ]

/-- @main's 165 operations, in order. -/
abbrev ops : List (HloOp τ sig (Elt F)) := ops0 ++ ops1 ++ ops2 ++ ops3 ++ ops4

/-- The buffer each operation writes, in order. -/
abbrev W : List (Ref sig .tc) := W0 ++ W1 ++ W2 ++ W3 ++ W4

/-! The position in W (counted from 0) of each buffer written. -/

theorem idx_main_cst : (W : List (Ref sig .tc)).idxOf main_cst = 0 := by decide
theorem idx_main_cst_0 : (W : List (Ref sig .tc)).idxOf main_cst_0 = 1 := by decide
theorem idx_main_cst_1 : (W : List (Ref sig .tc)).idxOf main_cst_1 = 2 := by decide
theorem idx_main_c : (W : List (Ref sig .tc)).idxOf main_c = 3 := by decide
theorem idx_main_c_2 : (W : List (Ref sig .tc)).idxOf main_c_2 = 4 := by decide
theorem idx_main_v0 : (W : List (Ref sig .tc)).idxOf main_v0 = 5 := by decide
theorem idx_main_v1 : (W : List (Ref sig .tc)).idxOf main_v1 = 6 := by decide
theorem idx_main_v2 : (W : List (Ref sig .tc)).idxOf main_v2 = 7 := by decide
theorem idx_main_v3 : (W : List (Ref sig .tc)).idxOf main_v3 = 8 := by decide
theorem idx_main_v4 : (W : List (Ref sig .tc)).idxOf main_v4 = 9 := by decide
theorem idx_main_v5 : (W : List (Ref sig .tc)).idxOf main_v5 = 10 := by decide
theorem idx_main_v6 : (W : List (Ref sig .tc)).idxOf main_v6 = 11 := by decide
theorem idx_main_v7 : (W : List (Ref sig .tc)).idxOf main_v7 = 12 := by decide
theorem idx_main_c_3 : (W : List (Ref sig .tc)).idxOf main_c_3 = 13 := by decide
theorem idx_main_v8 : (W : List (Ref sig .tc)).idxOf main_v8 = 14 := by decide
theorem idx_main_v9 : (W : List (Ref sig .tc)).idxOf main_v9 = 15 := by decide
theorem idx_main_v10 : (W : List (Ref sig .tc)).idxOf main_v10 = 16 := by decide
theorem idx_main_v11 : (W : List (Ref sig .tc)).idxOf main_v11 = 17 := by decide
theorem idx_main_v12 : (W : List (Ref sig .tc)).idxOf main_v12 = 18 := by decide
theorem idx_main_v13 : (W : List (Ref sig .tc)).idxOf main_v13 = 19 := by decide
theorem idx_main_v14 : (W : List (Ref sig .tc)).idxOf main_v14 = 20 := by decide
theorem idx_main_v15 : (W : List (Ref sig .tc)).idxOf main_v15 = 21 := by decide
theorem idx_main_v16 : (W : List (Ref sig .tc)).idxOf main_v16 = 22 := by decide
theorem idx_main_c_4 : (W : List (Ref sig .tc)).idxOf main_c_4 = 23 := by decide
theorem idx_main_call0_v0 : (W : List (Ref sig .tc)).idxOf main_call0_v0 = 24 := by decide
theorem idx_main_call0_v1 : (W : List (Ref sig .tc)).idxOf main_call0_v1 = 25 := by decide
theorem idx_main_call0_v2 : (W : List (Ref sig .tc)).idxOf main_call0_v2 = 26 := by decide
theorem idx_main_call0_v3 : (W : List (Ref sig .tc)).idxOf main_call0_v3 = 27 := by decide
theorem idx_main_call0_v4 : (W : List (Ref sig .tc)).idxOf main_call0_v4 = 28 := by decide
theorem idx_main_v17 : (W : List (Ref sig .tc)).idxOf main_v17 = 29 := by decide
theorem idx_main_v18 : (W : List (Ref sig .tc)).idxOf main_v18 = 30 := by decide
theorem idx_main_v19 : (W : List (Ref sig .tc)).idxOf main_v19 = 31 := by decide
theorem idx_main_c_5 : (W : List (Ref sig .tc)).idxOf main_c_5 = 32 := by decide
theorem idx_main_v20 : (W : List (Ref sig .tc)).idxOf main_v20 = 33 := by decide
theorem idx_main_v21 : (W : List (Ref sig .tc)).idxOf main_v21 = 34 := by decide
theorem idx_main_v22 : (W : List (Ref sig .tc)).idxOf main_v22 = 35 := by decide
theorem idx_main_v23 : (W : List (Ref sig .tc)).idxOf main_v23 = 36 := by decide
theorem idx_main_c_6 : (W : List (Ref sig .tc)).idxOf main_c_6 = 37 := by decide
theorem idx_main_v24 : (W : List (Ref sig .tc)).idxOf main_v24 = 38 := by decide
theorem idx_main_v25 : (W : List (Ref sig .tc)).idxOf main_v25 = 39 := by decide
theorem idx_main_v26 : (W : List (Ref sig .tc)).idxOf main_v26 = 40 := by decide
theorem idx_main_v27 : (W : List (Ref sig .tc)).idxOf main_v27 = 41 := by decide
theorem idx_main_v28 : (W : List (Ref sig .tc)).idxOf main_v28 = 42 := by decide
theorem idx_main_v29 : (W : List (Ref sig .tc)).idxOf main_v29 = 43 := by decide
theorem idx_main_c_7 : (W : List (Ref sig .tc)).idxOf main_c_7 = 44 := by decide
theorem idx_main_call1_v0 : (W : List (Ref sig .tc)).idxOf main_call1_v0 = 45 := by decide
theorem idx_main_call1_v1 : (W : List (Ref sig .tc)).idxOf main_call1_v1 = 46 := by decide
theorem idx_main_v30 : (W : List (Ref sig .tc)).idxOf main_v30 = 47 := by decide
theorem idx_main_call2_v0 : (W : List (Ref sig .tc)).idxOf main_call2_v0 = 48 := by decide
theorem idx_main_call2_v1_0 : (W : List (Ref sig .tc)).idxOf main_call2_v1_0 = 49 := by decide
theorem idx_main_v31 : (W : List (Ref sig .tc)).idxOf main_v31 = 50 := by decide
theorem idx_main_c_8 : (W : List (Ref sig .tc)).idxOf main_c_8 = 51 := by decide
theorem idx_main_v32 : (W : List (Ref sig .tc)).idxOf main_v32 = 52 := by decide
theorem idx_main_v33 : (W : List (Ref sig .tc)).idxOf main_v33 = 53 := by decide
theorem idx_main_c_9 : (W : List (Ref sig .tc)).idxOf main_c_9 = 54 := by decide
theorem idx_main_v34 : (W : List (Ref sig .tc)).idxOf main_v34 = 55 := by decide
theorem idx_main_v35 : (W : List (Ref sig .tc)).idxOf main_v35 = 56 := by decide
theorem idx_main_v36 : (W : List (Ref sig .tc)).idxOf main_v36 = 57 := by decide
theorem idx_main_v37 : (W : List (Ref sig .tc)).idxOf main_v37 = 58 := by decide
theorem idx_main_v38 : (W : List (Ref sig .tc)).idxOf main_v38 = 59 := by decide
theorem idx_main_c_10 : (W : List (Ref sig .tc)).idxOf main_c_10 = 60 := by decide
theorem idx_main_v39 : (W : List (Ref sig .tc)).idxOf main_v39 = 61 := by decide
theorem idx_main_v40 : (W : List (Ref sig .tc)).idxOf main_v40 = 62 := by decide
theorem idx_main_c_11 : (W : List (Ref sig .tc)).idxOf main_c_11 = 63 := by decide
theorem idx_main_v41 : (W : List (Ref sig .tc)).idxOf main_v41 = 64 := by decide
theorem idx_main_v42 : (W : List (Ref sig .tc)).idxOf main_v42 = 65 := by decide
theorem idx_main_v43 : (W : List (Ref sig .tc)).idxOf main_v43 = 66 := by decide
theorem idx_main_v44 : (W : List (Ref sig .tc)).idxOf main_v44 = 67 := by decide
theorem idx_main_v45 : (W : List (Ref sig .tc)).idxOf main_v45 = 68 := by decide
theorem idx_main_c_12 : (W : List (Ref sig .tc)).idxOf main_c_12 = 69 := by decide
theorem idx_main_v46 : (W : List (Ref sig .tc)).idxOf main_v46 = 70 := by decide
theorem idx_main_v47 : (W : List (Ref sig .tc)).idxOf main_v47 = 71 := by decide
theorem idx_main_c_13 : (W : List (Ref sig .tc)).idxOf main_c_13 = 72 := by decide
theorem idx_main_v48 : (W : List (Ref sig .tc)).idxOf main_v48 = 73 := by decide
theorem idx_main_v49 : (W : List (Ref sig .tc)).idxOf main_v49 = 74 := by decide
theorem idx_main_v50 : (W : List (Ref sig .tc)).idxOf main_v50 = 75 := by decide
theorem idx_main_v51 : (W : List (Ref sig .tc)).idxOf main_v51 = 76 := by decide
theorem idx_main_v52 : (W : List (Ref sig .tc)).idxOf main_v52 = 77 := by decide
theorem idx_main_c_14 : (W : List (Ref sig .tc)).idxOf main_c_14 = 78 := by decide
theorem idx_main_v53 : (W : List (Ref sig .tc)).idxOf main_v53 = 79 := by decide
theorem idx_main_v54 : (W : List (Ref sig .tc)).idxOf main_v54 = 80 := by decide
theorem idx_main_v55 : (W : List (Ref sig .tc)).idxOf main_v55 = 81 := by decide
theorem idx_main_v56 : (W : List (Ref sig .tc)).idxOf main_v56 = 82 := by decide
theorem idx_main_v57 : (W : List (Ref sig .tc)).idxOf main_v57 = 83 := by decide
theorem idx_main_v58 : (W : List (Ref sig .tc)).idxOf main_v58 = 84 := by decide
theorem idx_main_v59 : (W : List (Ref sig .tc)).idxOf main_v59 = 85 := by decide
theorem idx_main_v60 : (W : List (Ref sig .tc)).idxOf main_v60 = 86 := by decide
theorem idx_main_call3_call0_c : (W : List (Ref sig .tc)).idxOf main_call3_call0_c = 87 := by decide
theorem idx_main_call3_call0_v0 : (W : List (Ref sig .tc)).idxOf main_call3_call0_v0 = 88 := by decide
theorem idx_main_v61 : (W : List (Ref sig .tc)).idxOf main_v61 = 89 := by decide
theorem idx_main_c_15 : (W : List (Ref sig .tc)).idxOf main_c_15 = 90 := by decide
theorem idx_main_v62 : (W : List (Ref sig .tc)).idxOf main_v62 = 91 := by decide
theorem idx_main_v63 : (W : List (Ref sig .tc)).idxOf main_v63 = 92 := by decide
theorem idx_main_v64 : (W : List (Ref sig .tc)).idxOf main_v64 = 93 := by decide
theorem idx_main_c_16 : (W : List (Ref sig .tc)).idxOf main_c_16 = 94 := by decide
theorem idx_main_call4_v0 : (W : List (Ref sig .tc)).idxOf main_call4_v0 = 95 := by decide
theorem idx_main_call4_v1 : (W : List (Ref sig .tc)).idxOf main_call4_v1 = 96 := by decide
theorem idx_main_v65 : (W : List (Ref sig .tc)).idxOf main_v65 = 97 := by decide
theorem idx_main_call5_c : (W : List (Ref sig .tc)).idxOf main_call5_c = 98 := by decide
theorem idx_main_call5_v0 : (W : List (Ref sig .tc)).idxOf main_call5_v0 = 99 := by decide
theorem idx_main_v66 : (W : List (Ref sig .tc)).idxOf main_v66 = 100 := by decide
theorem idx_main_v67 : (W : List (Ref sig .tc)).idxOf main_v67 = 101 := by decide
theorem idx_main_c_17 : (W : List (Ref sig .tc)).idxOf main_c_17 = 102 := by decide
theorem idx_main_v68 : (W : List (Ref sig .tc)).idxOf main_v68 = 103 := by decide
theorem idx_main_v69 : (W : List (Ref sig .tc)).idxOf main_v69 = 104 := by decide
theorem idx_main_v70 : (W : List (Ref sig .tc)).idxOf main_v70 = 105 := by decide
theorem idx_main_c_18 : (W : List (Ref sig .tc)).idxOf main_c_18 = 106 := by decide
theorem idx_main_v71 : (W : List (Ref sig .tc)).idxOf main_v71 = 107 := by decide
theorem idx_main_v72 : (W : List (Ref sig .tc)).idxOf main_v72 = 108 := by decide
theorem idx_main_v73 : (W : List (Ref sig .tc)).idxOf main_v73 = 109 := by decide
theorem idx_main_c_19 : (W : List (Ref sig .tc)).idxOf main_c_19 = 110 := by decide
theorem idx_main_call6_v0 : (W : List (Ref sig .tc)).idxOf main_call6_v0 = 111 := by decide
theorem idx_main_call6_v1 : (W : List (Ref sig .tc)).idxOf main_call6_v1 = 112 := by decide
theorem idx_main_v74 : (W : List (Ref sig .tc)).idxOf main_v74 = 113 := by decide
theorem idx_main_c_20 : (W : List (Ref sig .tc)).idxOf main_c_20 = 114 := by decide
theorem idx_main_call7_v0 : (W : List (Ref sig .tc)).idxOf main_call7_v0 = 115 := by decide
theorem idx_main_call7_v1 : (W : List (Ref sig .tc)).idxOf main_call7_v1 = 116 := by decide
theorem idx_main_v75 : (W : List (Ref sig .tc)).idxOf main_v75 = 117 := by decide
theorem idx_main_cst_21 : (W : List (Ref sig .tc)).idxOf main_cst_21 = 118 := by decide
theorem idx_main_v76 : (W : List (Ref sig .tc)).idxOf main_v76 = 119 := by decide
theorem idx_main_c_22 : (W : List (Ref sig .tc)).idxOf main_c_22 = 120 := by decide
theorem idx_main_v77 : (W : List (Ref sig .tc)).idxOf main_v77 = 121 := by decide
theorem idx_main_v78 : (W : List (Ref sig .tc)).idxOf main_v78 = 122 := by decide
theorem idx_main_c_23 : (W : List (Ref sig .tc)).idxOf main_c_23 = 123 := by decide
theorem idx_main_v79 : (W : List (Ref sig .tc)).idxOf main_v79 = 124 := by decide
theorem idx_main_v80 : (W : List (Ref sig .tc)).idxOf main_v80 = 125 := by decide
theorem idx_main_v81 : (W : List (Ref sig .tc)).idxOf main_v81 = 126 := by decide
theorem idx_main_c_24 : (W : List (Ref sig .tc)).idxOf main_c_24 = 127 := by decide
theorem idx_main_v82 : (W : List (Ref sig .tc)).idxOf main_v82 = 128 := by decide
theorem idx_main_v83 : (W : List (Ref sig .tc)).idxOf main_v83 = 129 := by decide
theorem idx_main_c_25 : (W : List (Ref sig .tc)).idxOf main_c_25 = 130 := by decide
theorem idx_main_v84 : (W : List (Ref sig .tc)).idxOf main_v84 = 131 := by decide
theorem idx_main_v85 : (W : List (Ref sig .tc)).idxOf main_v85 = 132 := by decide
theorem idx_main_v86 : (W : List (Ref sig .tc)).idxOf main_v86 = 133 := by decide
theorem idx_main_v87 : (W : List (Ref sig .tc)).idxOf main_v87 = 134 := by decide
theorem idx_main_v88 : (W : List (Ref sig .tc)).idxOf main_v88 = 135 := by decide
theorem idx_main_v89 : (W : List (Ref sig .tc)).idxOf main_v89 = 136 := by decide
theorem idx_main_v90 : (W : List (Ref sig .tc)).idxOf main_v90 = 137 := by decide
theorem idx_main_v91 : (W : List (Ref sig .tc)).idxOf main_v91 = 138 := by decide
theorem idx_main_c_26 : (W : List (Ref sig .tc)).idxOf main_c_26 = 139 := by decide
theorem idx_main_v92 : (W : List (Ref sig .tc)).idxOf main_v92 = 140 := by decide
theorem idx_main_v93 : (W : List (Ref sig .tc)).idxOf main_v93 = 141 := by decide
theorem idx_main_v94 : (W : List (Ref sig .tc)).idxOf main_v94 = 142 := by decide
theorem idx_main_c_27 : (W : List (Ref sig .tc)).idxOf main_c_27 = 143 := by decide
theorem idx_main_call8_v0 : (W : List (Ref sig .tc)).idxOf main_call8_v0 = 144 := by decide
theorem idx_main_call8_v1 : (W : List (Ref sig .tc)).idxOf main_call8_v1 = 145 := by decide
theorem idx_main_v95 : (W : List (Ref sig .tc)).idxOf main_v95 = 146 := by decide
theorem idx_main_c_28 : (W : List (Ref sig .tc)).idxOf main_c_28 = 147 := by decide
theorem idx_main_v96 : (W : List (Ref sig .tc)).idxOf main_v96 = 148 := by decide
theorem idx_main_c_29 : (W : List (Ref sig .tc)).idxOf main_c_29 = 149 := by decide
theorem idx_main_v97 : (W : List (Ref sig .tc)).idxOf main_v97 = 150 := by decide
theorem idx_main_v98 : (W : List (Ref sig .tc)).idxOf main_v98 = 151 := by decide
theorem idx_main_c_30 : (W : List (Ref sig .tc)).idxOf main_c_30 = 152 := by decide
theorem idx_main_v99 : (W : List (Ref sig .tc)).idxOf main_v99 = 153 := by decide
theorem idx_main_v100 : (W : List (Ref sig .tc)).idxOf main_v100 = 154 := by decide
theorem idx_main_v101 : (W : List (Ref sig .tc)).idxOf main_v101 = 155 := by decide
theorem idx_main_v102 : (W : List (Ref sig .tc)).idxOf main_v102 = 156 := by decide
theorem idx_main_v103 : (W : List (Ref sig .tc)).idxOf main_v103 = 157 := by decide
theorem idx_main_v104 : (W : List (Ref sig .tc)).idxOf main_v104 = 158 := by decide
theorem idx_main_v105 : (W : List (Ref sig .tc)).idxOf main_v105 = 159 := by decide
theorem idx_main_c_31 : (W : List (Ref sig .tc)).idxOf main_c_31 = 160 := by decide
theorem idx_main_v106 : (W : List (Ref sig .tc)).idxOf main_v106 = 161 := by decide
theorem idx_main_v107 : (W : List (Ref sig .tc)).idxOf main_v107 = 162 := by decide
theorem idx_main_v108 : (W : List (Ref sig .tc)).idxOf main_v108 = 163 := by decide
theorem idx_main_v109 : (W : List (Ref sig .tc)).idxOf main_v109 = 164 := by decide

end Cert.ReferenceIdeal.Hand

end
-- ==== Proof.RefRun.lean ====
import proofs.«420773_j40235253629492_3_alg».proof.Proof.RefOps

/-!
The run of the reference program. @main, its three windows in order and every call of a module-local function
unfolded, is one straight line of whole-buffer operations (`ops`); from any memory every execution ends with
each buffer at the fold of the operations over the launch contents. The fold is read one operation at a time:
every operation writes one buffer, no buffer is written twice, so what a buffer holds at the end is the function
of the operation that writes it, applied to what its operand buffers hold at the end.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The fold, one step at a time

Every operation writes one buffer. Listing the written buffers in order, what a buffer holds after the line is
decided by the last operation that writes it, applied to what the buffers held just before that operation; and what
a buffer holds after a prefix of the line is what it holds after the whole line when no later operation writes it. -/

section Fold

variable {τ : Topo} {sig : RefSig} {Val : EltTy → Type}

/-- Running two lines in turn is running their concatenation. -/
theorem after_append (l₁ l₂ : List (HloOp τ sig Val)) (V : Valuation τ sig Val) :
    after (l₁ ++ l₂) V = after l₂ (after l₁ V) := by
  induction l₁ generalizing V with
  | nil => rfl
  | cons op l ih => exact ih _

/-- The operations of `l` write, in order, exactly the buffers listed in `Wl`, one each. -/
def WritesAt (l : List (HloOp τ sig Val)) (Wl : List (Ref sig .tc)) : Prop :=
  l.map (fun op => op.writes) = Wl.map fun r => ({Proc.devRef .tc r} : Finset (DevRef τ sig))

theorem WritesAt.append {l₁ l₂ : List (HloOp τ sig Val)} {W₁ W₂ : List (Ref sig .tc)}
    (h₁ : WritesAt l₁ W₁) (h₂ : WritesAt l₂ W₂) : WritesAt (l₁ ++ l₂) (W₁ ++ W₂) := by
  unfold WritesAt at *
  rw [List.map_append, List.map_append, h₁, h₂]

theorem WritesAt.drop {l : List (HloOp τ sig Val)} {Wl : List (Ref sig .tc)} (h : WritesAt l Wl) (k : Nat) :
    WritesAt (l.drop k) (Wl.drop k) := by
  unfold WritesAt at *
  rw [List.map_drop, List.map_drop, h]

/-- A buffer not in the list is written by no operation of the line. -/
theorem WritesAt.not_mem {l : List (HloOp τ sig Val)} {Wl : List (Ref sig .tc)} (h : WritesAt l Wl)
    {r : Ref sig .tc} (hr : r ∉ Wl) : ∀ op ∈ l, Proc.devRef (τ := τ) .tc r ∉ op.writes := by
  intro op hop hm
  have h1 : op.writes ∈ l.map (fun op => op.writes) := List.mem_map_of_mem hop
  rw [h] at h1
  obtain ⟨r', hr', he⟩ := List.mem_map.1 h1
  rw [← he, Finset.mem_singleton] at hm
  exact hr (Proc.devRef_injective _ hm ▸ hr')

/-- A buffer not in the list keeps its contents through the line. -/
theorem WritesAt.keep {l : List (HloOp τ sig Val)} {Wl : List (Ref sig .tc)} (h : WritesAt l Wl)
    (V : Valuation τ sig Val) {r : Ref sig .tc} (hr : r ∉ Wl) :
    after l V (Proc.devRef .tc r) = V (Proc.devRef .tc r) :=
  after_of_forall_not_mem l V (h.not_mem hr)

/-- What a buffer holds after the first `k` operations is what it holds after all of them, when none of the
    others writes it. -/
theorem WritesAt.after_take {l : List (HloOp τ sig Val)} {Wl : List (Ref sig .tc)} (h : WritesAt l Wl)
    (k : Nat) (V : Valuation τ sig Val) {r : Ref sig .tc} (hr : r ∉ Wl.drop k) :
    after (l.take k) V (Proc.devRef .tc r) = after l V (Proc.devRef .tc r) := by
  have e : after l V = after (l.drop k) (after (l.take k) V) := by
    rw [← after_append, List.take_append_drop]
  rw [e, (h.drop k).keep _ hr]

/-- What a buffer holds after the line is the result of operation `k` on what the buffers held just before it,
    when no later operation writes the buffer. -/
theorem WritesAt.after_at {l : List (HloOp τ sig Val)} {Wl : List (Ref sig .tc)} (h : WritesAt l Wl)
    {k : Nat} {op : HloOp τ sig Val} (hop : l[k]? = some op) (V : Valuation τ sig Val) {r : Ref sig .tc}
    (hr : r ∉ Wl.drop (k + 1)) :
    after l V (Proc.devRef .tc r) = op.result (after (l.take k) V) (Proc.devRef .tc r) := by
  obtain ⟨hk, rfl⟩ := List.getElem?_eq_some_iff.1 hop
  have e : l.take k ++ l[k] :: l.drop (k + 1) = l := by
    rw [← List.drop_eq_getElem_cons hk, List.take_append_drop]
  have e' : after l V = after (l.drop (k + 1)) (l[k].result (after (l.take k) V)) := by
    conv_lhs => rw [← e]
    rw [after_append, after_cons]
  rw [e', (h.drop (k + 1)).keep _ hr]

theorem forall_append {α : Type} {p : α → Prop} {l₁ l₂ : List α} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

theorem mem_append_forall {α : Type} {p : α → Prop} {l₁ l₂ : List α} (h₁ : ∀ x ∈ l₁, p x) (h₂ : ∀ x ∈ l₂, p x) :
    ∀ x ∈ l₁ ++ l₂, p x :=
  fun x hx => (List.mem_append.1 hx).elim (h₁ x) (h₂ x)

end Fold

/-! ## @main is the line -/

theorem part0_eq (c : Dev nD) : main_part0 (F := F) c = seq (ops0 ++ ops1) := rfl
theorem part1_eq (c : Dev nD) : main_part1 (F := F) c = seq (ops2 ++ ops3) := rfl
theorem part2_eq (c : Dev nD) : main_part2 (F := F) c = seq ops4 := rfl

/-- @main, its three windows in order and every call unfolded, is the straight line of `ops`. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-! Every buffer an operation touches is a TensorCore reference: by the operation's arity. -/

theorem ops0_sub : (ops0 : List (HloOp τ sig (Elt F))).Forall fun op => op.bufs ⊆ tcRefs τ sig := by
  simp only [List.forall_cons, List.Forall, nullary_bufs_sub, unary_bufs_sub, binary_bufs_sub, ternary_bufs_sub,
    reshape_bufs_sub, and_self]

theorem ops1_sub : (ops1 : List (HloOp τ sig (Elt F))).Forall fun op => op.bufs ⊆ tcRefs τ sig := by
  simp only [List.forall_cons, List.Forall, nullary_bufs_sub, unary_bufs_sub, binary_bufs_sub, ternary_bufs_sub,
    reshape_bufs_sub, and_self]

theorem ops2_sub : (ops2 : List (HloOp τ sig (Elt F))).Forall fun op => op.bufs ⊆ tcRefs τ sig := by
  simp only [List.forall_cons, List.Forall, nullary_bufs_sub, unary_bufs_sub, binary_bufs_sub, ternary_bufs_sub,
    reshape_bufs_sub, and_self]

theorem ops3_sub : (ops3 : List (HloOp τ sig (Elt F))).Forall fun op => op.bufs ⊆ tcRefs τ sig := by
  simp only [List.forall_cons, List.Forall, nullary_bufs_sub, unary_bufs_sub, binary_bufs_sub, ternary_bufs_sub,
    reshape_bufs_sub, and_self]

theorem ops4_sub : (ops4 : List (HloOp τ sig (Elt F))).Forall fun op => op.bufs ⊆ tcRefs τ sig := by
  simp only [List.forall_cons, List.Forall, nullary_bufs_sub, unary_bufs_sub, binary_bufs_sub, ternary_bufs_sub,
    reshape_bufs_sub, and_self]

theorem ops_sub : (ops : List (HloOp τ sig (Elt F))).Forall fun op => op.bufs ⊆ tcRefs τ sig :=
  forall_append (forall_append (forall_append (forall_append ops0_sub ops1_sub) ops2_sub) ops3_sub) ops4_sub

theorem ops0_fresh : ∀ op ∈ (ops0 : List (HloOp τ sig (Elt F))), op.fresh = ∅ := by
  intro _ h; (repeat (cases h with | head => rfl | tail _ h => ?_)); exact nomatch h

theorem ops1_fresh : ∀ op ∈ (ops1 : List (HloOp τ sig (Elt F))), op.fresh = ∅ := by
  intro _ h; (repeat (cases h with | head => rfl | tail _ h => ?_)); exact nomatch h

theorem ops2_fresh : ∀ op ∈ (ops2 : List (HloOp τ sig (Elt F))), op.fresh = ∅ := by
  intro _ h; (repeat (cases h with | head => rfl | tail _ h => ?_)); exact nomatch h

theorem ops3_fresh : ∀ op ∈ (ops3 : List (HloOp τ sig (Elt F))), op.fresh = ∅ := by
  intro _ h; (repeat (cases h with | head => rfl | tail _ h => ?_)); exact nomatch h

theorem ops4_fresh : ∀ op ∈ (ops4 : List (HloOp τ sig (Elt F))), op.fresh = ∅ := by
  intro _ h; (repeat (cases h with | head => rfl | tail _ h => ?_)); exact nomatch h

theorem ops_fresh : ∀ op ∈ (ops : List (HloOp τ sig (Elt F))), op.fresh = ∅ :=
  mem_append_forall (mem_append_forall (mem_append_forall (mem_append_forall ops0_fresh ops1_fresh) ops2_fresh) ops3_fresh) ops4_fresh

theorem ops0_writes : WritesAt (ops0 : List (HloOp τ sig (Elt F))) W0 := rfl
theorem ops1_writes : WritesAt (ops1 : List (HloOp τ sig (Elt F))) W1 := rfl
theorem ops2_writes : WritesAt (ops2 : List (HloOp τ sig (Elt F))) W2 := rfl
theorem ops3_writes : WritesAt (ops3 : List (HloOp τ sig (Elt F))) W3 := rfl
theorem ops4_writes : WritesAt (ops4 : List (HloOp τ sig (Elt F))) W4 := rfl

/-- Operation `k` of the line writes buffer `k` of `W`, and nothing else. -/
theorem ops_writes : WritesAt (ops : List (HloOp τ sig (Elt F))) W :=
  (((ops0_writes.append ops1_writes).append ops2_writes).append ops3_writes).append ops4_writes

/-! ## The run -/

/-- On the device, for any float values, from any memory with zero counters: every weakly fair execution of @main
    terminates with each of the three results at the fold of the operations over the launch contents, and the
    argument unchanged (no operation writes it). -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
        r.2.mem ((c.tc : Thread nD τ).loc main_v91) = after ops (fun b => m (c, b)) (Proc.devRef .tc main_v91)
      ∧ r.2.mem ((c.tc : Thread nD τ).loc main_v104) = after ops (fun b => m (c, b)) (Proc.devRef .tc main_v104)
      ∧ r.2.mem ((c.tc : Thread nD τ).loc main_v109) = after ops (fun b => m (c, b)) (Proc.devRef .tc main_v109)
      ∧ r.2.mem ((c.tc : Thread nD τ).loc main_arg0) = m ((c.tc : Thread nD τ).loc main_arg0)) :=
  (θ_run defs _ _).mono (fun _ h c => ⟨h c main_v91, h c main_v104, h c main_v109,
      (h c main_arg0).trans (ops_writes.keep _ (by decide))⟩)
    (run_seq scopedRefs_eq scopedSems_eq defs main (fun _ => ops) main_eq (fun _ => ops_sub) m ρ (fun _ => ops_fresh))

end Cert.ReferenceIdeal.Hand

end
-- ==== Proof.RefStagesA.lean ====
/-
  The reference program's stages, first part: the chain from the points to their hashes.

  The reference is one straight line of whole-buffer operations. Each buffer of the chain is written by exactly one
  operation and by none after it, so what it holds once the line has run is that operation applied to what its operands
  hold once the line has run. One such equation per operation; composed along the chain they say that the table of
  clipped cells, the range test, the packed cells and the hash are the stages of the shared specification, computed from
  the argument, which no operation writes.
-/
import proofs.«420773_j40235253629492_3_alg».proof.Proof.Spec
import proofs.«420773_j40235253629492_3_alg».proof.Proof.RefRun

noncomputable section

namespace Cert.ReferenceIdeal.Stages

open Cert.ReferenceIdeal Cert.ReferenceIdeal.Gen Cert.ReferenceIdeal.Hand Idealize.ShloMosaic Idealize.ShloMosaic.TcCoe Idealize.SL.Sem Idealize.ShloMosaic.StableHlo

variable {F : FTy → Type} [FloatOps F] (V : Valuation τ sig (Elt F))

/-- No operation writes the argument. -/
theorem st_arg0 : StableHlo.after ops V (Proc.devRef .tc main_arg0) = V (Proc.devRef .tc main_arg0) :=
  ops_writes.keep V (by decide)

/-! ## One equation per operation

What each buffer of the chain holds at the end of the line, from what its operands hold at the end of the line. -/

theorem eq_cst : (StableHlo.after ops V (Proc.devRef .tc main_cst)) = (fun i => FloatOps.ofBits .f32 (lit0 (S3.rowMajor i)) : S3.Idx → F .f32) := by
  rw [ops_writes.after_at (k := 0) rfl V (by decide), nullary_result]
  rfl

theorem eq_cst_0 : (StableHlo.after ops V (Proc.devRef .tc main_cst_0)) = (fun i => FloatOps.ofBits .f32 (lit1 (S3.rowMajor i)) : S3.Idx → F .f32) := by
  rw [ops_writes.after_at (k := 1) rfl V (by decide), nullary_result]
  rfl

theorem eq_cst_1 : (StableHlo.after ops V (Proc.devRef .tc main_cst_1)) = (fun i => FloatOps.ofBits .f32 (lit2 (S3.rowMajor i)) : S3.Idx → F .f32) := by
  rw [ops_writes.after_at (k := 2) rfl V (by decide), nullary_result]
  rfl

theorem eq_c : (StableHlo.after ops V (Proc.devRef .tc main_c)) = (fun i => lit3 (S3.rowMajor i) : IVec S3 32) := by
  rw [ops_writes.after_at (k := 3) rfl V (by decide), nullary_result]
  rfl

theorem eq_v0 : (StableHlo.after ops V (Proc.devRef .tc main_v0)) = extractStridedSlice S4000000x3 ![0, 0] (StableHlo.after ops V (Proc.devRef .tc main_arg0)) slices_S4000000x4_S4000000x3_0_0 := by
  rw [ops_writes.after_at (k := 5) rfl V (by decide), unary_result, ops_writes.after_take 5 V (by decide)]

theorem eq_v1 : (StableHlo.after ops V (Proc.devRef .tc main_v1)) = broadcastInDim S1x3 ![1] bcast_S3_S1x3_1 (StableHlo.after ops V (Proc.devRef .tc main_cst)) := by
  rw [ops_writes.after_at (k := 6) rfl V (by decide), unary_result, ops_writes.after_take 6 V (by decide)]

theorem eq_v2 : (StableHlo.after ops V (Proc.devRef .tc main_v2)) = broadcastInDim S4000000x3 ![0, 1] bcast_S1x3_S4000000x3_0_1 (StableHlo.after ops V (Proc.devRef .tc main_v1)) := by
  rw [ops_writes.after_at (k := 7) rfl V (by decide), unary_result, ops_writes.after_take 7 V (by decide)]

theorem eq_v3 : (StableHlo.after ops V (Proc.devRef .tc main_v3)) = cmpf .oge (StableHlo.after ops V (Proc.devRef .tc main_v0)) (StableHlo.after ops V (Proc.devRef .tc main_v2)) := by
  rw [ops_writes.after_at (k := 8) rfl V (by decide), binary_result, ops_writes.after_take 8 V (by decide), ops_writes.after_take 8 V (by decide)]

theorem eq_v4 : (StableHlo.after ops V (Proc.devRef .tc main_v4)) = broadcastInDim S1x3 ![1] bcast_S3_S1x3_1 (StableHlo.after ops V (Proc.devRef .tc main_cst_0)) := by
  rw [ops_writes.after_at (k := 9) rfl V (by decide), unary_result, ops_writes.after_take 9 V (by decide)]

theorem eq_v5 : (StableHlo.after ops V (Proc.devRef .tc main_v5)) = broadcastInDim S4000000x3 ![0, 1] bcast_S1x3_S4000000x3_0_1 (StableHlo.after ops V (Proc.devRef .tc main_v4)) := by
  rw [ops_writes.after_at (k := 10) rfl V (by decide), unary_result, ops_writes.after_take 10 V (by decide)]

theorem eq_v6 : (StableHlo.after ops V (Proc.devRef .tc main_v6)) = cmpf .olt (StableHlo.after ops V (Proc.devRef .tc main_v0)) (StableHlo.after ops V (Proc.devRef .tc main_v5)) := by
  rw [ops_writes.after_at (k := 11) rfl V (by decide), binary_result, ops_writes.after_take 11 V (by decide), ops_writes.after_take 11 V (by decide)]

theorem eq_v7 : (StableHlo.after ops V (Proc.devRef .tc main_v7)) = andi (StableHlo.after ops V (Proc.devRef .tc main_v3)) (StableHlo.after ops V (Proc.devRef .tc main_v6)) := by
  rw [ops_writes.after_at (k := 12) rfl V (by decide), binary_result, ops_writes.after_take 12 V (by decide), ops_writes.after_take 12 V (by decide)]

theorem eq_c_3 : (StableHlo.after ops V (Proc.devRef .tc main_c_3)) = constantI S_ 1 1#1 := by
  rw [ops_writes.after_at (k := 13) rfl V (by decide), nullary_result]

theorem eq_v8 : (StableHlo.after ops V (Proc.devRef .tc main_v8)) = Host.reduce IntOp.andi (StableHlo.after ops V (Proc.devRef .tc main_v7)) (StableHlo.after ops V (Proc.devRef .tc main_c_3)) reducesTo_S4000000x3_S4000000_d1 h_S_ := by
  rw [ops_writes.after_at (k := 14) rfl V (by decide), binary_result, ops_writes.after_take 14 V (by decide), ops_writes.after_take 14 V (by decide)]

theorem eq_v9 : (StableHlo.after ops V (Proc.devRef .tc main_v9)) = broadcastInDim S1x3 ![1] bcast_S3_S1x3_1 (StableHlo.after ops V (Proc.devRef .tc main_cst)) := by
  rw [ops_writes.after_at (k := 15) rfl V (by decide), unary_result, ops_writes.after_take 15 V (by decide)]

theorem eq_v10 : (StableHlo.after ops V (Proc.devRef .tc main_v10)) = broadcastInDim S4000000x3 ![0, 1] bcast_S1x3_S4000000x3_0_1 (StableHlo.after ops V (Proc.devRef .tc main_v9)) := by
  rw [ops_writes.after_at (k := 16) rfl V (by decide), unary_result, ops_writes.after_take 16 V (by decide)]

theorem eq_v11 : (StableHlo.after ops V (Proc.devRef .tc main_v11)) = subf (StableHlo.after ops V (Proc.devRef .tc main_v0)) (StableHlo.after ops V (Proc.devRef .tc main_v10)) := by
  rw [ops_writes.after_at (k := 17) rfl V (by decide), binary_result, ops_writes.after_take 17 V (by decide), ops_writes.after_take 17 V (by decide)]

theorem eq_v12 : (StableHlo.after ops V (Proc.devRef .tc main_v12)) = broadcastInDim S1x3 ![1] bcast_S3_S1x3_1 (StableHlo.after ops V (Proc.devRef .tc main_cst_1)) := by
  rw [ops_writes.after_at (k := 18) rfl V (by decide), unary_result, ops_writes.after_take 18 V (by decide)]

theorem eq_v13 : (StableHlo.after ops V (Proc.devRef .tc main_v13)) = broadcastInDim S4000000x3 ![0, 1] bcast_S1x3_S4000000x3_0_1 (StableHlo.after ops V (Proc.devRef .tc main_v12)) := by
  rw [ops_writes.after_at (k := 19) rfl V (by decide), unary_result, ops_writes.after_take 19 V (by decide)]

theorem eq_v14 : (StableHlo.after ops V (Proc.devRef .tc main_v14)) = Host.divf (StableHlo.after ops V (Proc.devRef .tc main_v11)) (StableHlo.after ops V (Proc.devRef .tc main_v13)) := by
  rw [ops_writes.after_at (k := 20) rfl V (by decide), binary_result, ops_writes.after_take 20 V (by decide), ops_writes.after_take 20 V (by decide)]

theorem eq_v15 : (StableHlo.after ops V (Proc.devRef .tc main_v15)) = Host.floor (StableHlo.after ops V (Proc.devRef .tc main_v14)) := by
  rw [ops_writes.after_at (k := 21) rfl V (by decide), unary_result, ops_writes.after_take 21 V (by decide)]

theorem eq_v16 : (StableHlo.after ops V (Proc.devRef .tc main_v16)) = fptosi 32 (StableHlo.after ops V (Proc.devRef .tc main_v15)) := by
  rw [ops_writes.after_at (k := 22) rfl V (by decide), unary_result, ops_writes.after_take 22 V (by decide)]

theorem eq_c_4 : (StableHlo.after ops V (Proc.devRef .tc main_c_4)) = constantI S_ 32 0#32 := by
  rw [ops_writes.after_at (k := 23) rfl V (by decide), nullary_result]

theorem eq_call0_v0 : (StableHlo.after ops V (Proc.devRef .tc main_call0_v0)) = id (StableHlo.after ops V (Proc.devRef .tc main_c_4)) := by
  rw [ops_writes.after_at (k := 24) rfl V (by decide), unary_result, ops_writes.after_take 24 V (by decide)]
  generalize (StableHlo.after ops V (Proc.devRef .tc main_c_4)) = x0
  rfl

theorem eq_call0_v1 : (StableHlo.after ops V (Proc.devRef .tc main_call0_v1)) = broadcastInDim S4000000x3 ![] bcast_S_S4000000x3 (StableHlo.after ops V (Proc.devRef .tc main_call0_v0)) := by
  rw [ops_writes.after_at (k := 25) rfl V (by decide), unary_result, ops_writes.after_take 25 V (by decide)]
  generalize (StableHlo.after ops V (Proc.devRef .tc main_call0_v0)) = x0
  rfl

theorem eq_call0_v2 : (StableHlo.after ops V (Proc.devRef .tc main_call0_v2)) = maxsi (StableHlo.after ops V (Proc.devRef .tc main_call0_v1)) (StableHlo.after ops V (Proc.devRef .tc main_v16)) := by
  rw [ops_writes.after_at (k := 26) rfl V (by decide), binary_result, ops_writes.after_take 26 V (by decide), ops_writes.after_take 26 V (by decide)]
  generalize (StableHlo.after ops V (Proc.devRef .tc main_call0_v1)) = x0
  generalize (StableHlo.after ops V (Proc.devRef .tc main_v16)) = x1
  rfl

theorem eq_call0_v3 : (StableHlo.after ops V (Proc.devRef .tc main_call0_v3)) = broadcastInDim S1x3 ![1] bcast_S3_S1x3_1 (StableHlo.after ops V (Proc.devRef .tc main_c)) := by
  rw [ops_writes.after_at (k := 27) rfl V (by decide), unary_result, ops_writes.after_take 27 V (by decide)]
  generalize (StableHlo.after ops V (Proc.devRef .tc main_c)) = x0
  rfl

theorem eq_call0_v4 : (StableHlo.after ops V (Proc.devRef .tc main_call0_v4)) = broadcastInDim S4000000x3 ![0, 1] bcast_S1x3_S4000000x3_0_1 (StableHlo.after ops V (Proc.devRef .tc main_call0_v3)) := by
  rw [ops_writes.after_at (k := 28) rfl V (by decide), unary_result, ops_writes.after_take 28 V (by decide)]
  generalize (StableHlo.after ops V (Proc.devRef .tc main_call0_v3)) = x0
  rfl

theorem eq_v17 : (StableHlo.after ops V (Proc.devRef .tc main_v17)) = minsi (StableHlo.after ops V (Proc.devRef .tc main_call0_v4)) (StableHlo.after ops V (Proc.devRef .tc main_call0_v2)) := by
  rw [ops_writes.after_at (k := 29) rfl V (by decide), binary_result, ops_writes.after_take 29 V (by decide), ops_writes.after_take 29 V (by decide)]
  generalize (StableHlo.after ops V (Proc.devRef .tc main_call0_v4)) = x0
  generalize (StableHlo.after ops V (Proc.devRef .tc main_call0_v2)) = x1
  rfl

theorem eq_v18 : (StableHlo.after ops V (Proc.devRef .tc main_v18)) = extractStridedSlice S4000000x1 ![0, 0] (StableHlo.after ops V (Proc.devRef .tc main_v17)) slices_S4000000x3_S4000000x1_0_0 := by
  rw [ops_writes.after_at (k := 30) rfl V (by decide), unary_result, ops_writes.after_take 30 V (by decide)]

theorem eq_v19 : (StableHlo.after ops V (Proc.devRef .tc main_v19)) = shapeCast S4000000 (StableHlo.after ops V (Proc.devRef .tc main_v18)) shapeCasts_S4000000x1_S4000000 := by
  rw [ops_writes.after_at (k := 31) rfl V (by decide), reshape_result, ops_writes.after_take 31 V (by decide)]
  generalize (StableHlo.after ops V (Proc.devRef .tc main_v18)) = x0
  rfl

theorem eq_c_5 : (StableHlo.after ops V (Proc.devRef .tc main_c_5)) = constantI S_ 32 256#32 := by
  rw [ops_writes.after_at (k := 32) rfl V (by decide), nullary_result]

theorem eq_v20 : (StableHlo.after ops V (Proc.devRef .tc main_v20)) = broadcastInDim S4000000 ![] bcast_S_S4000000 (StableHlo.after ops V (Proc.devRef .tc main_c_5)) := by
  rw [ops_writes.after_at (k := 33) rfl V (by decide), unary_result, ops_writes.after_take 33 V (by decide)]

theorem eq_v21 : (StableHlo.after ops V (Proc.devRef .tc main_v21)) = muli (StableHlo.after ops V (Proc.devRef .tc main_v19)) (StableHlo.after ops V (Proc.devRef .tc main_v20)) := by
  rw [ops_writes.after_at (k := 34) rfl V (by decide), binary_result, ops_writes.after_take 34 V (by decide), ops_writes.after_take 34 V (by decide)]

theorem eq_v22 : (StableHlo.after ops V (Proc.devRef .tc main_v22)) = extractStridedSlice S4000000x1 ![0, 1] (StableHlo.after ops V (Proc.devRef .tc main_v17)) slices_S4000000x3_S4000000x1_0_1 := by
  rw [ops_writes.after_at (k := 35) rfl V (by decide), unary_result, ops_writes.after_take 35 V (by decide)]

theorem eq_v23 : (StableHlo.after ops V (Proc.devRef .tc main_v23)) = shapeCast S4000000 (StableHlo.after ops V (Proc.devRef .tc main_v22)) shapeCasts_S4000000x1_S4000000 := by
  rw [ops_writes.after_at (k := 36) rfl V (by decide), reshape_result, ops_writes.after_take 36 V (by decide)]
  generalize (StableHlo.after ops V (Proc.devRef .tc main_v22)) = x0
  rfl

theorem eq_c_6 : (StableHlo.after ops V (Proc.devRef .tc main_c_6)) = constantI S_ 32 1#32 := by
  rw [ops_writes.after_at (k := 37) rfl V (by decide), nullary_result]

theorem eq_v24 : (StableHlo.after ops V (Proc.devRef .tc main_v24)) = broadcastInDim S4000000 ![] bcast_S_S4000000 (StableHlo.after ops V (Proc.devRef .tc main_c_6)) := by
  rw [ops_writes.after_at (k := 38) rfl V (by decide), unary_result, ops_writes.after_take 38 V (by decide)]

theorem eq_v25 : (StableHlo.after ops V (Proc.devRef .tc main_v25)) = muli (StableHlo.after ops V (Proc.devRef .tc main_v23)) (StableHlo.after ops V (Proc.devRef .tc main_v24)) := by
  rw [ops_writes.after_at (k := 39) rfl V (by decide), binary_result, ops_writes.after_take 39 V (by decide), ops_writes.after_take 39 V (by decide)]

theorem eq_v26 : (StableHlo.after ops V (Proc.devRef .tc main_v26)) = addi (StableHlo.after ops V (Proc.devRef .tc main_v21)) (StableHlo.after ops V (Proc.devRef .tc main_v25)) := by
  rw [ops_writes.after_at (k := 40) rfl V (by decide), binary_result, ops_writes.after_take 40 V (by decide), ops_writes.after_take 40 V (by decide)]

theorem eq_v27 : (StableHlo.after ops V (Proc.devRef .tc main_v27)) = extractStridedSlice S4000000x1 ![0, 2] (StableHlo.after ops V (Proc.devRef .tc main_v17)) slices_S4000000x3_S4000000x1_0_2 := by
  rw [ops_writes.after_at (k := 41) rfl V (by decide), unary_result, ops_writes.after_take 41 V (by decide)]

theorem eq_v28 : (StableHlo.after ops V (Proc.devRef .tc main_v28)) = shapeCast S4000000 (StableHlo.after ops V (Proc.devRef .tc main_v27)) shapeCasts_S4000000x1_S4000000 := by
  rw [ops_writes.after_at (k := 42) rfl V (by decide), reshape_result, ops_writes.after_take 42 V (by decide)]
  generalize (StableHlo.after ops V (Proc.devRef .tc main_v27)) = x0
  rfl

theorem eq_v29 : (StableHlo.after ops V (Proc.devRef .tc main_v29)) = addi (StableHlo.after ops V (Proc.devRef .tc main_v26)) (StableHlo.after ops V (Proc.devRef .tc main_v28)) := by
  rw [ops_writes.after_at (k := 43) rfl V (by decide), binary_result, ops_writes.after_take 43 V (by decide), ops_writes.after_take 43 V (by decide)]

theorem eq_c_7 : (StableHlo.after ops V (Proc.devRef .tc main_c_7)) = constantI S_ 32 65536#32 := by
  rw [ops_writes.after_at (k := 44) rfl V (by decide), nullary_result]

theorem eq_call1_v0 : (StableHlo.after ops V (Proc.devRef .tc main_call1_v0)) = id (StableHlo.after ops V (Proc.devRef .tc main_c_7)) := by
  rw [ops_writes.after_at (k := 45) rfl V (by decide), unary_result, ops_writes.after_take 45 V (by decide)]
  generalize (StableHlo.after ops V (Proc.devRef .tc main_c_7)) = x0
  rfl

theorem eq_call1_v1 : (StableHlo.after ops V (Proc.devRef .tc main_call1_v1)) = broadcastInDim S4000000 ![] bcast_S_S4000000 (StableHlo.after ops V (Proc.devRef .tc main_call1_v0)) := by
  rw [ops_writes.after_at (k := 46) rfl V (by decide), unary_result, ops_writes.after_take 46 V (by decide)]
  generalize (StableHlo.after ops V (Proc.devRef .tc main_call1_v0)) = x0
  rfl

theorem eq_v30 : (StableHlo.after ops V (Proc.devRef .tc main_v30)) = select (StableHlo.after ops V (Proc.devRef .tc main_v8)) (StableHlo.after ops V (Proc.devRef .tc main_v29)) (StableHlo.after ops V (Proc.devRef .tc main_call1_v1)) := by
  rw [ops_writes.after_at (k := 47) rfl V (by decide), ternary_result, ops_writes.after_take 47 V (by decide), ops_writes.after_take 47 V (by decide), ops_writes.after_take 47 V (by decide)]
  generalize (StableHlo.after ops V (Proc.devRef .tc main_v8)) = x0
  generalize (StableHlo.after ops V (Proc.devRef .tc main_v29)) = x1
  generalize (StableHlo.after ops V (Proc.devRef .tc main_call1_v1)) = x2
  rfl

/-! ## The stages of the hash chain -/

/-- The table of clipped cell coordinates. -/
theorem st_v17 : (StableHlo.after ops V (Proc.devRef .tc main_v17)) = Cert.Spec.cells (V (Proc.devRef .tc main_arg0)) := by
  rw [eq_v17, eq_call0_v4, eq_call0_v3, eq_c, eq_call0_v2, eq_call0_v1, eq_call0_v0, eq_c_4, eq_v16, eq_v15, eq_v14,
    eq_v11, eq_v0, st_arg0, eq_v10, eq_v9, eq_cst, eq_v13, eq_v12, eq_cst_1]
  rfl

/-- The range test of every point. -/
theorem st_v8 : (StableHlo.after ops V (Proc.devRef .tc main_v8)) = Cert.Spec.inRange (V (Proc.devRef .tc main_arg0)) := by
  rw [eq_v8, eq_c_3, eq_v7, eq_v3, eq_v6, eq_v0, st_arg0, eq_v2, eq_v1, eq_cst, eq_v5, eq_v4, eq_cst_0]
  rfl

/-- The packed cells of every point. -/
theorem st_v29 : (StableHlo.after ops V (Proc.devRef .tc main_v29)) = Cert.Spec.pack (Cert.Spec.cells (V (Proc.devRef .tc main_arg0))) := by
  rw [eq_v29, eq_v28, eq_v27, eq_v26, eq_v25, eq_v24, eq_c_6, eq_v23, eq_v22, eq_v21, eq_v20, eq_c_5, eq_v19, eq_v18, st_v17]
  rfl

/-- The hash of every point. -/
theorem st_v30 : (StableHlo.after ops V (Proc.devRef .tc main_v30)) = Cert.Spec.hashRef (V (Proc.devRef .tc main_arg0)) := by
  rw [eq_v30, eq_call1_v1, eq_call1_v0, eq_c_7, st_v8, st_v29]
  rfl

end Cert.ReferenceIdeal.Stages

end
-- ==== Proof.RefStages.lean ====
import proofs.«420773_j40235253629492_3_alg».proof.Proof.RefStagesA

/-!
The stages of the reference program from the sort on. With `A[b]` what buffer `b` holds once the line has run from
contents `V`: the sorting permutation, the three tables read in sorted order, the per-point stages over the sorted
hashes (run starts, voxel numbers, ranks, which points are kept, where each goes) and the three results are each ONE
function of the specification applied to what the stage's input buffers hold. Each equation reads back the few
operations between the stage's inputs and its output, one at a time. Composed, they give the run's three results
as the specification's functions of the argument.
-/

noncomputable section

namespace Cert.ReferenceIdeal.Stages

open Cert.ReferenceIdeal Cert.ReferenceIdeal.Gen Cert.ReferenceIdeal.Hand Idealize.ShloMosaic Idealize.ShloMosaic.TcCoe Idealize.SL.Sem Idealize.ShloMosaic.StableHlo

variable {F : FTy → Type} [FloatOps F]

/-- One operation read back: what buffer `r`, written by operation `k` of the line and by no later one, holds at the
    end is that operation's function of what its operand buffers hold at the end (no later operation writes them).
    Inside a call's body the buffers are typed references; at a literal reference their transports are the identity. -/
macro "step" r:ident k:num : tactic => `(tactic| (
  rw [ops_writes.after_at (k := $k) (r := $r) rfl _ (by decide)]
  first | rw [nullary_result] | rw [unary_result] | rw [binary_result] | rw [ternary_result] | rw [reshape_result]
  repeat rw [ops_writes.after_take $k _ (by decide)]
  try simp only [TRef.toBuf, TRef.ofBuf, cast_eq]))

section
variable (V : Valuation τ sig (Elt F))
set_option quotPrecheck false in
local notation "A[" b "]" => after (ops : List (HloOp τ sig (Elt F))) V (Proc.devRef Proc.tc b)

/-! ## The sort and the three gathers -/

/-- The sorting permutation: the second component of the stable sort of the hashes with their positions. -/
theorem st_v31 : A[main_v31] = (Cert.Spec.sorted A[main_v30]).2 := by
  step main_v31 50; step main_call2_v0 48
  rfl

/-- The hashes in sorted order. -/
theorem st_v38 : A[main_v38] = Cert.Spec.takeVec A[main_v30] A[main_v31] := by
  step main_v38 59; step main_v37 58; step main_v36 57; step main_v35 56; step main_v34 55
  step main_c_9 54; step main_v33 53; step main_v32 52; step main_c_8 51
  rfl

/-- The cell coordinates in sorted order. -/
theorem st_v45 : A[main_v45] = Cert.Spec.takeRows3 A[main_v17] A[main_v31] := by
  step main_v45 68; step main_v44 67; step main_v43 66; step main_v42 65; step main_v41 64
  step main_c_11 63; step main_v40 62; step main_v39 61; step main_c_10 60
  rfl

/-- The points in sorted order. -/
theorem st_v52 : A[main_v52] = Cert.Spec.takeRows4 A[main_arg0] A[main_v31] := by
  step main_v52 77; step main_v51 76; step main_v50 75; step main_v49 74; step main_v48 73
  step main_c_13 72; step main_v47 71; step main_v46 70; step main_c_12 69
  rfl

/-! ## The stages over the sorted hashes -/

theorem st_v54 : A[main_v54] = Cert.Spec.svalid A[main_v38] := by
  step main_v54 80; step main_v53 79; step main_c_14 78
  rfl

theorem st_v59 : A[main_v59] = Cert.Spec.newv A[main_v38] := by
  step main_v59 85; step main_v58 84; step main_c_2 4; step main_v57 83; step main_v55 81
  step main_v56 82
  rw [st_v54]
  rfl

theorem st_v63 : A[main_v63] = Cert.Spec.vid A[main_v38] := by
  step main_v63 92; step main_v62 91; step main_c_15 90; step main_v61 89; step main_call3_call0_v0 88
  step main_call3_call0_c 87; step main_v60 86
  rw [st_v59]
  rfl

theorem st_v66 : A[main_v66] = Cert.Spec.start A[main_v38] := by
  step main_v66 100; step main_call5_v0 99; step main_call5_c 98; step main_v65 97; step main_call4_v1 96
  step main_call4_v0 95; step main_c_16 94; step main_v64 93
  rw [st_v59]
  rfl

theorem st_v67 : A[main_v67] = Cert.Spec.rank A[main_v38] := by
  step main_v67 101; step main_v64 93
  rw [st_v66]
  rfl

theorem st_v73 : A[main_v73] = Cert.Spec.keep A[main_v38] := by
  step main_v73 109; step main_v70 105; step main_v69 104; step main_v68 103; step main_c_17 102
  step main_v72 108; step main_v71 107; step main_c_18 106
  rw [st_v54, st_v67, st_v63]
  rfl

theorem st_v74 : A[main_v74] = Cert.Spec.vidS A[main_v38] := by
  step main_v74 113; step main_call6_v1 112; step main_call6_v0 111; step main_c_19 110
  rw [st_v73, st_v63]
  rfl

theorem st_v75 : A[main_v75] = Cert.Spec.rankS A[main_v38] := by
  step main_v75 117; step main_call7_v1 116; step main_call7_v0 115; step main_c_20 114
  rw [st_v73, st_v67]
  rfl

theorem st_v95 : A[main_v95] = Cert.Spec.cvid A[main_v38] := by
  step main_v95 146; step main_call8_v1 145; step main_call8_v0 144; step main_c_27 143; step main_v94 142
  step main_v93 141; step main_v92 140; step main_c_26 139
  rw [st_v59, st_v63]
  rfl

/-! ## The three results -/

theorem st_v91 : A[main_v91] = Cert.Spec.voxelsScatter A[main_arg0] A[main_v31] A[main_v38] := by
  step main_v91 138; step main_v90 137; step main_v76 119; step main_cst_21 118; step main_v89 136
  step main_v87 134; step main_v88 135; step main_v81 126; step main_v78 122; step main_v77 121
  step main_c_22 120; step main_v80 125; step main_v79 124; step main_c_23 123; step main_v86 133
  step main_v83 129; step main_v82 128; step main_c_24 127; step main_v85 132; step main_v84 131
  step main_c_25 130
  rw [st_v74, st_v75, st_v52]
  rfl

theorem st_v104 : A[main_v104] = Cert.Spec.coordsOf A[main_v38] A[main_v45] := by
  step main_v104 158; step main_v103 157; step main_v96 148; step main_c_28 147; step main_v102 156
  step main_v101 155; step main_v98 151; step main_v97 150; step main_c_29 149; step main_v100 154
  step main_v99 153; step main_c_30 152
  rw [st_v95]
  rfl

theorem st_v109 : A[main_v109] = Cert.Spec.numPoints A[main_v38] := by
  step main_v109 164; step main_v108 163; step main_v106 161; step main_c_31 160; step main_v107 162
  step main_v105 159
  rw [st_v74, st_v73]
  rfl

end

/-! ## The three results as functions of the argument -/

section
variable (V : Valuation τ sig (Elt F))

/-- The sorted hashes, from the argument. -/
theorem fin_v38 : after ops V (Proc.devRef .tc main_v38)
    = Cert.Spec.takeVec (Cert.Spec.hashRef (V (Proc.devRef .tc main_arg0)))
        (Cert.Spec.sorted (Cert.Spec.hashRef (V (Proc.devRef .tc main_arg0)))).2 := by
  rw [st_v38, st_v31, st_v30]

theorem fin_v91 : after ops V (Proc.devRef .tc main_v91)
    = Cert.Spec.voxelsScatter (V (Proc.devRef .tc main_arg0))
        (Cert.Spec.sorted (Cert.Spec.hashRef (V (Proc.devRef .tc main_arg0)))).2
        (Cert.Spec.takeVec (Cert.Spec.hashRef (V (Proc.devRef .tc main_arg0)))
          (Cert.Spec.sorted (Cert.Spec.hashRef (V (Proc.devRef .tc main_arg0)))).2) := by
  rw [st_v91, fin_v38, st_v31, st_v30, st_arg0]

theorem fin_v104 : after ops V (Proc.devRef .tc main_v104)
    = Cert.Spec.coordsOf
        (Cert.Spec.takeVec (Cert.Spec.hashRef (V (Proc.devRef .tc main_arg0)))
          (Cert.Spec.sorted (Cert.Spec.hashRef (V (Proc.devRef .tc main_arg0)))).2)
        (Cert.Spec.takeRows3 (Cert.Spec.cells (V (Proc.devRef .tc main_arg0)))
          (Cert.Spec.sorted (Cert.Spec.hashRef (V (Proc.devRef .tc main_arg0)))).2) := by
  rw [st_v104, fin_v38, st_v45, st_v31, st_v30, st_v17]

theorem fin_v109 : after ops V (Proc.devRef .tc main_v109)
    = Cert.Spec.numPoints
        (Cert.Spec.takeVec (Cert.Spec.hashRef (V (Proc.devRef .tc main_arg0)))
          (Cert.Spec.sorted (Cert.Spec.hashRef (V (Proc.devRef .tc main_arg0)))).2) := by
  rw [st_v109, fin_v38]

end

/-- On the device, for any float values, from any memory with zero counters: every weakly fair execution of @main
    terminates with the three results at the specification's tables of the argument — the voxel rows scattered, the
    per-voxel cell coordinates, the per-voxel point counts — and the argument unchanged. -/
theorem value_run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
        r.2.mem ((c.tc : Thread nD τ).loc main_v91)
          = Cert.Spec.voxelsScatter (m ((c.tc : Thread nD τ).loc main_arg0))
              (Cert.Spec.sorted (Cert.Spec.hashRef (m ((c.tc : Thread nD τ).loc main_arg0)))).2
              (Cert.Spec.takeVec (Cert.Spec.hashRef (m ((c.tc : Thread nD τ).loc main_arg0)))
                (Cert.Spec.sorted (Cert.Spec.hashRef (m ((c.tc : Thread nD τ).loc main_arg0)))).2)
      ∧ r.2.mem ((c.tc : Thread nD τ).loc main_v104)
          = Cert.Spec.coordsOf
              (Cert.Spec.takeVec (Cert.Spec.hashRef (m ((c.tc : Thread nD τ).loc main_arg0)))
                (Cert.Spec.sorted (Cert.Spec.hashRef (m ((c.tc : Thread nD τ).loc main_arg0)))).2)
              (Cert.Spec.takeRows3 (Cert.Spec.cells (m ((c.tc : Thread nD τ).loc main_arg0)))
                (Cert.Spec.sorted (Cert.Spec.hashRef (m ((c.tc : Thread nD τ).loc main_arg0)))).2)
      ∧ r.2.mem ((c.tc : Thread nD τ).loc main_v109)
          = Cert.Spec.numPoints
              (Cert.Spec.takeVec (Cert.Spec.hashRef (m ((c.tc : Thread nD τ).loc main_arg0)))
                (Cert.Spec.sorted (Cert.Spec.hashRef (m ((c.tc : Thread nD τ).loc main_arg0)))).2)
      ∧ r.2.mem ((c.tc : Thread nD τ).loc main_arg0) = m ((c.tc : Thread nD τ).loc main_arg0)) :=
  (θ_run defs _ _).mono (fun _ h c =>
      ⟨(h c).1.trans (fin_v91 _), (h c).2.1.trans (fin_v104 _), (h c).2.2.1.trans (fin_v109 _), (h c).2.2.2⟩)
    (run m ρ)

end Cert.ReferenceIdeal.Stages

end
-- ==== Proof.HashEq.lean ====
/-
  The kernel's hash of every point is the reference's, at the ideal instance.

  Both hashes are pointwise in the point. The kernel cuts the three coordinate columns out of the table of points,
  lays each out on a grid of lanes in row-major order, computes on the lanes and flattens the result back: laying out
  and flattening are inverse renumberings of the positions, so entry q of the result is a scalar expression of the
  three coordinates of point q (`hashPt`). The reference computes on the [points × 3] table against rows of three
  constants broadcast down the rows: its range test is an and-reduction along the three columns, from the neutral bit,
  of the per-axis tests — the kernel's six conjuncts in another order and association —, and its clipped cells are the
  kernel's, the host's quotient and floor being the lanes' at the ideal instance. Read at point q, the two are one word.
-/
import proofs.«420773_j40235253629492_3_alg».proof.Proof.Spec
import Idealize.ShloMosaic.PureOps.Ideal
import Idealize.ShloMosaic.PureOps.Reduce
import Idealize.ShloMosaic.Lib.ValueIdx
import Idealize.ShloMosaic.Lib.Pipeline.Value

noncomputable section

namespace Cert.HashEq

open Cert.Spec Idealize.ShloMosaic ValueIdx

/-! ## Index bookkeeping: a column of a table, laid out and flattened -/

section Layout
variable {α : Type}

/-- Dropping the unit axis of a column reads the column's entry in the same row. -/
theorem dropCol_apply (y : SNx1.Idx → α) (q : Fin 4000000) :
    shapeCast SN y sc_col (ix1 q) = y (ix2 q 0) := by
  refine shapeCast_apply y sc_col (ix1 q) (ix2 q 0) ?_
  rw [Shape.rowMajor_val_two, Shape.rowMajor_val_one]
  show q.val * 1 + 0 = q.val
  omega

/-- Column k of the four-column table of points. -/
theorem col4_apply (x : SNx4.Idx → α) (k : Fin 4) (h : SNx4.Slices ![0, k.val] SNx1) (q : Fin 4000000) :
    extractStridedSlice SNx1 ![0, k.val] x h (ix2 q 0) = x (ix2 q k) := by
  refine extractStridedSlice_apply ![0, k.val] x h (ix2 q 0) (ix2 q k) fun a => ?_
  match a with
  | ⟨0, _⟩ => show q.val = 0 + q.val; omega
  | ⟨1, _⟩ => show k.val = k.val + 0; omega

/-- Column k of a three-column table. -/
theorem col3_apply (x : SNx3.Idx → α) (k : Fin 3) (h : SNx3.Slices ![0, k.val] SNx1) (q : Fin 4000000) :
    extractStridedSlice SNx1 ![0, k.val] x h (ix2 q 0) = x (ix2 q k) := by
  refine extractStridedSlice_apply ![0, k.val] x h (ix2 q 0) (ix2 q k) fun a => ?_
  match a with
  | ⟨0, _⟩ => show q.val = 0 + q.val; omega
  | ⟨1, _⟩ => show k.val = k.val + 0; omega

end Layout

/-! ## The kernel's hash, read at a point -/

section PointHash
variable {F : FTy → Type} [FloatOps F]

/-- The range test of the three axes, the conjuncts in the order the lanes take them. -/
def validPt (x y z : F .f32) : BitVec 1 :=
  IntOp.andi (IntOp.andi (IntOp.andi (IntOp.andi (IntOp.andi
    (FloatOps.cmpf .oge x (FloatOps.ofBits .f32 0x00000000#32)) (FloatOps.cmpf .olt x (FloatOps.ofBits .f32 0x424CCCCD#32)))
    (FloatOps.cmpf .oge y (FloatOps.ofBits .f32 0xC1CCCCCD#32))) (FloatOps.cmpf .olt y (FloatOps.ofBits .f32 0x41CCCCCD#32)))
    (FloatOps.cmpf .oge z (FloatOps.ofBits .f32 0xC0400000#32))) (FloatOps.cmpf .olt z (FloatOps.ofBits .f32 0x40A00000#32))

/-- The clipped cell of one coordinate: floor ((x - lo) / size), kept inside [0, top]. -/
def cellPt (lo vs top : BitVec 32) (x : F .f32) : BitVec 32 :=
  IntOp.minsi top (IntOp.maxsi 0#32 (FloatOps.fptosi 32 (FloatOps.floor
    (FloatOps.divf (FloatOps.subf x (FloatOps.ofBits .f32 lo)) (FloatOps.ofBits .f32 vs)))))

/-- The hash of one point from its three coordinates. -/
def hashPt (x y z : F .f32) : BitVec 32 :=
  Scalar.select (validPt x y z)
    (IntOp.addi (IntOp.addi (IntOp.muli (cellPt 0x00000000#32 0x3E4CCCCD#32 255#32 x) 256#32)
      (IntOp.muli (cellPt 0xC1CCCCCD#32 0x3E4CCCCD#32 255#32 y) 1#32)) (cellPt 0xC0400000#32 0x41000000#32 0#32 z))
    65536#32

/-- The lanes' hash is pointwise: at a lane it is the hash of the three coordinates there. -/
theorem hashLanes_apply (S : Shape) (x y z : FVec F S .f32) (j : S.Idx) :
    hashLanes S x y z j = hashPt (x j) (y j) (z j) := rfl

/-- A coordinate column laid out on the grid, read at the lane a point is flattened from, is that point's coordinate. -/
theorem lanes_apply (pts : FVec F SNx4 .f32) (q : Fin 4000000) :
    lanes pts 0 (Shape.reshapeEquiv sc_flat (ix1 q)) = pts (ix2 q 0)
    ∧ lanes pts 1 (Shape.reshapeEquiv sc_flat (ix1 q)) = pts (ix2 q 1)
    ∧ lanes pts 2 (Shape.reshapeEquiv sc_flat (ix1 q)) = pts (ix2 q 2) := by
  have hg : ∀ v : SN.Idx → F .f32, shapeCast SG v sc_grid (Shape.reshapeEquiv sc_flat (ix1 q)) = v (ix1 q) := fun v =>
    shapeCast_apply v sc_grid _ (ix1 q) (Shape.rowMajor_reshapeEquiv sc_flat (ix1 q)).symm
  refine ⟨?_, ?_, ?_⟩
  · show shapeCast SG (shapeCast SN (extractStridedSlice SNx1 ![0, 0] pts sl_c0) sc_col) sc_grid _ = _
    rw [hg, dropCol_apply]; exact col4_apply pts 0 sl_c0 q
  · show shapeCast SG (shapeCast SN (extractStridedSlice SNx1 ![0, 1] pts sl_c1) sc_col) sc_grid _ = _
    rw [hg, dropCol_apply]; exact col4_apply pts 1 sl_c1 q
  · show shapeCast SG (shapeCast SN (extractStridedSlice SNx1 ![0, 2] pts sl_c2) sc_col) sc_grid _ = _
    rw [hg, dropCol_apply]; exact col4_apply pts 2 sl_c2 q

/-- The kernel's hash of point q. -/
theorem hashKer_apply (pts : FVec F SNx4 .f32) (q : Fin 4000000) :
    hashKer pts (ix1 q) = hashPt (pts (ix2 q 0)) (pts (ix2 q 1)) (pts (ix2 q 2)) := by
  obtain ⟨h0, h1, h2⟩ := lanes_apply pts q
  show hashLanes SG (lanes pts 0) (lanes pts 1) (lanes pts 2) (Shape.reshapeEquiv sc_flat (ix1 q)) = _
  rw [hashLanes_apply, h0, h1, h2]

end PointHash

/-! ## The reference's hash, read at a point -/

section RefLayout
variable {α : Type}

/-- A row of three entries broadcast down the rows reads, in column k, its entry k. -/
theorem bcastRows_apply (v : S3.Idx → α) (q : Fin 4000000) (k : Fin 3) :
    broadcastInDim SNx3 ![0, 1] b_3all (broadcastInDim S1x3 ![1] b_3row v) (ix2 q k) = v (ix1 k) := by
  refine (broadcastInDim_apply ![0, 1] b_3all _ (ix2 q k) (ix2 (0 : Fin 1) k) fun a => ?_).trans
    (broadcastInDim_apply ![1] b_3row v (ix2 (0 : Fin 1) k) (ix1 k) fun a => ?_)
  · match a with
    | ⟨0, _⟩ => rfl
    | ⟨1, _⟩ => rfl
  · match a with
    | ⟨0, _⟩ => rfl

/-- The first three columns of the points. -/
theorem xyz_apply {F : FTy → Type} [FloatOps F] (pts : FVec F SNx4 .f32) (q : Fin 4000000) (k : Fin 3) (k' : Fin 4)
    (hk : k'.val = k.val) : xyz pts (ix2 q k) = pts (ix2 q k') := by
  refine extractStridedSlice_apply ![0, 0] pts sl_xyz (ix2 q k) (ix2 q k') fun a => ?_
  match a with
  | ⟨0, _⟩ => show q.val = 0 + q.val; omega
  | ⟨1, _⟩ => show k'.val = 0 + k.val; omega

/-- A single entry of a row of three is numbered by its coordinate. -/
theorem rowMajor_S3 (k : Fin 3) : S3.rowMajor (ix1 k) = k := Fin.ext (Shape.rowMajor_val_one _)

/-- The index over point q with column k put back is (q, k). -/
theorem lift_row (h : SNx3.Reduces [1] SN) (q : Fin 4000000) (k : Fin 3) : h.lift (ix1 q) k = ix2 q k := by
  funext c; apply Fin.ext
  match c with
  | ⟨0, _⟩ => rfl
  | ⟨1, _⟩ => rfl

/-- A fold over three entries of a commutative, associative operation. -/
theorem fold_univ_fin3 (f : α → α → α) [Std.Commutative f] [Std.Associative f] (b : α) (g : Fin 3 → α) :
    (Finset.univ : Finset (Fin 3)).fold f b g = f (g 0) (f (g 1) (f (g 2) b)) := by
  simp only [Fin.univ_succ, Finset.fold_cons, Finset.fold_map, Finset.univ_unique, Finset.fold_singleton]
  rfl

end RefLayout

section RefHash
variable {F : FTy → Type} [FloatOps F]

/-- A table of three floats broadcast down the rows reads, in column k, its entry k. -/
theorem rows3_apply (v : FVec F S3 .f32) (q : Fin 4000000) (k : Fin 3) : rows3 v (ix2 q k) = v (ix1 k) :=
  bcastRows_apply v q k

/-- The lower bounds of the range, axis by axis. -/
theorem lo3_apply :
    lo3 (F := F) (ix1 0) = FloatOps.ofBits .f32 0x00000000#32
    ∧ lo3 (F := F) (ix1 1) = FloatOps.ofBits .f32 0xC1CCCCCD#32
    ∧ lo3 (F := F) (ix1 2) = FloatOps.ofBits .f32 0xC0400000#32 := by
  refine ⟨?_, ?_, ?_⟩ <;> (unfold lo3; rw [rowMajor_S3]; rfl)

/-- The upper bounds of the range, axis by axis. -/
theorem hi3_apply :
    hi3 (F := F) (ix1 0) = FloatOps.ofBits .f32 0x424CCCCD#32
    ∧ hi3 (F := F) (ix1 1) = FloatOps.ofBits .f32 0x41CCCCCD#32
    ∧ hi3 (F := F) (ix1 2) = FloatOps.ofBits .f32 0x40A00000#32 := by
  refine ⟨?_, ?_, ?_⟩ <;> (unfold hi3; rw [rowMajor_S3]; rfl)

/-- The cell sizes, axis by axis. -/
theorem vsz3_apply :
    vsz3 (F := F) (ix1 0) = FloatOps.ofBits .f32 0x3E4CCCCD#32
    ∧ vsz3 (F := F) (ix1 1) = FloatOps.ofBits .f32 0x3E4CCCCD#32
    ∧ vsz3 (F := F) (ix1 2) = FloatOps.ofBits .f32 0x41000000#32 := by
  refine ⟨?_, ?_, ?_⟩ <;> (unfold vsz3; rw [rowMajor_S3]; rfl)

/-- The largest cell, axis by axis. -/
theorem top3_apply : top3 (ix1 0) = 255#32 ∧ top3 (ix1 1) = 255#32 ∧ top3 (ix1 2) = 0#32 := by
  refine ⟨?_, ?_, ?_⟩ <;> (unfold top3; rw [rowMajor_S3]; rfl)

/-- An and-reduction along the three columns, at point q, is the conjunction of the row's three entries. -/
theorem reduce_row_andi (m : IVec SNx3 1) (q : Fin 4000000) :
    Host.reduce IntOp.andi m (constantI S_ 1 1#1) red_row pos_S_ (ix1 q)
      = IntOp.andi (m (ix2 q 0)) (IntOp.andi (m (ix2 q 1)) (IntOp.andi (m (ix2 q 2)) 1#1)) := by
  have h : SNx3.Reduces [1] SN := by decide
  rw [Host.reduce_eq_fold_single IntOp.andi m _ red_row h pos_S_ (ix1 q)]
  have hf : (m ∘ h.lift (ix1 q)) = fun k : Fin 3 => m (ix2 q k) := funext fun k => congrArg m (lift_row h q k)
  rw [hf]
  exact fold_univ_fin3 IntOp.andi _ _

/-- A column of the table of cells, read at point q. -/
theorem cellCol_apply (c : IVec SNx3 32) (q : Fin 4000000) :
    cellCol c 0 (ix1 q) = c (ix2 q 0) ∧ cellCol c 1 (ix1 q) = c (ix2 q 1) ∧ cellCol c 2 (ix1 q) = c (ix2 q 2) := by
  refine ⟨?_, ?_, ?_⟩
  · show shapeCast SN (extractStridedSlice SNx1 ![0, 0] c sl3_c0) sc_col (ix1 q) = _
    rw [dropCol_apply]; exact col3_apply c 0 sl3_c0 q
  · show shapeCast SN (extractStridedSlice SNx1 ![0, 1] c sl3_c1) sc_col (ix1 q) = _
    rw [dropCol_apply]; exact col3_apply c 1 sl3_c1 q
  · show shapeCast SN (extractStridedSlice SNx1 ![0, 2] c sl3_c2) sc_col (ix1 q) = _
    rw [dropCol_apply]; exact col3_apply c 2 sl3_c2 q

/-- The packed hash of a table of cells, read at point q. -/
theorem pack_apply (c : IVec SNx3 32) (q : Fin 4000000) :
    pack c (ix1 q) = IntOp.addi (IntOp.addi (IntOp.muli (c (ix2 q 0)) 256#32) (IntOp.muli (c (ix2 q 1)) 1#32)) (c (ix2 q 2)) := by
  obtain ⟨h0, h1, h2⟩ := cellCol_apply c q
  show IntOp.addi (IntOp.addi (IntOp.muli (cellCol c 0 (ix1 q)) 256#32) (IntOp.muli (cellCol c 1 (ix1 q)) 1#32)) (cellCol c 2 (ix1 q)) = _
  rw [h0, h1, h2]

/-- The range test of the reference at point q: per axis, then over the three axes. -/
theorem inRange_apply (pts : FVec F SNx4 .f32) (q : Fin 4000000) :
    inRange pts (ix1 q) =
      IntOp.andi (IntOp.andi (FloatOps.cmpf .oge (pts (ix2 q 0)) (FloatOps.ofBits .f32 0x00000000#32)) (FloatOps.cmpf .olt (pts (ix2 q 0)) (FloatOps.ofBits .f32 0x424CCCCD#32)))
        (IntOp.andi (IntOp.andi (FloatOps.cmpf .oge (pts (ix2 q 1)) (FloatOps.ofBits .f32 0xC1CCCCCD#32)) (FloatOps.cmpf .olt (pts (ix2 q 1)) (FloatOps.ofBits .f32 0x41CCCCCD#32)))
          (IntOp.andi (IntOp.andi (FloatOps.cmpf .oge (pts (ix2 q 2)) (FloatOps.ofBits .f32 0xC0400000#32)) (FloatOps.cmpf .olt (pts (ix2 q 2)) (FloatOps.ofBits .f32 0x40A00000#32))) 1#1)) := by
  obtain ⟨l0, l1, l2⟩ := lo3_apply (F := F)
  obtain ⟨u0, u1, u2⟩ := hi3_apply (F := F)
  unfold inRange
  rw [reduce_row_andi]
  show IntOp.andi (IntOp.andi (FloatOps.cmpf .oge (xyz pts (ix2 q 0)) (rows3 lo3 (ix2 q 0))) (FloatOps.cmpf .olt (xyz pts (ix2 q 0)) (rows3 hi3 (ix2 q 0))))
      (IntOp.andi (IntOp.andi (FloatOps.cmpf .oge (xyz pts (ix2 q 1)) (rows3 lo3 (ix2 q 1))) (FloatOps.cmpf .olt (xyz pts (ix2 q 1)) (rows3 hi3 (ix2 q 1))))
        (IntOp.andi (IntOp.andi (FloatOps.cmpf .oge (xyz pts (ix2 q 2)) (rows3 lo3 (ix2 q 2))) (FloatOps.cmpf .olt (xyz pts (ix2 q 2)) (rows3 hi3 (ix2 q 2)))) 1#1)) = _
  rw [xyz_apply pts q 0 0 rfl, xyz_apply pts q 1 1 rfl, xyz_apply pts q 2 2 rfl]
  simp only [rows3_apply]
  rw [l0, l1, l2, u0, u1, u2]

end RefHash

/-! ## The two hashes agree at the ideal instance -/

/-- Six conjuncts, taken in a row or axis by axis from the neutral bit, give one bit. -/
theorem andi_six (a b c d e f : BitVec 1) :
    IntOp.andi (IntOp.andi (IntOp.andi (IntOp.andi (IntOp.andi a b) c) d) e) f
      = IntOp.andi (IntOp.andi a b) (IntOp.andi (IntOp.andi c d) (IntOp.andi (IntOp.andi e f) 1#1)) := by
  revert a b c d e f; decide

/-- The reference's clipped cell of axis k at point q: at the ideal instance the host's quotient and floor are the
    lanes' quotient and floor, so it is the lanes' cell of that coordinate. -/
theorem cells_at (pts : FVec Ideal SNx4 .f32) (q : Fin 4000000) (k : Fin 3) (k' : Fin 4) (hk : k'.val = k.val)
    (lo vs top : BitVec 32) (hl : lo3 (F := Ideal) (ix1 k) = FloatOps.ofBits .f32 lo)
    (hv : vsz3 (F := Ideal) (ix1 k) = FloatOps.ofBits .f32 vs) (ht : top3 (ix1 k) = top) :
    cells pts (ix2 q k) = cellPt lo vs top (pts (ix2 q k')) := by
  show IntOp.minsi (broadcastInDim SNx3 ![0, 1] b_3all (broadcastInDim S1x3 ![1] b_3row top3) (ix2 q k))
      (IntOp.maxsi 0#32 (FloatOps.fptosi 32 (FloatOps.floor
        (FloatOps.divf (FloatOps.subf (xyz pts (ix2 q k)) (rows3 lo3 (ix2 q k))) (rows3 vsz3 (ix2 q k)))))) = _
  rw [bcastRows_apply, xyz_apply pts q k k' hk, rows3_apply, rows3_apply, hl, hv, ht]
  rfl

/-- THE HASHES AGREE: at every point the kernel's lanes and the reference compute one word. -/
theorem hash_eq (pts : FVec Ideal SNx4 .f32) : hashKer (F := Ideal) pts = hashRef (F := Ideal) pts := by
  funext p
  obtain ⟨q, rfl⟩ : ∃ q, p = ix1 q := ⟨p 0, eq_ix1 p⟩
  obtain ⟨l0, l1, l2⟩ := lo3_apply (F := Ideal)
  obtain ⟨v0, v1, v2⟩ := vsz3_apply (F := Ideal)
  obtain ⟨t0, t1, t2⟩ := top3_apply
  have c0 := cells_at pts q 0 0 rfl _ _ _ l0 v0 t0
  have c1 := cells_at pts q 1 1 rfl _ _ _ l1 v1 t1
  have c2 := cells_at pts q 2 2 rfl _ _ _ l2 v2 t2
  rw [hashKer_apply]
  show _ = Scalar.select (inRange pts (ix1 q)) (pack (cells pts) (ix1 q)) 65536#32
  rw [inRange_apply, pack_apply, c0, c1, c2, ← andi_six]
  rfl

end Cert.HashEq

end
-- ==== Proof.Runs.lean ====
import Mathlib.Data.Finset.Card
import Mathlib.Data.Finset.Lattice.Fold
import Mathlib.Order.Interval.Finset.Nat
import Mathlib.Tactic

/-!
Runs of positions. Positions `0, 1, …` carry two predicates: `nv` (a run starts here)
and `sv` (the position is valid). `cnt p` counts the starts at or before `p`;
`st p` is the last start at or before `p` (or `0` if there is none).
-/

namespace Cert.Runs

variable (nv sv : ℕ → Prop) [DecidablePred nv] [DecidablePred sv]

/-- Number of starts among positions `0..p`. -/
def cnt (p : ℕ) : ℕ := ((Finset.range (p + 1)).filter nv).card

/-- Largest start among positions `0..p` (zero when there is none). -/
def st (p : ℕ) : ℕ := ((Finset.range (p + 1)).filter nv).sup id

theorem cnt_zero : cnt nv 0 = if nv 0 then 1 else 0 := by
  unfold cnt
  by_cases h : nv 0 <;> simp [Finset.filter_singleton, h]

theorem cnt_succ (p : ℕ) : cnt nv (p + 1) = cnt nv p + if nv (p + 1) then 1 else 0 := by
  unfold cnt
  rw [Finset.range_add_one, Finset.filter_insert]
  by_cases h : nv (p + 1)
  · simp [h]
  · simp [h]

theorem st_zero : st nv 0 = 0 := by
  unfold st
  by_cases h : nv 0 <;> simp [Finset.filter_singleton, h]

theorem st_succ (p : ℕ) :
    st nv (p + 1) = max (st nv p) (if nv (p + 1) then p + 1 else 0) := by
  unfold st
  rw [Finset.range_add_one, Finset.filter_insert]
  by_cases h : nv (p + 1)
  · simp [h, max_comm]
  · simp [h]

theorem st_le (p : ℕ) : st nv p ≤ p := by
  unfold st
  apply Finset.sup_le
  intro b hb
  simp only [Finset.mem_filter, Finset.mem_range] at hb
  simp only [id]
  omega

/-- Consistency of the two predicates on the first `n` positions: every start is valid, and a
valid position that is not a start is preceded by a valid position. -/
structure Ok (n : ℕ) : Prop where
  nv_sv : ∀ p, p < n → nv p → sv p
  sv_pred : ∀ p, p < n → sv p → ¬ nv p → 0 < p ∧ sv (p - 1)

/-- A position is kept when it is valid, its rank inside its run is below `M`,
and its run number is at most `V`. -/
def keep (M V : ℕ) (p : ℕ) : Prop := sv p ∧ p - st nv p < M ∧ cnt nv p ≤ V

variable {nv sv} {n M V : ℕ}

/-- Membership in the set of starts at or before `p`. -/
private theorem mem_starts {p q : ℕ} :
    q ∈ (Finset.range (p + 1)).filter nv ↔ q ≤ p ∧ nv q := by
  simp [Finset.mem_filter, Finset.mem_range, Nat.lt_succ_iff]

/-- The count of starts is monotone. -/
private theorem cnt_mono {p q : ℕ} (h : p ≤ q) : cnt nv p ≤ cnt nv q := by
  unfold cnt
  apply Finset.card_le_card
  intro x hx
  rw [mem_starts] at hx ⊢
  exact ⟨hx.1.trans h, hx.2⟩

/-- Every start at or before `p` is at most the last one. -/
private theorem le_st {p q : ℕ} (hq : q ≤ p) (hn : nv q) : q ≤ st nv p := by
  unfold st
  exact Finset.le_sup (f := id) (mem_starts.2 ⟨hq, hn⟩)

/-- When some start lies at or before `p`, the last one is itself a start. -/
private theorem st_mem {p : ℕ} (hne : ((Finset.range (p + 1)).filter nv).Nonempty) :
    nv (st nv p) := by
  obtain ⟨x, hx, e⟩ := Finset.exists_mem_eq_sup _ hne id
  unfold st
  rw [e]
  exact (mem_starts.1 hx).2

/-- No start lies strictly between the last start and `p`, so the counts agree. -/
private theorem cnt_st (p : ℕ) : cnt nv (st nv p) = cnt nv p := by
  unfold cnt
  congr 1
  ext x
  rw [mem_starts, mem_starts]
  constructor
  · rintro ⟨hx, hn⟩
    exact ⟨hx.trans (st_le nv p), hn⟩
  · rintro ⟨hx, hn⟩
    exact ⟨le_st hx hn, hn⟩

/-- Walking down from a valid position reaches a start. -/
private theorem exists_start (h : Ok nv sv n) :
    ∀ p, p < n → sv p → ∃ q, q ≤ p ∧ nv q := by
  intro p
  induction p with
  | zero =>
    intro hp hs
    by_cases hn : nv 0
    · exact ⟨0, le_rfl, hn⟩
    · exact absurd (h.sv_pred 0 hp hs hn).1 (lt_irrefl 0)
  | succ k ih =>
    intro hp hs
    by_cases hn : nv (k + 1)
    · exact ⟨k + 1, le_rfl, hn⟩
    · obtain ⟨_, hs'⟩ := h.sv_pred (k + 1) hp hs hn
      obtain ⟨q, hq, hnq⟩ := ih (by omega) (by simpa using hs')
      exact ⟨q, by omega, hnq⟩

theorem start_of_sv (h : Ok nv sv n) {p : ℕ} (hp : p < n) (hs : sv p) :
    nv (st nv p) ∧ cnt nv (st nv p) = cnt nv p ∧ 1 ≤ cnt nv p := by
  obtain ⟨q, hq, hnq⟩ := exists_start h p hp hs
  have hne : ((Finset.range (p + 1)).filter nv).Nonempty := ⟨q, mem_starts.2 ⟨hq, hnq⟩⟩
  refine ⟨st_mem hne, cnt_st p, ?_⟩
  unfold cnt
  exact Finset.card_pos.2 hne

/-- The count strictly increases on reaching a later start. -/
private theorem cnt_lt_of_start {q q' : ℕ} (hlt : q < q') (hq' : nv q') :
    cnt nv q < cnt nv q' := by
  obtain ⟨k, rfl⟩ : ∃ k, q' = k + 1 := ⟨q' - 1, by omega⟩
  have h1 := cnt_succ nv k
  rw [if_pos hq'] at h1
  have h2 : cnt nv q ≤ cnt nv k := cnt_mono (by omega)
  omega

theorem start_unique {q q' : ℕ} (hq : nv q) (hq' : nv q') (e : cnt nv q = cnt nv q') :
    q = q' := by
  rcases lt_trichotomy q q' with hlt | heq | hgt
  · have := cnt_lt_of_start hlt hq'
    omega
  · exact heq
  · have := cnt_lt_of_start hgt hq
    omega

theorem st_eq_of_start (h : Ok nv sv n) {p q : ℕ} (hp : p < n) (hs : sv p) (hq : nv q)
    (e : cnt nv q = cnt nv p) : st nv p = q := by
  obtain ⟨h1, h2, _⟩ := start_of_sv h hp hs
  exact start_unique h1 hq (h2.trans e.symm)

theorem keep_unique (h : Ok nv sv n) {p p' : ℕ} (hp : p < n) (hp' : p' < n)
    (k : keep nv sv M V p) (k' : keep nv sv M V p') (e : cnt nv p = cnt nv p')
    (er : p - st nv p = p' - st nv p') : p = p' := by
  unfold keep at k k'
  obtain ⟨hn', hc', _⟩ := start_of_sv h hp' k'.1
  have es : st nv p = st nv p' := st_eq_of_start h hp k.1 hn' (hc'.trans e.symm)
  have := st_le nv p
  have := st_le nv p'
  omega

/-- A position strictly after its last start is not a start. -/
private theorem not_start_of_st_lt {p : ℕ} (hlt : st nv p < p) : ¬ nv p := by
  intro hn
  have := le_st (le_refl p) hn
  omega

theorem keep_pred (h : Ok nv sv n) {p : ℕ} (hp : p < n) (k : keep nv sv M V p)
    (hlt : st nv p < p) :
    keep nv sv M V (p - 1) ∧ cnt nv (p - 1) = cnt nv p ∧ st nv (p - 1) = st nv p := by
  unfold keep at k ⊢
  obtain ⟨hs, hr, hc⟩ := k
  have hn : ¬ nv p := not_start_of_st_lt hlt
  obtain ⟨hpos, hs'⟩ := h.sv_pred p hp hs hn
  obtain ⟨j, rfl⟩ : ∃ j, p = j + 1 := ⟨p - 1, by omega⟩
  have e1 := cnt_succ nv j
  have e2 := st_succ nv j
  simp only [if_neg hn] at e1 e2
  simp only [Nat.add_sub_cancel] at hs' ⊢
  have e1' : cnt nv j = cnt nv (j + 1) := by omega
  have e2' : st nv j = st nv (j + 1) := by
    rw [e2]; exact (max_eq_left (Nat.zero_le _)).symm
  refine ⟨⟨hs', ?_, ?_⟩, e1', e2'⟩
  · rw [e2']; omega
  · rw [e1']; exact hc

/-- Going down from a kept position by at most its rank stays inside the same run,
and every position met is kept. -/
private theorem keep_down (h : Ok nv sv n) {p : ℕ} (hp : p < n) (k : keep nv sv M V p) :
    ∀ d, d ≤ p - st nv p →
      keep nv sv M V (p - d) ∧ cnt nv (p - d) = cnt nv p ∧ st nv (p - d) = st nv p := by
  intro d
  induction d with
  | zero =>
    intro _
    exact ⟨k, rfl, rfl⟩
  | succ d ih =>
    intro hd
    obtain ⟨k1, c1, s1⟩ := ih (by omega)
    have hlt : st nv (p - d) < p - d := by rw [s1]; omega
    obtain ⟨k2, c2, s2⟩ := keep_pred h (by omega) k1 hlt
    have e : p - (d + 1) = p - d - 1 := by omega
    rw [e]
    exact ⟨k2, c2.trans c1, s2.trans s1⟩

/-- A finite set of naturals closed under going down is an initial segment:
membership is the same as being below the cardinality. -/
private theorem mem_iff_lt_card_of_downclosed (R : Finset ℕ)
    (h : ∀ a ∈ R, ∀ b, b ≤ a → b ∈ R) (r : ℕ) : r ∈ R ↔ r < R.card := by
  constructor
  · intro hr
    have hsub : Finset.range (r + 1) ⊆ R := by
      intro x hx
      rw [Finset.mem_range] at hx
      exact h r hr x (by omega)
    have hc := Finset.card_le_card hsub
    rw [Finset.card_range] at hc
    omega
  · intro hr
    by_contra hn
    have hsub : R ⊆ Finset.range r := by
      intro x hx
      rw [Finset.mem_range]
      by_contra hx'
      exact hn (h x hx r (by omega))
    have hc := Finset.card_le_card hsub
    rw [Finset.card_range] at hc
    omega

theorem count_iff (h : Ok nv sv n) (v r : ℕ)
    [DecidablePred fun p => keep nv sv M V p ∧ cnt nv p = v + 1] :
    r < ((Finset.range n).filter fun p => keep nv sv M V p ∧ cnt nv p = v + 1).card ↔
      ∃ p, p < n ∧ keep nv sv M V p ∧ cnt nv p = v + 1 ∧ p - st nv p = r := by
  set S := (Finset.range n).filter fun p => keep nv sv M V p ∧ cnt nv p = v + 1 with hS
  have hmem : ∀ p, p ∈ S ↔ p < n ∧ keep nv sv M V p ∧ cnt nv p = v + 1 := by
    intro p
    simp only [hS, Finset.mem_filter, Finset.mem_range]
  have hinj : Set.InjOn (fun p => p - st nv p) (S : Set ℕ) := by
    intro a ha b hb hab
    obtain ⟨ha1, ha2, ha3⟩ := (hmem a).1 ha
    obtain ⟨hb1, hb2, hb3⟩ := (hmem b).1 hb
    exact keep_unique h ha1 hb1 ha2 hb2 (ha3.trans hb3.symm) hab
  have hcard : (S.image fun p => p - st nv p).card = S.card :=
    Finset.card_image_of_injOn hinj
  have hdown : ∀ a ∈ S.image (fun p => p - st nv p), ∀ b, b ≤ a →
      b ∈ S.image fun p => p - st nv p := by
    intro a ha b hb
    obtain ⟨p, hpS, rfl⟩ := Finset.mem_image.1 ha
    have hb' : b ≤ p - st nv p := hb
    obtain ⟨hp1, hp2, hp3⟩ := (hmem p).1 hpS
    obtain ⟨k', c', s'⟩ := keep_down h hp1 hp2 (p - st nv p - b) (by omega)
    refine Finset.mem_image.2
      ⟨p - (p - st nv p - b), (hmem _).2 ⟨by omega, k', c'.trans hp3⟩, ?_⟩
    show p - (p - st nv p - b) - st nv (p - (p - st nv p - b)) = b
    rw [s']
    have := st_le nv p
    omega
  rw [← hcard, ← mem_iff_lt_card_of_downclosed _ hdown r, Finset.mem_image]
  constructor
  · rintro ⟨p, hpS, rfl⟩
    obtain ⟨hp1, hp2, hp3⟩ := (hmem p).1 hpS
    exact ⟨p, hp1, hp2, hp3, rfl⟩
  · rintro ⟨p, hp1, hp2, hp3, rfl⟩
    exact ⟨p, (hmem p).2 ⟨hp1, hp2, hp3⟩, rfl⟩

end Cert.Runs
-- ==== Proof.ScanOps.lean ====
import Idealize.ShloMosaic.PureOps
import Idealize.ShloMosaic.Lib.SortFacts
import Mathlib.Data.List.Range
import Mathlib.Data.List.FinRange

/-! # A padded full-length window reduction is a running fold

A window of the vector's length `n`, stride one, padded `n - 1` below and nothing above: result element `k`
folds `f` from the initial value `v` over `n` window positions, the first `n - 1 - k` of which are padding
(read as `v`) and the last `k + 1` of which are the elements `x 0, …, x k`. When `f v v = v` the padding is
absorbed, and element `k` is the left fold of `f` from `v` over `x 0, …, x k`. -/

namespace Cert.Scan

open Idealize.ShloMosaic

section Fold
variable {α : Type}

/-- A left fold all of whose operands are `v`, from `v`, is `v` when `f v v = v`. -/
theorem foldl_range_const (f : α → α → α) (v : α) (hv : f v v = v) (G : ℕ → α) :
    ∀ a : ℕ, (∀ m, m < a → G m = v) → (List.range a).foldl (fun r m => f r (G m)) v = v
  | 0, _ => rfl
  | a + 1, h => by
    rw [List.range_succ, List.foldl_append, foldl_range_const f v hv G a fun m hm => h m (Nat.lt_succ_of_lt hm)]
    simp [h a (Nat.lt_succ_self a), hv]

/-- A fold over the first `a + b` naturals: the first `a`, then the next `b`. -/
theorem foldl_range_add (F : α → ℕ → α) (v : α) (a b : ℕ) :
    (List.range (a + b)).foldl F v = (List.range b).foldl (fun r i => F r (a + i)) ((List.range a).foldl F v) := by
  rw [List.range_add, List.foldl_append, List.foldl_map]

/-- A fold over the positions below `N` read through their values is the fold over the naturals below `N`. -/
theorem foldl_finRange_val (F : α → ℕ → α) (v : α) (N : ℕ) :
    (List.finRange N).foldl (fun r m => F r m.val) v = (List.range N).foldl F v := by
  rw [← List.map_coe_finRange_eq_range, List.foldl_map]

end Fold

section Window
variable {α : Type}

/-- The operand read at a natural position; the value `v` outside the operand. -/
def rd (n : ℕ) (x : (⟨1, ![n]⟩ : Shape).Idx → α) (v : α) (i : ℕ) : α :=
  if h : i < n then x (Shape.Idx.ofFin ⟨i, h⟩) else v

theorem numel_one (n : ℕ) : (⟨1, ![n]⟩ : Shape).numel = n := by
  simp [Shape.numel]

theorem rowMajor_symm_val (n : ℕ) (m : Fin (⟨1, ![n]⟩ : Shape).numel) :
    ((⟨1, ![n]⟩ : Shape).rowMajor.symm m 0).val = m.val := by
  have := Shape.rowMajor_val_one ((⟨1, ![n]⟩ : Shape).rowMajor.symm m)
  rw [Equiv.apply_symm_apply] at this
  exact this.symm

/-- A fold over the positions below `N` whose step reads the position's value only, as a fold over naturals. -/
theorem foldl_finRange_congr {N M : ℕ} (hNM : N = M) (F : α → Fin N → α) (G : α → ℕ → α)
    (hFG : ∀ r m, F r m = G r m.val) (v : α) : (List.finRange N).foldl F v = (List.range M).foldl G v := by
  subst hNM
  rw [← foldl_finRange_val]
  congr 1
  funext r m
  exact hFG r m

theorem reduceWindow_eq_range (f : α → α → α) (n lo : ℕ) (x : (⟨1, ![n]⟩ : Shape).Idx → α) {u : Shape}
    (init : u.Idx → α) (h : (⟨1, ![n]⟩ : Shape).ReduceWindows (![n] : Fin 1 → ℕ) ![1] ![lo] ![0] ⟨1, ![n]⟩)
    (hu : 0 < u.numel) (k : ℕ) (hk : k < n) :
    Host.reduceWindow f ![n] ![1] ![lo] ![0] x init h hu (Shape.Idx.ofFin ⟨k, hk⟩)
      = (List.range n).foldl (fun r m => f r (if lo ≤ k + m ∧ k + m - lo < n then
          rd n x (init (Shape.Idx.first hu)) (k + m - lo) else init (Shape.Idx.first hu))) (init (Shape.Idx.first hu)) := by
  unfold Host.reduceWindow
  dsimp only
  refine foldl_finRange_congr (numel_one n) _ _ (fun r m => ?_) _
  have hm := rowMajor_symm_val n m
  show f r _ = f r _
  congr 1
  by_cases hc : lo ≤ k + m.val ∧ k + m.val - lo < n
  · rw [if_pos hc, rd, dif_pos hc.2, dif_pos]
    · congr 1
      funext a
      obtain rfl : a = 0 := Subsingleton.elim _ _
      apply Fin.ext
      simp [hm]
    · intro a
      obtain rfl : a = 0 := Subsingleton.elim _ _
      simpa [hm] using hc
  · rw [if_neg hc, dif_neg]
    intro hin
    apply hc
    simpa [hm] using hin 0

/-- Element `k` of the padded full-length window reduction is the left fold of `f` from the initial value over
    `x 0, …, x k`, when the initial value absorbs itself. -/
theorem reduceWindow_eq_prefix (f : α → α → α) (n lo : ℕ) (hlo : lo + 1 = n) (x : (⟨1, ![n]⟩ : Shape).Idx → α)
    {u : Shape} (init : u.Idx → α)
    (h : (⟨1, ![n]⟩ : Shape).ReduceWindows (![n] : Fin 1 → ℕ) ![1] ![lo] ![0] ⟨1, ![n]⟩) (hu : 0 < u.numel)
    (hv : f (init (Shape.Idx.first hu)) (init (Shape.Idx.first hu)) = init (Shape.Idx.first hu))
    (k : ℕ) (hk : k < n) :
    Host.reduceWindow f ![n] ![1] ![lo] ![0] x init h hu (Shape.Idx.ofFin ⟨k, hk⟩)
      = (List.range (k + 1)).foldl (fun r i => f r (rd n x (init (Shape.Idx.first hu)) i)) (init (Shape.Idx.first hu)) := by
  rw [reduceWindow_eq_range]
  have hn : n = (lo - k) + (k + 1) := by omega
  rw [congrArg List.range hn, foldl_range_add,
    foldl_range_const f _ hv _ (lo - k) fun m hm => if_neg (by omega)]
  refine List.foldl_ext _ _ _ fun r i hi => ?_
  have hi' : i < k + 1 := List.mem_range.1 hi
  show f r _ = f r _
  rw [if_pos (by omega), show k + (lo - k + i) - lo = i by omega]

theorem rd_of_lt (n : ℕ) (x : (⟨1, ![n]⟩ : Shape).Idx → α) (v : α) (i : ℕ) (h : i < n) :
    rd n x v i = x (Shape.Idx.ofFin ⟨i, h⟩) := dif_pos h

theorem reduceWindow_zero (f : α → α → α) (n lo : ℕ) (hlo : lo + 1 = n) (x : (⟨1, ![n]⟩ : Shape).Idx → α)
    {u : Shape} (init : u.Idx → α)
    (h : (⟨1, ![n]⟩ : Shape).ReduceWindows (![n] : Fin 1 → ℕ) ![1] ![lo] ![0] ⟨1, ![n]⟩) (hu : 0 < u.numel)
    (hv : f (init (Shape.Idx.first hu)) (init (Shape.Idx.first hu)) = init (Shape.Idx.first hu)) (h0 : 0 < n) :
    Host.reduceWindow f ![n] ![1] ![lo] ![0] x init h hu (Shape.Idx.ofFin ⟨0, h0⟩)
      = f (init (Shape.Idx.first hu)) (x (Shape.Idx.ofFin ⟨0, h0⟩)) := by
  rw [reduceWindow_eq_prefix f n lo hlo x init h hu hv 0 h0, ← rd_of_lt n x (init (Shape.Idx.first hu)) 0 h0]
  rfl

theorem reduceWindow_succ (f : α → α → α) (n lo : ℕ) (hlo : lo + 1 = n) (x : (⟨1, ![n]⟩ : Shape).Idx → α)
    {u : Shape} (init : u.Idx → α)
    (h : (⟨1, ![n]⟩ : Shape).ReduceWindows (![n] : Fin 1 → ℕ) ![1] ![lo] ![0] ⟨1, ![n]⟩) (hu : 0 < u.numel)
    (hv : f (init (Shape.Idx.first hu)) (init (Shape.Idx.first hu)) = init (Shape.Idx.first hu))
    (k : ℕ) (hk : k + 1 < n) :
    Host.reduceWindow f ![n] ![1] ![lo] ![0] x init h hu (Shape.Idx.ofFin ⟨k + 1, hk⟩)
      = f (Host.reduceWindow f ![n] ![1] ![lo] ![0] x init h hu (Shape.Idx.ofFin ⟨k, Nat.lt_of_succ_lt hk⟩))
          (x (Shape.Idx.ofFin ⟨k + 1, hk⟩)) := by
  rw [reduceWindow_eq_prefix f n lo hlo x init h hu hv (k + 1) hk,
    reduceWindow_eq_prefix f n lo hlo x init h hu hv k (Nat.lt_of_succ_lt hk),
    ← rd_of_lt n x (init (Shape.Idx.first hu)) (k + 1) hk, List.range_succ (n := k + 1), List.foldl_append]
  rfl

end Window

/-! ## Running sums and running maxima of 32-bit words -/

section Words

theorem toInt_ofNat_small (a : ℕ) (ha : a < 2 ^ 31) : (BitVec.ofNat 32 a).toInt = a := by
  have h1 : (BitVec.ofNat 32 a).toNat = a := by rw [BitVec.toNat_ofNat]; exact Nat.mod_eq_of_lt (by omega)
  rw [BitVec.toInt_eq_toNat_of_lt (by rw [h1]; omega), h1]

/-- The signed maximum of two words below `2 ^ 31` is the maximum of the naturals. -/
theorem maxsi_ofNat (a b : ℕ) (ha : a < 2 ^ 31) (hb : b < 2 ^ 31) :
    IntOp.maxsi (BitVec.ofNat 32 a) (BitVec.ofNat 32 b) = BitVec.ofNat 32 (max a b) := by
  have hs : (BitVec.ofNat 32 b).slt (BitVec.ofNat 32 a) = true ↔ b < a := by
    rw [BitVec.slt_iff_toInt_lt, toInt_ofNat_small a ha, toInt_ofNat_small b hb]; omega
  unfold IntOp.maxsi
  by_cases hab : b < a
  · rw [if_pos (hs.2 hab), max_eq_left (le_of_lt hab)]
  · rw [if_neg (fun h => hab (hs.1 h)), max_eq_right (not_lt.1 hab)]

/-- The signed maximum of the least word and a word below `2 ^ 31` is the latter. -/
theorem maxsi_intMin_ofNat (b : ℕ) (hb : b < 2 ^ 31) :
    IntOp.maxsi 2147483648#32 (BitVec.ofNat 32 b) = BitVec.ofNat 32 b := by
  unfold IntOp.maxsi
  rw [if_neg]
  rw [BitVec.slt_iff_toInt_lt, toInt_ofNat_small b hb, show (2147483648#32).toInt = -2147483648 by decide]
  omega

variable (n lo : ℕ) (hlo : lo + 1 = n) (hn : n < 2 ^ 31) (x : IVec ⟨1, ![n]⟩ 32) (P : ℕ → Prop) [DecidablePred P]

include hlo hn in
/-- The running count: where the operand holds one at the positions satisfying `P` and zero elsewhere, element `k`
    of the padded full-length window sum from zero is the number `c k` of positions up to `k` satisfying `P`. -/
theorem cumsum_eq (hx : ∀ k (hk : k < n), x (Shape.Idx.ofFin ⟨k, hk⟩) = if P k then 1#32 else 0#32)
    (c : ℕ → ℕ) (c0 : c 0 = if P 0 then 1 else 0) (cs : ∀ k, c (k + 1) = c k + if P (k + 1) then 1 else 0)
    {u : Shape} (init : u.Idx → BitVec 32)
    (h : (⟨1, ![n]⟩ : Shape).ReduceWindows (![n] : Fin 1 → ℕ) ![1] ![lo] ![0] ⟨1, ![n]⟩) (hu : 0 < u.numel)
    (hi : init (Shape.Idx.first hu) = 0#32) (k : ℕ) (hk : k < n) :
    Host.reduceWindow IntOp.addi ![n] ![1] ![lo] ![0] x init h hu (Shape.Idx.ofFin ⟨k, hk⟩) = BitVec.ofNat 32 (c k) := by
  have hv : IntOp.addi (init (Shape.Idx.first hu)) (init (Shape.Idx.first hu)) = init (Shape.Idx.first hu) := by
    rw [hi]; rfl
  induction k with
  | zero =>
    rw [reduceWindow_zero _ n lo hlo x init h hu hv hk, hx, hi, c0]
    split <;> rfl
  | succ k ih =>
    rw [reduceWindow_succ _ n lo hlo x init h hu hv k hk, ih, hx, cs, BitVec.ofNat_add]
    unfold IntOp.addi
    split <;> rfl

include hlo hn in
/-- The running maximum: where the operand holds its own position at the positions satisfying `P` and zero
    elsewhere, element `k` of the padded full-length window signed maximum from the least word is `s k`, the
    greatest position up to `k` satisfying `P` (zero when there is none). -/
theorem cummax_eq (hx : ∀ k (hk : k < n), x (Shape.Idx.ofFin ⟨k, hk⟩) = if P k then BitVec.ofNat 32 k else 0#32)
    (s : ℕ → ℕ) (s0 : s 0 = 0) (ss : ∀ k, s (k + 1) = max (s k) (if P (k + 1) then k + 1 else 0))
    {u : Shape} (init : u.Idx → BitVec 32)
    (h : (⟨1, ![n]⟩ : Shape).ReduceWindows (![n] : Fin 1 → ℕ) ![1] ![lo] ![0] ⟨1, ![n]⟩) (hu : 0 < u.numel)
    (hi : init (Shape.Idx.first hu) = 2147483648#32) (k : ℕ) (hk : k < n) :
    Host.reduceWindow IntOp.maxsi ![n] ![1] ![lo] ![0] x init h hu (Shape.Idx.ofFin ⟨k, hk⟩) = BitVec.ofNat 32 (s k) := by
  have hv : IntOp.maxsi (init (Shape.Idx.first hu)) (init (Shape.Idx.first hu)) = init (Shape.Idx.first hu) := by
    rw [hi]; decide
  have hs : ∀ k, s k ≤ k := by
    intro k
    induction k with
    | zero => exact le_of_eq s0
    | succ k ih => rw [ss]; split <;> omega
  induction k with
  | zero =>
    rw [reduceWindow_zero _ n lo hlo x init h hu hv hk, hx, hi, s0, ite_self]
    exact maxsi_intMin_ofNat 0 (by omega)
  | succ k ih =>
    rw [reduceWindow_succ _ n lo hlo x init h hu hv k hk, ih, hx, ss]
    have := hs k
    split
    · exact maxsi_ofNat (s k) (k + 1) (by omega) (by omega)
    · exact maxsi_ofNat (s k) 0 (by omega) (by omega)

end Words

end Cert.Scan
-- ==== Proof.Facts.lean ====
/-
  The stages of the specification, read at one position of the sorted order, as facts about natural
  numbers: which positions are valid, which start a run, how many runs have started, where the current
  run started, the rank inside the run, and which positions are kept.
-/
import proofs.«420773_j40235253629492_3_alg».proof.Proof.Spec
import proofs.«420773_j40235253629492_3_alg».proof.Proof.Runs
import proofs.«420773_j40235253629492_3_alg».proof.Proof.ScanOps
import Idealize.ShloMosaic.Lib.ValueIdx
import Idealize.ShloMosaic.Lib.IdealHost
import Idealize.ShloMosaic.Lib.Affine
import Idealize.ShloMosaic.Lib.Pipeline.Value

noncomputable section

namespace Cert.Facts

open Cert.Spec Cert.Runs Idealize.ShloMosaic ValueIdx

/-! ## Words and bits -/

/-- A bit is `1` exactly when `P` holds: then it is the indicator of `P`. -/
theorem bit_ite {c : BitVec 1} {P : Prop} [Decidable P] (h : c = 1#1 ↔ P) :
    c = if P then 1#1 else 0#1 := by
  by_cases hP : P
  · rw [if_pos hP]; exact h.2 hP
  · rw [if_neg hP]; exact eq_zero_of_ne_one fun hc => hP (h.1 hc)

/-- The indicator of `P` is `1` exactly when `P` holds. -/
theorem ite_bit_eq_one {P : Prop} [Decidable P] : (if P then 1#1 else 0#1 : BitVec 1) = 1#1 ↔ P := by
  by_cases hP : P
  · simp [hP]
  · simp [hP]

/-- The rank-1 index at a coordinate, in the two spellings. -/
theorem ofFin_eq_ix1 {n : ℕ} (k : Fin n) : Shape.Idx.ofFin k = ix1 k := by
  funext d
  match d with
  | ⟨0, _⟩ => rfl

/-- A natural below `2 ^ 31`, as a word read signed, is itself. -/
theorem toInt_ofNat (a : ℕ) (ha : a < 2 ^ 31) : (BitVec.ofNat 32 a).toInt = a :=
  Cert.Scan.toInt_ofNat_small a ha

/-- Subtraction of naturals is subtraction of their words when it does not go below zero. -/
theorem ofNat_sub (a b : ℕ) (h : b ≤ a) :
    BitVec.ofNat 32 a - BitVec.ofNat 32 b = BitVec.ofNat 32 (a - b) := by
  obtain ⟨d, rfl⟩ : ∃ d, a = d + b := ⟨a - b, by omega⟩
  rw [Nat.add_sub_cancel, BitVec.ofNat_add]
  exact BitVec.add_sub_cancel _ _

/-- The word of a count less one, read signed, is below `16000` exactly when the count is at most `16000`. -/
theorem pred_lt_iff (c : ℕ) (hc : c < 2 ^ 31) :
    (BitVec.ofNat 32 c - 1#32).toInt < 16000 ↔ c ≤ 16000 := by
  rcases Nat.eq_zero_or_pos c with h0 | hpos
  · subst h0
    constructor
    · intro _; omega
    · intro _; decide
  · have e : BitVec.ofNat 32 c - 1#32 = BitVec.ofNat 32 (c - 1) := ofNat_sub c 1 hpos
    rw [e, toInt_ofNat (c - 1) (by omega)]
    omega

variable (sh : IVec SN 32)

/-- The sorted hash at position `p` (zero past the end). -/
def wordAt (p : ℕ) : BitVec 32 := if hp : p < 4000000 then sh (ix1 ⟨p, hp⟩) else 0#32

/-- Position `p` is valid: inside the table and its hash, read signed, is below the sentinel. -/
def SVp (p : ℕ) : Prop := p < 4000000 ∧ (wordAt sh p).toInt < 65536

/-- Position `p` starts a run: it is valid and is the first position or its hash differs from the one before. -/
def NVp (p : ℕ) : Prop := SVp sh p ∧ (p = 0 ∨ wordAt sh p ≠ wordAt sh (p - 1))

instance : DecidablePred (SVp sh) := fun p =>
  inferInstanceAs (Decidable (p < 4000000 ∧ (wordAt sh p).toInt < 65536))

instance : DecidablePred (NVp sh) := fun p =>
  inferInstanceAs (Decidable (SVp sh p ∧ (p = 0 ∨ wordAt sh p ≠ wordAt sh (p - 1))))

/-- Being kept is decidable when the two predicates are. -/
instance keepDecidable (nv sv : ℕ → Prop) [DecidablePred nv] [DecidablePred sv] (M V p : ℕ) :
    Decidable (Runs.keep nv sv M V p) :=
  inferInstanceAs (Decidable (sv p ∧ p - st nv p < M ∧ cnt nv p ≤ V))

theorem wordAt_eq (p : ℕ) (hp : p < 4000000) : wordAt sh p = sh (ix1 ⟨p, hp⟩) := dif_pos hp

theorem ok : Ok (NVp sh) (SVp sh) 4000000 where
  nv_sv := fun p _ h => h.1
  sv_pred := fun p hp hs hn => by
    have hne : ¬ (p = 0 ∨ wordAt sh p ≠ wordAt sh (p - 1)) := fun h => hn ⟨hs, h⟩
    have h0 : p ≠ 0 := fun h => hne (Or.inl h)
    have he : wordAt sh p = wordAt sh (p - 1) := by
      by_contra h; exact hne (Or.inr h)
    refine ⟨Nat.pos_of_ne_zero h0, ?_, ?_⟩
    · omega
    · rw [← he]; exact hs.2

/-- The count of starts up to `p` is at most `p + 1`. -/
theorem cnt_le (nv : ℕ → Prop) [DecidablePred nv] (p : ℕ) : cnt nv p ≤ p + 1 := by
  unfold cnt
  exact (Finset.card_filter_le _ _).trans (le_of_eq (Finset.card_range _))

/-- A start at `p` is counted. -/
theorem one_le_cnt (nv : ℕ → Prop) [DecidablePred nv] (p : ℕ) (h : nv p) : 1 ≤ cnt nv p := by
  unfold cnt
  exact Finset.card_pos.2 ⟨p, Finset.mem_filter.2 ⟨Finset.mem_range.2 (Nat.lt_succ_self p), h⟩⟩

/-! ## The stages at a position -/

theorem svalid_one (p : ℕ) (hp : p < 4000000) : svalid sh (ix1 ⟨p, hp⟩) = 1#1 ↔ SVp sh p := by
  show IntOp.cmpi .slt (sh (ix1 ⟨p, hp⟩)) 65536#32 = 1#1 ↔ _
  rw [IntOp.cmpi_slt, show (65536#32 : BitVec 32).toInt = 65536 by decide]
  unfold SVp
  rw [wordAt_eq sh p hp]
  exact ⟨fun h => ⟨hp, h⟩, fun h => h.2⟩

theorem svalid_at (p : ℕ) (hp : p < 4000000) :
    svalid sh (ix1 ⟨p, hp⟩) = if SVp sh p then 1#1 else 0#1 :=
  bit_ite (svalid_one sh p hp)

/-- The marks "the hash changes here": one at position 0, elsewhere the comparison with the position before. -/
def marks : IVec SN 1 :=
  concatenate SN 0 [⟨S1, constantI S1 1 1#1⟩,
    ⟨SN', cmpi .ne (extractStridedSlice SN' ![1] sh sl_tail) (extractStridedSlice SN' ![0] sh sl_init)⟩] cat_first

theorem newv_eq : newv sh = andi (marks sh) (svalid sh) := rfl

theorem marks_zero (h0 : 0 < 4000000) : marks sh (ix1 ⟨0, h0⟩) = 1#1 := by
  unfold marks
  refine (concatenate_pair_apply_left (t := SN) (s₁ := S1) (s₂ := SN') (0 : Fin 1) _ _ cat_first _ rfl
    (ix1 ⟨0, Nat.one_pos⟩) ?_).trans rfl
  intro b
  match b with
  | ⟨0, _⟩ => rfl

theorem marks_succ (q : ℕ) (hq : q + 1 < 4000000) :
    marks sh (ix1 ⟨q + 1, hq⟩) =
      IntOp.cmpi .ne (sh (ix1 ⟨q + 1, hq⟩)) (sh (ix1 ⟨q, Nat.lt_of_succ_lt hq⟩)) := by
  have hq' : q < 3999999 := by omega
  unfold marks
  refine (concatenate_pair_apply_right (t := SN) (s₁ := S1) (s₂ := SN') (0 : Fin 1) _ _ cat_first _ rfl rfl
    (ix1 ⟨q, hq'⟩) ?_ ?_).trans ?_
  · intro b hb
    exact absurd (Subsingleton.elim _ _) hb
  · rfl
  · show IntOp.cmpi .ne (extractStridedSlice SN' ![1] sh sl_tail (ix1 ⟨q, hq'⟩))
        (extractStridedSlice SN' ![0] sh sl_init (ix1 ⟨q, hq'⟩)) = _
    rw [extractStridedSlice_apply ![1] sh sl_tail (ix1 ⟨q, hq'⟩) (ix1 ⟨q + 1, hq⟩)
        (fun a => match a with | ⟨0, _⟩ => Nat.add_comm q 1),
      extractStridedSlice_apply ![0] sh sl_init (ix1 ⟨q, hq'⟩) (ix1 ⟨q, Nat.lt_of_succ_lt hq⟩)
        (fun a => match a with | ⟨0, _⟩ => (Nat.zero_add q).symm)]

theorem newv_one (p : ℕ) (hp : p < 4000000) : newv sh (ix1 ⟨p, hp⟩) = 1#1 ↔ NVp sh p := by
  show IntOp.andi (marks sh (ix1 ⟨p, hp⟩)) (svalid sh (ix1 ⟨p, hp⟩)) = 1#1 ↔ _
  rw [IntOp.andi_eq_one, svalid_one]
  unfold NVp
  rcases Nat.eq_zero_or_pos p with h0 | hpos
  · subst h0
    rw [marks_zero]
    constructor
    · intro h; exact ⟨h.2, Or.inl rfl⟩
    · intro h; exact ⟨rfl, h.1⟩
  · obtain ⟨q, rfl⟩ : ∃ q, p = q + 1 := ⟨p - 1, by omega⟩
    rw [marks_succ sh q hp, IntOp.cmpi_ne, wordAt_eq sh (q + 1) hp]
    simp only [Nat.add_sub_cancel]
    rw [wordAt_eq sh q (Nat.lt_of_succ_lt hp)]
    constructor
    · rintro ⟨h1, h2⟩; exact ⟨h2, Or.inr h1⟩
    · rintro ⟨h2, h⟩
      rcases h with h | h
      · omega
      · exact ⟨h, h2⟩

theorem newv_at (p : ℕ) (hp : p < 4000000) :
    newv sh (ix1 ⟨p, hp⟩) = if NVp sh p then 1#1 else 0#1 :=
  bit_ite (newv_one sh p hp)

/-- The start marks widened to words: one at a start, zero elsewhere. -/
theorem newv_word (k : ℕ) (hk : k < 4000000) :
    extui 32 (newv sh) lt_1_32 (Shape.Idx.ofFin ⟨k, hk⟩) = if NVp sh k then 1#32 else 0#32 := by
  rw [ofFin_eq_ix1]
  show (newv sh (ix1 ⟨k, hk⟩)).setWidth 32 = _
  rw [newv_at]
  split <;> rfl

/-- The running sum of the start marks is the count of starts. -/
theorem csum_newv (p : ℕ) (hp : p < 4000000) :
    csum (extui 32 (newv sh) lt_1_32) (ix1 ⟨p, hp⟩) = BitVec.ofNat 32 (cnt (NVp sh) p) := by
  rw [← ofFin_eq_ix1]
  unfold csum
  exact Cert.Scan.cumsum_eq 4000000 3999999 rfl (by norm_num) _ (NVp sh) (newv_word sh)
    (cnt (NVp sh)) (cnt_zero _) (cnt_succ _) _ rw_scan pos_S_ rfl p hp

theorem vid_at (p : ℕ) (hp : p < 4000000) :
    vid sh (ix1 ⟨p, hp⟩) = BitVec.ofNat 32 (cnt (NVp sh) p) - 1#32 := by
  show IntOp.subi (csum (extui 32 (newv sh) lt_1_32) (ix1 ⟨p, hp⟩)) 1#32 = _
  rw [csum_newv]
  rfl

/-- A start's own position at the starts, zero elsewhere. -/
theorem start_word (k : ℕ) (hk : k < 4000000) :
    whereN (newv sh) pos 0#32 (Shape.Idx.ofFin ⟨k, hk⟩) = if NVp sh k then BitVec.ofNat 32 k else 0#32 := by
  rw [ofFin_eq_ix1]
  show (if newv sh (ix1 ⟨k, hk⟩) = 1#1 then BitVec.ofNat 32 k else 0#32) = _
  rw [newv_at]
  by_cases h : NVp sh k
  · rw [if_pos h, if_pos h, if_pos rfl]
  · rw [if_neg h, if_neg h, if_neg (show ¬ (0#1 : BitVec 1) = 1#1 by decide)]

theorem start_at (p : ℕ) (hp : p < 4000000) :
    start sh (ix1 ⟨p, hp⟩) = BitVec.ofNat 32 (st (NVp sh) p) := by
  rw [← ofFin_eq_ix1]
  unfold start cmax
  exact Cert.Scan.cummax_eq 4000000 3999999 rfl (by norm_num) _ (NVp sh) (start_word sh)
    (st (NVp sh)) (st_zero _) (st_succ _) _ rw_scan pos_S_ rfl p hp

theorem rank_at (p : ℕ) (hp : p < 4000000) :
    rank sh (ix1 ⟨p, hp⟩) = BitVec.ofNat 32 (p - st (NVp sh) p) := by
  show IntOp.subi (BitVec.ofNat 32 p) (start sh (ix1 ⟨p, hp⟩)) = _
  rw [start_at]
  exact ofNat_sub p _ (st_le _ p)

/-- A select against a scalar, at an index. -/
theorem whereN_apply (c : IVec SN 1) (a : IVec SN 32) (w : BitVec 32) (i : SN.Idx) :
    whereN c a w i = if c i = 1#1 then a i else w := rfl

theorem keep_one (p : ℕ) (hp : p < 4000000) :
    Spec.keep sh (ix1 ⟨p, hp⟩) = 1#1 ↔ Runs.keep (NVp sh) (SVp sh) 32 16000 p := by
  show IntOp.andi (IntOp.andi (svalid sh (ix1 ⟨p, hp⟩)) (IntOp.cmpi .slt (rank sh (ix1 ⟨p, hp⟩)) 32#32))
      (IntOp.cmpi .slt (vid sh (ix1 ⟨p, hp⟩)) 16000#32) = 1#1 ↔ _
  have hst := st_le (NVp sh) p
  have hcn := cnt_le (NVp sh) p
  rw [IntOp.andi_eq_one, IntOp.andi_eq_one, svalid_one, IntOp.cmpi_slt, IntOp.cmpi_slt, rank_at, vid_at,
    show (32#32 : BitVec 32).toInt = 32 by decide, show (16000#32 : BitVec 32).toInt = 16000 by decide,
    pred_lt_iff _ (by omega), toInt_ofNat _ (by omega)]
  unfold Runs.keep
  constructor
  · rintro ⟨⟨h1, h2⟩, h3⟩; exact ⟨h1, by omega, h3⟩
  · rintro ⟨h1, h2, h3⟩; exact ⟨⟨h1, by omega⟩, h3⟩

theorem keep_at (p : ℕ) (hp : p < 4000000) :
    Spec.keep sh (ix1 ⟨p, hp⟩) = if Runs.keep (NVp sh) (SVp sh) 32 16000 p then 1#1 else 0#1 :=
  bit_ite (keep_one sh p hp)

theorem vidS_at (p : ℕ) (hp : p < 4000000) :
    vidS sh (ix1 ⟨p, hp⟩) =
      if Runs.keep (NVp sh) (SVp sh) 32 16000 p then BitVec.ofNat 32 (cnt (NVp sh) p - 1) else 16000#32 := by
  unfold vidS
  rw [whereN_apply]
  by_cases hK : Runs.keep (NVp sh) (SVp sh) 32 16000 p
  · rw [if_pos ((keep_one sh p hp).2 hK), if_pos hK, vid_at]
    have h1 : 1 ≤ cnt (NVp sh) p := (start_of_sv (ok sh) hp (And.left hK)).2.2
    exact ofNat_sub _ 1 h1
  · rw [if_neg (fun h => hK ((keep_one sh p hp).1 h)), if_neg hK]

theorem rankS_at (p : ℕ) (hp : p < 4000000) :
    rankS sh (ix1 ⟨p, hp⟩) =
      if Runs.keep (NVp sh) (SVp sh) 32 16000 p then BitVec.ofNat 32 (p - st (NVp sh) p) else 0#32 := by
  unfold rankS
  rw [whereN_apply]
  by_cases hK : Runs.keep (NVp sh) (SVp sh) 32 16000 p
  · rw [if_pos ((keep_one sh p hp).2 hK), if_pos hK, rank_at]
  · rw [if_neg (fun h => hK ((keep_one sh p hp).1 h)), if_neg hK]

theorem cvid_at (p : ℕ) (hp : p < 4000000) :
    cvid sh (ix1 ⟨p, hp⟩) =
      if NVp sh p ∧ cnt (NVp sh) p ≤ 16000 then BitVec.ofNat 32 (cnt (NVp sh) p - 1) else 16000#32 := by
  have hcn := cnt_le (NVp sh) p
  have hc : andi (newv sh) (cmpi .slt (vid sh) (allN 16000#32)) (ix1 ⟨p, hp⟩) = 1#1 ↔
      NVp sh p ∧ cnt (NVp sh) p ≤ 16000 := by
    show IntOp.andi (newv sh (ix1 ⟨p, hp⟩)) (IntOp.cmpi .slt (vid sh (ix1 ⟨p, hp⟩)) 16000#32) = 1#1 ↔ _
    rw [IntOp.andi_eq_one, newv_one, IntOp.cmpi_slt, vid_at,
      show (16000#32 : BitVec 32).toInt = 16000 by decide, pred_lt_iff _ (by omega)]
  unfold cvid
  rw [whereN_apply]
  by_cases h : NVp sh p ∧ cnt (NVp sh) p ≤ 16000
  · rw [if_pos (hc.2 h), if_pos h, vid_at]
    exact ofNat_sub _ 1 (one_le_cnt _ p h.1)
  · rw [if_neg (fun h' => h (hc.1 h')), if_neg h]

theorem normN_of_nonneg (x : IVec SN 32) (k : BitVec 32) (i : SN.Idx) (h : 0 ≤ (x i).toInt) :
    normN x k i = x i := by
  show (if IntOp.cmpi .slt (x i) 0#32 = 1#1 then IntOp.addi (x i) k else x i) = x i
  rw [if_neg]
  rw [IntOp.cmpi_slt, show (0#32 : BitVec 32).toInt = 0 by decide]
  omega

end Cert.Facts

end
-- ==== Proof.LibGatherScatter.lean ====
/-
  Reading a gather and an accumulating scatter over the FIRST axis at one element.

  * `gather_rows`: rows of an [N × D] matrix taken at an [n × 1] column of start positions; result element (p, q) is the
    matrix at (the start position of p, read signed and clamped into [0, N - 1]; q).
  * `scatterAdd_vec`: updates of length n accumulated into a vector of length N at an [n × 1] column of start positions;
    element c is its old value plus the sum of the updates whose start position, read signed, equals c. A start position
    outside [0, N - 1] equals no c, so its update is dropped.
  * `scatterAdd_rows`: the same for [n × D] row updates accumulated into an [N × D] matrix; element (c, j) gathers the
    updates (e, j) over the rows e whose start position is c.

  All three are generic in the sizes and in the dimension-number record; the record's fields enter as hypotheses.
-/
import Idealize.ShloMosaic.PureOps.Ideal
import Idealize.ShloMosaic.Lib.ValueIdx

namespace Cert.LibGatherScatter

open Idealize.ShloMosaic Idealize.ShloMosaic.ValueIdx

/-- Equal lists read at equal positions give equal entries. -/
theorem getElem_congr' {α : Type} {l l' : List α} (hl : l = l') {k k' : Nat} (hk : k = k') (h : k < l.length) :
    l[k]'h = l'[k']'(by subst hl; subst hk; exact h) := by subst hl; subst hk; rfl

/-! ## The gather of rows -/

/-- rows of a matrix taken at a column of start indices: result (p, q) is the operand at (start index of p, read signed and clamped into [0, N-1]; q). -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (p : Fin n) (q : Fin D) (hN : 0 < N) :
    Host.gather d x idx (ix2 p q) = x (ix2 ⟨min (idx (ix2 p (0 : Fin 1))).toInt.toNat (N - 1), by omega⟩ q) := by
  unfold Host.gather
  congr 1
  have hsk : d.sKept = [1] := by
    show Shape.kept _ (d.collapsedSliceDims ++ d.operandBatchingDims) = [1]
    rw [hcoll, hob]; rfl
  have hbd : d.batchDims = [0] := by
    show Shape.kept _ d.offsetDims = [0]
    rw [hoff]; rfl
  have hsik : d.siKept = [0] := by
    show (List.finRange _).filter (·.val ≠ d.indexVectorDim) = [0]
    rw [hivd]; rfl
  have h0 : (d.operandIdx (ix2 p q) idx (0 : Fin 2)).val = min (idx (ix2 p (0 : Fin 1))).toInt.toNat (N - 1) := by
    have hb : (0 : Fin 2) ∉ d.operandBatchingDims := by rw [hob]; exact List.not_mem_nil
    have hk : (0 : Fin 2) ∉ d.sKept := by rw [hsk]; simp
    have hm : (0 : Fin 2) ∈ d.startIndexMap := by rw [hsim]; exact List.mem_singleton.mpr rfl
    have hsl : d.sliceSizes 0 = 1 := by rw [hss]; rfl
    simp only [GatherDims.operandIdx, GatherDims.batchCoord_eq_zero _ _ _ hb, GatherDims.offCoord_eq_zero _ _ _ hk,
      Nat.add_zero, GatherDims.start, dif_pos hm]
    show min (idx _).toInt.toNat (N - d.sliceSizes 0) = min (idx (ix2 p (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have e : ∀ X : Fin 2, X = 0 → ((ix2 p q : (⟨2, ![n, D]⟩ : Shape).Idx) X).val = p.val := fun X hX => by
        subst hX; rfl
      apply e
      rw [getElem_congr' hbd (show List.idxOf _ d.siKept = 0 by rw [hsik]; rfl)]
      rfl
    | ⟨1, _⟩ =>
      unfold GatherDims.siIdx
      rw [dif_pos (by rw [hivd])]
      apply Fin.ext
      show List.idxOf (0 : Fin 2) d.startIndexMap = 0
      rw [hsim]; simp
  have h1 : (d.operandIdx (ix2 p q) idx (1 : Fin 2)).val = q.val := by
    have hb : (1 : Fin 2) ∉ d.operandBatchingDims := by rw [hob]; exact List.not_mem_nil
    have hk : (1 : Fin 2) ∈ d.sKept := by rw [hsk]; simp
    have hm : (1 : Fin 2) ∉ d.startIndexMap := by rw [hsim]; simp
    simp only [GatherDims.operandIdx, GatherDims.batchCoord_eq_zero _ _ _ hb,
      Nat.add_zero, GatherDims.start, dif_neg hm, GatherDims.offCoord, dif_pos hk, Nat.zero_add]
    have e : ∀ X : Fin 2, X = 1 → ((ix2 p q : (⟨2, ![n, D]⟩ : Shape).Idx) X).val = q.val := fun X hX => by
      subst hX; rfl
    apply e
    rw [getElem_congr' hoff (show List.idxOf _ d.sKept = 0 by rw [hsk]; rfl)]
    rfl
  funext a
  apply Fin.ext
  match a with
  | ⟨0, _⟩ => exact h0
  | ⟨1, _⟩ => exact h1

/-! ## The accumulating scatters -/

/-- An update lands on operand element i exactly when, on every axis, start plus window coordinate is i's coordinate. -/
theorem resultIdx?_eq_some_iff {s si u : Shape} {w : Nat} (d : ScatterDims s si u) (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro heq a
      have hf := congrFun (Option.some.inj heq) a
      have hv := congrArg Fin.val hf
      simp only at hv
      have := (h a).1
      omega
    · intro hall
      congr 1
      funext a
      apply Fin.ext
      show (d.start j idx a + (d.window j a : ℤ)).toNat = (i a).val
      rw [hall a]; exact Int.toNat_natCast _
  · rename_i h
    constructor
    · intro heq; cases heq
    · intro hall
      exfalso; apply h
      intro a
      rw [hall a]
      exact ⟨Int.natCast_nonneg _, by exact_mod_cast (i a).isLt⟩

/-- Updates of a vector indexed by one column of start positions: update e lands on element c exactly when its start position, read signed, is c. -/
theorem resultIdx?_vec {N n w : Nat} (d : ScatterDims ⟨1, ![N]⟩ ⟨2, ![n, 1]⟩ ⟨1, ![n]⟩)
    (huw : d.updateWindowDims = []) (hins : d.insertedWindowDims = [0]) (hsd : d.scatterDimsToOperandDims = [0]) (hivd : d.indexVectorDim = 1)
    (idx : IVec ⟨2, ![n, 1]⟩ w) (e : Fin n) (c : Fin N) :
    d.resultIdx? (ix1 e) idx = some (ix1 c) ↔ (idx (ix2 e (0 : Fin 1))).toInt = (c.val : ℤ) := by
  rw [resultIdx?_eq_some_iff]
  have hsk : d.sKept = [] := by show Shape.kept _ d.insertedWindowDims = []; rw [hins]; rfl
  have hm : (0 : Fin 1) ∈ d.scatterDimsToOperandDims := by rw [hsd]; exact List.mem_singleton.mpr rfl
  have hk : (0 : Fin 1) ∉ d.sKept := by rw [hsk]; exact List.not_mem_nil
  have hst : d.start (ix1 e) idx (0 : Fin 1) = (idx (ix2 e (0 : Fin 1))).toInt := by
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have ee : ∀ X : Fin 1, ((ix1 e : (⟨1, ![n]⟩ : Shape).Idx) X).val = e.val := fun X => by
        have hX : X = 0 := Subsingleton.elim _ _
        subst hX; rfl
      exact ee _
    | ⟨1, _⟩ =>
      unfold ScatterDims.siIdx
      rw [dif_pos (by rw [hivd])]
      apply Fin.ext
      show List.idxOf (0 : Fin 1) d.scatterDimsToOperandDims = 0
      rw [hsd]; simp
  have hw : d.window (ix1 e) (0 : Fin 1) = 0 := by
    unfold ScatterDims.window; rw [dif_neg hk]
  constructor
  · intro h
    have h0 : d.start (ix1 e) idx 0 + (d.window (ix1 e) 0 : ℤ) = (c.val : ℤ) := h 0
    rw [hst, hw] at h0
    simpa using h0
  · intro h a
    have ha : a = 0 := Subsingleton.elim _ _
    subst ha
    show d.start (ix1 e) idx 0 + (d.window (ix1 e) 0 : ℤ) = (c.val : ℤ)
    rw [hst, hw, h]
    simp

/-- the accumulating scatter into a vector: element c is what was there plus the sum of the updates whose start index, read signed, is c. -/
theorem scatterAdd_vec {N n w : Nat} (d : ScatterDims ⟨1, ![N]⟩ ⟨2, ![n, 1]⟩ ⟨1, ![n]⟩)
    (huw : d.updateWindowDims = []) (hins : d.insertedWindowDims = [0]) (hsd : d.scatterDimsToOperandDims = [0]) (hivd : d.indexVectorDim = 1)
    (x : FVec Ideal ⟨1, ![N]⟩ .f32) (idx : IVec ⟨2, ![n, 1]⟩ w) (u : FVec Ideal ⟨1, ![n]⟩ .f32) (c : Fin N) :
    Host.scatterAdd d x idx u (ix1 c)
      = x (ix1 c) + ∑ e ∈ Finset.univ.filter (fun e : Fin n => (idx (ix2 e (0 : Fin 1))).toInt = (c.val : ℤ)), u (ix1 e) := by
  show Ideal.hostScatterAdd d x idx u (ix1 c) = _
  unfold Ideal.hostScatterAdd
  congr 1
  refine Finset.sum_bij' (fun jj _ => (jj 0 : Fin n)) (fun e _ => ix1 e) ?_ ?_ ?_ ?_ ?_
  · intro jj hjj
    have h2 := (Finset.mem_filter.1 hjj).2
    rw [eq_ix1 jj] at h2
    exact Finset.mem_filter.2 ⟨Finset.mem_univ _, (resultIdx?_vec d huw hins hsd hivd idx _ c).1 h2⟩
  · intro e he
    exact Finset.mem_filter.2 ⟨Finset.mem_univ _, (resultIdx?_vec d huw hins hsd hivd idx e c).2 (Finset.mem_filter.1 he).2⟩
  · intro jj _; exact (eq_ix1 jj).symm
  · intro e _; rfl
  · intro jj _; exact congrArg u (eq_ix1 jj)

/-- Row updates of a matrix indexed by one column of start rows: update element (e, j') lands on element (c, j) exactly when row e's start, read signed, is c and the columns agree. -/
theorem resultIdx?_rows {N D n w : Nat} (d : ScatterDims ⟨2, ![N, D]⟩ ⟨2, ![n, 1]⟩ ⟨2, ![n, D]⟩)
    (huw : d.updateWindowDims = [1]) (hins : d.insertedWindowDims = [0]) (hsd : d.scatterDimsToOperandDims = [0]) (hivd : d.indexVectorDim = 1)
    (idx : IVec ⟨2, ![n, 1]⟩ w) (e : Fin n) (j' : Fin D) (c : Fin N) (j : Fin D) :
    d.resultIdx? (ix2 e j') idx = some (ix2 c j) ↔ (idx (ix2 e (0 : Fin 1))).toInt = (c.val : ℤ) ∧ j' = j := by
  rw [resultIdx?_eq_some_iff]
  have hsk : d.sKept = [1] := by show Shape.kept _ d.insertedWindowDims = [1]; rw [hins]; rfl
  have hus : d.uScatter = [0] := by show Shape.kept _ d.updateWindowDims = [0]; rw [huw]; rfl
  have hsik : d.siKept = [0] := by show (List.finRange _).filter (·.val ≠ d.indexVectorDim) = [0]; rw [hivd]; rfl
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [hsk]; simp
  have hk1 : (1 : Fin 2) ∈ d.sKept := by rw [hsk]; simp
  have hst0 : d.start (ix2 e j') idx (0 : Fin 2) = (idx (ix2 e (0 : Fin 1))).toInt := by
    unfold ScatterDims.start
    rw [dif_pos hm0]
    congr 2
    funext b
    match b with
    | ⟨0, _⟩ =>
      unfold ScatterDims.siIdx
      rw [dif_neg (by rw [hivd]; simp)]
      unfold ScatterDims.siCoord
      apply Fin.ext
      simp only [Fin.val_cast]
      have ee : ∀ X : Fin 2, X = 0 → ((ix2 e j' : (⟨2, ![n, D]⟩ : Shape).Idx) X).val = e.val := fun X hX => by
        subst hX; rfl
      apply ee
      rw [getElem_congr' hus (show List.idxOf _ d.siKept = 0 by rw [hsik]; rfl)]
      rfl
    | ⟨1, _⟩ =>
      unfold ScatterDims.siIdx
      rw [dif_pos (by rw [hivd])]
      apply Fin.ext
      show List.idxOf (0 : Fin 2) d.scatterDimsToOperandDims = 0
      rw [hsd]; simp
  have hst1 : d.start (ix2 e j') idx (1 : Fin 2) = 0 := by
    unfold ScatterDims.start; rw [dif_neg hm1]
  have hw0 : d.window (ix2 e j') (0 : Fin 2) = 0 := by
    unfold ScatterDims.window; rw [dif_neg hk0]
  have hw1 : d.window (ix2 e j') (1 : Fin 2) = j'.val := by
    unfold ScatterDims.window; rw [dif_pos hk1]
    have ee : ∀ X : Fin 2, X = 1 → ((ix2 e j' : (⟨2, ![n, D]⟩ : Shape).Idx) X).val = j'.val := fun X hX => by
      subst hX; rfl
    apply ee
    rw [getElem_congr' huw (show List.idxOf _ d.sKept = 0 by rw [hsk]; rfl)]
    rfl
  constructor
  · intro h
    have h0 : d.start (ix2 e j') idx 0 + (d.window (ix2 e j') 0 : ℤ) = (c.val : ℤ) := h 0
    have h1 : d.start (ix2 e j') idx 1 + (d.window (ix2 e j') 1 : ℤ) = (j.val : ℤ) := h 1
    rw [hst0, hw0] at h0
    rw [hst1, hw1] at h1
    exact ⟨by simpa using h0, Fin.ext (by omega)⟩
  · rintro ⟨h, rfl⟩ a
    match a with
    | ⟨0, _⟩ =>
      show d.start (ix2 e j') idx 0 + (d.window (ix2 e j') 0 : ℤ) = (c.val : ℤ)
      rw [hst0, hw0, h]; simp
    | ⟨1, _⟩ =>
      show d.start (ix2 e j') idx 1 + (d.window (ix2 e j') 1 : ℤ) = (j'.val : ℤ)
      rw [hst1, hw1]; simp

/-- the accumulating scatter of rows into a matrix: element (c, j) is what was there plus the sum over the rows e whose start index, read signed, is c of the update at (e, j). -/
theorem scatterAdd_rows {N D n w : Nat} (d : ScatterDims ⟨2, ![N, D]⟩ ⟨2, ![n, 1]⟩ ⟨2, ![n, D]⟩)
    (huw : d.updateWindowDims = [1]) (hins : d.insertedWindowDims = [0]) (hsd : d.scatterDimsToOperandDims = [0]) (hivd : d.indexVectorDim = 1)
    (x : FVec Ideal ⟨2, ![N, D]⟩ .f32) (idx : IVec ⟨2, ![n, 1]⟩ w) (u : FVec Ideal ⟨2, ![n, D]⟩ .f32) (c : Fin N) (j : Fin D) :
    Host.scatterAdd d x idx u (ix2 c j)
      = x (ix2 c j) + ∑ e ∈ Finset.univ.filter (fun e : Fin n => (idx (ix2 e (0 : Fin 1))).toInt = (c.val : ℤ)), u (ix2 e j) := by
  show Ideal.hostScatterAdd d x idx u (ix2 c j) = _
  unfold Ideal.hostScatterAdd
  congr 1
  have key : ∀ jj : (⟨2, ![n, D]⟩ : Shape).Idx, d.resultIdx? jj idx = some (ix2 c j) →
      (idx (ix2 (jj 0 : Fin n) (0 : Fin 1))).toInt = (c.val : ℤ) ∧ (jj 1 : Fin D) = j := fun jj h => by
    rw [eq_ix2 jj] at h
    exact (resultIdx?_rows d huw hins hsd hivd idx _ _ c j).1 h
  refine Finset.sum_bij' (fun jj _ => (jj 0 : Fin n)) (fun e _ => ix2 e j) ?_ ?_ ?_ ?_ ?_
  · intro jj hjj
    exact Finset.mem_filter.2 ⟨Finset.mem_univ _, (key jj (Finset.mem_filter.1 hjj).2).1⟩
  · intro e he
    exact Finset.mem_filter.2 ⟨Finset.mem_univ _,
      (resultIdx?_rows d huw hins hsd hivd idx e j c j).2 ⟨(Finset.mem_filter.1 he).2, rfl⟩⟩
  · intro jj hjj
    have h2 := (key jj (Finset.mem_filter.1 hjj).2).2
    rw [eq_ix2 jj]
    exact congrArg (fun t => ix2 (jj 0 : Fin n) t) h2.symm
  · intro e _; rfl
  · intro jj hjj
    have h2 := (key jj (Finset.mem_filter.1 hjj).2).2
    show u jj = u (ix2 (jj 0 : Fin n) j)
    rw [← h2]
    exact congrArg u (eq_ix2 jj)

end Cert.LibGatherScatter
-- ==== Proof.IdxMaps.lean ====
import proofs.«420773_j40235253629492_3_alg».proof.Proof.Spec
import proofs.«420773_j40235253629492_3_alg».proof.Proof.LibGatherScatter
import Idealize.ShloMosaic.Lib.ValueIdx

/-!
  Where each scatter of the specification lands and what each of its gathers reads.

  Every scatter here is indexed by the FIRST axis (and, for the slot table, the first two axes) of its
  operand: an update element lands on the operand element whose scattered coordinates are the update row's
  start indices, read signed, and whose window coordinate is the update's own. Every gather here reads
  along the FIRST axis of its operand: a result element reads the operand at its start index, read signed
  and clamped into the operand, and at its own window coordinate.
-/

namespace Cert.IdxMaps

open Cert.Spec Idealize.ShloMosaic ValueIdx

/-! ## Where the scatters land -/

theorem scatVec_lands (idx : IVec SNx1 32) (e : Fin 4000000) (c : Fin 16001) :
    scatVec.resultIdx? (ix1 e) idx = some (ix1 c) ↔ (idx (ix2 e (0 : Fin 1))).toInt = (c.val : ℤ) := by
  exact Cert.LibGatherScatter.resultIdx?_vec scatVec rfl rfl rfl rfl idx e c

theorem scatRows3_lands (idx : IVec SNx1 32) (e : Fin 4000000) (k' : Fin 3) (c : Fin 16001) (k : Fin 3) :
    scatRows3.resultIdx? (ix2 e k') idx = some (ix2 c k)
      ↔ (idx (ix2 e (0 : Fin 1))).toInt = (c.val : ℤ) ∧ k' = k := by
  exact Cert.LibGatherScatter.resultIdx?_rows scatRows3 rfl rfl rfl rfl idx e k' c k

theorem scatSlots_lands (idx : IVec SNx2 32) (e : Fin 4000000) (k' : Fin 4) (c : Fin 16001) (r : Fin 32)
    (k : Fin 4) :
    scatSlots.resultIdx? (ix2 e k') idx = some (ix3 c r k)
      ↔ (idx (ix2 e (0 : Fin 2))).toInt = (c.val : ℤ) ∧ (idx (ix2 e (1 : Fin 2))).toInt = (r.val : ℤ)
        ∧ k' = k := by
  rw [Cert.LibGatherScatter.resultIdx?_eq_some_iff]
  have hsi : ∀ (q : Fin scatSlots.scatterDimsToOperandDims.length) (q' : Fin 2), q.val = q'.val →
      scatSlots.siIdx (ix2 e k') q = ix2 e q' := by
    intro q q' hq
    funext b
    apply Fin.ext
    match b with
    | ⟨0, _⟩ => rfl
    | ⟨1, _⟩ => exact hq
  have hm0 : (0 : Fin 3) ∈ scatSlots.scatterDimsToOperandDims := by decide
  have hm1 : (1 : Fin 3) ∈ scatSlots.scatterDimsToOperandDims := by decide
  have hm2 : (2 : Fin 3) ∉ scatSlots.scatterDimsToOperandDims := by decide
  have hk0 : (0 : Fin 3) ∉ scatSlots.sKept := by decide
  have hk1 : (1 : Fin 3) ∉ scatSlots.sKept := by decide
  have hk2 : (2 : Fin 3) ∈ scatSlots.sKept := by decide
  have hst0 : scatSlots.start (ix2 e k') idx (0 : Fin 3) = (idx (ix2 e (0 : Fin 2))).toInt := by
    unfold ScatterDims.start
    rw [dif_pos hm0]
    rw [hsi ⟨List.idxOf (0 : Fin 3) scatSlots.scatterDimsToOperandDims, List.idxOf_lt_length_iff.2 hm0⟩
      (0 : Fin 2) rfl]
  have hst1 : scatSlots.start (ix2 e k') idx (1 : Fin 3) = (idx (ix2 e (1 : Fin 2))).toInt := by
    unfold ScatterDims.start
    rw [dif_pos hm1]
    rw [hsi ⟨List.idxOf (1 : Fin 3) scatSlots.scatterDimsToOperandDims, List.idxOf_lt_length_iff.2 hm1⟩
      (1 : Fin 2) rfl]
  have hst2 : scatSlots.start (ix2 e k') idx (2 : Fin 3) = 0 := by
    unfold ScatterDims.start
    rw [dif_neg hm2]
  have hw0 : scatSlots.window (ix2 e k') (0 : Fin 3) = 0 := by
    unfold ScatterDims.window
    rw [dif_neg hk0]
  have hw1 : scatSlots.window (ix2 e k') (1 : Fin 3) = 0 := by
    unfold ScatterDims.window
    rw [dif_neg hk1]
  have hw2 : scatSlots.window (ix2 e k') (2 : Fin 3) = k'.val := by
    unfold ScatterDims.window
    rw [dif_pos hk2]
    rfl
  constructor
  · intro h
    have h0 : scatSlots.start (ix2 e k') idx 0 + (scatSlots.window (ix2 e k') 0 : ℤ) = (c.val : ℤ) := h 0
    have h1 : scatSlots.start (ix2 e k') idx 1 + (scatSlots.window (ix2 e k') 1 : ℤ) = (r.val : ℤ) := h 1
    have h2 : scatSlots.start (ix2 e k') idx 2 + (scatSlots.window (ix2 e k') 2 : ℤ) = (k.val : ℤ) := h 2
    rw [hst0, hw0] at h0
    rw [hst1, hw1] at h1
    rw [hst2, hw2] at h2
    exact ⟨by simpa using h0, by simpa using h1, Fin.ext (by omega)⟩
  · rintro ⟨h0, h1, rfl⟩ a
    match a with
    | ⟨0, _⟩ =>
      show scatSlots.start (ix2 e k') idx 0 + (scatSlots.window (ix2 e k') 0 : ℤ) = (c.val : ℤ)
      rw [hst0, hw0, h0]
      simp
    | ⟨1, _⟩ =>
      show scatSlots.start (ix2 e k') idx 1 + (scatSlots.window (ix2 e k') 1 : ℤ) = (r.val : ℤ)
      rw [hst1, hw1, h1]
      simp
    | ⟨2, _⟩ =>
      show scatSlots.start (ix2 e k') idx 2 + (scatSlots.window (ix2 e k') 2 : ℤ) = (k'.val : ℤ)
      rw [hst2, hw2]
      simp

/-! ## What the gathers read -/

theorem gathVec_apply {α : Type} (x : SN.Idx → α) (idx : IVec SNx1 32) (p : Fin 4000000) :
    Host.gather gathVec x idx (ix1 p)
      = x (ix1 ⟨min (idx (ix2 p (0 : Fin 1))).toInt.toNat 3999999, by omega⟩) := by
  unfold Host.gather
  congr 1
  funext a
  obtain rfl : a = 0 := Subsingleton.elim _ _
  apply Fin.ext
  show gathVec.start (ix1 p) idx 0 + gathVec.batchCoord (ix1 p) 0 + gathVec.offCoord (ix1 p) 0 = _
  have hb : gathVec.batchCoord (ix1 p) (0 : Fin 1) = 0 :=
    GatherDims.batchCoord_eq_zero _ _ _ List.not_mem_nil
  have ho : gathVec.offCoord (ix1 p) (0 : Fin 1) = 0 := GatherDims.offCoord_eq_zero _ _ _ (by decide)
  have hm : (0 : Fin 1) ∈ gathVec.startIndexMap := List.mem_singleton.mpr rfl
  have hsi : ∀ c : Fin gathVec.startIndexMap.length, gathVec.siIdx (ix1 p) c = ix2 p (0 : Fin 1) := by
    intro c
    have hc : c.val = 0 := by have := c.isLt; change c.val < 1 at this; omega
    funext b
    apply Fin.ext
    match b with
    | ⟨0, _⟩ => rfl
    | ⟨1, _⟩ => exact hc
  rw [hb, ho]
  show gathVec.start (ix1 p) idx 0 = _
  unfold GatherDims.start
  rw [dif_pos hm, hsi]
  rfl

theorem gathRows3_apply {α : Type} (x : SNx3.Idx → α) (idx : IVec SNx1 32) (p : Fin 4000000) (k : Fin 3) :
    Host.gather gathRows3 x idx (ix2 p k)
      = x (ix2 ⟨min (idx (ix2 p (0 : Fin 1))).toInt.toNat 3999999, by omega⟩ k) := by
  exact Cert.LibGatherScatter.gather_rows gathRows3 rfl rfl rfl rfl rfl rfl x idx p k (by decide)

theorem gathRows4_apply {α : Type} (x : SNx4.Idx → α) (idx : IVec SNx1 32) (p : Fin 4000000) (k : Fin 4) :
    Host.gather gathRows4 x idx (ix2 p k)
      = x (ix2 ⟨min (idx (ix2 p (0 : Fin 1))).toInt.toNat 3999999, by omega⟩ k) := by
  exact Cert.LibGatherScatter.gather_rows gathRows4 rfl rfl rfl rfl rfl rfl x idx p k (by decide)

theorem gathSlotVec_apply {α : Type} (x : SN.Idx → α) (idx : IVec SVxMx1 32) (v : Fin 16000) (r : Fin 32) :
    Host.gather gathSlotVec x idx (ix2 v r)
      = x (ix1 ⟨min (idx (ix3 v r (0 : Fin 1))).toInt.toNat 3999999, by omega⟩) := by
  have hix : takeIdx (ix2 v r) = ix3 v r (0 : Fin 1) := by
    funext b
    apply Fin.ext
    match b with
    | ⟨0, _⟩ => rfl
    | ⟨1, _⟩ => rfl
    | ⟨2, _⟩ => rfl
  refine (gather_take_apply (N := 4000000) (by decide) gathSlotVec.wf x idx (ix2 v r)).trans ?_
  congr 2
  apply Fin.ext
  show min (idx (takeIdx (ix2 v r))).toInt.toNat (4000000 - 1) = min (idx (ix3 v r (0 : Fin 1))).toInt.toNat 3999999
  rw [hix]

theorem gathSlotRows_apply {α : Type} (x : SNx4.Idx → α) (idx : IVec SVxMx1 32) (v : Fin 16000) (r : Fin 32)
    (k : Fin 4) :
    Host.gather gathSlotRows x idx (ix3 v r k)
      = x (ix2 ⟨min (idx (ix3 v r (0 : Fin 1))).toInt.toNat 3999999, by omega⟩ k) := by
  unfold Host.gather
  congr 1
  have hsi : ∀ q : Fin gathSlotRows.startIndexMap.length,
      gathSlotRows.siIdx (ix3 v r k) q = ix3 v r (0 : Fin 1) := by
    intro q
    have hq : q.val = 0 := by have := q.isLt; change q.val < 1 at this; omega
    funext b
    apply Fin.ext
    match b with
    | ⟨0, _⟩ => rfl
    | ⟨1, _⟩ => rfl
    | ⟨2, _⟩ => exact hq
  funext a
  apply Fin.ext
  match a with
  | ⟨0, _⟩ =>
    have hb : gathSlotRows.batchCoord (ix3 v r k) (0 : Fin 2) = 0 :=
      GatherDims.batchCoord_eq_zero _ _ _ List.not_mem_nil
    have ho : gathSlotRows.offCoord (ix3 v r k) (0 : Fin 2) = 0 :=
      GatherDims.offCoord_eq_zero _ _ _ (by decide)
    have hm : (0 : Fin 2) ∈ gathSlotRows.startIndexMap := List.mem_singleton.mpr rfl
    show gathSlotRows.start (ix3 v r k) idx 0 + gathSlotRows.batchCoord (ix3 v r k) 0
      + gathSlotRows.offCoord (ix3 v r k) 0 = _
    rw [hb, ho]
    show gathSlotRows.start (ix3 v r k) idx 0 = _
    unfold GatherDims.start
    rw [dif_pos hm, hsi]
    rfl
  | ⟨1, _⟩ =>
    have hb : gathSlotRows.batchCoord (ix3 v r k) (1 : Fin 2) = 0 :=
      GatherDims.batchCoord_eq_zero _ _ _ List.not_mem_nil
    have hm : (1 : Fin 2) ∉ gathSlotRows.startIndexMap := by decide
    have hk : (1 : Fin 2) ∈ gathSlotRows.sKept := by decide
    have hs : gathSlotRows.start (ix3 v r k) idx (1 : Fin 2) = 0 := by
      unfold GatherDims.start
      rw [dif_neg hm]
    have ho : gathSlotRows.offCoord (ix3 v r k) (1 : Fin 2) = k.val := by
      unfold GatherDims.offCoord
      rw [dif_pos hk]
      rfl
    show gathSlotRows.start (ix3 v r k) idx 1 + gathSlotRows.batchCoord (ix3 v r k) 1
      + gathSlotRows.offCoord (ix3 v r k) 1 = k.val
    rw [hs, hb, ho]
    omega

end Cert.IdxMaps
-- ==== Proof.CellBounds.lean ====
import proofs.«420773_j40235253629492_3_alg».proof.Proof.Spec
import Idealize.ShloMosaic.Lib.ValueIdx

/-!
  The clipped cell coordinates are small, and the packed hash read at one position.

  A cell coordinate is `min top (max 0 w)` for a word `w`, signed, with `top` the row `(255, 255, 0)`:
  it lies between `0` and `top`, whatever `w` is; on the third axis it is the zero word. The packed
  hash at position `q` is the three coordinates of row `q` weighted by `256`, `1` and `1`.
-/

namespace Cert.CellBounds

open Cert.Spec Idealize.ShloMosaic ValueIdx

/-- The signed minimum of a non-negative `t` and the signed maximum of zero and any word lies between
    zero and `t`. -/
theorem minsi_maxsi_bounds (t w : BitVec 32) (ht : 0 ≤ t.toInt) :
    0 ≤ (IntOp.minsi t (IntOp.maxsi 0#32 w)).toInt
      ∧ (IntOp.minsi t (IntOp.maxsi 0#32 w)).toInt ≤ t.toInt := by
  have hm : 0 ≤ (IntOp.maxsi 0#32 w).toInt := by
    unfold IntOp.maxsi
    by_cases h : w.slt 0#32
    · rw [if_pos h]
      decide
    · rw [if_neg h]
      have h1 : ¬ w.toInt < (0#32).toInt := fun h' => h (BitVec.slt_iff_toInt_lt.2 h')
      have e0 : (0#32).toInt = 0 := by decide
      omega
  generalize IntOp.maxsi 0#32 w = m at hm ⊢
  unfold IntOp.minsi
  by_cases h : t.slt m
  · rw [if_pos h]
    exact ⟨ht, le_refl _⟩
  · rw [if_neg h]
    have h1 : ¬ t.toInt < m.toInt := fun h' => h (BitVec.slt_iff_toInt_lt.2 h')
    exact ⟨hm, by omega⟩

/-! ## The cells -/

/-- The row of tops broadcast down the rows reads its entry of the column. -/
theorem top_at (q : Fin 4000000) (k : Fin 3) :
    broadcastInDim SNx3 ![0, 1] b_3all (broadcastInDim S1x3 ![1] b_3row top3) (ix2 q k) = top3 (ix1 k) := by
  unfold broadcastInDim
  congr 1
  funext a
  obtain rfl : a = 0 := Subsingleton.elim _ _
  rfl

theorem top3_0 : top3 (ix1 (0 : Fin 3)) = 255#32 := rfl
theorem top3_1 : top3 (ix1 (1 : Fin 3)) = 255#32 := rfl
theorem top3_2 : top3 (ix1 (2 : Fin 3)) = 0#32 := rfl

/-- A cell coordinate is the clipping of some word. -/
theorem cells_at {F : FTy → Type} [FloatOps F] (pts : FVec F SNx4 .f32) (q : Fin 4000000) (k : Fin 3) :
    ∃ w : BitVec 32, cells pts (ix2 q k) = IntOp.minsi (top3 (ix1 k)) (IntOp.maxsi 0#32 w) := by
  refine ⟨fptosi 32 (Host.floor (Host.divf (subf (xyz pts) (rows3 lo3)) (rows3 vsz3))) (ix2 q k), ?_⟩
  unfold cells
  show IntOp.minsi (broadcastInDim SNx3 ![0, 1] b_3all (broadcastInDim S1x3 ![1] b_3row top3) (ix2 q k)) _ = _
  rw [top_at]
  rfl

theorem cells_bounds {F : FTy → Type} [FloatOps F] (pts : FVec F SNx4 .f32) (q : Fin 4000000) :
    (0 ≤ (cells pts (ix2 q 0)).toInt ∧ (cells pts (ix2 q 0)).toInt ≤ 255)
      ∧ (0 ≤ (cells pts (ix2 q 1)).toInt ∧ (cells pts (ix2 q 1)).toInt ≤ 255)
      ∧ cells pts (ix2 q 2) = 0#32 := by
  have e255 : (255#32).toInt = 255 := by decide
  have e0 : (0#32).toInt = 0 := by decide
  refine ⟨?_, ?_, ?_⟩
  · obtain ⟨w, hw⟩ := cells_at pts q 0
    rw [hw, top3_0]
    have h := minsi_maxsi_bounds 255#32 w (by decide)
    rw [e255] at h
    exact h
  · obtain ⟨w, hw⟩ := cells_at pts q 1
    rw [hw, top3_1]
    have h := minsi_maxsi_bounds 255#32 w (by decide)
    rw [e255] at h
    exact h
  · obtain ⟨w, hw⟩ := cells_at pts q 2
    rw [hw, top3_2]
    have h := minsi_maxsi_bounds 0#32 w (by decide)
    rw [e0] at h
    apply BitVec.eq_of_toInt_eq
    rw [e0]
    omega

/-! ## The packed hash -/

/-- Column `k` cut out of the table and flattened reads row `q`'s entry of the column. -/
theorem sliceCol_at (c : IVec SNx3 32) (k : Fin 3) (h : SNx3.Slices ![0, k.val] SNx1) (q : Fin 4000000) :
    shapeCast SN (extractStridedSlice SNx1 ![0, k.val] c h) sc_col (ix1 q) = c (ix2 q k) := by
  unfold shapeCast extractStridedSlice
  have hr : Shape.reshapeEquiv sc_col (ix1 q) = (ix2 q (0 : Fin 1) : SNx1.Idx) :=
    Shape.reshapeEquiv_eq_of_rowMajor _ (by
      rw [Shape.rowMajor_val_two, Shape.rowMajor_val_one]
      show q.val * 1 + 0 = q.val
      omega)
  rw [hr]
  congr 1
  funext a
  apply Fin.ext
  match a with
  | ⟨0, _⟩ =>
    show 0 + q.val = q.val
    omega
  | ⟨1, _⟩ =>
    show k.val + 0 = k.val
    rfl

theorem cellCol_at (c : IVec SNx3 32) (k : Fin 3) (q : Fin 4000000) : cellCol c k (ix1 q) = c (ix2 q k) := by
  match k with
  | 0 => exact sliceCol_at c 0 sl3_c0 q
  | 1 => exact sliceCol_at c 1 sl3_c1 q
  | 2 => exact sliceCol_at c 2 sl3_c2 q

theorem pack_at (c : IVec SNx3 32) (q : Fin 4000000) :
    pack c (ix1 q) = c (ix2 q 0) * 256#32 + c (ix2 q 1) * 1#32 + c (ix2 q 2) := by
  unfold pack
  show IntOp.addi (IntOp.addi (IntOp.muli (cellCol c 0 (ix1 q)) (allN 256#32 (ix1 q)))
    (IntOp.muli (cellCol c 1 (ix1 q)) (allN 1#32 (ix1 q)))) (cellCol c 2 (ix1 q)) = _
  rw [cellCol_at, cellCol_at, cellCol_at]
  rfl

end Cert.CellBounds
-- ==== Proof.SortDecode.lean ====
/-
  What the sort of the hashes returns, and what is read back through it.

  The sort carries the position word of every point along with its hash, so both outputs are the two
  operands read through ONE self-map π of the positions: the sorted hash at p is the hash at π p and the
  carried word at p is the word of π p. That word is non-negative and inside the table, so reading a table
  back at the carried words reads it at π: the hashes read back are the sorted hashes, and a table of rows
  read back at (p, k) is the row π p at column k. A sorted hash below the sentinel is the packed cells of
  the point π p, c0·256 + c1 with both cells at most 255 and the third cell 0, and floor division and
  remainder by 256 and by 1 give the three cells back.
-/
import proofs.«420773_j40235253629492_3_alg».proof.Proof.Spec
import proofs.«420773_j40235253629492_3_alg».proof.Proof.Facts
import proofs.«420773_j40235253629492_3_alg».proof.Proof.IdxMaps
import proofs.«420773_j40235253629492_3_alg».proof.Proof.CellBounds
import Idealize.ShloMosaic.Lib.SortFacts
import Idealize.ShloMosaic.Lib.ValueIdx
import Idealize.ShloMosaic.Lib.Pipeline.Value

noncomputable section

namespace Cert.SortDecode

open Cert.Spec Cert.Facts Idealize.ShloMosaic ValueIdx

/-! ## The sort read through one self-map of the positions -/

/-- The two ways of writing a rank-1 index from its coordinate agree. -/
theorem ofFin_eq_ix1 {n : Nat} (k : Fin n) : Shape.Idx.ofFin k = ix1 k := by
  funext d; match d with | ⟨0, _⟩ => rfl

/-- On a rank-1 shape a sort of two operands reads both through one self-map of the positions. -/
theorem sort2_rank1 {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).1 j
        = x (Shape.Idx.ofFin (sortedFrom (fun k k' => cmp (x (Shape.Idx.ofFin k), y (Shape.Idx.ofFin k))
            (x (Shape.Idx.ofFin k'), y (Shape.Idx.ofFin k')) == 1#1) (j 0)))
    ∧ (Host.sort2 ⟨1, ![n]⟩ 0 cmp x y).2 j
        = y (Shape.Idx.ofFin (sortedFrom (fun k k' => cmp (x (Shape.Idx.ofFin k), y (Shape.Idx.ofFin k))
            (x (Shape.Idx.ofFin k'), y (Shape.Idx.ofFin k')) == 1#1) (j 0))) := by
  unfold Host.sort2
  simp

/-- The position word at position q is the word of q. -/
theorem pos_ofFin (q : Fin 4000000) : pos (Shape.Idx.ofFin q) = BitVec.ofNat 32 q.val := rfl

/-- Both outputs of the sort are the operands read through one self-map of the positions. -/
theorem sorted_spec (vh : IVec SN 32) : ∃ π : Fin 4000000 → Fin 4000000, ∀ p : Fin 4000000,
    (sorted vh).1 (ix1 p) = vh (ix1 (π p)) ∧ (sorted vh).2 (ix1 p) = BitVec.ofNat 32 (π p).val := by
  refine ⟨sortedFrom (fun k k' => byKey (vh (Shape.Idx.ofFin k), pos (Shape.Idx.ofFin k))
      (vh (Shape.Idx.ofFin k'), pos (Shape.Idx.ofFin k')) == 1#1), fun p => ?_⟩
  have h := sort2_rank1 byKey vh pos (ix1 p)
  rw [show (ix1 p : SN.Idx) 0 = p from rfl] at h
  exact ⟨h.1.trans (congrArg vh (ofFin_eq_ix1 _)), h.2.trans (pos_ofFin _)⟩

/-! ## Reading a table back at the carried positions -/

/-- A vector as a column of one-component start indices, read at a row. -/
theorem col_apply (x : IVec SN 32) (p : Fin 4000000) (c : Fin 1) : col x (ix2 p c) = x (ix1 p) := by
  unfold col
  refine broadcastInDim_apply _ _ x _ (ix1 p) (fun a => ?_)
  match a with
  | ⟨0, _⟩ => rw [if_neg (by show ¬ (4000000 : ℕ) = 1; decide)]; rfl

/-- The word of a position inside the table, read signed, is the position. -/
theorem toInt_ofNat_lt (n : ℕ) (h : n < 4000000) : (BitVec.ofNat 32 n).toInt = (n : ℤ) := by
  rw [BitVec.toInt_eq_toNat_cond, BitVec.toNat_ofNat]
  omega

/-- Where the carried word at p is the word of q, the read position — normalised, read signed, clamped — is q. -/
theorem read_pos (order : IVec SN 32) (p q : Fin 4000000) (h : order (ix1 p) = BitVec.ofNat 32 q.val)
    (hlt : min ((col (normN order 4000000#32)) (ix2 p (0 : Fin 1))).toInt.toNat 3999999 < 4000000) :
    (⟨min ((col (normN order 4000000#32)) (ix2 p (0 : Fin 1))).toInt.toNat 3999999, hlt⟩ : Fin 4000000) = q := by
  have hq := q.isLt
  have hi : (order (ix1 p)).toInt = (q.val : ℤ) := by rw [h]; exact toInt_ofNat_lt _ hq
  apply Fin.ext
  show min ((col (normN order 4000000#32)) (ix2 p (0 : Fin 1))).toInt.toNat 3999999 = q.val
  rw [col_apply, normN_of_nonneg order _ _ (by rw [hi]; omega), hi]
  omega

/-- The hashes read back at the carried positions are the sorted hashes. -/
theorem sort_gather (vh : IVec SN 32) : takeVec vh (sorted vh).2 = (sorted vh).1 := by
  obtain ⟨π, hπ⟩ := sorted_spec vh
  funext j
  obtain ⟨p, rfl⟩ : ∃ p, j = ix1 p := ⟨j 0, eq_ix1 j⟩
  unfold takeVec
  rw [Cert.IdxMaps.gathVec_apply, read_pos _ p (π p) (hπ p).2]
  exact (hπ p).1.symm

/-- A table of rows read back at the carried positions: row p is the row at the position the sort read. -/
theorem takeRows3_sorted (x : IVec SNx3 32) (vh : IVec SN 32) (π : Fin 4000000 → Fin 4000000)
    (hπ : ∀ p : Fin 4000000, (sorted vh).2 (ix1 p) = BitVec.ofNat 32 (π p).val) (p : Fin 4000000) (k : Fin 3) :
    takeRows3 x (sorted vh).2 (ix2 p k) = x (ix2 (π p) k) := by
  unfold takeRows3
  rw [Cert.IdxMaps.gathRows3_apply, read_pos _ p (π p) (hπ p)]

/-! ## Floor division and remainder of words, for a non-negative dividend and a positive divisor -/

/-- The sign word of a word. -/
def sgnS (x : BitVec 32) : BitVec 32 := if x = 0 then 0 else if x.msb then -1 else 1
/-- Floor division of words: the signed quotient, one less where the signs differ and the division is inexact. -/
def fdivS (w k : BitVec 32) : BitVec 32 :=
  Scalar.select (IntOp.andi (IntOp.cmpi .ne (sgnS w) (sgnS k)) (IntOp.cmpi .ne (IntOp.remsi .host w k) 0#32))
    (IntOp.subi (IntOp.divsi .host w k) 1#32) (IntOp.divsi .host w k)
/-- The divisor a remainder uses: 1 in place of 0. -/
def divisorS (k : BitVec 32) : BitVec 32 := Scalar.select (IntOp.cmpi .eq k 0#32) 1#32 k
/-- Remainder of words: the signed remainder, moved by the divisor where its sign differs from the divisor's. -/
def remS (w k : BitVec 32) : BitVec 32 :=
  Scalar.select (IntOp.andi (IntOp.cmpi .ne (IntOp.cmpi .slt (IntOp.remsi .host w (divisorS k)) 0#32)
        (IntOp.cmpi .slt (divisorS k) 0#32))
      (IntOp.cmpi .ne (IntOp.remsi .host w (divisorS k)) 0#32))
    (IntOp.addi (IntOp.remsi .host w (divisorS k)) (divisorS k))
    (IntOp.remsi .host w (divisorS k))

/-- A non-zero word with a clear top bit is neither corner of signed division. -/
theorem not_corner (w k : BitVec 32) (hk : k.msb = false) (hk0 : k ≠ 0#32) : ¬ IntOp.SDivCorner w k := by
  rintro (h | ⟨_, h2⟩)
  · exact hk0 h
  · rw [h2] at hk; exact absurd hk (by decide)

/-- Signed division of non-negative words is the unsigned one. -/
theorem divsi_nonneg (w k : BitVec 32) (hw : w.msb = false) (hk : k.msb = false) (hk0 : k ≠ 0#32) :
    IntOp.divsi .host w k = w / k := by
  unfold IntOp.divsi
  rw [if_neg (not_corner w k hk hk0), BitVec.sdiv_eq, hw, hk]
  rfl

/-- Signed remainder of non-negative words is the unsigned one. -/
theorem remsi_nonneg (w k : BitVec 32) (hw : w.msb = false) (hk : k.msb = false) (hk0 : k ≠ 0#32) :
    IntOp.remsi .host w k = w % k := by
  unfold IntOp.remsi
  rw [if_neg (not_corner w k hk hk0), BitVec.srem_eq, hw, hk]

/-- The sign word of a non-negative word. -/
theorem sgnS_nonneg (w : BitVec 32) (hw : w.msb = false) : sgnS w = if w = 0 then 0 else 1 := by
  unfold sgnS; rw [hw]; rfl

/-- Floor division of a non-negative word by a positive one is the unsigned quotient: no correction. -/
theorem fdivS_nonneg (w k : BitVec 32) (hw : w.msb = false) (hk : k.msb = false) (hk0 : k ≠ 0#32) :
    fdivS w k = w / k := by
  have hk0' : ¬ k = 0 := hk0
  unfold fdivS
  rw [divsi_nonneg w k hw hk hk0, remsi_nonneg w k hw hk hk0, sgnS_nonneg w hw, sgnS_nonneg k hk, if_neg hk0']
  have hz : IntOp.andi (IntOp.cmpi .ne (if w = 0 then (0 : BitVec 32) else 1) 1) (IntOp.cmpi .ne (w % k) 0#32) = 0#1 := by
    by_cases hw0 : w = 0
    · subst hw0
      have hzm : (0 : BitVec 32) % k = 0#32 := BitVec.zero_umod
      rw [hzm]; rfl
    · rw [if_neg hw0]; show (0#1) &&& _ = 0#1; exact BitVec.zero_and
  rw [hz]; exact select_zero _ _

/-- The remainder of a non-negative word by a positive one is the unsigned remainder: no correction. -/
theorem remS_nonneg (w k : BitVec 32) (hw : w.msb = false) (hk : k.msb = false) (hk0 : k ≠ 0#32) :
    remS w k = w % k := by
  have hd : divisorS k = k := by
    unfold divisorS
    have : IntOp.cmpi .eq k 0#32 = 0#1 := by
      show BitVec.ofBool (k == 0#32) = 0#1
      rw [show (k == 0#32) = false from beq_false_of_ne hk0]; rfl
    rw [this]; exact select_zero _ _
  unfold remS
  rw [hd, remsi_nonneg w k hw hk hk0]
  have hr : (w % k).msb = false := by
    rw [BitVec.msb_eq_false_iff_two_mul_lt] at hw ⊢
    have := Nat.mod_le w.toNat k.toNat
    rw [BitVec.toNat_umod]; omega
  have hz : IntOp.andi (IntOp.cmpi .ne (IntOp.cmpi .slt (w % k) 0#32) (IntOp.cmpi .slt k 0#32)) (IntOp.cmpi .ne (w % k) 0#32) = 0#1 := by
    show (BitVec.ofBool (BitVec.ofBool ((w % k).slt 0#32) != BitVec.ofBool (k.slt 0#32))) &&& _ = 0#1
    rw [BitVec.slt_zero_eq_msb, BitVec.slt_zero_eq_msb, hr, hk]
    exact BitVec.zero_and
  rw [hz]; exact select_zero _ _

/-- A word between 0 and 255, read signed, is below 256 read unsigned. -/
theorem toNat_le_of_toInt (a : BitVec 32) (h : 0 ≤ a.toInt ∧ a.toInt ≤ 255) : a.toNat ≤ 255 := by
  have := a.isLt
  rw [BitVec.toInt_eq_toNat_cond] at h
  split at h <;> omega

/-- The packed word of two cells at most 255 and a zero third cell is c0·256 + c1, read unsigned. -/
theorem pack_toNat (a b : BitVec 32) (ha : a.toNat ≤ 255) (hb : b.toNat ≤ 255) :
    (a * 256#32 + b * 1#32 + 0#32).toNat = a.toNat * 256 + b.toNat := by
  simp only [BitVec.toNat_add, BitVec.toNat_mul, BitVec.toNat_ofNat]
  omega

/-- THE SCALAR DECODE: floor division and remainder by 256 and by 1 give the cells back. -/
theorem decode_pack (a b : BitVec 32) (ha : 0 ≤ a.toInt ∧ a.toInt ≤ 255) (hb : 0 ≤ b.toInt ∧ b.toInt ≤ 255) :
    fdivS (a * 256#32 + b * 1#32 + 0#32) 256#32 = a
    ∧ remS (fdivS (a * 256#32 + b * 1#32 + 0#32) 1#32) 256#32 = b
    ∧ remS (a * 256#32 + b * 1#32 + 0#32) 1#32 = 0#32 := by
  have ha' := toNat_le_of_toInt a ha
  have hb' := toNat_le_of_toInt b hb
  have hn := pack_toNat a b ha' hb'
  have hw : (a * 256#32 + b * 1#32 + 0#32).msb = false := by
    rw [BitVec.msb_eq_false_iff_two_mul_lt, hn]; omega
  rw [fdivS_nonneg _ 256#32 hw (by decide) (by decide), fdivS_nonneg _ 1#32 hw (by decide) (by decide),
    BitVec.udiv_one, remS_nonneg _ 256#32 hw (by decide) (by decide), remS_nonneg _ 1#32 hw (by decide) (by decide),
    BitVec.umod_one]
  refine ⟨?_, ?_, rfl⟩
  · apply BitVec.eq_of_toNat_eq
    rw [BitVec.toNat_udiv, hn]
    show (a.toNat * 256 + b.toNat) / 256 = a.toNat
    omega
  · apply BitVec.eq_of_toNat_eq
    rw [BitVec.toNat_umod, hn]
    show (a.toNat * 256 + b.toNat) % 256 = b.toNat
    omega

/-! ## The decoded cells read at a position -/

/-- Floor division by a scalar, read at a position, is the floor division of the word there. -/
theorem fdivN_at (sh : IVec SN 32) (k : BitVec 32) (i : SN.Idx) : fdivN sh k i = fdivS (sh i) k := rfl

/-- Remainder by a scalar, read at a position, is the remainder of the word there. -/
theorem remN_at (sh : IVec SN 32) (k : BitVec 32) (i : SN.Idx) : remN sh k i = remS (sh i) k := rfl

/-- Three columns laid side by side, read at row p: column k is the k-th vector at p. -/
theorem cat3_at (x0 x1 x2 : IVec SN 32) (p : Fin 4000000) :
    concatenate SNx3 1 [⟨SNx1, col x0⟩, ⟨SNx1, col x1⟩, ⟨SNx1, col x2⟩] cat3 (ix2 p 0) = x0 (ix1 p)
    ∧ concatenate SNx3 1 [⟨SNx1, col x0⟩, ⟨SNx1, col x1⟩, ⟨SNx1, col x2⟩] cat3 (ix2 p 1) = x1 (ix1 p)
    ∧ concatenate SNx3 1 [⟨SNx1, col x0⟩, ⟨SNx1, col x1⟩, ⟨SNx1, col x2⟩] cat3 (ix2 p 2) = x2 (ix1 p) := by
  refine ⟨?_, ?_, ?_⟩
  · refine (concatenate_apply_piece (t := SNx3) 1 [⟨SNx1, col x0⟩, ⟨SNx1, col x1⟩, ⟨SNx1, col x2⟩] cat3 (ix2 p 0) 0 (show 0 < 3 by decide) SNx1 (col x0) rfl rfl 0 rfl
      (ix2 p (0 : Fin 1)) (fun b hb => ?_) rfl).trans (col_apply x0 p 0)
    match b with
    | ⟨0, _⟩ => rfl
    | ⟨1, _⟩ => exact absurd rfl hb
  · refine (concatenate_apply_piece (t := SNx3) 1 [⟨SNx1, col x0⟩, ⟨SNx1, col x1⟩, ⟨SNx1, col x2⟩] cat3 (ix2 p 1) 1 (show 1 < 3 by decide) SNx1 (col x1) rfl rfl 1 rfl
      (ix2 p (0 : Fin 1)) (fun b hb => ?_) rfl).trans (col_apply x1 p 0)
    match b with
    | ⟨0, _⟩ => rfl
    | ⟨1, _⟩ => exact absurd rfl hb
  · refine (concatenate_apply_piece (t := SNx3) 1 [⟨SNx1, col x0⟩, ⟨SNx1, col x1⟩, ⟨SNx1, col x2⟩] cat3 (ix2 p 2) 2 (show 2 < 3 by decide) SNx1 (col x2) rfl rfl 2 rfl
      (ix2 p (0 : Fin 1)) (fun b hb => ?_) rfl).trans (col_apply x2 p 0)
    match b with
    | ⟨0, _⟩ => rfl
    | ⟨1, _⟩ => exact absurd rfl hb

/-- The decoded cells at row p, as words of the hash there. -/
theorem decode_at (sh : IVec SN 32) (p : Fin 4000000) :
    decode sh (ix2 p 0) = fdivS (sh (ix1 p)) 256#32
    ∧ decode sh (ix2 p 1) = remS (fdivS (sh (ix1 p)) 1#32) 256#32
    ∧ decode sh (ix2 p 2) = remS (sh (ix1 p)) 1#32 :=
  cat3_at (fdivN sh 256#32) (remN (fdivN sh 1#32) 256#32) (remN sh 1#32) p

/-- The hash of a point: its packed cells in range, the sentinel outside. -/
theorem hashRef_at (pts : FVec Ideal SNx4 .f32) (q : Fin 4000000) :
    hashRef pts (ix1 q) = Scalar.select (inRange pts (ix1 q)) (pack (cells pts) (ix1 q)) 65536#32 := rfl

/-! ## The decoded cells are the point's cells -/

/-- A position whose run is counted holds a hash below the sentinel. -/
theorem valid_of_cvid (sh : IVec SN 32) (p : Fin 4000000) (h : cvid sh (ix1 p) ≠ 16000#32) :
    (sh (ix1 p)).toInt < 65536 := by
  have hc : cvid sh (ix1 p) = _ := cvid_at sh p.val p.isLt
  rw [hc] at h
  split at h
  · next hC =>
    have hv := hC.1.1.2
    unfold wordAt at hv
    rw [dif_pos p.isLt] at hv
    exact hv
  · exact absurd rfl h

/-- A hash below the sentinel is the packed cells of its point, the third cell zero. -/
theorem hash_of_valid (pts : FVec Ideal SNx4 .f32) (q : Fin 4000000) (hv : (hashRef pts (ix1 q)).toInt < 65536) :
    hashRef pts (ix1 q) = cells pts (ix2 q 0) * 256#32 + cells pts (ix2 q 1) * 1#32 + 0#32 := by
  rw [hashRef_at] at hv ⊢
  by_cases hr : inRange pts (ix1 q) = 1#1
  · rw [hr, select_one, Cert.CellBounds.pack_at, (Cert.CellBounds.cells_bounds pts q).2.2]
  · rw [eq_zero_of_ne_one hr, select_zero] at hv
    exact absurd hv (by decide)

/-- At a position that starts a counted run, the cells decoded from the sorted hash are the point's cells. -/
theorem decode_eq (pts : FVec Ideal SNx4 .f32) (p : Fin 4000000) (k : Fin 3)
    (h : cvid (sorted (hashRef pts)).1 (ix1 p) ≠ 16000#32) :
    decode (sorted (hashRef pts)).1 (ix2 p k) = takeRows3 (cells pts) (sorted (hashRef pts)).2 (ix2 p k) := by
  obtain ⟨π, hπ⟩ := sorted_spec (hashRef pts)
  have hv := valid_of_cvid _ p h
  rw [(hπ p).1] at hv
  have hw := (hπ p).1.trans (hash_of_valid pts (π p) hv)
  obtain ⟨hb0, hb1, hb2⟩ := Cert.CellBounds.cells_bounds pts (π p)
  obtain ⟨d0, d1, d2⟩ := decode_pack _ _ hb0 hb1
  obtain ⟨e0, e1, e2⟩ := decode_at (sorted (hashRef pts)).1 p
  rw [takeRows3_sorted (cells pts) (hashRef pts) π (fun p => (hπ p).2) p k]
  match k with
  | ⟨0, _⟩ => exact e0.trans ((congrArg (fun w => fdivS w 256#32) hw).trans d0)
  | ⟨1, _⟩ => exact e1.trans ((congrArg (fun w => remS (fdivS w 1#32) 256#32) hw).trans d1)
  | ⟨2, _⟩ => exact e2.trans ((congrArg (fun w => remS w 1#32) hw).trans (d2.trans hb2.symm))

end Cert.SortDecode

end
-- ==== Proof.ScatterFold.lean ====
import Idealize.ShloMosaic.PureOps
import Mathlib.Data.Finset.Basic
import Mathlib.Data.Finset.Card
import Mathlib.Data.Fintype.Basic
import Mathlib.Data.List.Nodup

/-!
  The host scatter read at one index.

  `Host.scatter d f x idx upd` is a left fold over the update indices in row-major order. Read at
  one result index `i`, the fold only sees the update indices that land at `i`: the others leave
  the element alone. This module proves four consequences, generic in the shapes, the dimension
  record, the element type and the word width:

  * no update index lands at `i`: the element is the operand's;
  * exactly one lands at `i` and the body returns the update: the element is that update's;
  * two update vectors that agree wherever they land inside a set `Q` give the same element at
    every index of `Q`;
  * adding indicator updates `1` / `0` into zeros counts the update indices that land at `i` and
    carry a `1`.

  Each is an invariant of the fold over an ARBITRARY list of update indices, proved by induction
  on the list, then read at the list of all update indices in row-major order, which has every
  update index exactly once because `rowMajor` is a bijection.
-/

open Idealize.ShloMosaic

namespace Cert.ScatterFold

variable {s si u : Shape} {w : ℕ} {α : Type}

/-- One step of the scatter: update index `j` rewrites the element it lands at, if any. -/
def step (d : ScatterDims s si u) (f : α → α → α) (idx : IVec si w) (upd : u.Idx → α)
    (r : s.Idx → α) (j : u.Idx) : s.Idx → α :=
  match d.resultIdx? j idx with
  | some i => fun i' => if i' = i then f (r i) (upd j) else r i'
  | none => r

/-- The step at an index the update lands at. -/
theorem step_hit (d : ScatterDims s si u) (f : α → α → α) (idx : IVec si w) (upd : u.Idx → α)
    (r : s.Idx → α) (j : u.Idx) (i : s.Idx) (h : d.resultIdx? j idx = some i) :
    step d f idx upd r j i = f (r i) (upd j) := by
  unfold step
  rw [h]
  simp

/-- The step at an index the update does not land at. -/
theorem step_miss (d : ScatterDims s si u) (f : α → α → α) (idx : IVec si w) (upd : u.Idx → α)
    (r : s.Idx → α) (j : u.Idx) (i : s.Idx) (h : d.resultIdx? j idx ≠ some i) :
    step d f idx upd r j i = r i := by
  unfold step
  cases hk : d.resultIdx? j idx with
  | none => rfl
  | some k =>
    have hne : i ≠ k := fun e => h (by rw [hk, e])
    simp [hne]

/-- All update indices, in row-major order. -/
def allIdx (u : Shape) : List u.Idx := (List.finRange u.numel).map u.rowMajor.symm

theorem mem_allIdx (j : u.Idx) : j ∈ allIdx u :=
  List.mem_map.2 ⟨u.rowMajor j, List.mem_finRange _, u.rowMajor.symm_apply_apply j⟩

theorem nodup_allIdx : (allIdx u).Nodup :=
  (List.nodup_finRange u.numel).map u.rowMajor.symm.injective

/-- The scatter is the fold of the step over all update indices. -/
theorem scatter_eq_foldl (d : ScatterDims s si u) (f : α → α → α) (x : s.Idx → α) (idx : IVec si w)
    (upd : u.Idx → α) : Host.scatter d f x idx upd = (allIdx u).foldl (step d f idx upd) x := by
  unfold Host.scatter allIdx
  rw [List.foldl_map]
  rfl

/-! ### No update lands at the index -/

/-- A fold over update indices none of which lands at `i` leaves the element at `i` alone. -/
theorem foldl_of_none (d : ScatterDims s si u) (f : α → α → α) (idx : IVec si w) (upd : u.Idx → α)
    (i : s.Idx) (L : List u.Idx) (x : s.Idx → α) (hn : ∀ j ∈ L, d.resultIdx? j idx ≠ some i) :
    L.foldl (step d f idx upd) x i = x i := by
  induction L generalizing x with
  | nil => rfl
  | cons j L ih =>
    rw [List.foldl_cons, ih _ fun j' hj' => hn j' (List.mem_cons_of_mem _ hj')]
    exact step_miss d f idx upd x j i (hn j List.mem_cons_self)

theorem scatter_of_none (d : ScatterDims s si u) (f : α → α → α) (x : s.Idx → α) (idx : IVec si w)
    (upd : u.Idx → α) (i : s.Idx) (hn : ∀ j : u.Idx, d.resultIdx? j idx ≠ some i) :
    Host.scatter d f x idx upd i = x i := by
  rw [scatter_eq_foldl]
  exact foldl_of_none d f idx upd i _ x fun j _ => hn j

/-! ### The body returns the update, and every update landing at the index carries one value -/

/-- When the body returns the update and every update index of the list that lands at `i` carries
    the value `v`, the fold's element at `i` is `v` as soon as the start's is or some update index
    of the list lands at `i`. -/
theorem foldl_set_of_const (d : ScatterDims s si u) (idx : IVec si w) (upd : u.Idx → α) (i : s.Idx)
    (v : α) (L : List u.Idx) (x : s.Idx → α)
    (hv : ∀ j ∈ L, d.resultIdx? j idx = some i → upd j = v)
    (hx : x i = v ∨ ∃ j ∈ L, d.resultIdx? j idx = some i) :
    L.foldl (step d (fun _ b => b) idx upd) x i = v := by
  induction L generalizing x with
  | nil =>
    rcases hx with hx | ⟨j, hj, _⟩
    · exact hx
    · cases hj
  | cons j L ih =>
    rw [List.foldl_cons]
    apply ih _ fun j' hj' => hv j' (List.mem_cons_of_mem _ hj')
    by_cases hj : d.resultIdx? j idx = some i
    · left
      rw [step_hit d _ idx upd x j i hj]
      exact hv j List.mem_cons_self hj
    · rcases hx with hx | ⟨j', hj', hl⟩
      · left
        rw [step_miss d _ idx upd x j i hj]
        exact hx
      · right
        rcases List.mem_cons.1 hj' with e | hmem
        · exact absurd (e ▸ hl) hj
        · exact ⟨j', hmem, hl⟩

theorem scatter_set_of_unique (d : ScatterDims s si u) (x : s.Idx → α) (idx : IVec si w)
    (upd : u.Idx → α) (i : s.Idx) (j₀ : u.Idx) (h₀ : d.resultIdx? j₀ idx = some i)
    (huniq : ∀ j : u.Idx, d.resultIdx? j idx = some i → j = j₀) :
    Host.scatter d (fun _ b => b) x idx upd i = upd j₀ := by
  rw [scatter_eq_foldl]
  exact foldl_set_of_const d idx upd i (upd j₀) _ x (fun j _ hj => by rw [huniq j hj])
    (Or.inr ⟨j₀, mem_allIdx j₀, h₀⟩)

/-! ### Two update vectors that agree where they land at the index -/

/-- Folds with two update vectors that agree at every update index of the list landing at `i`,
    from starts that agree at `i`, agree at `i`. -/
theorem foldl_congr_at (d : ScatterDims s si u) (f : α → α → α) (idx : IVec si w)
    (upd upd' : u.Idx → α) (i : s.Idx) (L : List u.Idx) (x x' : s.Idx → α) (hx : x i = x' i)
    (hagree : ∀ j ∈ L, d.resultIdx? j idx = some i → upd j = upd' j) :
    L.foldl (step d f idx upd) x i = L.foldl (step d f idx upd') x' i := by
  induction L generalizing x x' with
  | nil => exact hx
  | cons j L ih =>
    rw [List.foldl_cons, List.foldl_cons]
    apply ih _ _ _ fun j' hj' => hagree j' (List.mem_cons_of_mem _ hj')
    by_cases hj : d.resultIdx? j idx = some i
    · rw [step_hit d f idx upd x j i hj, step_hit d f idx upd' x' j i hj, hx,
        hagree j List.mem_cons_self hj]
    · rw [step_miss d f idx upd x j i hj, step_miss d f idx upd' x' j i hj, hx]

theorem scatter_congr_on (d : ScatterDims s si u) (f : α → α → α) (x : s.Idx → α) (idx : IVec si w)
    (upd upd' : u.Idx → α) (Q : s.Idx → Prop)
    (hagree : ∀ (j : u.Idx) (i : s.Idx), d.resultIdx? j idx = some i → Q i → upd j = upd' j)
    (i : s.Idx) (hi : Q i) :
    Host.scatter d f x idx upd i = Host.scatter d f x idx upd' i := by
  rw [scatter_eq_foldl, scatter_eq_foldl]
  exact foldl_congr_at d f idx upd upd' i _ x x rfl fun j _ hj => hagree j i hj hi

/-! ### Adding indicator updates counts -/

/-- Adding indicator updates over a list of update indices adds, at `i`, the number of the list's
    entries that land at `i` and carry a `1` (`p` decides that). -/
theorem foldl_add_count (d : ScatterDims s si u) (idx : IVec si w) (K : u.Idx → Prop)
    [DecidablePred K] (upd : u.Idx → BitVec 32) (hupd : ∀ j, upd j = if K j then 1#32 else 0#32)
    (i : s.Idx) (p : u.Idx → Bool) (hp : ∀ j, p j = true ↔ (d.resultIdx? j idx = some i ∧ K j))
    (L : List u.Idx) (x : s.Idx → BitVec 32) :
    L.foldl (step d IntOp.addi idx upd) x i = x i + BitVec.ofNat 32 (L.filter p).length := by
  induction L generalizing x with
  | nil => simp
  | cons j L ih =>
    rw [List.foldl_cons, ih]
    by_cases hj : d.resultIdx? j idx = some i
    · rw [step_hit d _ idx upd x j i hj, hupd j]
      by_cases hK : K j
      · have hpj : p j = true := (hp j).2 ⟨hj, hK⟩
        rw [List.filter_cons_of_pos hpj, if_pos hK, List.length_cons, BitVec.ofNat_add]
        unfold IntOp.addi
        ac_rfl
      · have hpj : ¬ p j = true := fun h => hK ((hp j).1 h).2
        rw [List.filter_cons_of_neg hpj, if_neg hK]
        unfold IntOp.addi
        simp
    · have hpj : ¬ p j = true := fun h => hj ((hp j).1 h).1
      rw [step_miss d _ idx upd x j i hj, List.filter_cons_of_neg hpj]

theorem scatter_add_count (d : ScatterDims s si u) (idx : IVec si w) (K : u.Idx → Prop)
    [DecidablePred K] (upd : u.Idx → BitVec 32) (hupd : ∀ j, upd j = if K j then 1#32 else 0#32)
    (i : s.Idx) [DecidablePred fun j : u.Idx => d.resultIdx? j idx = some i ∧ K j] :
    Host.scatter d IntOp.addi (fun _ => 0#32) idx upd i
      = BitVec.ofNat 32
          ((Finset.univ.filter fun j : u.Idx => d.resultIdx? j idx = some i ∧ K j).card) := by
  rw [scatter_eq_foldl, foldl_add_count d idx K upd hupd i
    (fun j => decide (d.resultIdx? j idx = some i ∧ K j)) (fun j => by simp), BitVec.zero_add]
  congr 1
  rw [← List.toFinset_card_of_nodup (nodup_allIdx.filter _), List.toFinset_filter]
  congr 1
  ext j
  simp [mem_allIdx]

end Cert.ScatterFold
-- ==== Proof.TableReads.lean ====
import proofs.«420773_j40235253629492_3_alg».proof.Proof.Spec
import proofs.«420773_j40235253629492_3_alg».proof.Proof.Runs
import proofs.«420773_j40235253629492_3_alg».proof.Proof.ScatterFold
import proofs.«420773_j40235253629492_3_alg».proof.Proof.IdxMaps
import proofs.«420773_j40235253629492_3_alg».proof.Proof.Facts
import Idealize.ShloMosaic.Lib.ValueIdx

/-!
  The two small per-voxel tables of the specification, read as natural numbers.

  * The point count of voxel `v` is the number of kept positions of the sorted order whose run is the
    `(v + 1)`-th: the accumulating scatter of the keep bits into zeros, at the column of the kept
    positions' voxel numbers, counts them.
  * The start of voxel `v` is the position that starts the `(v + 1)`-th run, when there is one (two
    starts with the same run count coincide, so exactly one update lands there), and zero when there is
    none (no update lands there).
-/

noncomputable section

namespace Cert.TableReads

open Cert.Spec Cert.Runs Cert.Facts Idealize.ShloMosaic ValueIdx

/-! ## Reading the pieces at an index -/

/-- A voxel number as a row of the table with the overflow row. -/
def up (v : Fin 16000) : Fin 16001 := ⟨v.val, Nat.lt_succ_of_lt v.isLt⟩

/-- The slice of the first 16000 rows reads the same row. -/
theorem slice_at {α : Type} (y : SV1.Idx → α) (v : Fin 16000) :
    extractStridedSlice SV ![0] y sl_V (ix1 v) = y (ix1 (up v)) := by
  unfold extractStridedSlice
  congr 1
  funext a
  obtain rfl : a = 0 := Subsingleton.elim _ _
  apply Fin.ext
  show 0 + v.val = v.val
  omega

/-- The column of a vector reads the vector. -/
theorem col_apply (x : IVec SN 32) (e : Fin 4000000) : col x (ix2 e (0 : Fin 1)) = x (ix1 e) := by
  unfold col broadcastInDim
  congr 1
  funext a
  obtain rfl : a = 0 := Subsingleton.elim _ _
  rfl

/-- A bit widened to a word is the word one or the word zero. -/
theorem extui_bit (b : BitVec 1) : b.setWidth 32 = if b = 1#1 then 1#32 else 0#32 := by
  rcases BitVec.eq_zero_or_eq_one b with h | h <;> subst h <;> decide

/-- A small natural number as a word, read signed, is itself. -/
theorem toInt_ofNat_small (n : ℕ) (h : n < 2147483648) : (BitVec.ofNat 32 n).toInt = (n : ℤ) := by
  rw [BitVec.toInt_eq_toNat_cond, BitVec.toNat_ofNat]
  have e : n % 2 ^ 32 = n := Nat.mod_eq_of_lt (by omega)
  rw [e]
  split <;> omega

/-! ## The point count -/

/-- Position `p` adds to row `v` of the count exactly when it is kept and its run is the `(v + 1)`-th. -/
theorem lands_count (sh : IVec SN 32) (p : ℕ) (hp : p < 4000000) (v : Fin 16000) :
    (scatVec.resultIdx? (ix1 ⟨p, hp⟩) (col (vidS sh)) = some (ix1 (up v)) ∧ Spec.keep sh (ix1 ⟨p, hp⟩) = 1#1)
      ↔ (Runs.keep (NVp sh) (SVp sh) 32 16000 p ∧ cnt (NVp sh) p = v.val + 1) := by
  have hup : (up v).val = v.val := rfl
  rw [Cert.IdxMaps.scatVec_lands, col_apply, vidS_at sh p hp, keep_at sh p hp, hup]
  by_cases hk : Runs.keep (NVp sh) (SVp sh) 32 16000 p
  · rw [if_pos hk, if_pos hk]
    have hk' : SVp sh p ∧ p - st (NVp sh) p < 32 ∧ cnt (NVp sh) p ≤ 16000 := hk
    have hc1 : 1 ≤ cnt (NVp sh) p := (start_of_sv (ok sh) hp hk'.1).2.2
    have hc2 : cnt (NVp sh) p ≤ 16000 := hk'.2.2
    rw [toInt_ofNat_small _ (by omega)]
    constructor
    · rintro ⟨h, _⟩
      exact ⟨hk, by omega⟩
    · rintro ⟨_, h⟩
      exact ⟨by omega, rfl⟩
  · rw [if_neg hk, if_neg hk]
    constructor
    · rintro ⟨_, h⟩
      exact absurd h (by decide)
    · rintro ⟨h, _⟩
      exact absurd h hk

theorem numPoints_at (sh : IVec SN 32) (v : Fin 16000)
    [DecidablePred fun p => Runs.keep (NVp sh) (SVp sh) 32 16000 p ∧ cnt (NVp sh) p = v.val + 1] :
    numPoints sh (ix1 v)
      = BitVec.ofNat 32 ((Finset.range 4000000).filter fun p =>
          Runs.keep (NVp sh) (SVp sh) 32 16000 p ∧ cnt (NVp sh) p = v.val + 1).card := by
  classical
  unfold numPoints
  rw [slice_at]
  have hZ : broadcastInDim SV1 ![] b_SV1 (constantI S_ 32 0#32) = fun _ => 0#32 := rfl
  rw [hZ, Cert.ScatterFold.scatter_add_count scatVec (col (vidS sh)) (fun j => Spec.keep sh j = 1#1)
    (extui 32 (Spec.keep sh) lt_1_32) (fun j => extui_bit _) (ix1 (up v))]
  refine congrArg (BitVec.ofNat 32) ?_
  apply Finset.card_bij (fun j _ => (j 0).val)
  · intro j hj
    obtain ⟨e, rfl⟩ : ∃ e, j = ix1 e := ⟨j 0, eq_ix1 j⟩
    exact Finset.mem_filter.2 ⟨Finset.mem_range.2 e.isLt,
      (lands_count sh e.val e.isLt v).1 (Finset.mem_filter.1 hj).2⟩
  · intro j _ j' _ h
    rw [eq_ix1 j, eq_ix1 j']
    exact congrArg ix1 (Fin.ext h)
  · intro p hp
    obtain ⟨hp1, hp2⟩ := Finset.mem_filter.1 hp
    have hp1' : p < 4000000 := Finset.mem_range.1 hp1
    exact ⟨ix1 ⟨p, hp1'⟩, Finset.mem_filter.2 ⟨Finset.mem_univ _, (lands_count sh p hp1' v).2 hp2⟩, rfl⟩

/-! ## The voxel starts -/

/-- The voxel number written at a start is never negative. -/
theorem cvid_nonneg (sh : IVec SN 32) (p : ℕ) (hp : p < 4000000) : 0 ≤ (cvid sh (ix1 ⟨p, hp⟩)).toInt := by
  rw [cvid_at sh p hp]
  split
  · rename_i h
    rw [toInt_ofNat_small _ (by have := h.2; omega)]
    omega
  · decide

/-- Position `p` writes row `v` of the starts exactly when it starts the `(v + 1)`-th run. -/
theorem lands_start (sh : IVec SN 32) (p : ℕ) (hp : p < 4000000) (v : Fin 16000) :
    scatVec.resultIdx? (ix1 ⟨p, hp⟩) (col (normN (cvid sh) 16001#32)) = some (ix1 (up v))
      ↔ NVp sh p ∧ cnt (NVp sh) p = v.val + 1 := by
  have hup : (up v).val = v.val := rfl
  have hv := v.isLt
  rw [Cert.IdxMaps.scatVec_lands, col_apply, normN_of_nonneg _ _ _ (cvid_nonneg sh p hp), cvid_at sh p hp, hup]
  by_cases hn : NVp sh p ∧ cnt (NVp sh) p ≤ 16000
  · rw [if_pos hn]
    have hc1 : 1 ≤ cnt (NVp sh) p := (start_of_sv (ok sh) hp ((ok sh).nv_sv p hp hn.1)).2.2
    have hc2 := hn.2
    rw [toInt_ofNat_small _ (by omega)]
    constructor
    · intro h
      exact ⟨hn.1, by omega⟩
    · rintro ⟨_, h⟩
      omega
  · rw [if_neg hn]
    have e16 : (16000#32).toInt = 16000 := by decide
    rw [e16]
    constructor
    · intro h
      omega
    · rintro ⟨h1, h2⟩
      exact absurd ⟨h1, by omega⟩ hn

theorem voxStart_of_start (sh : IVec SN 32) (v : Fin 16000) (q : ℕ) (hq : q < 4000000) (hnv : NVp sh q)
    (hc : cnt (NVp sh) q = v.val + 1) : voxStart sh (ix1 v) = BitVec.ofNat 32 q := by
  unfold voxStart
  rw [slice_at]
  refine (Cert.ScatterFold.scatter_set_of_unique scatVec _ _ pos (ix1 (up v)) (ix1 ⟨q, hq⟩) ?_ ?_).trans rfl
  · exact (lands_start sh q hq v).2 ⟨hnv, hc⟩
  · intro j hj
    obtain ⟨e, rfl⟩ : ∃ e, j = ix1 e := ⟨j 0, eq_ix1 j⟩
    have hl := (lands_start sh e.val e.isLt v).1 hj
    have he : e.val = q := start_unique hl.1 hnv (hl.2.trans hc.symm)
    exact congrArg ix1 (Fin.ext he)

theorem voxStart_of_none (sh : IVec SN 32) (v : Fin 16000)
    (h : ∀ q, q < 4000000 → NVp sh q → cnt (NVp sh) q ≠ v.val + 1) : voxStart sh (ix1 v) = 0#32 := by
  unfold voxStart
  rw [slice_at]
  refine (Cert.ScatterFold.scatter_of_none scatVec _ _ _ pos (ix1 (up v)) ?_).trans rfl
  intro j hj
  obtain ⟨e, rfl⟩ : ∃ e, j = ix1 e := ⟨j 0, eq_ix1 j⟩
  have hl := (lands_start sh e.val e.isLt v).1 hj
  exact h e.val e.isLt hl.1 hl.2

end Cert.TableReads

end
-- ==== Proof.Tables.lean ====
/-
  The two ways of building the voxel rows agree, and the coordinate table does not depend on entries
  it never keeps.

  Every table of the specification is a scatter cut off at row 16000. Read at one kept row, a scatter
  only sees the sorted positions that land there. For the coordinate table, a position lands in a kept
  row only if its voxel is below 16000, so two coordinate tables that agree on those positions give
  the same rows. For the voxel rows, the position landing at slot (v, r) is the kept position of voxel
  v and rank r, of which there is at most one; the gathered table reads, at a filled slot, the position
  (start of voxel v) + r, which is that same position, and a slot is filled exactly when such a position
  exists. Where no position lands, both tables hold zero.
-/
import proofs.«420773_j40235253629492_3_alg».proof.Proof.Spec
import proofs.«420773_j40235253629492_3_alg».proof.Proof.Runs
import proofs.«420773_j40235253629492_3_alg».proof.Proof.ScatterFold
import proofs.«420773_j40235253629492_3_alg».proof.Proof.Facts
import proofs.«420773_j40235253629492_3_alg».proof.Proof.IdxMaps
import proofs.«420773_j40235253629492_3_alg».proof.Proof.TableReads
import Idealize.ShloMosaic.Lib.ValueIdx
import Idealize.ShloMosaic.Lib.Pipeline.Value
import Idealize.ShloMosaic.Lib.IdealHost
import Idealize.ShloMosaic.Lib.DynamicIndex

noncomputable section

namespace Cert.Tables

open Cert.Spec Cert.Runs Cert.Facts Idealize.ShloMosaic ValueIdx

/-! ## Words -/

/-- A number below 2³¹ as a word, read signed, is not negative. -/
theorem toInt_ofNat_nonneg {n : ℕ} (h : n < 2 ^ 31) : 0 ≤ (BitVec.ofNat 32 n).toInt := by
  rw [toInt_ofNat_of_lt h]; omega

/-- The normalisation of one index word: a negative word is counted from the end. -/
def nrm (w k : BitVec 32) : BitVec 32 := Scalar.select (IntOp.cmpi .slt w 0#32) (IntOp.addi w k) w

theorem normN_apply (x : IVec SN 32) (k : BitVec 32) (i : SN.Idx) : normN x k i = nrm (x i) k := rfl
theorem normVxM_apply (x : IVec SVxM 32) (k : BitVec 32) (i : SVxM.Idx) : normVxM x k i = nrm (x i) k := rfl

theorem nrm_of_nonneg (w k : BitVec 32) (h : 0 ≤ w.toInt) : nrm w k = w := by
  have hlt : w.slt 0#32 = false := by
    simp only [BitVec.slt, BitVec.toInt_zero, decide_eq_false_iff_not, Int.not_lt]
    exact h
  show (if BitVec.ofBool (w.slt 0#32) = 1 then _ else _) = _
  rw [hlt]
  rfl

/-! ## Reading the small builders at an index -/

theorem col_apply (x : IVec SN 32) (e : Fin 4000000) (c : Fin 1) : col x (ix2 e c) = x (ix1 e) :=
  broadcastInDim_apply _ _ _ _ (ix1 e) (fun a => match a with | ⟨0, _⟩ => rfl)

theorem perVoxel_apply (x : IVec SV 32) (v : Fin 16000) (r : Fin 32) : perVoxel x (ix2 v r) = x (ix1 v) := by
  unfold perVoxel
  refine (broadcastInDim_apply _ _ _ _ (ix2 v (0 : Fin 1)) (fun a => match a with | ⟨0, _⟩ => rfl | ⟨1, _⟩ => rfl)).trans ?_
  exact broadcastInDim_apply _ _ _ _ (ix1 v) (fun a => match a with | ⟨0, _⟩ => rfl)

theorem slotRank_apply (v : Fin 16000) (r : Fin 32) : slotRank (ix2 v r) = BitVec.ofNat 32 r.val := rfl

theorem allVxM_apply (w : BitVec 32) (i : SVxM.Idx) : allVxM w i = w := rfl

/-- A slot-shaped table read as a column of start indices. -/
theorem slotCol_apply {α : Type} (x : SVxM.Idx → α) (v : Fin 16000) (r : Fin 32) (c : Fin 1) :
    broadcastInDim SVxMx1 ![0, 1] b_slot x (ix3 v r c) = x (ix2 v r) :=
  broadcastInDim_apply _ _ _ _ (ix2 v r) (fun a => match a with | ⟨0, _⟩ => rfl | ⟨1, _⟩ => rfl)

/-- A slot's bit copied over its four components. -/
theorem slot4_apply {α : Type} (x : SVxMx1.Idx → α) (v : Fin 16000) (r : Fin 32) (k : Fin 4) :
    broadcastInDim SVxMx4 ![0, 1, 2] b_slot4 x (ix3 v r k) = x (ix3 v r (0 : Fin 1)) :=
  broadcastInDim_apply _ _ _ _ (ix3 v r (0 : Fin 1)) (fun a => match a with | ⟨0, _⟩ => rfl | ⟨1, _⟩ => rfl | ⟨2, _⟩ => rfl)

/-! ## The slices that cut off the overflow row -/

theorem sliceV_apply {α : Type} (X : SV1.Idx → α) (v : Fin 16000) :
    extractStridedSlice SV ![0] X sl_V (ix1 v) = X (ix1 ⟨v.val, by have := v.isLt; omega⟩) :=
  extractStridedSlice_apply _ _ _ _ _ (fun a => match a with
    | ⟨0, _⟩ => by show v.val = 0 + v.val; omega)

theorem sliceVx3_apply {α : Type} (X : SV1x3.Idx → α) (v : Fin 16000) (k : Fin 3) :
    extractStridedSlice SVx3 ![0, 0] X sl_Vx3 (ix2 v k) = X (ix2 ⟨v.val, by have := v.isLt; omega⟩ k) :=
  extractStridedSlice_apply _ _ _ _ _ (fun a => match a with
    | ⟨0, _⟩ => by show v.val = 0 + v.val; omega
    | ⟨1, _⟩ => by show k.val = 0 + k.val; omega)

theorem sliceVxMx4_apply {α : Type} (X : SV1xMx4.Idx → α) (v : Fin 16000) (r : Fin 32) (k : Fin 4) :
    extractStridedSlice SVxMx4 ![0, 0, 0] X sl_VxMx4 (ix3 v r k) = X (ix3 ⟨v.val, by have := v.isLt; omega⟩ r k) :=
  extractStridedSlice_apply _ _ _ _ _ (fun a => match a with
    | ⟨0, _⟩ => by show v.val = 0 + v.val; omega
    | ⟨1, _⟩ => by show r.val = 0 + r.val; omega
    | ⟨2, _⟩ => by show k.val = 0 + k.val; omega)

/-! ## The coordinate table -/

section Coords
variable (sh : IVec SN 32)

/-- A start has a positive count. -/
theorem one_le_cnt_of_sv {p : ℕ} (hp : p < 4000000) (h : SVp sh p) : 1 ≤ cnt (NVp sh) p :=
  (start_of_sv (ok sh) hp h).2.2

/-- The voxel a start is written to is never negative. -/
theorem cvid_nonneg (p : ℕ) (hp : p < 4000000) : 0 ≤ (cvid sh (ix1 ⟨p, hp⟩)).toInt := by
  rw [cvid_at sh p hp]
  split
  · next h => exact toInt_ofNat_nonneg (by omega)
  · decide

theorem coords_eq (sc sc' : IVec SNx3 32)
    (h : ∀ (p : Fin 4000000) (k : Fin 3), cvid sh (ix1 p) ≠ 16000#32 → sc (ix2 p k) = sc' (ix2 p k)) :
    coordsOf sh sc = coordsOf sh sc' := by
  funext j
  obtain ⟨v, k, rfl⟩ : ∃ v k, j = ix2 v k := ⟨j 0, j 1, eq_ix2 j⟩
  unfold coordsOf
  rw [sliceVx3_apply, sliceVx3_apply]
  refine Cert.ScatterFold.scatter_congr_on scatRows3 _ _ _ sc sc' (fun i => (i 0).val < 16000) ?_ _ v.isLt
  intro j i hl hi
  obtain ⟨e, k', rfl⟩ : ∃ e k', j = ix2 e k' := ⟨j 0, j 1, eq_ix2 j⟩
  obtain ⟨c, k'', rfl⟩ : ∃ c k'', i = ix2 c k'' := ⟨i 0, i 1, eq_ix2 i⟩
  obtain ⟨p, hp⟩ := e
  rw [Cert.IdxMaps.scatRows3_lands] at hl
  obtain ⟨hl, -⟩ := hl
  rw [col_apply, normN_apply, nrm_of_nonneg _ _ (cvid_nonneg sh p hp)] at hl
  apply h
  intro heq
  rw [heq] at hl
  have hc : (c.val : ℤ) < 16000 := by exact_mod_cast hi
  have h16 : (16000#32 : BitVec 32).toInt = 16000 := by decide
  omega

end Coords

/-! ## The voxel rows by scattering -/

section Slots
variable (sh : IVec SN 32)

/-- The slot every sorted position is written to: column 0 its voxel, column 1 its rank. -/
def slotIdx : IVec SNx2 32 :=
  concatenate SNx2 1 [⟨SNx1, col (normN (vidS sh) 16001#32)⟩, ⟨SNx1, col (normN (rankS sh) 32#32)⟩] cat2

theorem slotIdx_0 (e : Fin 4000000) : slotIdx sh (ix2 e (0 : Fin 2)) = nrm (vidS sh (ix1 e)) 16001#32 := by
  unfold slotIdx
  rw [concatenate_pair_apply_left _ _ _ cat2 (ix2 e (0 : Fin 2)) rfl (ix2 e (0 : Fin 1))
    (fun b => match b with | ⟨0, _⟩ => rfl | ⟨1, _⟩ => rfl)]
  rw [col_apply, normN_apply]

theorem slotIdx_1 (e : Fin 4000000) : slotIdx sh (ix2 e (1 : Fin 2)) = nrm (rankS sh (ix1 e)) 32#32 := by
  unfold slotIdx
  rw [concatenate_pair_apply_right _ _ _ cat2 (ix2 e (1 : Fin 2)) rfl rfl (ix2 e (0 : Fin 1))
    (fun b => match b with | ⟨0, _⟩ => fun _ => rfl | ⟨1, _⟩ => fun hb => absurd rfl hb) rfl]
  rw [col_apply, normN_apply]

/-- A kept position's slot words are its voxel and its rank. -/
theorem slot_of_keep (p : ℕ) (hp : p < 4000000) (hK : Runs.keep (NVp sh) (SVp sh) 32 16000 p) :
    (slotIdx sh (ix2 ⟨p, hp⟩ (0 : Fin 2))).toInt = ((cnt (NVp sh) p - 1 : ℕ) : ℤ)
      ∧ (slotIdx sh (ix2 ⟨p, hp⟩ (1 : Fin 2))).toInt = ((p - st (NVp sh) p : ℕ) : ℤ) := by
  obtain ⟨hs, hr, hc⟩ := id hK
  rw [slotIdx_0, slotIdx_1, vidS_at sh p hp, rankS_at sh p hp, if_pos hK, if_pos hK]
  rw [nrm_of_nonneg _ _ (toInt_ofNat_nonneg (by omega)), nrm_of_nonneg _ _ (toInt_ofNat_nonneg (by omega))]
  exact ⟨toInt_ofNat_of_lt (by omega), toInt_ofNat_of_lt (by omega)⟩

/-- A dropped position is written to the overflow row. -/
theorem slot_of_drop (p : ℕ) (hp : p < 4000000) (hK : ¬ Runs.keep (NVp sh) (SVp sh) 32 16000 p) :
    (slotIdx sh (ix2 ⟨p, hp⟩ (0 : Fin 2))).toInt = 16000 := by
  rw [slotIdx_0, vidS_at sh p hp, if_neg hK, nrm_of_nonneg _ _ (by decide)]
  decide

/-- Where a sorted position's row lands among the kept slots. -/
theorem lands_iff (p : ℕ) (hp : p < 4000000) (k' : Fin 4) (v : Fin 16000) (r : Fin 32) (k : Fin 4) :
    scatSlots.resultIdx? (ix2 ⟨p, hp⟩ k') (slotIdx sh) = some (ix3 ⟨v.val, by have := v.isLt; omega⟩ r k)
      ↔ (Runs.keep (NVp sh) (SVp sh) 32 16000 p ∧ cnt (NVp sh) p = v.val + 1 ∧ p - st (NVp sh) p = r.val) ∧ k' = k := by
  rw [Cert.IdxMaps.scatSlots_lands]
  have hv := v.isLt
  by_cases hK : Runs.keep (NVp sh) (SVp sh) 32 16000 p
  · obtain ⟨h0, h1⟩ := slot_of_keep sh p hp hK
    have h1c := one_le_cnt_of_sv sh hp hK.1
    rw [h0, h1]
    constructor
    · rintro ⟨a, b, c⟩
      have a' : cnt (NVp sh) p - 1 = v.val := by exact_mod_cast a
      have b' : p - st (NVp sh) p = r.val := by exact_mod_cast b
      exact ⟨⟨hK, by omega, b'⟩, c⟩
    · rintro ⟨⟨_, a, b⟩, c⟩
      refine ⟨?_, ?_, c⟩
      · show ((cnt (NVp sh) p - 1 : ℕ) : ℤ) = (v.val : ℤ)
        have : cnt (NVp sh) p - 1 = v.val := by omega
        exact_mod_cast this
      · exact_mod_cast b
  · rw [slot_of_drop sh p hp hK]
    constructor
    · rintro ⟨a, -, -⟩
      have : (16000 : ℤ) = (v.val : ℤ) := a
      omega
    · rintro ⟨⟨a, -, -⟩, -⟩
      exact absurd a hK

end Slots

section ScatterSide
variable {F : FTy → Type} [FloatOps F] (pts : FVec F SNx4 .f32) (sidx sh : IVec SN 32)

/-- The scattered table, before the overflow row is cut off. -/
theorem voxelsScatter_apply (v : Fin 16000) (r : Fin 32) (k : Fin 4) :
    voxelsScatter pts sidx sh (ix3 v r k)
      = Host.scatter scatSlots (fun _ b => b) (broadcastInDim SV1xMx4 ![] b_SV1xMx4 (constant S_ .f32 0x00000000#32))
          (slotIdx sh) (takeRows4 pts sidx) (ix3 ⟨v.val, by have := v.isLt; omega⟩ r k) := by
  unfold voxelsScatter
  rw [sliceVxMx4_apply]
  rfl

/-- A slot that a kept position of its voxel and rank lands at holds that position's row. -/
theorem scatter_slot_hit (v : Fin 16000) (r : Fin 32) (k : Fin 4) (p : ℕ) (hp : p < 4000000)
    (hK : Runs.keep (NVp sh) (SVp sh) 32 16000 p) (hc : cnt (NVp sh) p = v.val + 1)
    (hr : p - st (NVp sh) p = r.val) :
    voxelsScatter pts sidx sh (ix3 v r k) = takeRows4 pts sidx (ix2 ⟨p, hp⟩ k) := by
  rw [voxelsScatter_apply]
  refine Cert.ScatterFold.scatter_set_of_unique scatSlots _ (slotIdx sh) _ _ (ix2 ⟨p, hp⟩ k) ?_ ?_
  · exact (lands_iff sh p hp k v r k).2 ⟨⟨hK, hc, hr⟩, rfl⟩
  · intro j hj
    obtain ⟨e, k', rfl⟩ : ∃ e k', j = ix2 e k' := ⟨j 0, j 1, eq_ix2 j⟩
    obtain ⟨p', hp'⟩ := e
    obtain ⟨⟨hK', hc', hr'⟩, rfl⟩ := (lands_iff sh p' hp' k' v r k).1 hj
    have e : p' = p := keep_unique (ok sh) hp' hp hK' hK (hc'.trans hc.symm) (hr'.trans hr.symm)
    subst e
    rfl

/-- A slot no kept position lands at holds zero. -/
theorem scatter_slot_miss (v : Fin 16000) (r : Fin 32) (k : Fin 4)
    (h : ¬ ∃ p, p < 4000000 ∧ Runs.keep (NVp sh) (SVp sh) 32 16000 p ∧ cnt (NVp sh) p = v.val + 1
      ∧ p - st (NVp sh) p = r.val) :
    voxelsScatter pts sidx sh (ix3 v r k) = FloatOps.ofBits .f32 0x00000000#32 := by
  rw [voxelsScatter_apply]
  rw [Cert.ScatterFold.scatter_of_none]
  · rfl
  · intro j hj
    obtain ⟨e, k', rfl⟩ : ∃ e k', j = ix2 e k' := ⟨j 0, j 1, eq_ix2 j⟩
    obtain ⟨p', hp'⟩ := e
    obtain ⟨hl, -⟩ := (lands_iff sh p' hp' k' v r k).1 hj
    exact h ⟨p', hp', hl⟩

end ScatterSide

/-! ## The voxel rows by gathering -/

section GatherSide
variable (sh : IVec SN 32)

/-- The number of kept positions of voxel v. -/
def kept (v : ℕ) : ℕ :=
  ((Finset.range 4000000).filter fun p => Runs.keep (NVp sh) (SVp sh) 32 16000 p ∧ cnt (NVp sh) p = v + 1).card

theorem kept_le (v : ℕ) : kept sh v ≤ 4000000 := by
  unfold kept
  exact (Finset.card_filter_le _ _).trans (by rw [Finset.card_range])

/-- A signed comparison of two small numbers as words. -/
theorem cmpi_slt_ofNat (a b : ℕ) (ha : a < 2 ^ 31) (hb : b < 2 ^ 31) :
    IntOp.cmpi .slt (BitVec.ofNat 32 a) (BitVec.ofNat 32 b) = if a < b then 1#1 else 0#1 := by
  show BitVec.ofBool ((BitVec.ofNat 32 a).slt (BitVec.ofNat 32 b)) = _
  simp only [BitVec.slt, toInt_ofNat_of_lt ha, toInt_ofNat_of_lt hb, Nat.cast_lt]
  by_cases h : a < b
  · simp [h]
  · simp [h]

theorem filled_apply (v : Fin 16000) (r : Fin 32) :
    filled sh (ix2 v r) = if r.val < kept sh v.val then 1#1 else 0#1 := by
  have hr := r.isLt
  have hk := kept_le sh v.val
  show IntOp.cmpi .slt (slotRank (ix2 v r)) (perVoxel (numPoints sh) (ix2 v r)) = _
  rw [perVoxel_apply, slotRank_apply, Cert.TableReads.numPoints_at sh v]
  exact cmpi_slt_ofNat _ _ (by omega) (by unfold kept at hk; omega)

/-- A slot is filled exactly when a kept position of its voxel has its rank. -/
theorem filled_iff (v : Fin 16000) (r : Fin 32) :
    r.val < kept sh v.val ↔ ∃ p, p < 4000000 ∧ Runs.keep (NVp sh) (SVp sh) 32 16000 p
      ∧ cnt (NVp sh) p = v.val + 1 ∧ p - st (NVp sh) p = r.val :=
  count_iff (ok sh) v.val r.val

/-- The sorted position a filled slot reads is the kept position of its voxel and rank. -/
theorem gatherPos_hit (v : Fin 16000) (r : Fin 32) (p : ℕ) (hp : p < 4000000)
    (hK : Runs.keep (NVp sh) (SVp sh) 32 16000 p) (hc : cnt (NVp sh) p = v.val + 1)
    (hr : p - st (NVp sh) p = r.val) :
    gatherPos sh (ix2 v r) = BitVec.ofNat 32 p := by
  obtain ⟨hnv, hcq, -⟩ := start_of_sv (ok sh) hp hK.1
  have hle := st_le (NVp sh) p
  have hq : st (NVp sh) p < 4000000 := by omega
  show IntOp.minsi (IntOp.addi (perVoxel (voxStart sh) (ix2 v r)) (slotRank (ix2 v r))) (allVxM 3999999#32 (ix2 v r)) = _
  rw [perVoxel_apply, slotRank_apply, allVxM_apply,
    Cert.TableReads.voxStart_of_start sh v (st (NVp sh) p) hq hnv (hcq.trans hc)]
  have hsum : IntOp.addi (BitVec.ofNat 32 (st (NVp sh) p)) (BitVec.ofNat 32 r.val) = BitVec.ofNat 32 p := by
    show BitVec.ofNat 32 _ + BitVec.ofNat 32 _ = _
    rw [← BitVec.ofNat_add]
    congr 1
    omega
  rw [hsum]
  show (if (BitVec.ofNat 32 p).slt 3999999#32 then BitVec.ofNat 32 p else 3999999#32) = _
  have h39 : (3999999#32 : BitVec 32).toInt = 3999999 := by decide
  by_cases hlt : p < 3999999
  · rw [if_pos]
    simp only [BitVec.slt, toInt_ofNat_of_lt (show p < 2 ^ 31 by omega), h39, decide_eq_true_eq]
    exact_mod_cast hlt
  · have : p = 3999999 := by omega
    subst this
    rfl

end GatherSide

section GatherRows
variable {F : FTy → Type} [FloatOps F] (pts : FVec F SNx4 .f32) (sidx sh : IVec SN 32)

/-- Reading a table of rows at a clamped word depends on the word only. -/
theorem rows_congr {α : Type} (x : SNx4.Idx → α) (a b : BitVec 32) (h : a = b) (k : Fin 4)
    (ha : min a.toInt.toNat 3999999 < 4000000) (hb : min b.toInt.toNat 3999999 < 4000000) :
    x (ix2 ⟨min a.toInt.toNat 3999999, ha⟩ k) = x (ix2 ⟨min b.toInt.toNat 3999999, hb⟩ k) := by
  subst h; rfl

theorem vec_congr {α : Type} (x : SN.Idx → α) (a : BitVec 32) (p : ℕ) (hp : p < 4000000)
    (h : a = BitVec.ofNat 32 p) (ha : min a.toInt.toNat 3999999 < 4000000) :
    x (ix1 ⟨min a.toInt.toNat 3999999, ha⟩) = x (ix1 ⟨p, hp⟩) := by
  subst h
  congr 2
  apply Fin.ext
  show min (BitVec.ofNat 32 p).toInt.toNat 3999999 = p
  rw [toInt_ofNat_of_lt (show p < 2 ^ 31 by omega)]
  simp only [Int.toNat_natCast]
  omega

/-- The original index a filled slot reads is the sorting permutation at its position. -/
theorem slotPoint_hit (v : Fin 16000) (r : Fin 32) (p : ℕ) (hp : p < 4000000)
    (hK : Runs.keep (NVp sh) (SVp sh) 32 16000 p) (hc : cnt (NVp sh) p = v.val + 1)
    (hr : p - st (NVp sh) p = r.val) :
    slotPoint sh sidx (ix2 v r) = sidx (ix1 ⟨p, hp⟩) := by
  unfold slotPoint
  rw [Cert.IdxMaps.gathSlotVec_apply]
  refine vec_congr sidx _ p hp ?_ _
  rw [slotCol_apply, normVxM_apply, gatherPos_hit sh v r p hp hK hc hr]
  exact nrm_of_nonneg _ _ (toInt_ofNat_nonneg (by omega))

/-- A filled slot holds the row of the kept position of its voxel and rank. -/
theorem gather_slot_hit (v : Fin 16000) (r : Fin 32) (k : Fin 4) (p : ℕ) (hp : p < 4000000)
    (hK : Runs.keep (NVp sh) (SVp sh) 32 16000 p) (hc : cnt (NVp sh) p = v.val + 1)
    (hr : p - st (NVp sh) p = r.val) :
    voxelsGather pts sidx sh (ix3 v r k) = takeRows4 pts sidx (ix2 ⟨p, hp⟩ k) := by
  have hf : filled sh (ix2 v r) = 1#1 := by
    rw [filled_apply, if_pos ((filled_iff sh v r).2 ⟨p, hp, hK, hc, hr⟩)]
  unfold voxelsGather
  rw [select_apply, slot4_apply, slotCol_apply, hf, select_one]
  unfold takeRows4
  rw [Cert.IdxMaps.gathSlotRows_apply, Cert.IdxMaps.gathRows4_apply]
  refine rows_congr pts _ _ ?_ k _ _
  rw [slotCol_apply, normVxM_apply, slotPoint_hit sidx sh v r p hp hK hc hr, col_apply, normN_apply]

/-- A slot that is not filled holds zero. -/
theorem gather_slot_miss (v : Fin 16000) (r : Fin 32) (k : Fin 4)
    (h : ¬ ∃ p, p < 4000000 ∧ Runs.keep (NVp sh) (SVp sh) 32 16000 p ∧ cnt (NVp sh) p = v.val + 1
      ∧ p - st (NVp sh) p = r.val) :
    voxelsGather pts sidx sh (ix3 v r k) = FloatOps.ofBits .f32 0x00000000#32 := by
  have hf : filled sh (ix2 v r) = 0#1 := by
    rw [filled_apply, if_neg (fun hlt => h ((filled_iff sh v r).1 hlt))]
  unfold voxelsGather
  rw [select_apply, slot4_apply, slotCol_apply, hf, select_zero]
  rfl

theorem voxels_eq : voxelsGather pts sidx sh = voxelsScatter pts sidx sh := by
  funext j
  obtain ⟨v, r, k, rfl⟩ : ∃ v r k, j = ix3 v r k := ⟨j 0, j 1, j 2, eq_ix3 j⟩
  by_cases h : ∃ p, p < 4000000 ∧ Runs.keep (NVp sh) (SVp sh) 32 16000 p ∧ cnt (NVp sh) p = v.val + 1
      ∧ p - st (NVp sh) p = r.val
  · obtain ⟨p, hp, hK, hc, hr⟩ := h
    rw [gather_slot_hit pts sidx sh v r k p hp hK hc hr, scatter_slot_hit pts sidx sh v r k p hp hK hc hr]
  · rw [gather_slot_miss pts sidx sh v r k h, scatter_slot_miss pts sidx sh v r k h]

end GatherRows

end Cert.Tables

end
-- ==== Proof.lean ====
/-
  Hard voxelization: the kernel's program against its reference, over the extended reals.

  Both programs hash every point to its voxel cell (the same arithmetic, word for word: the kernel on a grid of
  lanes inside its pallas_call, the reference on the [points × 3] slice), sort the points by hash with a stable sort
  carrying the original index, and read the sorted hashes' runs: a run starts where the hash changes and is below
  the sentinel, a point's voxel is the number of runs started so far, its rank the distance to its run's start. The
  per-voxel point counts are then literally the same function of the sorted hashes. The per-voxel coordinates are one
  overwriting scatter with two different update tables — the clipped cells read through the sorting permutation, or
  the cells decoded back from the hash — that agree on every row the scatter keeps (rows landing in the dump row
  16000 are cut off; a kept row has a hash below the sentinel, which IS the packing of its clipped cells). The voxel
  rows are built by scattering every sorted point to its (voxel, rank) slot in the reference and, in the kernel's
  program, by gathering for each slot the point at (the voxel's first sorted position + rank): the kept positions of
  one voxel are exactly the first min(count, 32) positions from its run's start, for ANY sequence of hashes, so the
  two tables agree slot by slot. Nothing here uses that the inputs are finite.
-/
import proofs.«420773_j40235253629492_3_alg».proof.Defs
import proofs.«420773_j40235253629492_3_alg».proof.Proof.Gen.Kernel
import proofs.«420773_j40235253629492_3_alg».proof.Proof.Gen.KernelIdeal
import proofs.«420773_j40235253629492_3_alg».proof.Proof.Gen.ReferenceIdeal
import proofs.«420773_j40235253629492_3_alg».proof.Proof.Gen.Pre_finite_inputs
import proofs.«420773_j40235253629492_3_alg».proof.Proof.KFrameBits
import proofs.«420773_j40235253629492_3_alg».proof.Proof.KFrameIdeal
import proofs.«420773_j40235253629492_3_alg».proof.Proof.KValue
import proofs.«420773_j40235253629492_3_alg».proof.Proof.RefRun
import proofs.«420773_j40235253629492_3_alg».proof.Proof.RefStages
import proofs.«420773_j40235253629492_3_alg».proof.Proof.HashEq
import proofs.«420773_j40235253629492_3_alg».proof.Proof.SortDecode
import proofs.«420773_j40235253629492_3_alg».proof.Proof.Tables
import Idealize.ShloMosaic.Adequacy
import Idealize.ShloMosaic.Init

noncomputable section

namespace Cert.Proof

open Idealize.ShloMosaic Idealize.SL.Sem

/-- The word-level program runs to the end and leaves its argument as launched. -/
theorem frame_k : Cert.frame_Kernel := fun m ρ _ => Cert.Kernel.Hand.frame m ρ
/-- So does the idealized program. -/
theorem frame_ki : Cert.frame_KernelIdeal := fun m ρ _ => Cert.KernelIdeal.Hand.frame m ρ
/-- The reference is host operations only: its run, the results dropped. -/
theorem frame_ri : Cert.frame_ReferenceIdeal := fun m ρ _ =>
  (θ_run Cert.ReferenceIdeal.defs _ _).mono (fun _ h c => (h c).2.2.2) (Cert.ReferenceIdeal.Hand.run (F := Ideal) m ρ)

/-- The ideal pass rewrote nothing. -/
theorem preserves : Cert.preserves_Kernel_KernelIdeal := trivial

/-- The three tables of the two programs are equal: the hashes agree, so the sorts agree; the sorted hashes read back
    through the permutation are the sort's first output; then the counts are one function, the coordinates agree on
    kept rows, and the gathered voxel rows are the scattered ones. -/
theorem algebraic : Cert.algebraic_KernelIdeal_ReferenceIdeal := by
  intro m ρ m' ρ' _ hagree
  refine ⟨_, _, _, Cert.KernelIdeal.Hand.value_run (F := Ideal) m ρ, ?_⟩
  refine (θ_run Cert.ReferenceIdeal.defs _ _).mono (fun r h c => ?_) (Cert.ReferenceIdeal.Stages.value_run (F := Ideal) m' ρ')
  obtain ⟨h1, h2, h3, h4⟩ := h c
  rw [hagree c] at h1 h2 h3
  have hh := Cert.HashEq.hash_eq (m ((c.tc : Thread Cert.KernelIdeal.nD Cert.KernelIdeal.τ).loc Cert.KernelIdeal.main_arg0))
  have sg := Cert.SortDecode.sort_gather (Cert.Spec.hashRef (F := Ideal) (m ((c.tc : Thread Cert.KernelIdeal.nD Cert.KernelIdeal.τ).loc Cert.KernelIdeal.main_arg0)))
  rw [sg] at h1 h2 h3
  refine ⟨?_, ?_, ?_, h4⟩
  · rw [h1, hh]; exact (Cert.Tables.voxels_eq _ _ _).symm
  · rw [h2, hh]
    exact (Cert.Tables.coords_eq _ _ _ (fun p k hk => Cert.SortDecode.decode_eq _ p k hk)).symm
  · rw [h3, hh]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
